-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x9 : Shape := ⟨2, ![16384, 9]⟩
abbrev S131072x1 : Shape := ⟨2, ![131072, 1]⟩
abbrev S16x4096 : Shape := ⟨2, ![16, 4096]⟩
abbrev S2x131072 : Shape := ⟨2, ![2, 131072]⟩
abbrev S16384 : Shape := ⟨1, ![16384]⟩
abbrev S4096x256 : Shape := ⟨2, ![4096, 256]⟩
abbrev S256 : Shape := ⟨1, ![256]⟩
abbrev S275x1024 : Shape := ⟨2, ![275, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S521x512 : Shape := ⟨2, ![521, 512]⟩
abbrev S512x512 : Shape := ⟨2, ![512, 512]⟩
abbrev S777x512 : Shape := ⟨2, ![777, 512]⟩
abbrev S512x1 : Shape := ⟨2, ![512, 1]⟩
abbrev S1 : Shape := ⟨1, ![1]⟩
abbrev S_ : Shape := ⟨0, ![]⟩

class Facts : Prop where
  bcast_S_S16384x9 : S_.BroadcastsInDim S16384x9 (![] : Fin 0 → Fin S16384x9.rank)
  reducesTo_S16384x9_S_d0_1 : S16384x9.ReducesTo [0, 1] S_
  h_S_ : 0 < S_.numel
  bcast_S_S131072x1 : S_.BroadcastsInDim S131072x1 (![] : Fin 0 → Fin S131072x1.rank)
  reducesTo_S131072x1_S_d0_1 : S131072x1.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_
  bcast_S_S275x1024 : S_.BroadcastsInDim S275x1024 (![] : Fin 0 → Fin S275x1024.rank)
  reducesTo_S275x1024_S_d0_1 : S275x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S521x512 : S_.BroadcastsInDim S521x512 (![] : Fin 0 → Fin S521x512.rank)
  reducesTo_S521x512_S_d0_1 : S521x512.ReducesTo [0, 1] S_
  bcast_S_S512x512 : S_.BroadcastsInDim S512x512 (![] : Fin 0 → Fin S512x512.rank)
  reducesTo_S512x512_S_d0_1 : S512x512.ReducesTo [0, 1] S_
  bcast_S_S777x512 : S_.BroadcastsInDim S777x512 (![] : Fin 0 → Fin S777x512.rank)
  reducesTo_S777x512_S_d0_1 : S777x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S2x131072 : S_.BroadcastsInDim S2x131072 (![] : Fin 0 → Fin S2x131072.rank)
  reducesTo_S2x131072_S_d0_1 : S2x131072.ReducesTo [0, 1] S_
  bcast_S_S16384 : S_.BroadcastsInDim S16384 (![] : Fin 0 → Fin S16384.rank)
  reducesTo_S16384_S_d0 : S16384.ReducesTo [0] S_

variable [Facts]

def fn_part7 {F : FTy → Type} [FloatOps F] (main_arg4 : IVec S16384 32) (main_v113 : IVec S_ 1) (main_v118 : IVec S2x131072 1) (main_c_46 : IVec S_ 1) : IVec S_ 1 :=
  let main_v119 : IVec S_ 1 := (fun x v => Host.reduce IntOp.andi x v reducesTo_S2x131072_S_d0_1 h_S_) main_v118 main_c_46
  let main_v120 : IVec S_ 1 := andi main_v113 main_v119
  let main_c_47 : IVec S_ 32 := constantI S_ 32 0#32
  let main_v121 : IVec S16384 32 := broadcastInDim S16384 ![] bcast_S_S16384 main_c_47
  let main_v122 : IVec S16384 1 := cmpi .sge main_arg4 main_v121
  let main_c_48 : IVec S_ 32 := constantI S_ 32 16#32
  let main_v123 : IVec S16384 32 := broadcastInDim S16384 ![] bcast_S_S16384 main_c_48
  let main_v124 : IVec S16384 1 := cmpi .slt main_arg4 main_v123
  let main_v125 : IVec S16384 1 := andi main_v122 main_v124
  let main_c_49 : IVec S_ 1 := constantI S_ 1 1#1
  let main_v126 : IVec S_ 1 := (fun x v => Host.reduce IntOp.andi x v reducesTo_S16384_S_d0 h_S_) main_v125 main_c_49
  let main_v127 : IVec S_ 1 := andi main_v120 main_v126
  main_v127

def fn_part6 {F : FTy → Type} [FloatOps F] (main_arg3 : IVec S2x131072 32) (main_arg4 : IVec S16384 32) (main_arg23 : FVec F S512x1 .f32) (main_arg24 : FVec F S1 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S512x1 .f32 := Host.absf main_arg23
  let main_cst_40 : FVec F S_ .f32 := constant S_ .f32 0x7F800000#32
  let main_v105 : FVec F S512x1 .f32 := broadcastInDim S512x1 ![] bcast_S_S512x1 main_cst_40
  let main_v106 : IVec S512x1 1 := cmpf .olt main_v104 main_v105
  let main_c_41 : IVec S_ 1 := constantI S_ 1 1#1
  let main_v107 : IVec S_ 1 := (fun x v => Host.reduce IntOp.andi x v reducesTo_S512x1_S_d0_1 h_S_) main_v106 main_c_41
  let main_v108 : IVec S_ 1 := andi main_v103 main_v107
  let main_v109 : FVec F S1 .f32 := Host.absf main_arg24
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_c_44 : IVec S_ 32 := constantI S_ 32 0#32
  let main_v114 : IVec S2x131072 32 := broadcastInDim S2x131072 ![] bcast_S_S2x131072 main_c_44
  let main_v115 : IVec S2x131072 1 := cmpi .sge main_arg3 main_v114
  let main_c_45 : IVec S_ 32 := constantI S_ 32 16384#32
  let main_v116 : IVec S2x131072 32 := broadcastInDim S2x131072 ![] bcast_S_S2x131072 main_c_45
  let main_v117 : IVec S2x131072 1 := cmpi .slt main_arg3 main_v116
  let main_v118 : IVec S2x131072 1 := andi main_v115 main_v117
  let main_c_46 : IVec S_ 1 := constantI S_ 1 1#1
  fn_part7 (F := F) main_arg4 main_v113 main_v118 main_c_46

def fn_part5 {F : FTy → Type} [FloatOps F] (main_arg3 : IVec S2x131072 32) (main_arg4 : IVec S16384 32) (main_arg20 : FVec F S512 .f32) (main_arg21 : FVec F S777x512 .f32) (main_arg22 : FVec F S512 .f32) (main_arg23 : FVec F S512x1 .f32) (main_arg24 : FVec F S1 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512 .f32 := Host.absf main_arg20
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S777x512 .f32 := Host.absf main_arg21
  let main_cst_36 : FVec F S_ .f32 := constant S_ .f32 0x7F800000#32
  let main_v95 : FVec F S777x512 .f32 := broadcastInDim S777x512 ![] bcast_S_S777x512 main_cst_36
  let main_v96 : IVec S777x512 1 := cmpf .olt main_v94 main_v95
  let main_c_37 : IVec S_ 1 := constantI S_ 1 1#1
  let main_v97 : IVec S_ 1 := (fun x v => Host.reduce IntOp.andi x v reducesTo_S777x512_S_d0_1 h_S_) main_v96 main_c_37
  let main_v98 : IVec S_ 1 := andi main_v93 main_v97
  let main_v99 : FVec F S512 .f32 := Host.absf main_arg22
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg3 main_arg4 main_arg23 main_arg24 main_v98 main_v101 main_c_39

def fn_part4 {F : FTy → Type} [FloatOps F] (main_arg3 : IVec S2x131072 32) (main_arg4 : IVec S16384 32) (main_arg16 : FVec F S512 .f32) (main_arg17 : FVec F S521x512 .f32) (main_arg18 : FVec F S512 .f32) (main_arg19 : FVec F S512x512 .f32) (main_arg20 : FVec F S512 .f32) (main_arg21 : FVec F S777x512 .f32) (main_arg22 : FVec F S512 .f32) (main_arg23 : FVec F S512x1 .f32) (main_arg24 : FVec F S1 .f32) (main_v63 : IVec S_ 1) (main_v67 : IVec S_ 1) : IVec S_ 1 :=
  let main_v68 : IVec S_ 1 := andi main_v63 main_v67
  let main_v69 : FVec F S512 .f32 := Host.absf main_arg16
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S521x512 .f32 := Host.absf main_arg17
  let main_cst_28 : FVec F S_ .f32 := constant S_ .f32 0x7F800000#32
  let main_v75 : FVec F S521x512 .f32 := broadcastInDim S521x512 ![] bcast_S_S521x512 main_cst_28
  let main_v76 : IVec S521x512 1 := cmpf .olt main_v74 main_v75
  let main_c_29 : IVec S_ 1 := constantI S_ 1 1#1
  let main_v77 : IVec S_ 1 := (fun x v => Host.reduce IntOp.andi x v reducesTo_S521x512_S_d0_1 h_S_) main_v76 main_c_29
  let main_v78 : IVec S_ 1 := andi main_v73 main_v77
  let main_v79 : FVec F S512 .f32 := Host.absf main_arg18
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x512 .f32 := Host.absf main_arg19
  let main_cst_32 : FVec F S_ .f32 := constant S_ .f32 0x7F800000#32
  fn_part5 (F := F) main_arg3 main_arg4 main_arg20 main_arg21 main_arg22 main_arg23 main_arg24 main_v83 main_v84 main_cst_32

def fn_part3 {F : FTy → Type} [FloatOps F] (main_arg3 : IVec S2x131072 32) (main_arg4 : IVec S16384 32) (main_arg13 : FVec F S1024x1024 .f32) (main_arg14 : FVec F S1024 .f32) (main_arg15 : FVec F S1024x512 .f32) (main_arg16 : FVec F S512 .f32) (main_arg17 : FVec F S521x512 .f32) (main_arg18 : FVec F S512 .f32) (main_arg19 : FVec F S512x512 .f32) (main_arg20 : FVec F S512 .f32) (main_arg21 : FVec F S777x512 .f32) (main_arg22 : FVec F S512 .f32) (main_arg23 : FVec F S512x1 .f32) (main_arg24 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg13
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg14
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x512 .f32 := Host.absf main_arg15
  let main_cst_24 : FVec F S_ .f32 := constant S_ .f32 0x7F800000#32
  let main_v65 : FVec F S1024x512 .f32 := broadcastInDim S1024x512 ![] bcast_S_S1024x512 main_cst_24
  let main_v66 : IVec S1024x512 1 := cmpf .olt main_v64 main_v65
  let main_c_25 : IVec S_ 1 := constantI S_ 1 1#1
  let main_v67 : IVec S_ 1 := (fun x v => Host.reduce IntOp.andi x v reducesTo_S1024x512_S_d0_1 h_S_) main_v66 main_c_25
  fn_part4 (F := F) main_arg3 main_arg4 main_arg16 main_arg17 main_arg18 main_arg19 main_arg20 main_arg21 main_arg22 main_arg23 main_arg24 main_v63 main_v67

def fn_part2 {F : FTy → Type} [FloatOps F] (main_arg3 : IVec S2x131072 32) (main_arg4 : IVec S16384 32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x512 .f32) (main_arg16 : FVec F S512 .f32) (main_arg17 : FVec F S521x512 .f32) (main_arg18 : FVec F S512 .f32) (main_arg19 : FVec F S512x512 .f32) (main_arg20 : FVec F S512 .f32) (main_arg21 : FVec F S777x512 .f32) (main_arg22 : FVec F S512 .f32) (main_arg23 : FVec F S512x1 .f32) (main_arg24 : FVec F S1 .f32) (main_v33 : IVec S_ 1) : IVec S_ 1 :=
  let main_v34 : FVec F S1024x1024 .f32 := Host.absf main_arg9
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg10
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg11
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg12
  let main_cst_18 : FVec F S_ .f32 := constant S_ .f32 0x7F800000#32
  let main_v50 : FVec F S1024 .f32 := broadcastInDim S1024 ![] bcast_S_S1024 main_cst_18
  fn_part3 (F := F) main_arg3 main_arg4 main_arg13 main_arg14 main_arg15 main_arg16 main_arg17 main_arg18 main_arg19 main_arg20 main_arg21 main_arg22 main_arg23 main_arg24 main_v48 main_v49 main_v50

def fn_part1 {F : FTy → Type} [FloatOps F] (main_arg3 : IVec S2x131072 32) (main_arg4 : IVec S16384 32) (main_arg6 : FVec F S256 .f32) (main_arg7 : FVec F S275x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x512 .f32) (main_arg16 : FVec F S512 .f32) (main_arg17 : FVec F S521x512 .f32) (main_arg18 : FVec F S512 .f32) (main_arg19 : FVec F S512x512 .f32) (main_arg20 : FVec F S512 .f32) (main_arg21 : FVec F S777x512 .f32) (main_arg22 : FVec F S512 .f32) (main_arg23 : FVec F S512x1 .f32) (main_arg24 : FVec F S1 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S275x1024 .f32 := Host.absf main_arg7
  let main_cst_8 : FVec F S_ .f32 := constant S_ .f32 0x7F800000#32
  let main_v25 : FVec F S275x1024 .f32 := broadcastInDim S275x1024 ![] bcast_S_S275x1024 main_cst_8
  let main_v26 : IVec S275x1024 1 := cmpf .olt main_v24 main_v25
  let main_c_9 : IVec S_ 1 := constantI S_ 1 1#1
  let main_v27 : IVec S_ 1 := (fun x v => Host.reduce IntOp.andi x v reducesTo_S275x1024_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg3 main_arg4 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S16384x9 .f32) (main_arg1 : FVec F S131072x1 .f32) (main_arg2 : FVec F S16x4096 .f32) (main_arg3 : IVec S2x131072 32) (main_arg4 : IVec S16384 32) (main_arg5 : FVec F S4096x256 .f32) (main_arg6 : FVec F S256 .f32) (main_arg7 : FVec F S275x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x512 .f32) (main_arg16 : FVec F S512 .f32) (main_arg17 : FVec F S521x512 .f32) (main_arg18 : FVec F S512 .f32) (main_arg19 : FVec F S512x512 .f32) (main_arg20 : FVec F S512 .f32) (main_arg21 : FVec F S777x512 .f32) (main_arg22 : FVec F S512 .f32) (main_arg23 : FVec F S512x1 .f32) (main_arg24 : FVec F S1 .f32) : IVec S_ 1 :=
  let main_v0 : FVec F S16384x9 .f32 := Host.absf main_arg0
  let main_cst : FVec F S_ .f32 := constant S_ .f32 0x7F800000#32
  let main_v1 : FVec F S16384x9 .f32 := broadcastInDim S16384x9 ![] bcast_S_S16384x9 main_cst
  let main_v2 : IVec S16384x9 1 := cmpf .olt main_v0 main_v1
  let main_c : IVec S_ 1 := constantI S_ 1 1#1
  let main_v3 : IVec S_ 1 := (fun x v => Host.reduce IntOp.andi x v reducesTo_S16384x9_S_d0_1 h_S_) main_v2 main_c
  let main_v4 : FVec F S131072x1 .f32 := Host.absf main_arg1
  let main_cst_0 : FVec F S_ .f32 := constant S_ .f32 0x7F800000#32
  let main_v5 : FVec F S131072x1 .f32 := broadcastInDim S131072x1 ![] bcast_S_S131072x1 main_cst_0
  let main_v6 : IVec S131072x1 1 := cmpf .olt main_v4 main_v5
  let main_c_1 : IVec S_ 1 := constantI S_ 1 1#1
  let main_v7 : IVec S_ 1 := (fun x v => Host.reduce IntOp.andi x v reducesTo_S131072x1_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x256 .f32 := Host.absf main_arg5
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg3 main_arg4 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S16384x9 : Shape := ⟨2, ![16384, 9]⟩
abbrev S131072x1 : Shape := ⟨2, ![131072, 1]⟩
abbrev S16x4096 : Shape := ⟨2, ![16, 4096]⟩
abbrev S2x131072 : Shape := ⟨2, ![2, 131072]⟩
abbrev S16384 : Shape := ⟨1, ![16384]⟩
abbrev S4096x256 : Shape := ⟨2, ![4096, 256]⟩
abbrev S256 : Shape := ⟨1, ![256]⟩
abbrev S275x1024 : Shape := ⟨2, ![275, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S521x512 : Shape := ⟨2, ![521, 512]⟩
abbrev S512x512 : Shape := ⟨2, ![512, 512]⟩
abbrev S777x512 : Shape := ⟨2, ![777, 512]⟩
abbrev S512x1 : Shape := ⟨2, ![512, 1]⟩
abbrev S1 : Shape := ⟨1, ![1]⟩
abbrev S16x256 : Shape := ⟨2, ![16, 256]⟩
abbrev S1x256 : Shape := ⟨2, ![1, 256]⟩
abbrev S1x131072 : Shape := ⟨2, ![1, 131072]⟩
abbrev S131072 : Shape := ⟨1, ![131072]⟩
abbrev S_ : Shape := ⟨0, ![]⟩
abbrev S1x1 : Shape := ⟨2, ![1, 1]⟩
abbrev S131072x9 : Shape := ⟨2, ![131072, 9]⟩
abbrev S131072x19 : Shape := ⟨2, ![131072, 19]⟩
abbrev S16384x1 : Shape := ⟨2, ![16384, 1]⟩
abbrev S19x1024 : Shape := ⟨2, ![19, 1024]⟩
abbrev S256x1024 : Shape := ⟨2, ![256, 1024]⟩
abbrev S16x1024 : Shape := ⟨2, ![16, 1024]⟩
abbrev S9x512 : Shape := ⟨2, ![9, 512]⟩
abbrev S256x512 : Shape := ⟨2, ![256, 512]⟩
abbrev S16x512 : Shape := ⟨2, ![16, 512]⟩
abbrev S1x1024 : Shape := ⟨2, ![1, 1024]⟩
abbrev S1x512 : Shape := ⟨2, ![1, 512]⟩
abbrev S131072x512 : Shape := ⟨2, ![131072, 512]⟩
abbrev S1024x19 : Shape := ⟨2, ![1024, 19]⟩
abbrev S1024x1 : Shape := ⟨2, ![1024, 1]⟩
abbrev S1024x16 : Shape := ⟨2, ![1024, 16]⟩
abbrev S1024x9 : Shape := ⟨2, ![1024, 9]⟩
abbrev S16384x512 : Shape := ⟨2, ![16384, 512]⟩

abbrev nBuf : Space → Nat
  | .hbm => 157
  | .vmem => 36
  | .smem => 0
  | _ => 0

abbrev hbmTy0_0 (i : Nat) : BufTy := match i % 128 with
  | 0 => ⟨S16384x9, .f32⟩
  | 1 => ⟨S131072x1, .f32⟩
  | 2 => ⟨S16x4096, .f32⟩
  | 3 => ⟨S2x131072, .i32⟩
  | 4 => ⟨S16384, .i32⟩
  | 5 => ⟨S4096x256, .f32⟩
  | 6 => ⟨S256, .f32⟩
  | 7 => ⟨S275x1024, .f32⟩
  | 8 => ⟨S1024, .f32⟩
  | 9 => ⟨S1024x1024, .f32⟩
  | 10 => ⟨S1024, .f32⟩
  | 11 => ⟨S1024x1024, .f32⟩
  | 12 => ⟨S1024, .f32⟩
  | 13 => ⟨S1024x1024, .f32⟩
  | 14 => ⟨S1024, .f32⟩
  | 15 => ⟨S1024x512, .f32⟩
  | 16 => ⟨S512, .f32⟩
  | 17 => ⟨S521x512, .f32⟩
  | 18 => ⟨S512, .f32⟩
  | 19 => ⟨S512x512, .f32⟩
  | 20 => ⟨S512, .f32⟩
  | 21 => ⟨S777x512, .f32⟩
  | 22 => ⟨S512, .f32⟩
  | 23 => ⟨S512x1, .f32⟩
  | 24 => ⟨S1, .f32⟩
  | 25 => ⟨S16x256, .f32⟩
  | 26 => ⟨S1x256, .f32⟩
  | 27 => ⟨S16x256, .f32⟩
  | 28 => ⟨S16x256, .f32⟩
  | 29 => ⟨S16x256, .bf16⟩
  | 30 => ⟨S1x131072, .i32⟩
  | 31 => ⟨S131072, .i32⟩
  | 32 => ⟨S1x131072, .i32⟩
  | 33 => ⟨S131072, .i32⟩
  | 34 => ⟨S_, .i32⟩
  | 35 => ⟨S131072, .i32⟩
  | 36 => ⟨S131072, .i1⟩
  | 37 => ⟨S_, .i32⟩
  | 38 => ⟨S131072, .i32⟩
  | 39 => ⟨S131072, .i32⟩
  | 40 => ⟨S131072, .i32⟩
  | 41 => ⟨S131072x1, .i32⟩
  | 42 => ⟨S1, .i32⟩
  | 43 => ⟨S_, .i32⟩
  | 44 => ⟨S131072x1, .i32⟩
  | 45 => ⟨S131072x1, .i1⟩
  | 46 => ⟨S1x1, .i32⟩
  | 47 => ⟨S131072x1, .i32⟩
  | 48 => ⟨S131072x1, .i1⟩
  | 49 => ⟨S131072x1, .i1⟩
  | 50 => ⟨S_, .i1⟩
  | 51 => ⟨S131072, .i1⟩
  | 52 => ⟨S131072x9, .f32⟩
  | 53 => ⟨S131072x9, .i1⟩
  | 54 => ⟨S_, .f32⟩
  | 55 => ⟨S131072x9, .f32⟩
  | 56 => ⟨S131072x9, .f32⟩
  | 57 => ⟨S_, .i32⟩
  | 58 => ⟨S131072, .i32⟩
  | 59 => ⟨S131072, .i1⟩
  | 60 => ⟨S_, .i32⟩
  | 61 => ⟨S131072, .i32⟩
  | 62 => ⟨S131072, .i32⟩
  | 63 => ⟨S131072, .i32⟩
  | 64 => ⟨S131072x1, .i32⟩
  | 65 => ⟨S1, .i32⟩
  | 66 => ⟨S_, .i32⟩
  | 67 => ⟨S131072x1, .i32⟩
  | 68 => ⟨S131072x1, .i1⟩
  | 69 => ⟨S1x1, .i32⟩
  | 70 => ⟨S131072x1, .i32⟩
  | 71 => ⟨S131072x1, .i1⟩
  | 72 => ⟨S131072x1, .i1⟩
  | 73 => ⟨S_, .i1⟩
  | 74 => ⟨S131072, .i1⟩
  | 75 => ⟨S131072x9, .f32⟩
  | 76 => ⟨S131072x9, .i1⟩
  | 77 => ⟨S_, .f32⟩
  | 78 => ⟨S131072x9, .f32⟩
  | 79 => ⟨S131072x9, .f32⟩
  | 80 => ⟨S131072x19, .f32⟩
  | 81 => ⟨S_, .i32⟩
  | 82 => ⟨S131072, .i32⟩
  | 83 => ⟨S131072, .i1⟩
  | 84 => ⟨S_, .i32⟩
  | 85 => ⟨S131072, .i32⟩
  | 86 => ⟨S131072, .i32⟩
  | 87 => ⟨S131072, .i32⟩
  | 88 => ⟨S131072x1, .i32⟩
  | 89 => ⟨S1, .i32⟩
  | 90 => ⟨S_, .i32⟩
  | 91 => ⟨S131072x1, .i32⟩
  | 92 => ⟨S131072x1, .i1⟩
  | 93 => ⟨S1x1, .i32⟩
  | 94 => ⟨S131072x1, .i32⟩
  | 95 => ⟨S131072x1, .i1⟩
  | 96 => ⟨S131072x1, .i1⟩
  | 97 => ⟨S_, .i1⟩
  | 98 => ⟨S131072, .i1⟩
  | 99 => ⟨S131072, .i32⟩
  | 100 => ⟨S_, .i32⟩
  | 101 => ⟨S131072, .i32⟩
  | 102 => ⟨S131072, .i32⟩
  | 103 => ⟨S131072x1, .i32⟩
  | 104 => ⟨S16384x1, .i32⟩
  | 105 => ⟨S19x1024, .f32⟩
  | 106 => ⟨S19x1024, .bf16⟩
  | 107 => ⟨S256x1024, .f32⟩
  | 108 => ⟨S256x1024, .bf16⟩
  | 109 => ⟨S16x1024, .f32⟩
  | 110 => ⟨S16x1024, .bf16⟩
  | 111 => ⟨S9x512, .f32⟩
  | 112 => ⟨S9x512, .bf16⟩
  | 113 => ⟨S512x512, .f32⟩
  | 114 => ⟨S512x512, .bf16⟩
  | 115 => ⟨S256x512, .f32⟩
  | 116 => ⟨S256x512, .bf16⟩
  | 117 => ⟨S16x512, .f32⟩
  | 118 => ⟨S16x512, .bf16⟩
  | 119 => ⟨S1024x1024, .bf16⟩
  | 120 => ⟨S1024x1024, .bf16⟩
  | 121 => ⟨S1024x1024, .bf16⟩
  | 122 => ⟨S1024x512, .bf16⟩
  | 123 => ⟨S9x512, .f32⟩
  | 124 => ⟨S9x512, .bf16⟩
  | 125 => ⟨S512x512, .f32⟩
  | 126 => ⟨S512x512, .bf16⟩
  | 127 => ⟨S512x512, .bf16⟩
  | _ => ⟨S16384x9, .f32⟩

abbrev hbmTy0_1 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x512, .f32⟩
  | 5 => ⟨S1x512, .f32⟩
  | 6 => ⟨S1x512, .f32⟩
  | 7 => ⟨S131072x512, .f32⟩
  | 8 => ⟨S_, .f32⟩
  | 9 => ⟨S16384x512, .f32⟩
  | 10 => ⟨S131072x1, .i32⟩
  | 11 => ⟨S16384x512, .f32⟩
  | 12 => ⟨S_, .f32⟩
  | 13 => ⟨S131072, .f32⟩
  | 14 => ⟨S_, .f32⟩
  | 15 => ⟨S16384, .f32⟩
  | 16 => ⟨S131072x1, .i32⟩
  | 17 => ⟨S16384, .f32⟩
  | 18 => ⟨S_, .f32⟩
  | 19 => ⟨S16384, .f32⟩
  | 20 => ⟨S16384, .f32⟩
  | 21 => ⟨S16384x1, .f32⟩
  | 22 => ⟨S16384x512, .f32⟩
  | 23 => ⟨S16384x512, .f32⟩
  | 24 => ⟨S512x1, .bf16⟩
  | 25 => ⟨S1x512, .f32⟩
  | 26 => ⟨S1x1, .f32⟩
  | 27 => ⟨S16384x1, .f32⟩
  | 28 => ⟨S16384, .f32⟩
  | _ => ⟨S16384x9, .f32⟩

abbrev hbmTy (i : Nat) : BufTy := match i / 128 with
  | 0 => hbmTy0_0 i
  | 1 => hbmTy0_1 i
  | _ => ⟨S16384x9, .f32⟩

abbrev bufTy : (tb : Table) → Fin (tcTables nBuf tb) → BufTy
  | .hbm, ⟨i, _⟩ => hbmTy i
  | .local _ .vmem, ⟨0, _⟩ => ⟨S1024x19, .f32⟩
  | .local _ .vmem, ⟨1, _⟩ => ⟨S1024x19, .f32⟩
  | .local _ .vmem, ⟨2, _⟩ => ⟨S1024x1, .i32⟩
  | .local _ .vmem, ⟨3, _⟩ => ⟨S1024x1, .i32⟩
  | .local _ .vmem, ⟨4, _⟩ => ⟨S16x1024, .bf16⟩
  | .local _ .vmem, ⟨5, _⟩ => ⟨S19x1024, .bf16⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S1024x512, .bf16⟩
  | .local _ .vmem, ⟨14, _⟩ => ⟨S1x512, .f32⟩
  | .local _ .vmem, ⟨15, _⟩ => ⟨S9x512, .bf16⟩
  | .local _ .vmem, ⟨16, _⟩ => ⟨S512x512, .bf16⟩
  | .local _ .vmem, ⟨17, _⟩ => ⟨S1x512, .f32⟩
  | .local _ .vmem, ⟨18, _⟩ => ⟨S512x512, .bf16⟩
  | .local _ .vmem, ⟨19, _⟩ => ⟨S1x512, .f32⟩
  | .local _ .vmem, ⟨20, _⟩ => ⟨S1024x512, .f32⟩
  | .local _ .vmem, ⟨21, _⟩ => ⟨S1024x512, .f32⟩
  | .local _ .vmem, ⟨22, _⟩ => ⟨S1024x9, .f32⟩
  | .local _ .vmem, ⟨23, _⟩ => ⟨S1024x9, .f32⟩
  | .local _ .vmem, ⟨24, _⟩ => ⟨S1024x512, .f32⟩
  | .local _ .vmem, ⟨25, _⟩ => ⟨S1024x512, .f32⟩
  | .local _ .vmem, ⟨26, _⟩ => ⟨S1024x1, .i32⟩
  | .local _ .vmem, ⟨27, _⟩ => ⟨S1024x1, .i32⟩
  | .local _ .vmem, ⟨28, _⟩ => ⟨S16x512, .bf16⟩
  | .local _ .vmem, ⟨29, _⟩ => ⟨S9x512, .bf16⟩
  | .local _ .vmem, ⟨30, _⟩ => ⟨S512x512, .bf16⟩
  | .local _ .vmem, ⟨31, _⟩ => ⟨S1x512, .f32⟩
  | .local _ .vmem, ⟨32, _⟩ => ⟨S512x1, .bf16⟩
  | .local _ .vmem, ⟨33, _⟩ => ⟨S1x1, .f32⟩
  | .local _ .vmem, ⟨34, _⟩ => ⟨S1024x1, .f32⟩
  | .local _ .vmem, ⟨35, _⟩ => ⟨S1024x1, .f32⟩
  | _, _ => ⟨S16384x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v9 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v10 : Ref sig .tc := ⟨.hbm, 79, rfl⟩
abbrev main_v11 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_c_4 : Ref sig .tc := ⟨.hbm, 100, rfl⟩
abbrev main_call2_v14 : Ref sig .tc := ⟨.hbm, 101, rfl⟩
abbrev main_v12 : Ref sig .tc := ⟨.hbm, 102, rfl⟩
abbrev main_v13 : Ref sig .tc := ⟨.hbm, 103, rfl⟩
abbrev main_v14 : Ref sig .tc := ⟨.hbm, 104, rfl⟩
abbrev main_v15 : Ref sig .tc := ⟨.hbm, 105, rfl⟩
abbrev main_v16 : Ref sig .tc := ⟨.hbm, 106, rfl⟩
abbrev main_v17 : Ref sig .tc := ⟨.hbm, 107, rfl⟩
abbrev main_v18 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_v24 : Ref sig .tc := ⟨.hbm, 114, rfl⟩
abbrev main_v25 : Ref sig .tc := ⟨.hbm, 115, rfl⟩
abbrev main_v26 : Ref sig .tc := ⟨.hbm, 116, rfl⟩
abbrev main_v27 : Ref sig .tc := ⟨.hbm, 117, rfl⟩
abbrev main_v28 : Ref sig .tc := ⟨.hbm, 118, rfl⟩
abbrev main_v29 : Ref sig .tc := ⟨.hbm, 119, rfl⟩
abbrev main_v30 : Ref sig .tc := ⟨.hbm, 120, rfl⟩
abbrev main_v31 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_cst : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_cst_0 : Ref sig .tc := ⟨.hbm, 140, rfl⟩
abbrev main_v49 : Ref sig .tc := ⟨.hbm, 141, rfl⟩
abbrev main_cst_1 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_cst_2 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg9_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem4_0 : DmaSem sig := 29
abbrev cc1_sem5_0 : DmaSem sig := 30
abbrev cc1_sem6_0 : DmaSem sig := 31
abbrev cc1_sem7_0 : DmaSem sig := 32
abbrev cc1_sem8_0 : DmaSem sig := 33
abbrev cc1_sem9_0 : DmaSem sig := 34
abbrev cc1_sem9_1 : DmaSem sig := 35

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x19 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S19x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S9x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1024x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S9x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x1 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bitsLt_bf16_f32 : FTy.bits .bf16 < FTy.bits .f32
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S131072_S131072x9_0 : S131072.BroadcastsInDim S131072x9 (![0] : Fin 1 → Fin S131072x9.rank)
  bcast_S_S131072x9 : S_.BroadcastsInDim S131072x9 (![] : Fin 0 → Fin S131072x9.rank)
  concatenates_S131072x9_S131072x9_S131072x1_S131072x19_d1 : Shape.Concatenates [S131072x9, S131072x9, S131072x1] S131072x19 1
  shapeCasts_S131072_S131072x1 : S131072.ShapeCasts S131072x1
  shapeCasts_S16384_S16384x1 : S16384.ShapeCasts S16384x1
  slices_S275x1024_S19x1024_0_0 : S275x1024.Slices ![0, 0] S19x1024
  slices_S275x1024_S256x1024_19_0 : S275x1024.Slices ![19, 0] S256x1024
  slices_S777x512_S9x512_0_0 : S777x512.Slices ![0, 0] S9x512
  slices_S777x512_S512x512_9_0 : S777x512.Slices ![9, 0] S512x512
  slices_S777x512_S256x512_521_0 : S777x512.Slices ![521, 0] S256x512
  slices_S521x512_S9x512_0_0 : S521x512.Slices ![0, 0] S9x512
  slices_S521x512_S512x512_9_0 : S521x512.Slices ![9, 0] S512x512
  shapeCasts_S1024_S1x1024 : S1024.ShapeCasts S1x1024
  shapeCasts_S512_S1x512 : S512.ShapeCasts S1x512
  inb_S1024x19_S1024x19_0_0 : ∀ a, (![0, 0] : Fin 2 → Nat) a + S1024x19.size a ≤ S1024x19.size a
  h_S1024x19 : 0 < S1024x19.numel
  shapeCasts_S1024x19_S1024x19 : S1024x19.ShapeCasts S1024x19
  iota_S1024x16_d1_w32 : S1024x16.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x16 : S1024x1.Broadcasts S1024x16
  natLt_1_32 : 1 < 32
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S19x1024_S19x1024_0_0 : ∀ a, (![0, 0] : Fin 2 → Nat) a + S19x1024.size a ≤ S19x1024.size a
  h_S19x1024 : 0 < S19x1024.numel
  shapeCasts_S19x1024_S19x1024 : S19x1024.ShapeCasts S19x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x19_o0_9_S1024x9 : S1024x19.Slices ![0, 9] S1024x9
  inb_S9x512_S9x512_0_0 : ∀ a, (![0, 0] : Fin 2 → Nat) a + S9x512.size a ≤ S9x512.size a
  h_S9x512 : 0 < S9x512.numel
  shapeCasts_S9x512_S9x512 : S9x512.ShapeCasts S9x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S_S16384x512 : S_.BroadcastsInDim S16384x512 (![] : Fin 0 → Fin S16384x512.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  shapeCasts_S1_S1x1 : S1.ShapeCasts S1x1
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1024x9_S1024x9_0_0 : ∀ a, (![0, 0] : Fin 2 → Nat) a + S1024x9.size a ≤ S1024x9.size a
  h_S1024x9 : 0 < S1024x9.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  shapeCasts_S16384x1_S16384 : S16384x1.ShapeCasts S16384
  dot_S16x4096_S4096x256_S16x256_1_0_0_1_n_n_wf : DotDims.WF S16x4096 S4096x256 S16x256 [1] [0] [0] [1] [] []
  gather_S16384x9_S131072x1_S131072x9_1_0_n_n_0_1_19_wf : GatherDims.WF S16384x9 S131072x1 S131072x9 [1] [0] [] [0] [] 1 ![1, 9]
  gather_S16384_S131072x1_S131072_n_0_n_n_0_1_1_wf : GatherDims.WF S16384 S131072x1 S131072 [] [0] [] [0] [] 1 ![1]
  dot_S16x256_S256x1024_S16x1024_1_0_0_1_n_n_wf : DotDims.WF S16x256 S256x1024 S16x1024 [1] [0] [0] [1] [] []
  dot_S16x256_S256x512_S16x512_1_0_0_1_n_n_wf : DotDims.WF S16x256 S256x512 S16x512 [1] [0] [0] [1] [] []
  dot_S1024x16_S16x1024_S1024x1024_1_0_0_1_n_n_wf : DotDims.WF S1024x16 S16x1024 S1024x1024 [1] [0] [0] [1] [] []
  dot_S1024x19_S19x1024_S1024x1024_1_0_0_1_n_n_wf : DotDims.WF S1024x19 S19x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  dot_S1024x9_S9x512_S1024x512_1_0_0_1_n_n_wf : DotDims.WF S1024x9 S9x512 S1024x512 [1] [0] [0] [1] [] []
  dot_S1024x512_S512x512_S1024x512_1_0_0_1_n_n_wf : DotDims.WF S1024x512 S512x512 S1024x512 [1] [0] [0] [1] [] []
  scatter_S16384x512_S131072x1_S131072x512_1_0_0_1_wf : ScatterDims.WF S16384x512 S131072x1 S131072x512 [1] [0] [0] 1
  scatter_S16384_S131072x1_S131072_n_0_0_1_wf : ScatterDims.WF S16384 S131072x1 S131072 [] [0] [0] 1
  dot_S1024x16_S16x512_S1024x512_1_0_0_1_n_n_wf : DotDims.WF S1024x16 S16x512 S1024x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x19.size a ≤ S131072x19.size a
  hwx0_0 : ∀ i : grid0.Coords, EltTy.bits .f32 = 32 ∨ (Rect.block (s := S131072x19) S1024x19.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S131072x1.size a
  hwx0_1 : ∀ i : grid0.Coords, EltTy.bits .i32 = 32 ∨ (Rect.block (s := S131072x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x1024.size a
  hwx0_2 : ∀ i : grid0.Coords, EltTy.bits .bf16 = 32 ∨ (Rect.block (s := S16x1024) S16x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S19x1024.size a ≤ S19x1024.size a
  hwx0_3 : ∀ i : grid0.Coords, EltTy.bits .bf16 = 32 ∨ (Rect.block (s := S19x1024) S19x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S1024x512.size a
  hwx0_11 : ∀ i : grid0.Coords, EltTy.bits .bf16 = 32 ∨ (Rect.block (s := S1024x512) S1024x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S9x512.size a ≤ S9x512.size a
  hwx0_13 : ∀ i : grid0.Coords, EltTy.bits .bf16 = 32 ∨ (Rect.block (s := S9x512) S9x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S512x512.size a
  hwx0_14 : ∀ i : grid0.Coords, EltTy.bits .bf16 = 32 ∨ (Rect.block (s := S512x512) S512x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x512.size a ≤ S1x512.size a
  hwx0_15 : ∀ i : grid0.Coords, EltTy.bits .f32 = 32 ∨ (Rect.block (s := S1x512) S1x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S512x512.size a
  hwx0_16 : ∀ i : grid0.Coords, EltTy.bits .bf16 = 32 ∨ (Rect.block (s := S512x512) S512x512.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x512.size a ≤ S1x512.size a
  hwx0_17 : ∀ i : grid0.Coords, EltTy.bits .f32 = 32 ∨ (Rect.block (s := S1x512) S1x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1024x512.size a ≤ S131072x512.size a
  hwx0_18 : ∀ i : grid0.Coords, EltTy.bits .f32 = 32 ∨ (Rect.block (s := S131072x512) S1024x512.size (cc0_transform_18 i) (hinb0_18 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x9.size a ≤ S16384x9.size a
  hwx1_0 : ∀ i : grid1.Coords, EltTy.bits .f32 = 32 ∨ (Rect.block (s := S16384x9) S1024x9.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S16384x512.size a
  hwx1_1 : ∀ i : grid1.Coords, EltTy.bits .f32 = 32 ∨ (Rect.block (s := S16384x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .i32 = 32 ∨ (Rect.block (s := S16384x1) S1024x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x512.size a ≤ S16x512.size a
  hwx1_3 : ∀ i : grid1.Coords, EltTy.bits .bf16 = 32 ∨ (Rect.block (s := S16x512) S16x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S9x512.size a ≤ S9x512.size a
  hwx1_4 : ∀ i : grid1.Coords, EltTy.bits .bf16 = 32 ∨ (Rect.block (s := S9x512) S9x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S512x1.size a
  hwx1_7 : ∀ i : grid1.Coords, EltTy.bits .bf16 = 32 ∨ (Rect.block (s := S512x1) S512x1.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x1.size a ≤ S16384x1.size a
  hwx1_9 : ∀ i : grid1.Coords, EltTy.bits .f32 = 32 ∨ (Rect.block (s := S16384x1) S1024x1.size (cc1_transform_9 i) (hinb1_9 i)).WholeWords (EltTy.packing .f32)

variable [Facts₀]

def dot_S16x4096_S4096x256_S16x256_1_0_0_1_n_n : DotDims S16x4096 S4096x256 S16x256 where
  lhsContracting := [1]
  rhsContracting := [0]
  lhsNonContracting := [0]
  rhsNonContracting := [1]
  lhsBatch := []
  rhsBatch := []
  wf := dot_S16x4096_S4096x256_S16x256_1_0_0_1_n_n_wf
def gather_S16384x9_S131072x1_S131072x9_1_0_n_n_0_1_19 : GatherDims S16384x9 S131072x1 S131072x9 where
  offsetDims := [1]
  collapsedSliceDims := [0]
  operandBatchingDims := []
  startIndicesBatchingDims := []
  startIndexMap := [0]
  indexVectorDim := 1
  sliceSizes := ![1, 9]
  wf := gather_S16384x9_S131072x1_S131072x9_1_0_n_n_0_1_19_wf
def gather_S16384_S131072x1_S131072_n_0_n_n_0_1_1 : GatherDims S16384 S131072x1 S131072 where
  offsetDims := []
  collapsedSliceDims := [0]
  operandBatchingDims := []
  startIndicesBatchingDims := []
  startIndexMap := [0]
  indexVectorDim := 1
  sliceSizes := ![1]
  wf := gather_S16384_S131072x1_S131072_n_0_n_n_0_1_1_wf
def dot_S16x256_S256x1024_S16x1024_1_0_0_1_n_n : DotDims S16x256 S256x1024 S16x1024 where
  lhsContracting := [1]
  rhsContracting := [0]
  lhsNonContracting := [0]
  rhsNonContracting := [1]
  lhsBatch := []
  rhsBatch := []
  wf := dot_S16x256_S256x1024_S16x1024_1_0_0_1_n_n_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x19_S19x1024_S1024x1024_1_0_0_1_n_n : DotDims S1024x19 S19x1024 S1024x1024 where
  lhsContracting := [1]
  rhsContracting := [0]
  lhsNonContracting := [0]
  rhsNonContracting := [1]
  lhsBatch := []
  rhsBatch := []
  wf := dot_S1024x19_S19x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x9_S9x512_S1024x512_1_0_0_1_n_n : DotDims S1024x9 S9x512 S1024x512 where
  lhsContracting := [1]
  rhsContracting := [0]
  lhsNonContracting := [0]
  rhsNonContracting := [1]
  lhsBatch := []
  rhsBatch := []
  wf := dot_S1024x9_S9x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def scatter_S16384x512_S131072x1_S131072x512_1_0_0_1 : ScatterDims S16384x512 S131072x1 S131072x512 where
  updateWindowDims := [1]
  insertedWindowDims := [0]
  scatterDimsToOperandDims := [0]
  indexVectorDim := 1
  wf := scatter_S16384x512_S131072x1_S131072x512_1_0_0_1_wf
def scatter_S16384_S131072x1_S131072_n_0_0_1 : ScatterDims S16384 S131072x1 S131072 where
  updateWindowDims := []
  insertedWindowDims := [0]
  scatterDimsToOperandDims := [0]
  indexVectorDim := 1
  wf := scatter_S16384_S131072x1_S131072_n_0_0_1_wf
def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_v11) S1024x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S16x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S19x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v32) S1024x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v42) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v34) S9x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v36) S512x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v43) S1x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v37) S512x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v44) S1x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v45) S1024x512.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_arg0) S1024x9.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S16x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S9x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v58) S512x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v60) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v61) S1024x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S16384x9 : Shape := ⟨2, ![16384, 9]⟩
abbrev S131072x1 : Shape := ⟨2, ![131072, 1]⟩
abbrev S16x4096 : Shape := ⟨2, ![16, 4096]⟩
abbrev S2x131072 : Shape := ⟨2, ![2, 131072]⟩
abbrev S16384 : Shape := ⟨1, ![16384]⟩
abbrev S4096x256 : Shape := ⟨2, ![4096, 256]⟩
abbrev S256 : Shape := ⟨1, ![256]⟩
abbrev S275x1024 : Shape := ⟨2, ![275, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S521x512 : Shape := ⟨2, ![521, 512]⟩
abbrev S512x512 : Shape := ⟨2, ![512, 512]⟩
abbrev S777x512 : Shape := ⟨2, ![777, 512]⟩
abbrev S512x1 : Shape := ⟨2, ![512, 1]⟩
abbrev S1 : Shape := ⟨1, ![1]⟩
abbrev S16x256 : Shape := ⟨2, ![16, 256]⟩
abbrev S1x256 : Shape := ⟨2, ![1, 256]⟩
abbrev S1x131072 : Shape := ⟨2, ![1, 131072]⟩
abbrev S131072 : Shape := ⟨1, ![131072]⟩
abbrev S_ : Shape := ⟨0, ![]⟩
abbrev S131072x9 : Shape := ⟨2, ![131072, 9]⟩
abbrev S131072x256 : Shape := ⟨2, ![131072, 256]⟩
abbrev S131072x275 : Shape := ⟨2, ![131072, 275]⟩
abbrev S131072x1024 : Shape := ⟨2, ![131072, 1024]⟩
abbrev S1x1024 : Shape := ⟨2, ![1, 1024]⟩
abbrev S131072x512 : Shape := ⟨2, ![131072, 512]⟩
abbrev S1x512 : Shape := ⟨2, ![1, 512]⟩
abbrev S131072x521 : Shape := ⟨2, ![131072, 521]⟩
abbrev S16384x512 : Shape := ⟨2, ![16384, 512]⟩
abbrev S16384x1 : Shape := ⟨2, ![16384, 1]⟩
abbrev S16384x256 : Shape := ⟨2, ![16384, 256]⟩
abbrev S16384x777 : Shape := ⟨2, ![16384, 777]⟩
abbrev S1x1 : Shape := ⟨2, ![1, 1]⟩

abbrev nBuf : Space → Nat
  | .hbm => 164
  | .vmem => 0
  | .smem => 0
  | _ => 0

abbrev hbmTy0_0 (i : Nat) : BufTy := match i % 128 with
  | 0 => ⟨S16384x9, .f32⟩
  | 1 => ⟨S131072x1, .f32⟩
  | 2 => ⟨S16x4096, .f32⟩
  | 3 => ⟨S2x131072, .i32⟩
  | 4 => ⟨S16384, .i32⟩
  | 5 => ⟨S4096x256, .f32⟩
  | 6 => ⟨S256, .f32⟩
  | 7 => ⟨S275x1024, .f32⟩
  | 8 => ⟨S1024, .f32⟩
  | 9 => ⟨S1024x1024, .f32⟩
  | 10 => ⟨S1024, .f32⟩
  | 11 => ⟨S1024x1024, .f32⟩
  | 12 => ⟨S1024, .f32⟩
  | 13 => ⟨S1024x1024, .f32⟩
  | 14 => ⟨S1024, .f32⟩
  | 15 => ⟨S1024x512, .f32⟩
  | 16 => ⟨S512, .f32⟩
  | 17 => ⟨S521x512, .f32⟩
  | 18 => ⟨S512, .f32⟩
  | 19 => ⟨S512x512, .f32⟩
  | 20 => ⟨S512, .f32⟩
  | 21 => ⟨S777x512, .f32⟩
  | 22 => ⟨S512, .f32⟩
  | 23 => ⟨S512x1, .f32⟩
  | 24 => ⟨S1, .f32⟩
  | 25 => ⟨S16x256, .f32⟩
  | 26 => ⟨S1x256, .f32⟩
  | 27 => ⟨S16x256, .f32⟩
  | 28 => ⟨S16x256, .f32⟩
  | 29 => ⟨S1x131072, .i32⟩
  | 30 => ⟨S131072, .i32⟩
  | 31 => ⟨S1x131072, .i32⟩
  | 32 => ⟨S131072, .i32⟩
  | 33 => ⟨S_, .i32⟩
  | 34 => ⟨S131072, .i32⟩
  | 35 => ⟨S131072, .i1⟩
  | 36 => ⟨S_, .i32⟩
  | 37 => ⟨S131072, .i32⟩
  | 38 => ⟨S131072, .i32⟩
  | 39 => ⟨S131072, .i32⟩
  | 40 => ⟨S131072x1, .i32⟩
  | 41 => ⟨S131072x9, .f32⟩
  | 42 => ⟨S_, .i32⟩
  | 43 => ⟨S131072, .i32⟩
  | 44 => ⟨S131072, .i1⟩
  | 45 => ⟨S_, .i32⟩
  | 46 => ⟨S131072, .i32⟩
  | 47 => ⟨S131072, .i32⟩
  | 48 => ⟨S131072, .i32⟩
  | 49 => ⟨S131072x1, .i32⟩
  | 50 => ⟨S131072x9, .f32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S131072x1, .i32⟩
  | 59 => ⟨S131072, .i32⟩
  | 60 => ⟨S_, .i32⟩
  | 61 => ⟨S131072, .i32⟩
  | 62 => ⟨S131072, .i1⟩
  | 63 => ⟨S_, .i32⟩
  | 64 => ⟨S131072, .i32⟩
  | 65 => ⟨S131072, .i32⟩
  | 66 => ⟨S131072, .i32⟩
  | 67 => ⟨S131072x1, .i32⟩
  | 68 => ⟨S131072x256, .f32⟩
  | 69 => ⟨S131072x275, .f32⟩
  | 70 => ⟨S131072x1024, .f32⟩
  | 71 => ⟨S1x1024, .f32⟩
  | 72 => ⟨S131072x1024, .f32⟩
  | 73 => ⟨S131072x1024, .f32⟩
  | 74 => ⟨S_, .f32⟩
  | 75 => ⟨S131072x1024, .f32⟩
  | 76 => ⟨S131072x1024, .f32⟩
  | 77 => ⟨S131072x1024, .f32⟩
  | 78 => ⟨S1x1024, .f32⟩
  | 79 => ⟨S131072x1024, .f32⟩
  | 80 => ⟨S131072x1024, .f32⟩
  | 81 => ⟨S_, .f32⟩
  | 82 => ⟨S131072x1024, .f32⟩
  | 83 => ⟨S131072x1024, .f32⟩
  | 84 => ⟨S131072x1024, .f32⟩
  | 85 => ⟨S1x1024, .f32⟩
  | 86 => ⟨S131072x1024, .f32⟩
  | 87 => ⟨S131072x1024, .f32⟩
  | 88 => ⟨S_, .f32⟩
  | 89 => ⟨S131072x1024, .f32⟩
  | 90 => ⟨S131072x1024, .f32⟩
  | 91 => ⟨S131072x1024, .f32⟩
  | 92 => ⟨S1x1024, .f32⟩
  | 93 => ⟨S131072x1024, .f32⟩
  | 94 => ⟨S131072x1024, .f32⟩
  | 95 => ⟨S_, .f32⟩
  | 96 => ⟨S131072x1024, .f32⟩
  | 97 => ⟨S131072x1024, .f32⟩
  | 98 => ⟨S131072x512, .f32⟩
  | 99 => ⟨S1x512, .f32⟩
  | 100 => ⟨S131072x512, .f32⟩
  | 101 => ⟨S131072x512, .f32⟩
  | 102 => ⟨S_, .i32⟩
  | 103 => ⟨S131072, .i32⟩
  | 104 => ⟨S131072, .i1⟩
  | 105 => ⟨S_, .i32⟩
  | 106 => ⟨S131072, .i32⟩
  | 107 => ⟨S131072, .i32⟩
  | 108 => ⟨S131072, .i32⟩
  | 109 => ⟨S131072x1, .i32⟩
  | 110 => ⟨S131072x9, .f32⟩
  | 111 => ⟨S131072x521, .f32⟩
  | 112 => ⟨S131072x512, .f32⟩
  | 113 => ⟨S1x512, .f32⟩
  | 114 => ⟨S131072x512, .f32⟩
  | 115 => ⟨S131072x512, .f32⟩
  | 116 => ⟨S_, .f32⟩
  | 117 => ⟨S131072x512, .f32⟩
  | 118 => ⟨S131072x512, .f32⟩
  | 119 => ⟨S131072x512, .f32⟩
  | 120 => ⟨S1x512, .f32⟩
  | 121 => ⟨S131072x512, .f32⟩
  | 122 => ⟨S131072x512, .f32⟩
  | 123 => ⟨S_, .f32⟩
  | 124 => ⟨S131072x512, .f32⟩
  | 125 => ⟨S131072x512, .f32⟩
  | 126 => ⟨S_, .f32⟩
  | 127 => ⟨S16384x512, .f32⟩
  | _ => ⟨S16384x9, .f32⟩

abbrev hbmTy0_1 (i : Nat) : BufTy := match i % 128 with
  | 0 => ⟨S131072x1, .i32⟩
  | 1 => ⟨S16384x512, .f32⟩
  | 2 => ⟨S_, .f32⟩
  | 3 => ⟨S131072, .f32⟩
  | 4 => ⟨S_, .f32⟩
  | 5 => ⟨S16384, .f32⟩
  | 6 => ⟨S131072x1, .i32⟩
  | 7 => ⟨S16384, .f32⟩
  | 8 => ⟨S_, .f32⟩
  | 9 => ⟨S16384, .f32⟩
  | 10 => ⟨S16384, .f32⟩
  | 11 => ⟨S16384x1, .f32⟩
  | 12 => ⟨S16384x512, .f32⟩
  | 13 => ⟨S16384x512, .f32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S16384x256, .f32⟩
  | 23 => ⟨S16384x777, .f32⟩
  | 24 => ⟨S16384x512, .f32⟩
  | 25 => ⟨S1x512, .f32⟩
  | 26 => ⟨S16384x512, .f32⟩
  | 27 => ⟨S16384x512, .f32⟩
  | 28 => ⟨S_, .f32⟩
  | 29 => ⟨S16384x512, .f32⟩
  | 30 => ⟨S16384x512, .f32⟩
  | 31 => ⟨S16384x1, .f32⟩
  | 32 => ⟨S1x1, .f32⟩
  | 33 => ⟨S16384x1, .f32⟩
  | 34 => ⟨S16384x1, .f32⟩
  | 35 => ⟨S16384, .f32⟩
  | _ => ⟨S16384x9, .f32⟩

abbrev hbmTy (i : Nat) : BufTy := match i / 128 with
  | 0 => hbmTy0_0 i
  | 1 => hbmTy0_1 i
  | _ => ⟨S16384x9, .f32⟩

abbrev bufTy : (tb : Table) → Fin (tcTables nBuf tb) → BufTy
  | .hbm, ⟨i, _⟩ => hbmTy i
  | _, _ => ⟨S16384x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_v8 : Ref sig .tc := ⟨.hbm, 34, rfl⟩
abbrev main_v9 : Ref sig .tc := ⟨.hbm, 35, rfl⟩
abbrev main_c_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_1 : Ref sig .tc := ⟨.hbm, 42, rfl⟩
abbrev main_v15 : Ref sig .tc := ⟨.hbm, 43, rfl⟩
abbrev main_v16 : Ref sig .tc := ⟨.hbm, 44, rfl⟩
abbrev main_c_2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_3 : Ref sig .tc := ⟨.hbm, 51, rfl⟩
abbrev main_v22 : Ref sig .tc := ⟨.hbm, 52, rfl⟩
abbrev main_v23 : Ref sig .tc := ⟨.hbm, 53, rfl⟩
abbrev main_c_4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_5 : Ref sig .tc := ⟨.hbm, 60, rfl⟩
abbrev main_v29 : Ref sig .tc := ⟨.hbm, 61, rfl⟩
abbrev main_v30 : Ref sig .tc := ⟨.hbm, 62, rfl⟩
abbrev main_c_6 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call0_cst : Ref sig .tc := ⟨.hbm, 74, rfl⟩
abbrev main_call0_v0 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_call1_cst : Ref sig .tc := ⟨.hbm, 81, rfl⟩
abbrev main_call1_v0 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_call2_cst : Ref sig .tc := ⟨.hbm, 88, rfl⟩
abbrev main_call2_v0 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_call3_cst : Ref sig .tc := ⟨.hbm, 95, rfl⟩
abbrev main_call3_v0 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_c_7 : Ref sig .tc := ⟨.hbm, 102, rfl⟩
abbrev main_v61 : Ref sig .tc := ⟨.hbm, 103, rfl⟩
abbrev main_v62 : Ref sig .tc := ⟨.hbm, 104, rfl⟩
abbrev main_c_8 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_call4_cst : Ref sig .tc := ⟨.hbm, 116, rfl⟩
abbrev main_call4_v0 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_call5_cst : Ref sig .tc := ⟨.hbm, 123, rfl⟩
abbrev main_call5_v0 : Ref sig .tc := ⟨.hbm, 124, rfl⟩
abbrev main_v78 : Ref sig .tc := ⟨.hbm, 125, rfl⟩
abbrev main_cst : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_9 : Ref sig .tc := ⟨.hbm, 130, rfl⟩
abbrev main_v82 : Ref sig .tc := ⟨.hbm, 131, rfl⟩
abbrev main_cst_10 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_cst_11 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_c_12 : Ref sig .tc := ⟨.hbm, 142, rfl⟩
abbrev main_v91 : Ref sig .tc := ⟨.hbm, 143, rfl⟩
abbrev main_v92 : Ref sig .tc := ⟨.hbm, 144, rfl⟩
abbrev main_c_13 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_call6_cst : Ref sig .tc := ⟨.hbm, 156, rfl⟩
abbrev main_call6_v0 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x9_S131072x9_S131072x1_S131072x256_S131072x275_d1 : Shape.Concatenates [S131072x9, S131072x9, S131072x1, S131072x256] S131072x275 1
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  concatenates_S131072x9_S131072x512_S131072x521_d1 : Shape.Concatenates [S131072x9, S131072x512] S131072x521 1
  bcast_S_S131072x512 : S_.BroadcastsInDim S131072x512 (![] : Fin 0 → Fin S131072x512.rank)
  bcast_S_S16384x512 : S_.BroadcastsInDim S16384x512 (![] : Fin 0 → Fin S16384x512.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  concatenates_S16384x9_S16384x512_S16384x256_S16384x777_d1 : Shape.Concatenates [S16384x9, S16384x512, S16384x256] S16384x777 1
  bcast_S1x512_S16384x512_0_1 : S1x512.BroadcastsInDim S16384x512 (![0, 1] : Fin 2 → Fin S16384x512.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  dot_S16x4096_S4096x256_S16x256_1_0_0_1_n_n_wf : DotDims.WF S16x4096 S4096x256 S16x256 [1] [0] [0] [1] [] []
  gather_S16384x9_S131072x1_S131072x9_1_0_n_n_0_1_19_wf : GatherDims.WF S16384x9 S131072x1 S131072x9 [1] [0] [] [0] [] 1 ![1, 9]
  gather_S16384_S131072x1_S131072_n_0_n_n_0_1_1_wf : GatherDims.WF S16384 S131072x1 S131072 [] [0] [] [0] [] 1 ![1]
  gather_S16x256_S131072x1_S131072x256_1_0_n_n_0_1_1256_wf : GatherDims.WF S16x256 S131072x1 S131072x256 [1] [0] [] [0] [] 1 ![1, 256]
  dot_S131072x275_S275x1024_S131072x1024_1_0_0_1_n_n_wf : DotDims.WF S131072x275 S275x1024 S131072x1024 [1] [0] [0] [1] [] []
  dot_S131072x1024_S1024x1024_S131072x1024_1_0_0_1_n_n_wf : DotDims.WF S131072x1024 S1024x1024 S131072x1024 [1] [0] [0] [1] [] []
  dot_S131072x1024_S1024x512_S131072x512_1_0_0_1_n_n_wf : DotDims.WF S131072x1024 S1024x512 S131072x512 [1] [0] [0] [1] [] []
  dot_S131072x521_S521x512_S131072x512_1_0_0_1_n_n_wf : DotDims.WF S131072x521 S521x512 S131072x512 [1] [0] [0] [1] [] []
  dot_S131072x512_S512x512_S131072x512_1_0_0_1_n_n_wf : DotDims.WF S131072x512 S512x512 S131072x512 [1] [0] [0] [1] [] []
  scatter_S16384x512_S131072x1_S131072x512_1_0_0_1_wf : ScatterDims.WF S16384x512 S131072x1 S131072x512 [1] [0] [0] 1
  scatter_S16384_S131072x1_S131072_n_0_0_1_wf : ScatterDims.WF S16384 S131072x1 S131072 [] [0] [0] 1
  gather_S16x256_S16384x1_S16384x256_1_0_n_n_0_1_1256_wf : GatherDims.WF S16x256 S16384x1 S16384x256 [1] [0] [] [0] [] 1 ![1, 256]
  dot_S16384x777_S777x512_S16384x512_1_0_0_1_n_n_wf : DotDims.WF S16384x777 S777x512 S16384x512 [1] [0] [0] [1] [] []
  dot_S16384x512_S512x1_S16384x1_1_0_0_1_n_n_wf : DotDims.WF S16384x512 S512x1 S16384x1 [1] [0] [0] [1] [] []

variable [Facts₀]

def dot_S16x4096_S4096x256_S16x256_1_0_0_1_n_n : DotDims S16x4096 S4096x256 S16x256 where
  lhsContracting := [1]
  rhsContracting := [0]
  lhsNonContracting := [0]
  rhsNonContracting := [1]
  lhsBatch := []
  rhsBatch := []
  wf := dot_S16x4096_S4096x256_S16x256_1_0_0_1_n_n_wf
def gather_S16384x9_S131072x1_S131072x9_1_0_n_n_0_1_19 : GatherDims S16384x9 S131072x1 S131072x9 where
  offsetDims := [1]
  collapsedSliceDims := [0]
  operandBatchingDims := []
  startIndicesBatchingDims := []
  startIndexMap := [0]
  indexVectorDim := 1
  sliceSizes := ![1, 9]
  wf := gather_S16384x9_S131072x1_S131072x9_1_0_n_n_0_1_19_wf
def gather_S16384_S131072x1_S131072_n_0_n_n_0_1_1 : GatherDims S16384 S131072x1 S131072 where
  offsetDims := []
  collapsedSliceDims := [0]
  operandBatchingDims := []
  startIndicesBatchingDims := []
  startIndexMap := [0]
  indexVectorDim := 1
  sliceSizes := ![1]
  wf := gather_S16384_S131072x1_S131072_n_0_n_n_0_1_1_wf
def gather_S16x256_S131072x1_S131072x256_1_0_n_n_0_1_1256 : GatherDims S16x256 S131072x1 S131072x256 where
  offsetDims := [1]
  collapsedSliceDims := [0]
  operandBatchingDims := []
  startIndicesBatchingDims := []
  startIndexMap := [0]
  indexVectorDim := 1
  sliceSizes := ![1, 256]
  wf := gather_S16x256_S131072x1_S131072x256_1_0_n_n_0_1_1256_wf
def dot_S131072x275_S275x1024_S131072x1024_1_0_0_1_n_n : DotDims S131072x275 S275x1024 S131072x1024 where
  lhsContracting := [1]
  rhsContracting := [0]
  lhsNonContracting := [0]
  rhsNonContracting := [1]
  lhsBatch := []
  rhsBatch := []
  wf := dot_S131072x275_S275x1024_S131072x1024_1_0_0_1_n_n_wf
def dot_S131072x1024_S1024x1024_S131072x1024_1_0_0_1_n_n : DotDims S131072x1024 S1024x1024 S131072x1024 where
  lhsContracting := [1]
  rhsContracting := [0]
  lhsNonContracting := [0]
  rhsNonContracting := [1]
  lhsBatch := []
  rhsBatch := []
  wf := dot_S131072x1024_S1024x1024_S131072x1024_1_0_0_1_n_n_wf
def dot_S131072x1024_S1024x512_S131072x512_1_0_0_1_n_n : DotDims S131072x1024 S1024x512 S131072x512 where
  lhsContracting := [1]
  rhsContracting := [0]
  lhsNonContracting := [0]
  rhsNonContracting := [1]
  lhsBatch := []
  rhsBatch := []
  wf := dot_S131072x1024_S1024x512_S131072x512_1_0_0_1_n_n_wf
def dot_S131072x521_S521x512_S131072x512_1_0_0_1_n_n : DotDims S131072x521 S521x512 S131072x512 where
  lhsContracting := [1]
  rhsContracting := [0]
  lhsNonContracting := [0]
  rhsNonContracting := [1]
  lhsBatch := []
  rhsBatch := []
  wf := dot_S131072x521_S521x512_S131072x512_1_0_0_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def scatter_S16384x512_S131072x1_S131072x512_1_0_0_1 : ScatterDims S16384x512 S131072x1 S131072x512 where
  updateWindowDims := [1]
  insertedWindowDims := [0]
  scatterDimsToOperandDims := [0]
  indexVectorDim := 1
  wf := scatter_S16384x512_S131072x1_S131072x512_1_0_0_1_wf
def scatter_S16384_S131072x1_S131072_n_0_0_1 : ScatterDims S16384 S131072x1 S131072 where
  updateWindowDims := []
  insertedWindowDims := [0]
  scatterDimsToOperandDims := [0]
  indexVectorDim := 1
  wf := scatter_S16384_S131072x1_S131072_n_0_0_1_wf
def gather_S16x256_S16384x1_S16384x256_1_0_n_n_0_1_1256 : GatherDims S16x256 S16384x1 S16384x256 where
  offsetDims := [1]
  collapsedSliceDims := [0]
  operandBatchingDims := []
  startIndicesBatchingDims := []
  startIndexMap := [0]
  indexVectorDim := 1
  sliceSizes := ![1, 256]
  wf := gather_S16x256_S16384x1_S16384x256_1_0_n_n_0_1_1256_wf
def dot_S16384x777_S777x512_S16384x512_1_0_0_1_n_n : DotDims S16384x777 S777x512 S16384x512 where
  lhsContracting := [1]
  rhsContracting := [0]
  lhsNonContracting := [0]
  rhsNonContracting := [1]
  lhsBatch := []
  rhsBatch := []
  wf := dot_S16384x777_S777x512_S16384x512_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf

class Facts : Prop extends Facts₀ where

variable [Facts]
-- ==== Proof.Region0.lean ====
/- Region 0's half of the frame certificate, at a parameter `V`: the TensorCore's buffer contents when the region is
   entered. Each window's block at a point is read off its array in `V`; an input window's staging buffer holds that
   block at every point, fetched there or not (an unfetched window's block index has not moved: the weight windows
   have a constant index, the row-block windows are fetched at every point); the kernel body, on the 19 staging
   buffers, leaves the 18 inputs as they were and writes the output buffer whole, with the one payload of its store
   applied to the 18 input blocks. From these: the pipeline's proof data and its body obligation at every point. -/
import proofs.«405997_j73959336837504_3_alg».proof.Proof.Gen.KernelIdeal.Launch
import proofs.«405997_j73959336837504_3_alg».proof.Proof.Gen.KernelIdeal.Skeleton
import proofs.«405997_j73959336837504_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when region 0 is entered
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window W's current staging buffer holds its block at every point, fetched there or not, for any proof data
    whose array is `V`'s and whose body leaves the block in place: unfetched, the block index has not moved; the
    window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's staging buffer, whole -/

abbrev r0_0 : Rect S1024x19 := Rect.unit (s := S1024x19) ![0, 0] S1024x19.size inb_S1024x19_S1024x19_0_0
abbrev r0_1 : Rect S1024x1 := Rect.unit (s := S1024x1) ![0, 0] S1024x1.size inb_S1024x1_S1024x1_0_0
abbrev r0_2 : Rect S16x1024 := Rect.unit (s := S16x1024) ![0, 0] S16x1024.size inb_S16x1024_S16x1024_0_0
abbrev r0_3 : Rect S19x1024 := Rect.unit (s := S19x1024) ![0, 0] S19x1024.size inb_S19x1024_S19x1024_0_0
abbrev r0_4 : Rect S1x1024 := Rect.unit (s := S1x1024) ![0, 0] S1x1024.size inb_S1x1024_S1x1024_0_0
abbrev r0_5 : Rect S1024x1024 := Rect.unit (s := S1024x1024) ![0, 0] S1024x1024.size inb_S1024x1024_S1024x1024_0_0
abbrev r0_6 : Rect S1x1024 := Rect.unit (s := S1x1024) ![0, 0] S1x1024.size inb_S1x1024_S1x1024_0_0
abbrev r0_7 : Rect S1024x1024 := Rect.unit (s := S1024x1024) ![0, 0] S1024x1024.size inb_S1024x1024_S1024x1024_0_0
abbrev r0_8 : Rect S1x1024 := Rect.unit (s := S1x1024) ![0, 0] S1x1024.size inb_S1x1024_S1x1024_0_0
abbrev r0_9 : Rect S1024x1024 := Rect.unit (s := S1024x1024) ![0, 0] S1024x1024.size inb_S1024x1024_S1024x1024_0_0
abbrev r0_10 : Rect S1x1024 := Rect.unit (s := S1x1024) ![0, 0] S1x1024.size inb_S1x1024_S1x1024_0_0
abbrev r0_11 : Rect S1024x512 := Rect.unit (s := S1024x512) ![0, 0] S1024x512.size inb_S1024x512_S1024x512_0_0
abbrev r0_12 : Rect S1x512 := Rect.unit (s := S1x512) ![0, 0] S1x512.size inb_S1x512_S1x512_0_0
abbrev r0_13 : Rect S9x512 := Rect.unit (s := S9x512) ![0, 0] S9x512.size inb_S9x512_S9x512_0_0
abbrev r0_14 : Rect S512x512 := Rect.unit (s := S512x512) ![0, 0] S512x512.size inb_S512x512_S512x512_0_0
abbrev r0_15 : Rect S1x512 := Rect.unit (s := S1x512) ![0, 0] S1x512.size inb_S1x512_S1x512_0_0
abbrev r0_16 : Rect S512x512 := Rect.unit (s := S512x512) ![0, 0] S512x512.size inb_S512x512_S512x512_0_0
abbrev r0_17 : Rect S1x512 := Rect.unit (s := S1x512) ![0, 0] S1x512.size inb_S1x512_S1x512_0_0
abbrev r0_18 : Rect S1024x512 := Rect.unit (s := S1024x512) ![0, 0] S1024x512.size inb_S1024x512_S1024x512_0_0

/-! ## What the body leaves in the output window's buffer -/

/-- Window 18's staging buffer after the body, from the 18 input windows' blocks: its one whole-block store. -/
def out0_18 (x0 : Vec F S1024x19 .f32) (x1 : Vec F S1024x1 .i32) (x2 : Vec F S16x1024 .bf16) (x3 : Vec F S19x1024 .bf16) (x4 : Vec F S1x1024 .f32) (x5 : Vec F S1024x1024 .bf16) (x6 : Vec F S1x1024 .f32) (x7 : Vec F S1024x1024 .bf16) (x8 : Vec F S1x1024 .f32) (x9 : Vec F S1024x1024 .bf16) (x10 : Vec F S1x1024 .f32) (x11 : Vec F S1024x512 .bf16) (x12 : Vec F S1x512 .f32) (x13 : Vec F S9x512 .bf16) (x14 : Vec F S512x512 .bf16) (x15 : Vec F S1x512 .f32) (x16 : Vec F S512x512 .bf16) (x17 : Vec F S1x512 .f32) : Vec F S1024x512 .f32 :=
  View.canon [⟨r0_18, k0_pay1 (k0_pay5 (k0_pay2 (View.ld x0 r0_0)) (k0_pay3 (View.ld x0 r0_0) (View.ld x1 r0_1) (View.ld x2 r0_2) (View.ld x3 r0_3) (View.ld x4 r0_4) (View.ld x5 r0_5) (View.ld x6 r0_6)) (k0_pay4 (View.ld x7 r0_7)) (View.ld x8 r0_8) (View.ld x9 r0_9) (View.ld x10 r0_10) (View.ld x11 r0_11) (View.ld x12 r0_12) (View.ld x13 r0_13) (View.ld x14 r0_14)) (k0_pay6 (View.ld x15 r0_15)) (View.ld x16 r0_16) (View.ld x17 r0_17)⟩]

/-- The one store is the whole buffer, so it covers it. -/
theorem cover0_18 (p0 : Vec F S1024x512 .f32) (y : S1024x512.Idx) :
    ∃ pc ∈ ([⟨r0_18, p0⟩] : List (View.Piece (Elt F) S1024x512 .f32)), y ∈ pc.1.set :=
  View.cover_of_tiled [⟨r0_18, p0⟩] S1024x512.size (by rfl) y

/-! ## The body's triple -/

set_option maxHeartbeats 1000000 in
/-- The kernel body on whole staging memrefs, the 18 inputs' at read contents `xW` and the output's at anything, runs to
    the continuation holding the inputs' as they were and the output's at `out0_18` of the inputs': the printed function
    and its two parts are their skeletons, run statement by statement; the output's one load before its store reads
    a value no payload takes. -/
theorem sound_kernel0 (c : Dev nD) (E : Set ℕ) (i : grid0.Coords) (arg1 : Memref sig .tc .vmem S1024x19 .f32) (harg1 : arg1.IsWhole) (arg2 : Memref sig .tc .vmem S1024x1 .i32) (harg2 : arg2.IsWhole) (arg3 : Memref sig .tc .vmem S16x1024 .bf16) (harg3 : arg3.IsWhole) (arg4 : Memref sig .tc .vmem S19x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x512 .bf16) (harg12 : arg12.IsWhole) (arg13 : Memref sig .tc .vmem S1x512 .f32) (harg13 : arg13.IsWhole) (arg14 : Memref sig .tc .vmem S9x512 .bf16) (harg14 : arg14.IsWhole) (arg15 : Memref sig .tc .vmem S512x512 .bf16) (harg15 : arg15.IsWhole) (arg16 : Memref sig .tc .vmem S1x512 .f32) (harg16 : arg16.IsWhole) (arg17 : Memref sig .tc .vmem S512x512 .bf16) (harg17 : arg17.IsWhole) (arg18 : Memref sig .tc .vmem S1x512 .f32) (harg18 : arg18.IsWhole) (arg19 : Memref sig .tc .vmem S1024x512 .f32) (harg19 : arg19.IsWhole)
    (x0 : Vec F S1024x19 .f32) (x1 : Vec F S1024x1 .i32) (x2 : Vec F S16x1024 .bf16) (x3 : Vec F S19x1024 .bf16) (x4 : Vec F S1x1024 .f32) (x5 : Vec F S1024x1024 .bf16) (x6 : Vec F S1x1024 .f32) (x7 : Vec F S1024x1024 .bf16) (x8 : Vec F S1x1024 .f32) (x9 : Vec F S1024x1024 .bf16) (x10 : Vec F S1x1024 .f32) (x11 : Vec F S1024x512 .bf16) (x12 : Vec F S1x512 .f32) (x13 : Vec F S9x512 .bf16) (x14 : Vec F S512x512 .bf16) (x15 : Vec F S1x512 .f32) (x16 : Vec F S512x512 .bf16) (x17 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (out0_18 x0 x1 x2 x3 x4 x5 x6 x7 x8 x9 x10 x11 x12 x13 x14 x15 x16 x17)) -∗ K ⟨⟩))
      ⊢ wp frame (wpE (defs₀ (F := F)) Variants.none c none) E (cc0__edge_node_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__edge_node_kernel_eq_skeleton]; unfold cc0__edge_node_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  iexists _; isplitr
  swap; · iexact H18
  ipureintro
  try dsimp only
  exact View.read_writes_eq_canon _ _ _ (cover0_18 _)

/-! ## The pipeline's proof data -/

/-- The proof data of pipeline 0 on core `c`: the arrays as the region finds them (`V`); after the body at point `t`
    each input's buffer at its block and the output's at `out0_18` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t)
    | ⟨_ + 19, h⟩ => absurd h (Nat.not_lt.2 (Nat.le_add_left _ _))
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel0 c Set.univ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Region1.lean ====
import proofs.«405997_j73959336837504_3_alg».proof.Proof.Gen.KernelIdeal.Launch
import proofs.«405997_j73959336837504_3_alg».proof.Proof.Gen.KernelIdeal.Skeleton
import proofs.«405997_j73959336837504_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (the node kernel, 16 grid points, 10 windows) at the contents `V` its entry finds

Each window's block at a point, what the body's one store leaves in the output window's buffer as a function of
the nine input blocks, the body's triple, the pipeline's proof data and the body obligation at every point. -/

-- rectangles of 1024 rows: membership in one is decided coordinate by coordinate along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not, for any proof
    data whose array is `V`'s and whose body leaves the block in place: where the window is not fetched its block
    index has not moved since the point before (the row-block windows 0, 1, 2 are fetched at every point; the whole-array
    windows 3..8 have the constant index (0, 0) and are fetched at the first point only). No window is cut or idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1024x9 := Rect.unit (s := S1024x9) ![0, 0] S1024x9.size inb_S1024x9_S1024x9_0_0
abbrev r1_1 : Rect S1024x512 := Rect.unit (s := S1024x512) ![0, 0] S1024x512.size inb_S1024x512_S1024x512_0_0
abbrev r1_2 : Rect S1024x1 := Rect.unit (s := S1024x1) ![0, 0] S1024x1.size inb_S1024x1_S1024x1_0_0
abbrev r1_3 : Rect S16x512 := Rect.unit (s := S16x512) ![0, 0] S16x512.size inb_S16x512_S16x512_0_0
abbrev r1_4 : Rect S9x512 := Rect.unit (s := S9x512) ![0, 0] S9x512.size inb_S9x512_S9x512_0_0
abbrev r1_5 : Rect S512x512 := Rect.unit (s := S512x512) ![0, 0] S512x512.size inb_S512x512_S512x512_0_0
abbrev r1_6 : Rect S1x512 := Rect.unit (s := S1x512) ![0, 0] S1x512.size inb_S1x512_S1x512_0_0
abbrev r1_7 : Rect S512x1 := Rect.unit (s := S512x1) ![0, 0] S512x1.size inb_S512x1_S512x1_0_0
abbrev r1_8 : Rect S1x1 := Rect.unit (s := S1x1) ![0, 0] S1x1.size inb_S1x1_S1x1_0_0
abbrev r1_9 : Rect S1024x1 := Rect.unit (s := S1024x1) ![0, 0] S1024x1.size inb_S1024x1_S1024x1_0_0

/-! ## What the body leaves in the output window's buffer -/

/-- Window 9's staging buffer after the body, from the nine input blocks: the body's one store, of the whole buffer,
    of the payload over what the loads read. -/
def out1_9 (y0 : Vec F S1024x9 .f32) (y1 : Vec F S1024x512 .f32) (y2 : Vec F S1024x1 .i32) (y3 : Vec F S16x512 .bf16) (y4 : Vec F S9x512 .bf16) (y5 : Vec F S512x512 .bf16) (y6 : Vec F S1x512 .f32) (y7 : Vec F S512x1 .bf16) (y8 : Vec F S1x1 .f32) : Vec F S1024x1 .f32 :=
  View.canon [⟨r1_9, k1_pay1 (k1_pay2 (View.ld y2 r1_2) (View.ld y3 r1_3) (View.ld y0 r1_0) (View.ld y1 r1_1) (View.ld y4 r1_4) (View.ld y5 r1_5) (View.ld y6 r1_6) (View.ld y7 r1_7)) (View.ld y8 r1_8)⟩]

/-- The one store is of the whole buffer, so it covers it. -/
theorem cover1_9 (p0 : Vec F S1024x1 .f32) (y : S1024x1.Idx) :
    ∃ pc ∈ ([⟨r1_9, p0⟩] : List (View.Piece (Elt F) S1024x1 .f32)), y ∈ pc.1.set :=
  View.cover_of_tiled [⟨r1_9, p0⟩] S1024x1.size (by rfl) y

/-! ## The body's triple -/

set_option maxHeartbeats 1000000 in
/-- The kernel body on whole staging memrefs, the inputs' at read contents `yW` and the output's at anything, runs to
    the continuation holding the inputs' as they were and the output's at `out1_9` of the inputs': the body is nine
    whole-buffer loads (in its part), a load of the output buffer that nothing reads, and the one store. -/
theorem sound_kernel1 (c : Dev nD) (E : Set ℕ) (i : grid1.Coords) (arg1 : Memref sig .tc .vmem S1024x9 .f32) (harg1 : arg1.IsWhole) (arg2 : Memref sig .tc .vmem S1024x512 .f32) (harg2 : arg2.IsWhole) (arg3 : Memref sig .tc .vmem S1024x1 .i32) (harg3 : arg3.IsWhole) (arg4 : Memref sig .tc .vmem S16x512 .bf16) (harg4 : arg4.IsWhole) (arg5 : Memref sig .tc .vmem S9x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x1 .bf16) (harg8 : arg8.IsWhole) (arg9 : Memref sig .tc .vmem S1x1 .f32) (harg9 : arg9.IsWhole) (arg10 : Memref sig .tc .vmem S1024x1 .f32) (harg10 : arg10.IsWhole)
    (y0 : Vec F S1024x9 .f32) (y1 : Vec F S1024x512 .f32) (y2 : Vec F S1024x1 .i32) (y3 : Vec F S16x512 .bf16) (y4 : Vec F S9x512 .bf16) (y5 : Vec F S512x512 .bf16) (y6 : Vec F S1x512 .f32) (y7 : Vec F S512x1 .bf16) (y8 : Vec F S1x1 .f32) (K : PUnit → sProp 𝕄) :
    iprop(owns (c : Thread nD τ) arg1 fullShare y0 ∗ owns (c : Thread nD τ) arg2 fullShare y1 ∗ owns (c : Thread nD τ) arg3 fullShare y2 ∗ owns (c : Thread nD τ) arg4 fullShare y3 ∗ owns (c : Thread nD τ) arg5 fullShare y4 ∗ owns (c : Thread nD τ) arg6 fullShare y5 ∗ owns (c : Thread nD τ) arg7 fullShare y6 ∗ owns (c : Thread nD τ) arg8 fullShare y7 ∗ owns (c : Thread nD τ) arg9 fullShare y8 ∗ (∃ d, owns (c : Thread nD τ) arg10 fullShare d)
        ∗ (iprop(owns (c : Thread nD τ) arg1 fullShare y0 ∗ owns (c : Thread nD τ) arg2 fullShare y1 ∗ owns (c : Thread nD τ) arg3 fullShare y2 ∗ owns (c : Thread nD τ) arg4 fullShare y3 ∗ owns (c : Thread nD τ) arg5 fullShare y4 ∗ owns (c : Thread nD τ) arg6 fullShare y5 ∗ owns (c : Thread nD τ) arg7 fullShare y6 ∗ owns (c : Thread nD τ) arg8 fullShare y7 ∗ owns (c : Thread nD τ) arg9 fullShare y8 ∗ owns (c : Thread nD τ) arg10 fullShare (out1_9 y0 y1 y2 y3 y4 y5 y6 y7 y8)) -∗ K ⟨⟩))
      ⊢ wp frame (wpE (defs₀ (F := F)) Variants.none c none) E (cc1__node_mlp2_kernel i arg1 harg1 arg2 harg2 arg3 harg3 arg4 harg4 arg5 harg5 arg6 harg6 arg7 harg7 arg8 harg8 arg9 harg9 arg10 harg10) K := by
  simp only [cc1__node_mlp2_kernel_eq_skeleton]; unfold cc1__node_mlp2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of pipeline 1 on core `c`: the arrays as the region finds them (`V`); after the body at point `t`
    each input's buffer at its block and the output's at `out1_9` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies; the invariant and
    the core's owed waits pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KRun.lean ====
/-
  The kernel program's run, whole: @main is six stretches of host operations, the first kernel region, a stretch, the
  second kernel region and a last stretch. Between two items every buffer outside the regions' scoped storage holds a
  known array: the launch contents pushed through the host stretches, with each region's output array replaced by what
  that region's pipeline leaves (the write-backs of its per-point results, folded over the grid). Each region enters
  from those contents, splits its window arrays out of them, runs its pipeline under the body's per-point obligation,
  and puts the arrays back; nothing is owed between cores and no kernel owns a semaphore. Every weakly fair execution
  therefore terminates, and every final memory holds, in every such buffer, the last of those arrays: in particular
  each argument as launched, and the result as the last reshape of the second region's output.
-/
import proofs.«405997_j73959336837504_3_alg».proof.Proof.Region0
import proofs.«405997_j73959336837504_3_alg».proof.Proof.Region1
import proofs.«405997_j73959336837504_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

/-! ## The run, given the regions' records: every buffer outside scoped storage ends at the last contents -/

section Cond

variable (m : (ℓ : Loc nD τ sig) → Buf (Elt F) ℓ)

set_option backward.isDefEq.respectTransparency.types false in
/-- For any rest states riding beside the buffers and any contents the regions leave: given, per region, a segment
    record entered from the contents before it and left at the contents after it, every weakly fair execution of @main
    from memory `m` with zero counters terminates and every final memory holds every buffer outside scoped storage at the
    contents after the last item. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V6 m c) ∗ E 0 c) ⊢ R0.pre c)
    (hpost0 : ∀ c : Dev nD, R0.post c ⊢ iprop(StableHlo.held (c : Thread nD τ) (Pipeline.ucRefs τ sig) (V7 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V8 m outs c) ∗ E 1 c) ⊢ R1.pre c)
    (hpost1 : ∀ c : Dev nD, R1.post c ⊢ iprop(StableHlo.held (c : Thread nD τ) (Pipeline.ucRefs τ sig) (V9 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V10 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, .rfl, .rfl, .rfl, hpre0 c, hpost0 c, hpre1 c, hpost1 c, sep_mono .rfl (hE2 c)⟩)
    (hinit := ?_) (QY := fun c s => ∀ b ∈ Pipeline.ucRefs τ sig, s.mem (((c : Thread nD τ)).1, b) = V10 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every buffer read off the last contents
    unfold StableHlo.held
    iintro ⟨Hh, HSI⟩
    imodintro
    iapply (pointsTo_read_all (Pipeline.ucRefs τ sig) (fun b => (((c : Thread nD τ)).1, b)) (V10 m outs c) s')
    isplitl [Hh] <;> iassumption

end Cond

/-! ## The contents the regions leave, the proof data, the thread state -/

section Run

local notation "𝕄" => MT nD τ sig Unit (Elt F) ℕ (UR sig nD τ) ℕ

variable (m : (ℓ : Loc nD τ sig) → Buf (Elt F) ℓ) (ρ : Dev nD → PrngReg)

/-- The first region's entry contents, read at the TensorCore's references. -/
abbrev VE0 : (c : Dev nD) → (b : Ref sig .tc) → Buf (Elt F) ((c : Thread nD τ).loc b) := fun c b => V6 m c b
/-- At the first region's exit: its arrays at what its pipeline leaves, every other buffer as entered. -/
def U7 (c : Dev nD) : Valuation τ sig (Elt F) :=
  Pipeline.withArrays spec0 c (V6 m c) fun w => (dat0 (VE0 m) c).arrAt w cfg0.N
/-- The contents the regions leave, first region only (what the second region's entry contents are stated over). -/
def outsA : Outs (F := F) := fun J r c => match J with
  | 7 => U7 m c r
  | _ => V0 m c r
/-- The second region's entry contents, read at the TensorCore's references. -/
abbrev VE1 : (c : Dev nD) → (b : Ref sig .tc) → Buf (Elt F) ((c : Thread nD τ).loc b) := fun c b => V8 m (outsA m) c b
/-- At the second region's exit. -/
def U9 (c : Dev nD) : Valuation τ sig (Elt F) :=
  Pipeline.withArrays spec1 c (V8 m (outsA m) c) fun w => (dat1 (VE1 m) c).arrAt w cfg1.N
/-- The contents the two regions leave. -/
def outs : Outs (F := F) := fun J r c => match J with
  | 7 => U7 m c r
  | 9 => U9 m c r
  | _ => V0 m c r

theorem outs_7 (c : Dev nD) : outs m 7 main_v45 c = (dat0 (VE0 m) c).arrAt 18 cfg0.N := by
  show U7 m c (Proc.devRef .tc main_v45) = _
  unfold U7; exact Pipeline.withArrays_arr spec0 launch0.win.arr_inj c _ _ 18
theorem V7_outs (c : Dev nD) : V7 m (outs m) c = V7 m (outsA m) c := rfl
theorem V8_outs (c : Dev nD) : V8 m (outs m) c = V8 m (outsA m) c := rfl
theorem outs_9 (c : Dev nD) : outs m 9 main_v61 c = (dat1 (VE1 m) c).arrAt 9 cfg1.N := by
  show U9 m c (Proc.devRef .tc main_v61) = _
  unfold U9; exact Pipeline.withArrays_arr spec1 launch1.win.arr_inj c _ _ 9

theorem in_of_ne0 : ∀ w : Fin 19, w ≠ 18 → (cfg0.win w).isOut = false := by decide
theorem ref_ne0 : ∀ w : Fin 19, w ≠ 18 → Pipeline.arrRef spec0 w ∉ ([main_v45] : List (Ref sig .tc)) := by decide
theorem V7_v45 (o : Outs (F := F)) (c : Dev nD) : V7 m o c main_v45 = o 7 main_v45 c := by
  simp only [V7, Function.update_self]

/-- After the first region each of its arrays holds what the pipeline leaves: the output its folded write-backs, an
    input what it held. -/
theorem hF0 (c : Dev nD) (w : Fin cfg0.W) : (dat0 (VE0 m) c).arrAt w cfg0.N = V7 m (outs m) c (Pipeline.arrRef spec0 w) := by
  by_cases hw : w = (18 : Fin 19)
  · subst hw
    exact (outs_7 m c).symm.trans (V7_v45 m (outs m) c).symm
  · exact ((dat0 (VE0 m) c).arrAt_in w (in_of_ne0 w hw) _).trans ((A_eq0 (VE0 m) c w).trans (V7_of m (outs m) c _ (ref_ne0 w hw)).symm)
/-- and every other buffer what it held at entry. -/
theorem hrest0 (c : Dev nD) : ∀ b : Ref sig .tc, b ∉ Finset.univ.image (Pipeline.arrRef spec0) → V7 m (outs m) c b = V6 m c b :=
  fun b hb => V7_of m (outs m) c b (fun hm => hb (Finset.mem_image.mpr ⟨18, Finset.mem_univ _, (List.mem_singleton.mp hm).symm⟩))

theorem in_of_ne1 : ∀ w : Fin 10, w ≠ 9 → (cfg1.win w).isOut = false := by decide
theorem ref_ne1 : ∀ w : Fin 10, w ≠ 9 → Pipeline.arrRef spec1 w ∉ ([main_v61] : List (Ref sig .tc)) := by decide
theorem V9_v61 (o : Outs (F := F)) (c : Dev nD) : V9 m o c main_v61 = o 9 main_v61 c := by
  simp only [V9, Function.update_self]

theorem hF1 (c : Dev nD) (w : Fin cfg1.W) : (dat1 (VE1 m) c).arrAt w cfg1.N = V9 m (outs m) c (Pipeline.arrRef spec1 w) := by
  by_cases hw : w = (9 : Fin 10)
  · subst hw
    exact (outs_9 m c).symm.trans (V9_v61 m (outs m) c).symm
  · exact ((dat1 (VE1 m) c).arrAt_in w (in_of_ne1 w hw) _).trans ((A_eq1 (VE1 m) c w).trans (V9_of m (outs m) c _ (ref_ne1 w hw)).symm)
theorem hrest1 (c : Dev nD) : ∀ b : Ref sig .tc, b ∉ Finset.univ.image (Pipeline.arrRef spec1) → V9 m (outs m) c b = V8 m (outs m) c b :=
  fun b hb => V9_of m (outs m) c b (fun hm => hb (Finset.mem_image.mpr ⟨9, Finset.mem_univ _, (List.mem_singleton.mp hm).symm⟩))

/-- Every pipeline's proof data, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c
abbrev 𝒱ₙ : Variants := Variants.none
/-- No core owes another anything: no level is assigned. -/
abbrev Lₙ : GSem nD τ sig → Finset Unit := fun _ => ∅
abbrev lvₙ : GSem nD τ sig → Unit → ℕ := fun _ _ => 0
/-- What rides beside the buffers through every item: the core's generator register at some state, and nothing owed. -/
abbrev Rr (c : Dev nD) : sProp 𝕄 := iprop((∃ r, prngReg c r) ∗ ∃ W, owes (c : Thread nD τ) (0 : CellTallies nD τ sig Unit) W)

set_option backward.isDefEq.respectTransparency.types false in
/-- Region 0 over the thread state: entered from every buffer outside scoped storage at the contents before it, left
    at the contents after it. Its arrays are split out of those buffers and put back at the exit contents; the
    generator register goes into the pipeline's invariant and comes out; nothing is owed; the kernel owns no semaphore. -/
def reg0 : Pipeline.RegionSeg (pcfgs (F := F)) adm (pdats m) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ Lₙ lvₙ 0 fun _ _ => rfl
  pre c := iprop(StableHlo.held (c : Thread nD τ) (Pipeline.ucRefs τ sig) (V6 m c) ∗ Rr c)
  post c := iprop(StableHlo.held (c : Thread nD τ) (Pipeline.ucRefs τ sig) (V7 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (fun b => (V7 m (outs m) c) b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every buffer outside scoped storage at the contents before it, left
    at the contents after it. Its arrays are split out of those buffers and put back at the exit contents; the
    generator register goes into the pipeline's invariant and comes out; nothing is owed; the kernel owns no semaphore. -/
def reg1 : Pipeline.RegionSeg (pcfgs (F := F)) adm (pdats m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ Lₙ lvₙ 1 fun _ _ => rfl
  pre c := iprop(StableHlo.held (c : Thread nD τ) (Pipeline.ucRefs τ sig) (V8 m (outs m) c) ∗ Rr c)
  post c := iprop(StableHlo.held (c : Thread nD τ) (Pipeline.ucRefs τ sig) (V9 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none, V8_outs m c]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (fun b => (V9 m (outs m) c) b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- What the launch deals a core, besides the buffers, makes the rest state: the generator register at its launch state,
    nothing owed. -/
theorem rest_one (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄)
      ⊢ Rr (F := F) c := by
  iintro ⟨-, HO, -, Hp, -⟩
  isplitl [Hp]; · iexists _; iexact Hp
  iexists ∅; iexact HO

/-- On every core at once. -/
theorem rest_of_launch :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Lₙ lvₙ)
      ⊢ (|={Set.univ}=> bigSep Finset.univ (fun c : Dev nD => Rr (F := F) c) : sProp 𝕄) := by
  have h1 : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (fun c : Dev nD => Rr (F := F) c) : sProp 𝕄) :=
    bigSep_mono fun c _ => rest_one ρ c
  iintro ⟨H, -⟩
  imodintro
  iapply h1
  iexact H

set_option backward.isDefEq.respectTransparency.types false in
/-- THE RUN: every weakly fair execution of @main from memory `m` with zero counters terminates, and every final memory
    holds every buffer outside scoped storage at the contents after the last item. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) :=
  run_cond m emb₁ () 𝒱ₙ Lₙ lvₙ (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c) (rest_of_launch ρ) (fun c => by iintro ⟨-, H⟩; iexact H)
    (reg0 m) (fun _ => .rfl) (fun _ => .rfl) (reg1 m) (fun _ => .rfl) (fun _ => .rfl)

set_option backward.isDefEq.respectTransparency.types false in
/-- THE FRAME: the same launch with the argument arrays read back to their launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_cond m emb₁ () 𝒱ₙ Lₙ lvₙ (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c) (rest_of_launch ρ) (fun c => by iintro ⟨-, H⟩; iexact H)
    (reg0 m) (fun _ => .rfl) (fun _ => .rfl) (reg1 m) (fun _ => .rfl) (fun _ => .rfl)

/-- A TensorCore reference outside scoped storage is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Run

end Cert.KernelIdeal.Hand

end
-- ==== Proof.BRegion0.lean ====
/- Region 0's half of the frame certificate, at a parameter `V`: the TensorCore's buffer contents when the region is
   entered. Each window's block at a point is read off its array in `V`; an input window's staging buffer holds that
   block at every point, fetched there or not (an unfetched window's block index has not moved: the weight windows
   have a constant index, the row-block windows are fetched at every point); the kernel body, on the 19 staging
   buffers, leaves the 18 inputs as they were and writes the output buffer whole, with the one payload of its store
   applied to the 18 input blocks. From these: the pipeline's proof data and its body obligation at every point. -/
import proofs.«405997_j73959336837504_3_alg».proof.Proof.Gen.Kernel.Launch
import proofs.«405997_j73959336837504_3_alg».proof.Proof.Gen.Kernel.Skeleton
import proofs.«405997_j73959336837504_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when region 0 is entered
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window W's current staging buffer holds its block at every point, fetched there or not, for any proof data
    whose array is `V`'s and whose body leaves the block in place: unfetched, the block index has not moved; the
    window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's staging buffer, whole -/

abbrev r0_0 : Rect S1024x19 := Rect.unit (s := S1024x19) ![0, 0] S1024x19.size inb_S1024x19_S1024x19_0_0
abbrev r0_1 : Rect S1024x1 := Rect.unit (s := S1024x1) ![0, 0] S1024x1.size inb_S1024x1_S1024x1_0_0
abbrev r0_2 : Rect S16x1024 := Rect.unit (s := S16x1024) ![0, 0] S16x1024.size inb_S16x1024_S16x1024_0_0
abbrev r0_3 : Rect S19x1024 := Rect.unit (s := S19x1024) ![0, 0] S19x1024.size inb_S19x1024_S19x1024_0_0
abbrev r0_4 : Rect S1x1024 := Rect.unit (s := S1x1024) ![0, 0] S1x1024.size inb_S1x1024_S1x1024_0_0
abbrev r0_5 : Rect S1024x1024 := Rect.unit (s := S1024x1024) ![0, 0] S1024x1024.size inb_S1024x1024_S1024x1024_0_0
abbrev r0_6 : Rect S1x1024 := Rect.unit (s := S1x1024) ![0, 0] S1x1024.size inb_S1x1024_S1x1024_0_0
abbrev r0_7 : Rect S1024x1024 := Rect.unit (s := S1024x1024) ![0, 0] S1024x1024.size inb_S1024x1024_S1024x1024_0_0
abbrev r0_8 : Rect S1x1024 := Rect.unit (s := S1x1024) ![0, 0] S1x1024.size inb_S1x1024_S1x1024_0_0
abbrev r0_9 : Rect S1024x1024 := Rect.unit (s := S1024x1024) ![0, 0] S1024x1024.size inb_S1024x1024_S1024x1024_0_0
abbrev r0_10 : Rect S1x1024 := Rect.unit (s := S1x1024) ![0, 0] S1x1024.size inb_S1x1024_S1x1024_0_0
abbrev r0_11 : Rect S1024x512 := Rect.unit (s := S1024x512) ![0, 0] S1024x512.size inb_S1024x512_S1024x512_0_0
abbrev r0_12 : Rect S1x512 := Rect.unit (s := S1x512) ![0, 0] S1x512.size inb_S1x512_S1x512_0_0
abbrev r0_13 : Rect S9x512 := Rect.unit (s := S9x512) ![0, 0] S9x512.size inb_S9x512_S9x512_0_0
abbrev r0_14 : Rect S512x512 := Rect.unit (s := S512x512) ![0, 0] S512x512.size inb_S512x512_S512x512_0_0
abbrev r0_15 : Rect S1x512 := Rect.unit (s := S1x512) ![0, 0] S1x512.size inb_S1x512_S1x512_0_0
abbrev r0_16 : Rect S512x512 := Rect.unit (s := S512x512) ![0, 0] S512x512.size inb_S512x512_S512x512_0_0
abbrev r0_17 : Rect S1x512 := Rect.unit (s := S1x512) ![0, 0] S1x512.size inb_S1x512_S1x512_0_0
abbrev r0_18 : Rect S1024x512 := Rect.unit (s := S1024x512) ![0, 0] S1024x512.size inb_S1024x512_S1024x512_0_0

/-! ## What the body leaves in the output window's buffer -/

/-- Window 18's staging buffer after the body, from the 18 input windows' blocks: its one whole-block store. -/
def out0_18 (x0 : Vec F S1024x19 .f32) (x1 : Vec F S1024x1 .i32) (x2 : Vec F S16x1024 .bf16) (x3 : Vec F S19x1024 .bf16) (x4 : Vec F S1x1024 .f32) (x5 : Vec F S1024x1024 .bf16) (x6 : Vec F S1x1024 .f32) (x7 : Vec F S1024x1024 .bf16) (x8 : Vec F S1x1024 .f32) (x9 : Vec F S1024x1024 .bf16) (x10 : Vec F S1x1024 .f32) (x11 : Vec F S1024x512 .bf16) (x12 : Vec F S1x512 .f32) (x13 : Vec F S9x512 .bf16) (x14 : Vec F S512x512 .bf16) (x15 : Vec F S1x512 .f32) (x16 : Vec F S512x512 .bf16) (x17 : Vec F S1x512 .f32) : Vec F S1024x512 .f32 :=
  View.canon [⟨r0_18, k0_pay1 (k0_pay5 (k0_pay2 (View.ld x0 r0_0)) (k0_pay3 (View.ld x0 r0_0) (View.ld x1 r0_1) (View.ld x2 r0_2) (View.ld x3 r0_3) (View.ld x4 r0_4) (View.ld x5 r0_5) (View.ld x6 r0_6)) (k0_pay4 (View.ld x7 r0_7)) (View.ld x8 r0_8) (View.ld x9 r0_9) (View.ld x10 r0_10) (View.ld x11 r0_11) (View.ld x12 r0_12) (View.ld x13 r0_13) (View.ld x14 r0_14)) (k0_pay6 (View.ld x15 r0_15)) (View.ld x16 r0_16) (View.ld x17 r0_17)⟩]

/-- The one store is the whole buffer, so it covers it. -/
theorem cover0_18 (p0 : Vec F S1024x512 .f32) (y : S1024x512.Idx) :
    ∃ pc ∈ ([⟨r0_18, p0⟩] : List (View.Piece (Elt F) S1024x512 .f32)), y ∈ pc.1.set :=
  View.cover_of_tiled [⟨r0_18, p0⟩] S1024x512.size (by rfl) y

/-! ## The body's triple -/

set_option maxHeartbeats 1000000 in
/-- The kernel body on whole staging memrefs, the 18 inputs' at read contents `xW` and the output's at anything, runs to
    the continuation holding the inputs' as they were and the output's at `out0_18` of the inputs': the printed function
    and its two parts are their skeletons, run statement by statement; the output's one load before its store reads
    a value no payload takes. -/
theorem sound_kernel0 (c : Dev nD) (E : Set ℕ) (i : grid0.Coords) (arg1 : Memref sig .tc .vmem S1024x19 .f32) (harg1 : arg1.IsWhole) (arg2 : Memref sig .tc .vmem S1024x1 .i32) (harg2 : arg2.IsWhole) (arg3 : Memref sig .tc .vmem S16x1024 .bf16) (harg3 : arg3.IsWhole) (arg4 : Memref sig .tc .vmem S19x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x512 .bf16) (harg12 : arg12.IsWhole) (arg13 : Memref sig .tc .vmem S1x512 .f32) (harg13 : arg13.IsWhole) (arg14 : Memref sig .tc .vmem S9x512 .bf16) (harg14 : arg14.IsWhole) (arg15 : Memref sig .tc .vmem S512x512 .bf16) (harg15 : arg15.IsWhole) (arg16 : Memref sig .tc .vmem S1x512 .f32) (harg16 : arg16.IsWhole) (arg17 : Memref sig .tc .vmem S512x512 .bf16) (harg17 : arg17.IsWhole) (arg18 : Memref sig .tc .vmem S1x512 .f32) (harg18 : arg18.IsWhole) (arg19 : Memref sig .tc .vmem S1024x512 .f32) (harg19 : arg19.IsWhole)
    (x0 : Vec F S1024x19 .f32) (x1 : Vec F S1024x1 .i32) (x2 : Vec F S16x1024 .bf16) (x3 : Vec F S19x1024 .bf16) (x4 : Vec F S1x1024 .f32) (x5 : Vec F S1024x1024 .bf16) (x6 : Vec F S1x1024 .f32) (x7 : Vec F S1024x1024 .bf16) (x8 : Vec F S1x1024 .f32) (x9 : Vec F S1024x1024 .bf16) (x10 : Vec F S1x1024 .f32) (x11 : Vec F S1024x512 .bf16) (x12 : Vec F S1x512 .f32) (x13 : Vec F S9x512 .bf16) (x14 : Vec F S512x512 .bf16) (x15 : Vec F S1x512 .f32) (x16 : Vec F S512x512 .bf16) (x17 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (out0_18 x0 x1 x2 x3 x4 x5 x6 x7 x8 x9 x10 x11 x12 x13 x14 x15 x16 x17)) -∗ K ⟨⟩))
      ⊢ wp frame (wpE (defs₀ (F := F)) Variants.none c none) E (cc0__edge_node_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__edge_node_kernel_eq_skeleton]; unfold cc0__edge_node_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  iexists _; isplitr
  swap; · iexact H18
  ipureintro
  try dsimp only
  exact View.read_writes_eq_canon _ _ _ (cover0_18 _)

/-! ## The pipeline's proof data -/

/-- The proof data of pipeline 0 on core `c`: the arrays as the region finds them (`V`); after the body at point `t`
    each input's buffer at its block and the output's at `out0_18` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t)
    | ⟨_ + 19, h⟩ => absurd h (Nat.not_lt.2 (Nat.le_add_left _ _))
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel0 c Set.univ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BRegion1.lean ====
import proofs.«405997_j73959336837504_3_alg».proof.Proof.Gen.Kernel.Launch
import proofs.«405997_j73959336837504_3_alg».proof.Proof.Gen.Kernel.Skeleton
import proofs.«405997_j73959336837504_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (the node kernel, 16 grid points, 10 windows) at the contents `V` its entry finds

Each window's block at a point, what the body's one store leaves in the output window's buffer as a function of
the nine input blocks, the body's triple, the pipeline's proof data and the body obligation at every point. -/

-- rectangles of 1024 rows: membership in one is decided coordinate by coordinate along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not, for any proof
    data whose array is `V`'s and whose body leaves the block in place: where the window is not fetched its block
    index has not moved since the point before (the row-block windows 0, 1, 2 are fetched at every point; the whole-array
    windows 3..8 have the constant index (0, 0) and are fetched at the first point only). No window is cut or idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1024x9 := Rect.unit (s := S1024x9) ![0, 0] S1024x9.size inb_S1024x9_S1024x9_0_0
abbrev r1_1 : Rect S1024x512 := Rect.unit (s := S1024x512) ![0, 0] S1024x512.size inb_S1024x512_S1024x512_0_0
abbrev r1_2 : Rect S1024x1 := Rect.unit (s := S1024x1) ![0, 0] S1024x1.size inb_S1024x1_S1024x1_0_0
abbrev r1_3 : Rect S16x512 := Rect.unit (s := S16x512) ![0, 0] S16x512.size inb_S16x512_S16x512_0_0
abbrev r1_4 : Rect S9x512 := Rect.unit (s := S9x512) ![0, 0] S9x512.size inb_S9x512_S9x512_0_0
abbrev r1_5 : Rect S512x512 := Rect.unit (s := S512x512) ![0, 0] S512x512.size inb_S512x512_S512x512_0_0
abbrev r1_6 : Rect S1x512 := Rect.unit (s := S1x512) ![0, 0] S1x512.size inb_S1x512_S1x512_0_0
abbrev r1_7 : Rect S512x1 := Rect.unit (s := S512x1) ![0, 0] S512x1.size inb_S512x1_S512x1_0_0
abbrev r1_8 : Rect S1x1 := Rect.unit (s := S1x1) ![0, 0] S1x1.size inb_S1x1_S1x1_0_0
abbrev r1_9 : Rect S1024x1 := Rect.unit (s := S1024x1) ![0, 0] S1024x1.size inb_S1024x1_S1024x1_0_0

/-! ## What the body leaves in the output window's buffer -/

/-- Window 9's staging buffer after the body, from the nine input blocks: the body's one store, of the whole buffer,
    of the payload over what the loads read. -/
def out1_9 (y0 : Vec F S1024x9 .f32) (y1 : Vec F S1024x512 .f32) (y2 : Vec F S1024x1 .i32) (y3 : Vec F S16x512 .bf16) (y4 : Vec F S9x512 .bf16) (y5 : Vec F S512x512 .bf16) (y6 : Vec F S1x512 .f32) (y7 : Vec F S512x1 .bf16) (y8 : Vec F S1x1 .f32) : Vec F S1024x1 .f32 :=
  View.canon [⟨r1_9, k1_pay1 (k1_pay2 (View.ld y2 r1_2) (View.ld y3 r1_3) (View.ld y0 r1_0) (View.ld y1 r1_1) (View.ld y4 r1_4) (View.ld y5 r1_5) (View.ld y6 r1_6) (View.ld y7 r1_7)) (View.ld y8 r1_8)⟩]

/-- The one store is of the whole buffer, so it covers it. -/
theorem cover1_9 (p0 : Vec F S1024x1 .f32) (y : S1024x1.Idx) :
    ∃ pc ∈ ([⟨r1_9, p0⟩] : List (View.Piece (Elt F) S1024x1 .f32)), y ∈ pc.1.set :=
  View.cover_of_tiled [⟨r1_9, p0⟩] S1024x1.size (by rfl) y

/-! ## The body's triple -/

set_option maxHeartbeats 1000000 in
/-- The kernel body on whole staging memrefs, the inputs' at read contents `yW` and the output's at anything, runs to
    the continuation holding the inputs' as they were and the output's at `out1_9` of the inputs': the body is nine
    whole-buffer loads (in its part), a load of the output buffer that nothing reads, and the one store. -/
theorem sound_kernel1 (c : Dev nD) (E : Set ℕ) (i : grid1.Coords) (arg1 : Memref sig .tc .vmem S1024x9 .f32) (harg1 : arg1.IsWhole) (arg2 : Memref sig .tc .vmem S1024x512 .f32) (harg2 : arg2.IsWhole) (arg3 : Memref sig .tc .vmem S1024x1 .i32) (harg3 : arg3.IsWhole) (arg4 : Memref sig .tc .vmem S16x512 .bf16) (harg4 : arg4.IsWhole) (arg5 : Memref sig .tc .vmem S9x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x1 .bf16) (harg8 : arg8.IsWhole) (arg9 : Memref sig .tc .vmem S1x1 .f32) (harg9 : arg9.IsWhole) (arg10 : Memref sig .tc .vmem S1024x1 .f32) (harg10 : arg10.IsWhole)
    (y0 : Vec F S1024x9 .f32) (y1 : Vec F S1024x512 .f32) (y2 : Vec F S1024x1 .i32) (y3 : Vec F S16x512 .bf16) (y4 : Vec F S9x512 .bf16) (y5 : Vec F S512x512 .bf16) (y6 : Vec F S1x512 .f32) (y7 : Vec F S512x1 .bf16) (y8 : Vec F S1x1 .f32) (K : PUnit → sProp 𝕄) :
    iprop(owns (c : Thread nD τ) arg1 fullShare y0 ∗ owns (c : Thread nD τ) arg2 fullShare y1 ∗ owns (c : Thread nD τ) arg3 fullShare y2 ∗ owns (c : Thread nD τ) arg4 fullShare y3 ∗ owns (c : Thread nD τ) arg5 fullShare y4 ∗ owns (c : Thread nD τ) arg6 fullShare y5 ∗ owns (c : Thread nD τ) arg7 fullShare y6 ∗ owns (c : Thread nD τ) arg8 fullShare y7 ∗ owns (c : Thread nD τ) arg9 fullShare y8 ∗ (∃ d, owns (c : Thread nD τ) arg10 fullShare d)
        ∗ (iprop(owns (c : Thread nD τ) arg1 fullShare y0 ∗ owns (c : Thread nD τ) arg2 fullShare y1 ∗ owns (c : Thread nD τ) arg3 fullShare y2 ∗ owns (c : Thread nD τ) arg4 fullShare y3 ∗ owns (c : Thread nD τ) arg5 fullShare y4 ∗ owns (c : Thread nD τ) arg6 fullShare y5 ∗ owns (c : Thread nD τ) arg7 fullShare y6 ∗ owns (c : Thread nD τ) arg8 fullShare y7 ∗ owns (c : Thread nD τ) arg9 fullShare y8 ∗ owns (c : Thread nD τ) arg10 fullShare (out1_9 y0 y1 y2 y3 y4 y5 y6 y7 y8)) -∗ K ⟨⟩))
      ⊢ wp frame (wpE (defs₀ (F := F)) Variants.none c none) E (cc1__node_mlp2_kernel i arg1 harg1 arg2 harg2 arg3 harg3 arg4 harg4 arg5 harg5 arg6 harg6 arg7 harg7 arg8 harg8 arg9 harg9 arg10 harg10) K := by
  simp only [cc1__node_mlp2_kernel_eq_skeleton]; unfold cc1__node_mlp2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of pipeline 1 on core `c`: the arrays as the region finds them (`V`); after the body at point `t`
    each input's buffer at its block and the output's at `out1_9` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies; the invariant and
    the core's owed waits pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.BKRun.lean ====
/-
  The kernel program's run, whole: @main is six stretches of host operations, the first kernel region, a stretch, the
  second kernel region and a last stretch. Between two items every buffer outside the regions' scoped storage holds a
  known array: the launch contents pushed through the host stretches, with each region's output array replaced by what
  that region's pipeline leaves (the write-backs of its per-point results, folded over the grid). Each region enters
  from those contents, splits its window arrays out of them, runs its pipeline under the body's per-point obligation,
  and puts the arrays back; nothing is owed between cores and no kernel owns a semaphore. Every weakly fair execution
  therefore terminates, and every final memory holds, in every such buffer, the last of those arrays: in particular
  each argument as launched, and the result as the last reshape of the second region's output.
-/
import proofs.«405997_j73959336837504_3_alg».proof.Proof.BRegion0
import proofs.«405997_j73959336837504_3_alg».proof.Proof.BRegion1
import proofs.«405997_j73959336837504_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

/-! ## The run, given the regions' records: every buffer outside scoped storage ends at the last contents -/

section Cond

variable (m : (ℓ : Loc nD τ sig) → Buf (Elt F) ℓ)

set_option backward.isDefEq.respectTransparency.types false in
/-- For any rest states riding beside the buffers and any contents the regions leave: given, per region, a segment
    record entered from the contents before it and left at the contents after it, every weakly fair execution of @main
    from memory `m` with zero counters terminates and every final memory holds every buffer outside scoped storage at the
    contents after the last item. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V6 m c) ∗ E 0 c) ⊢ R0.pre c)
    (hpost0 : ∀ c : Dev nD, R0.post c ⊢ iprop(StableHlo.held (c : Thread nD τ) (Pipeline.ucRefs τ sig) (V7 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V8 m outs c) ∗ E 1 c) ⊢ R1.pre c)
    (hpost1 : ∀ c : Dev nD, R1.post c ⊢ iprop(StableHlo.held (c : Thread nD τ) (Pipeline.ucRefs τ sig) (V9 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V10 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, .rfl, .rfl, .rfl, hpre0 c, hpost0 c, hpre1 c, hpost1 c, sep_mono .rfl (hE2 c)⟩)
    (hinit := ?_) (QY := fun c s => ∀ b ∈ Pipeline.ucRefs τ sig, s.mem (((c : Thread nD τ)).1, b) = V10 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every buffer read off the last contents
    unfold StableHlo.held
    iintro ⟨Hh, HSI⟩
    imodintro
    iapply (pointsTo_read_all (Pipeline.ucRefs τ sig) (fun b => (((c : Thread nD τ)).1, b)) (V10 m outs c) s')
    isplitl [Hh] <;> iassumption

end Cond

/-! ## The contents the regions leave, the proof data, the thread state -/

section Run

local notation "𝕄" => MT nD τ sig Unit (Elt F) ℕ (UR sig nD τ) ℕ

variable (m : (ℓ : Loc nD τ sig) → Buf (Elt F) ℓ) (ρ : Dev nD → PrngReg)

/-- The first region's entry contents, read at the TensorCore's references. -/
abbrev VE0 : (c : Dev nD) → (b : Ref sig .tc) → Buf (Elt F) ((c : Thread nD τ).loc b) := fun c b => V6 m c b
/-- At the first region's exit: its arrays at what its pipeline leaves, every other buffer as entered. -/
def U7 (c : Dev nD) : Valuation τ sig (Elt F) :=
  Pipeline.withArrays spec0 c (V6 m c) fun w => (dat0 (VE0 m) c).arrAt w cfg0.N
/-- The contents the regions leave, first region only (what the second region's entry contents are stated over). -/
def outsA : Outs (F := F) := fun J r c => match J with
  | 7 => U7 m c r
  | _ => V0 m c r
/-- The second region's entry contents, read at the TensorCore's references. -/
abbrev VE1 : (c : Dev nD) → (b : Ref sig .tc) → Buf (Elt F) ((c : Thread nD τ).loc b) := fun c b => V8 m (outsA m) c b
/-- At the second region's exit. -/
def U9 (c : Dev nD) : Valuation τ sig (Elt F) :=
  Pipeline.withArrays spec1 c (V8 m (outsA m) c) fun w => (dat1 (VE1 m) c).arrAt w cfg1.N
/-- The contents the two regions leave. -/
def outs : Outs (F := F) := fun J r c => match J with
  | 7 => U7 m c r
  | 9 => U9 m c r
  | _ => V0 m c r

theorem outs_7 (c : Dev nD) : outs m 7 main_v45 c = (dat0 (VE0 m) c).arrAt 18 cfg0.N := by
  show U7 m c (Proc.devRef .tc main_v45) = _
  unfold U7; exact Pipeline.withArrays_arr spec0 launch0.win.arr_inj c _ _ 18
theorem V7_outs (c : Dev nD) : V7 m (outs m) c = V7 m (outsA m) c := rfl
theorem V8_outs (c : Dev nD) : V8 m (outs m) c = V8 m (outsA m) c := rfl
theorem outs_9 (c : Dev nD) : outs m 9 main_v61 c = (dat1 (VE1 m) c).arrAt 9 cfg1.N := by
  show U9 m c (Proc.devRef .tc main_v61) = _
  unfold U9; exact Pipeline.withArrays_arr spec1 launch1.win.arr_inj c _ _ 9

theorem in_of_ne0 : ∀ w : Fin 19, w ≠ 18 → (cfg0.win w).isOut = false := by decide
theorem ref_ne0 : ∀ w : Fin 19, w ≠ 18 → Pipeline.arrRef spec0 w ∉ ([main_v45] : List (Ref sig .tc)) := by decide
theorem V7_v45 (o : Outs (F := F)) (c : Dev nD) : V7 m o c main_v45 = o 7 main_v45 c := by
  simp only [V7, Function.update_self]

/-- After the first region each of its arrays holds what the pipeline leaves: the output its folded write-backs, an
    input what it held. -/
theorem hF0 (c : Dev nD) (w : Fin cfg0.W) : (dat0 (VE0 m) c).arrAt w cfg0.N = V7 m (outs m) c (Pipeline.arrRef spec0 w) := by
  by_cases hw : w = (18 : Fin 19)
  · subst hw
    exact (outs_7 m c).symm.trans (V7_v45 m (outs m) c).symm
  · exact ((dat0 (VE0 m) c).arrAt_in w (in_of_ne0 w hw) _).trans ((A_eq0 (VE0 m) c w).trans (V7_of m (outs m) c _ (ref_ne0 w hw)).symm)
/-- and every other buffer what it held at entry. -/
theorem hrest0 (c : Dev nD) : ∀ b : Ref sig .tc, b ∉ Finset.univ.image (Pipeline.arrRef spec0) → V7 m (outs m) c b = V6 m c b :=
  fun b hb => V7_of m (outs m) c b (fun hm => hb (Finset.mem_image.mpr ⟨18, Finset.mem_univ _, (List.mem_singleton.mp hm).symm⟩))

theorem in_of_ne1 : ∀ w : Fin 10, w ≠ 9 → (cfg1.win w).isOut = false := by decide
theorem ref_ne1 : ∀ w : Fin 10, w ≠ 9 → Pipeline.arrRef spec1 w ∉ ([main_v61] : List (Ref sig .tc)) := by decide
theorem V9_v61 (o : Outs (F := F)) (c : Dev nD) : V9 m o c main_v61 = o 9 main_v61 c := by
  simp only [V9, Function.update_self]

theorem hF1 (c : Dev nD) (w : Fin cfg1.W) : (dat1 (VE1 m) c).arrAt w cfg1.N = V9 m (outs m) c (Pipeline.arrRef spec1 w) := by
  by_cases hw : w = (9 : Fin 10)
  · subst hw
    exact (outs_9 m c).symm.trans (V9_v61 m (outs m) c).symm
  · exact ((dat1 (VE1 m) c).arrAt_in w (in_of_ne1 w hw) _).trans ((A_eq1 (VE1 m) c w).trans (V9_of m (outs m) c _ (ref_ne1 w hw)).symm)
theorem hrest1 (c : Dev nD) : ∀ b : Ref sig .tc, b ∉ Finset.univ.image (Pipeline.arrRef spec1) → V9 m (outs m) c b = V8 m (outs m) c b :=
  fun b hb => V9_of m (outs m) c b (fun hm => hb (Finset.mem_image.mpr ⟨9, Finset.mem_univ _, (List.mem_singleton.mp hm).symm⟩))

/-- Every pipeline's proof data, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c
abbrev 𝒱ₙ : Variants := Variants.none
/-- No core owes another anything: no level is assigned. -/
abbrev Lₙ : GSem nD τ sig → Finset Unit := fun _ => ∅
abbrev lvₙ : GSem nD τ sig → Unit → ℕ := fun _ _ => 0
/-- What rides beside the buffers through every item: the core's generator register at some state, and nothing owed. -/
abbrev Rr (c : Dev nD) : sProp 𝕄 := iprop((∃ r, prngReg c r) ∗ ∃ W, owes (c : Thread nD τ) (0 : CellTallies nD τ sig Unit) W)

set_option backward.isDefEq.respectTransparency.types false in
/-- Region 0 over the thread state: entered from every buffer outside scoped storage at the contents before it, left
    at the contents after it. Its arrays are split out of those buffers and put back at the exit contents; the
    generator register goes into the pipeline's invariant and comes out; nothing is owed; the kernel owns no semaphore. -/
def reg0 : Pipeline.RegionSeg (pcfgs (F := F)) adm (pdats m) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ Lₙ lvₙ 0 fun _ _ => rfl
  pre c := iprop(StableHlo.held (c : Thread nD τ) (Pipeline.ucRefs τ sig) (V6 m c) ∗ Rr c)
  post c := iprop(StableHlo.held (c : Thread nD τ) (Pipeline.ucRefs τ sig) (V7 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (fun b => (V7 m (outs m) c) b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every buffer outside scoped storage at the contents before it, left
    at the contents after it. Its arrays are split out of those buffers and put back at the exit contents; the
    generator register goes into the pipeline's invariant and comes out; nothing is owed; the kernel owns no semaphore. -/
def reg1 : Pipeline.RegionSeg (pcfgs (F := F)) adm (pdats m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ Lₙ lvₙ 1 fun _ _ => rfl
  pre c := iprop(StableHlo.held (c : Thread nD τ) (Pipeline.ucRefs τ sig) (V8 m (outs m) c) ∗ Rr c)
  post c := iprop(StableHlo.held (c : Thread nD τ) (Pipeline.ucRefs τ sig) (V9 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none, V8_outs m c]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (fun b => (V9 m (outs m) c) b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- What the launch deals a core, besides the buffers, makes the rest state: the generator register at its launch state,
    nothing owed. -/
theorem rest_one (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄)
      ⊢ Rr (F := F) c := by
  iintro ⟨-, HO, -, Hp, -⟩
  isplitl [Hp]; · iexists _; iexact Hp
  iexists ∅; iexact HO

/-- On every core at once. -/
theorem rest_of_launch :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Lₙ lvₙ)
      ⊢ (|={Set.univ}=> bigSep Finset.univ (fun c : Dev nD => Rr (F := F) c) : sProp 𝕄) := by
  have h1 : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (fun c : Dev nD => Rr (F := F) c) : sProp 𝕄) :=
    bigSep_mono fun c _ => rest_one ρ c
  iintro ⟨H, -⟩
  imodintro
  iapply h1
  iexact H

set_option backward.isDefEq.respectTransparency.types false in
/-- THE RUN: every weakly fair execution of @main from memory `m` with zero counters terminates, and every final memory
    holds every buffer outside scoped storage at the contents after the last item. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) :=
  run_cond m emb₁ () 𝒱ₙ Lₙ lvₙ (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c) (rest_of_launch ρ) (fun c => by iintro ⟨-, H⟩; iexact H)
    (reg0 m) (fun _ => .rfl) (fun _ => .rfl) (reg1 m) (fun _ => .rfl) (fun _ => .rfl)

set_option backward.isDefEq.respectTransparency.types false in
/-- THE FRAME: the same launch with the argument arrays read back to their launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_cond m emb₁ () 𝒱ₙ Lₙ lvₙ (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c) (rest_of_launch ρ) (fun c => by iintro ⟨-, H⟩; iexact H)
    (reg0 m) (fun _ => .rfl) (fun _ => .rfl) (reg1 m) (fun _ => .rfl) (fun _ => .rfl)

/-- A TensorCore reference outside scoped storage is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Run

end Cert.Kernel.Hand

end
-- ==== Proof.Spec.lean ====
/-
  The mathematics both programs compute, one ROW at a time, on the extended reals.

  An edge's hidden activations and a node's output depend only on that edge's (that node's) own row of inputs and on the
  weight tables: every dense layer is a row times a matrix plus a bias row, followed (except before the last) by
  `max · 0`. The two programs differ in how the first layer of each multilayer perceptron is laid out:
  the reference multiplies ONE concatenated row by the whole first-layer matrix; the kernel multiplies the pieces of
  that row by the matching row-slices of the matrix and adds the partial products, and it replaces the piece that is a
  row of the per-graph table (selected by the graph id) by a one-hot row times the table already multiplied by its slice.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- An `n × k` table of extended reals, indexed as the library indexes a rank-2 array. -/
abbrev Mat (n k : ℕ) : Type := (⟨2, ![n, k]⟩ : Shape).Idx → EReal

/-- A row times a matrix, at column `j`. -/
def rdot {k p : ℕ} (x : Fin k → EReal) (W : Mat k p) (j : Fin p) : EReal := ∑ i : Fin k, x i * W (ix2 i j)

/-- `max · 0`, entry by entry. -/
def relu {p : ℕ} (v : Fin p → EReal) : Fin p → EReal := fun j => max (v j) 0

/-- One dense layer without its activation: a row times a matrix plus a bias row. -/
def lin {k p : ℕ} (x : Fin k → EReal) (W : Mat k p) (b : Fin p → EReal) : Fin p → EReal := fun j => rdot x W j + b j

/-- The one-hot row, among 16 graphs, of a graph id given as a 32-bit word: `1` where the position equals the id. -/
def onehot16 (w : BitVec 32) : Fin 16 → EReal := fun g => if BitVec.ofNat 32 g.val = w then 1 else 0

/-- Rows `o … o + k - 1` of a table. -/
def rowsFrom {n k p : ℕ} (o : ℕ) (h : o + k ≤ n) (W : Mat n p) : Mat k p :=
  fun i => W (ix2 ⟨o + (i 0).val, by have := (i 0).isLt; simp only [Matrix.cons_val_zero] at this; omega⟩ (i 1))

/-- Two rows side by side. -/
def cat2 {a b : ℕ} (x : Fin a → EReal) (y : Fin b → EReal) : Fin (a + b) → EReal :=
  fun k => if h : k.val < a then x ⟨k.val, h⟩ else y ⟨k.val - a, by have := k.isLt; omega⟩

/-- AN EDGE, AS THE KERNEL COMPUTES IT. `ex` is the edge's 19 gathered features (source node 9, destination node 9, edge
    attribute 1), `oh` the one-hot row of the source node's graph, `H0` the per-graph table already multiplied by the
    last 256 rows of the first-layer matrix, `W0` that matrix's first 19 rows; four hidden layers of width 1024, the
    edge output of width 512; then the node perceptron's first layer on the destination features (entries 9..17 of `ex`)
    and the edge output, split the same way, and its second layer. -/
def edgeK (ex : Fin 19 → EReal) (oh : Fin 16 → EReal) (H0 : Mat 16 1024) (W0 : Mat 19 1024) (b0 : Fin 1024 → EReal)
    (W1 : Mat 1024 1024) (b1 : Fin 1024 → EReal) (W2 : Mat 1024 1024) (b2 : Fin 1024 → EReal)
    (W3 : Mat 1024 1024) (b3 : Fin 1024 → EReal) (Wf : Mat 1024 512) (bf : Fin 512 → EReal)
    (Nx : Mat 9 512) (Ne : Mat 512 512) (nb0 : Fin 512 → EReal) (N1 : Mat 512 512) (nb1 : Fin 512 → EReal) : Fin 512 → EReal :=
  let h0 := relu (fun j => (rdot ex W0 j + rdot oh H0 j) + b0 j)
  let h1 := relu (lin h0 W1 b1)
  let h2 := relu (lin h1 W2 b2)
  let h3 := relu (lin h2 W3 b3)
  let e := lin h3 Wf bf
  let n0 := relu (fun j => (rdot (fun k : Fin 9 => ex ⟨9 + k.val, by have := k.isLt; omega⟩) Nx j + rdot e Ne j) + nb0 j)
  relu (lin n0 N1 nb1)

/-- THE SAME EDGE, AS THE REFERENCE COMPUTES IT: `ein` is the concatenated row of width 275 (the 19 features, then the
    source node's graph's row of the per-graph table), `W0` the whole first-layer matrix; `xc` the destination node's 9
    features, concatenated with the edge output in front of the node perceptron's whole first-layer matrix `N0`. -/
def edgeR (ein : Fin 275 → EReal) (W0 : Mat 275 1024) (b0 : Fin 1024 → EReal)
    (W1 : Mat 1024 1024) (b1 : Fin 1024 → EReal) (W2 : Mat 1024 1024) (b2 : Fin 1024 → EReal)
    (W3 : Mat 1024 1024) (b3 : Fin 1024 → EReal) (Wf : Mat 1024 512) (bf : Fin 512 → EReal)
    (xc : Fin 9 → EReal) (N0 : Mat 521 512) (nb0 : Fin 512 → EReal) (N1 : Mat 512 512) (nb1 : Fin 512 → EReal) : Fin 512 → EReal :=
  let h0 := relu (lin ein W0 b0)
  let h1 := relu (lin h0 W1 b1)
  let h2 := relu (lin h1 W2 b2)
  let h3 := relu (lin h2 W3 b3)
  let e := lin h3 Wf bf
  let n0 := relu (lin (cat2 xc e : Fin (9 + 512) → EReal) N0 nb0)
  relu (lin n0 N1 nb1)

/-- A NODE, AS THE KERNEL COMPUTES IT: its 9 features, its 512 aggregated edge activations, the one-hot row of its graph
    against the per-graph table already multiplied by the last 256 rows of the first-layer matrix; width 512, then one
    output. -/
def nodeK (x : Fin 9 → EReal) (ag : Fin 512 → EReal) (oh : Fin 16 → EReal) (H2 : Mat 16 512) (Wx : Mat 9 512) (Wa : Mat 512 512)
    (b0 : Fin 512 → EReal) (w1 : Mat 512 1) (b1 : EReal) : EReal :=
  let h := relu (fun j => ((rdot x Wx j + rdot ag Wa j) + rdot oh H2 j) + b0 j)
  rdot h w1 0 + b1

/-- THE SAME NODE, AS THE REFERENCE COMPUTES IT, from the concatenated row of width 777. -/
def nodeR (o : Fin 777 → EReal) (W : Mat 777 512) (b0 : Fin 512 → EReal) (w1 : Mat 512 1) (b1 : EReal) : EReal :=
  rdot (relu (lin o W b0)) w1 0 + b1

end Cert.Spec

end
-- ==== Proof.Pay0.lean ====
/-
  Region 0's stored payload, read at one row and one column.

  The payload is a chain of dense layers on a block of 1024 rows. Read at row `p`, every matrix product is row `p`
  of its left factor times the right factor, every bias is its one row, `max · 0` and the format changes act entry by
  entry (a format change is the identity on extended reals), and the one-hot block's row `p` is the one-hot row of the
  graph id in row `p`. So the stored value at `(p, q)` is the edge function of row `p` of the loaded blocks, at `q`.
-/
import proofs.«405997_j73959336837504_3_alg».proof.Proof.Gen.KernelIdeal.Skeleton
import proofs.«405997_j73959336837504_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx Idealize.SL.Sem

namespace Pay0

/-! ## The matrix products read at an index -/

/-! ### The 1024×16 by 16×1024 product -/

theorem lhs_oh_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lhs_oh_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem rhs_oh_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem rhs_oh_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl
/-- Into a zero accumulator, the product read at row `p` and column `q` is row `p` of the left factor times the right factor, at `q`. -/
theorem mm_oh (a : FVec Ideal S1024x16 .bf16) (b : FVec Ideal S16x1024 .bf16) (p : Fin 1024) (q : Fin 1024) :
    matmul dot_S1024x16_S16x1024_S1024x1024_1_0_0_1_n_n none a b (constant (F := Ideal) S1024x1024 .f32 0x00000000#32) (ix2 p q)
      = Cert.Spec.rdot (fun k => a (ix2 p k)) b q := by
  simp only [matmul]
  rw [Ideal.matmul_constant_zero_apply, ← Equiv.sum_comp (ValueIdx.contrEquiv1 dot_S1024x16_S16x1024_S1024x1024_1_0_0_1_n_n 16 rfl rfl).symm]
  unfold Cert.Spec.rdot
  refine Finset.sum_congr rfl fun k _ => ?_
  have hk := ValueIdx.contrEquiv1_symm_val dot_S1024x16_S16x1024_S1024x1024_1_0_0_1_n_n 16 rfl rfl k
  have el : dot_S1024x16_S16x1024_S1024x1024_1_0_0_1_n_n.lhsIdx (ix2 p q) ((ValueIdx.contrEquiv1 dot_S1024x16_S16x1024_S1024x1024_1_0_0_1_n_n 16 rfl rfl).symm k) = ix2 p k := funext fun a => Fin.ext (by
    match a with
    | ⟨0, _⟩ => exact lhs_oh_0 _ _
    | ⟨1, _⟩ => exact (lhs_oh_1 _ _).trans hk)
  have er : dot_S1024x16_S16x1024_S1024x1024_1_0_0_1_n_n.rhsIdx (ix2 p q) ((ValueIdx.contrEquiv1 dot_S1024x16_S16x1024_S1024x1024_1_0_0_1_n_n 16 rfl rfl).symm k) = ix2 k q := funext fun a => Fin.ext (by
    match a with
    | ⟨0, _⟩ => exact (rhs_oh_0 _ _).trans hk
    | ⟨1, _⟩ => exact rhs_oh_1 _ _)
  rw [el, er]

/-! ### The 1024×19 by 19×1024 product -/

theorem lhs_ex_0 (i : S1024x1024.Idx) (q : dot_S1024x19_S19x1024_S1024x1024_1_0_0_1_n_n.contr.Idx) :
    (dot_S1024x19_S19x1024_S1024x1024_1_0_0_1_n_n.lhsIdx i q 0).val = (i 0).val := by
  unfold DotDims.lhsIdx
  rw [dif_neg (show ¬(0 : Fin S1024x19.rank) ∈ dot_S1024x19_S19x1024_S1024x1024_1_0_0_1_n_n.lhsBatch by decide), dif_pos (show (0 : Fin S1024x19.rank) ∈ dot_S1024x19_S19x1024_S1024x1024_1_0_0_1_n_n.lhsNonContracting by decide)]
  rfl
theorem lhs_ex_1 (i : S1024x1024.Idx) (q : dot_S1024x19_S19x1024_S1024x1024_1_0_0_1_n_n.contr.Idx) :
    (dot_S1024x19_S19x1024_S1024x1024_1_0_0_1_n_n.lhsIdx i q 1).val = (q ⟨0, by decide⟩).val :=
  dot_S1024x19_S19x1024_S1024x1024_1_0_0_1_n_n.lhsIdx_val_of_single rfl i q
theorem rhs_ex_0 (i : S1024x1024.Idx) (q : dot_S1024x19_S19x1024_S1024x1024_1_0_0_1_n_n.contr.Idx) :
    (dot_S1024x19_S19x1024_S1024x1024_1_0_0_1_n_n.rhsIdx i q 0).val = (q ⟨0, by decide⟩).val :=
  dot_S1024x19_S19x1024_S1024x1024_1_0_0_1_n_n.rhsIdx_val_of_single rfl i q
theorem rhs_ex_1 (i : S1024x1024.Idx) (q : dot_S1024x19_S19x1024_S1024x1024_1_0_0_1_n_n.contr.Idx) :
    (dot_S1024x19_S19x1024_S1024x1024_1_0_0_1_n_n.rhsIdx i q 1).val = (i 1).val := by
  unfold DotDims.rhsIdx
  rw [dif_neg (show ¬(1 : Fin S19x1024.rank) ∈ dot_S1024x19_S19x1024_S1024x1024_1_0_0_1_n_n.rhsBatch by decide), dif_pos (show (1 : Fin S19x1024.rank) ∈ dot_S1024x19_S19x1024_S1024x1024_1_0_0_1_n_n.rhsNonContracting by decide)]
  rfl
/-- Into a zero accumulator, the product read at row `p` and column `q` is row `p` of the left factor times the right factor, at `q`. -/
theorem mm_ex (a : FVec Ideal S1024x19 .bf16) (b : FVec Ideal S19x1024 .bf16) (p : Fin 1024) (q : Fin 1024) :
    matmul dot_S1024x19_S19x1024_S1024x1024_1_0_0_1_n_n none a b (constant (F := Ideal) S1024x1024 .f32 0x00000000#32) (ix2 p q)
      = Cert.Spec.rdot (fun k => a (ix2 p k)) b q := by
  simp only [matmul]
  rw [Ideal.matmul_constant_zero_apply, ← Equiv.sum_comp (ValueIdx.contrEquiv1 dot_S1024x19_S19x1024_S1024x1024_1_0_0_1_n_n 19 rfl rfl).symm]
  unfold Cert.Spec.rdot
  refine Finset.sum_congr rfl fun k _ => ?_
  have hk := ValueIdx.contrEquiv1_symm_val dot_S1024x19_S19x1024_S1024x1024_1_0_0_1_n_n 19 rfl rfl k
  have el : dot_S1024x19_S19x1024_S1024x1024_1_0_0_1_n_n.lhsIdx (ix2 p q) ((ValueIdx.contrEquiv1 dot_S1024x19_S19x1024_S1024x1024_1_0_0_1_n_n 19 rfl rfl).symm k) = ix2 p k := funext fun a => Fin.ext (by
    match a with
    | ⟨0, _⟩ => exact lhs_ex_0 _ _
    | ⟨1, _⟩ => exact (lhs_ex_1 _ _).trans hk)
  have er : dot_S1024x19_S19x1024_S1024x1024_1_0_0_1_n_n.rhsIdx (ix2 p q) ((ValueIdx.contrEquiv1 dot_S1024x19_S19x1024_S1024x1024_1_0_0_1_n_n 19 rfl rfl).symm k) = ix2 k q := funext fun a => Fin.ext (by
    match a with
    | ⟨0, _⟩ => exact (rhs_ex_0 _ _).trans hk
    | ⟨1, _⟩ => exact rhs_ex_1 _ _)
  rw [el, er]

/-! ### The 1024×1024 by 1024×1024 product -/

theorem lhs_hid_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_hid_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_hid_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_hid_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl
/-- Into a zero accumulator, the product read at row `p` and column `q` is row `p` of the left factor times the right factor, at `q`. -/
theorem mm_hid (a : FVec Ideal S1024x1024 .bf16) (b : FVec Ideal S1024x1024 .bf16) (p : Fin 1024) (q : Fin 1024) :
    matmul dot_S1024x1024_S1024x1024_S1024x1024_1_0_0_1_n_n none a b (constant (F := Ideal) S1024x1024 .f32 0x00000000#32) (ix2 p q)
      = Cert.Spec.rdot (fun k => a (ix2 p k)) b q := by
  simp only [matmul]
  rw [Ideal.matmul_constant_zero_apply, ← Equiv.sum_comp (ValueIdx.contrEquiv1 dot_S1024x1024_S1024x1024_S1024x1024_1_0_0_1_n_n 1024 rfl rfl).symm]
  unfold Cert.Spec.rdot
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_hid_0 _ _
    | ⟨1, _⟩ => exact (lhs_hid_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_hid_0 _ _).trans hk
    | ⟨1, _⟩ => exact rhs_hid_1 _ _)
  rw [el, er]

/-! ### The 1024×1024 by 1024×512 product -/

theorem lhs_fin_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_fin_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_fin_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_fin_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl
/-- Into a zero accumulator, the product read at row `p` and column `q` is row `p` of the left factor times the right factor, at `q`. -/
theorem mm_fin (a : FVec Ideal S1024x1024 .bf16) (b : FVec Ideal S1024x512 .bf16) (p : Fin 1024) (q : Fin 512) :
    matmul dot_S1024x1024_S1024x512_S1024x512_1_0_0_1_n_n none a b (constant (F := Ideal) S1024x512 .f32 0x00000000#32) (ix2 p q)
      = Cert.Spec.rdot (fun k => a (ix2 p k)) b q := by
  simp only [matmul]
  rw [Ideal.matmul_constant_zero_apply, ← Equiv.sum_comp (ValueIdx.contrEquiv1 dot_S1024x1024_S1024x512_S1024x512_1_0_0_1_n_n 1024 rfl rfl).symm]
  unfold Cert.Spec.rdot
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 p q) ((ValueIdx.contrEquiv1 dot_S1024x1024_S1024x512_S1024x512_1_0_0_1_n_n 1024 rfl rfl).symm k) = ix2 p k := funext fun a => Fin.ext (by
    match a with
    | ⟨0, _⟩ => exact lhs_fin_0 _ _
    | ⟨1, _⟩ => exact (lhs_fin_1 _ _).trans hk)
  have er : dot_S1024x1024_S1024x512_S1024x512_1_0_0_1_n_n.rhsIdx (ix2 p q) ((ValueIdx.contrEquiv1 dot_S1024x1024_S1024x512_S1024x512_1_0_0_1_n_n 1024 rfl rfl).symm k) = ix2 k q := funext fun a => Fin.ext (by
    match a with
    | ⟨0, _⟩ => exact (rhs_fin_0 _ _).trans hk
    | ⟨1, _⟩ => exact rhs_fin_1 _ _)
  rw [el, er]

/-! ### The 1024×9 by 9×512 product -/

theorem lhs_nx_0 (i : S1024x512.Idx) (q : dot_S1024x9_S9x512_S1024x512_1_0_0_1_n_n.contr.Idx) :
    (dot_S1024x9_S9x512_S1024x512_1_0_0_1_n_n.lhsIdx i q 0).val = (i 0).val := by
  unfold DotDims.lhsIdx
  rw [dif_neg (show ¬(0 : Fin S1024x9.rank) ∈ dot_S1024x9_S9x512_S1024x512_1_0_0_1_n_n.lhsBatch by decide), dif_pos (show (0 : Fin S1024x9.rank) ∈ dot_S1024x9_S9x512_S1024x512_1_0_0_1_n_n.lhsNonContracting by decide)]
  rfl
theorem lhs_nx_1 (i : S1024x512.Idx) (q : dot_S1024x9_S9x512_S1024x512_1_0_0_1_n_n.contr.Idx) :
    (dot_S1024x9_S9x512_S1024x512_1_0_0_1_n_n.lhsIdx i q 1).val = (q ⟨0, by decide⟩).val :=
  dot_S1024x9_S9x512_S1024x512_1_0_0_1_n_n.lhsIdx_val_of_single rfl i q
theorem rhs_nx_0 (i : S1024x512.Idx) (q : dot_S1024x9_S9x512_S1024x512_1_0_0_1_n_n.contr.Idx) :
    (dot_S1024x9_S9x512_S1024x512_1_0_0_1_n_n.rhsIdx i q 0).val = (q ⟨0, by decide⟩).val :=
  dot_S1024x9_S9x512_S1024x512_1_0_0_1_n_n.rhsIdx_val_of_single rfl i q
theorem rhs_nx_1 (i : S1024x512.Idx) (q : dot_S1024x9_S9x512_S1024x512_1_0_0_1_n_n.contr.Idx) :
    (dot_S1024x9_S9x512_S1024x512_1_0_0_1_n_n.rhsIdx i q 1).val = (i 1).val := by
  unfold DotDims.rhsIdx
  rw [dif_neg (show ¬(1 : Fin S9x512.rank) ∈ dot_S1024x9_S9x512_S1024x512_1_0_0_1_n_n.rhsBatch by decide), dif_pos (show (1 : Fin S9x512.rank) ∈ dot_S1024x9_S9x512_S1024x512_1_0_0_1_n_n.rhsNonContracting by decide)]
  rfl
/-- Into a zero accumulator, the product read at row `p` and column `q` is row `p` of the left factor times the right factor, at `q`. -/
theorem mm_nx (a : FVec Ideal S1024x9 .bf16) (b : FVec Ideal S9x512 .bf16) (p : Fin 1024) (q : Fin 512) :
    matmul dot_S1024x9_S9x512_S1024x512_1_0_0_1_n_n none a b (constant (F := Ideal) S1024x512 .f32 0x00000000#32) (ix2 p q)
      = Cert.Spec.rdot (fun k => a (ix2 p k)) b q := by
  simp only [matmul]
  rw [Ideal.matmul_constant_zero_apply, ← Equiv.sum_comp (ValueIdx.contrEquiv1 dot_S1024x9_S9x512_S1024x512_1_0_0_1_n_n 9 rfl rfl).symm]
  unfold Cert.Spec.rdot
  refine Finset.sum_congr rfl fun k _ => ?_
  have hk := ValueIdx.contrEquiv1_symm_val dot_S1024x9_S9x512_S1024x512_1_0_0_1_n_n 9 rfl rfl k
  have el : dot_S1024x9_S9x512_S1024x512_1_0_0_1_n_n.lhsIdx (ix2 p q) ((ValueIdx.contrEquiv1 dot_S1024x9_S9x512_S1024x512_1_0_0_1_n_n 9 rfl rfl).symm k) = ix2 p k := funext fun a => Fin.ext (by
    match a with
    | ⟨0, _⟩ => exact lhs_nx_0 _ _
    | ⟨1, _⟩ => exact (lhs_nx_1 _ _).trans hk)
  have er : dot_S1024x9_S9x512_S1024x512_1_0_0_1_n_n.rhsIdx (ix2 p q) ((ValueIdx.contrEquiv1 dot_S1024x9_S9x512_S1024x512_1_0_0_1_n_n 9 rfl rfl).symm k) = ix2 k q := funext fun a => Fin.ext (by
    match a with
    | ⟨0, _⟩ => exact (rhs_nx_0 _ _).trans hk
    | ⟨1, _⟩ => exact rhs_nx_1 _ _)
  rw [el, er]

/-! ### The 1024×512 by 512×512 product -/

theorem lhs_ne_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_ne_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_ne_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_ne_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl
/-- Into a zero accumulator, the product read at row `p` and column `q` is row `p` of the left factor times the right factor, at `q`. -/
theorem mm_ne (a : FVec Ideal S1024x512 .bf16) (b : FVec Ideal S512x512 .bf16) (p : Fin 1024) (q : Fin 512) :
    matmul dot_S1024x512_S512x512_S1024x512_1_0_0_1_n_n none a b (constant (F := Ideal) S1024x512 .f32 0x00000000#32) (ix2 p q)
      = Cert.Spec.rdot (fun k => a (ix2 p k)) b q := by
  simp only [matmul]
  rw [Ideal.matmul_constant_zero_apply, ← Equiv.sum_comp (ValueIdx.contrEquiv1 dot_S1024x512_S512x512_S1024x512_1_0_0_1_n_n 512 rfl rfl).symm]
  unfold Cert.Spec.rdot
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact lhs_ne_0 _ _
    | ⟨1, _⟩ => exact (lhs_ne_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (rhs_ne_0 _ _).trans hk
    | ⟨1, _⟩ => exact rhs_ne_1 _ _)
  rw [el, er]

/-! ## Small readings -/

/-- The zero word of the 32-bit format is the extended real `0`. -/
theorem ofBits0 : (Scalar.ofBits .f32 0x00000000#32 : Ideal .f32) = 0 := Ideal.ofBits_zero_f32

/-- Columns 9..17 of a 1024×19 block: column `k` of the cut is column `9 + k` of the block. -/
theorem slice9_apply (X : FVec Ideal S1024x19 .f32) (p : Fin 1024) (k : Fin 9) :
    extractStridedSlice S1024x9 ![0, 9] X slices_S1024x19_o0_9_S1024x9 (ix2 p k)
      = X (ix2 p (⟨9 + k.val, by have := k.isLt; omega⟩ : Fin 19)) :=
  slice2_axis1_apply 9 X slices_S1024x19_o0_9_S1024x9 p k ⟨9 + k.val, by have := k.isLt; omega⟩ rfl

/-- A one-column block repeated along 16 columns reads its column. -/
theorem bcol_apply (x : IVec S1024x1 32) (p : Fin 1024) (g : Fin 16) :
    broadcastTo S1024x16 x broadcasts_S1024x1_S1024x16 (ix2 p g) = x (ix2 p (0 : Fin 1)) := by
  refine broadcastTo_apply x broadcasts_S1024x1_S1024x16 (ix2 p g) (ix2 p (0 : Fin 1)) fun ax => ?_
  match ax with
  | ⟨0, _⟩ =>
    show p.val = if (1024 : ℕ) = 1 then 0 else p.val
    rw [if_neg (by decide)]
  | ⟨1, _⟩ =>
    show (0 : ℕ) = if (1 : ℕ) = 1 then 0 else _
    rw [if_pos rfl]

/-- A one-bit word, widened to 32 bits and converted, is `1` or `0`. -/
theorem sitofp_bit (c : BitVec 1) : (FloatOps.sitofp .f32 (c.setWidth 32) : Ideal .f32) = if c = 1#1 then 1 else 0 := by
  show ((((c.setWidth 32).toInt : ℤ) : ℝ) : EReal) = _
  rcases BitVec.eq_zero_or_eq_one c with h | h
  · subst h
    rw [if_neg (by decide), show ((0#1 : BitVec 1).setWidth 32).toInt = 0 by decide]
    simp
  · subst h
    rw [if_pos rfl, show ((1#1 : BitVec 1).setWidth 32).toInt = 1 by decide]
    simp

/-- Row `p` of the one-hot block is the one-hot row of the graph id in row `p`: the position along the 16 columns is
    compared with the id, and the one-bit answer converted. -/
theorem onehot_apply (x1 : IVec S1024x1 32) (p : Fin 1024) (g : Fin 16) :
    (sitofp (F := Ideal) .f32 (extui 32 (cmpi .eq (iota .tc S1024x16 32 [1] iota_S1024x16_d1_w32)
        (broadcastTo S1024x16 x1 broadcasts_S1024x1_S1024x16)) natLt_1_32) : FVec Ideal S1024x16 .f32) (ix2 p g)
      = Cert.Spec.onehot16 (x1 (ix2 p (0 : Fin 1))) g := by
  rw [sitofp_apply, extui_apply]
  show FloatOps.sitofp .f32 ((IntOp.cmpi .eq (iota .tc S1024x16 32 [1] iota_S1024x16_d1_w32 (ix2 p g))
      (broadcastTo S1024x16 x1 broadcasts_S1024x1_S1024x16 (ix2 p g))).setWidth 32) = _
  rw [iota_single_apply, bcol_apply, sitofp_bit]
  show (if IntOp.cmpi .eq (BitVec.ofNat 32 g.val) (x1 (ix2 p (0 : Fin 1))) = 1#1 then (1 : EReal) else 0)
      = if BitVec.ofNat 32 g.val = x1 (ix2 p (0 : Fin 1)) then 1 else 0
  by_cases h : BitVec.ofNat 32 g.val = x1 (ix2 p (0 : Fin 1))
  · rw [if_pos (IntOp.cmpi_eq.mpr h), if_pos h]
  · rw [if_neg (fun h' => h (IntOp.cmpi_eq.mp h')), if_neg h]

/-- The same, as a row. -/
theorem onehot_row (x1 : IVec S1024x1 32) (p : Fin 1024) :
    (fun g : Fin 16 => (sitofp (F := Ideal) .f32 (extui 32 (cmpi .eq (iota .tc S1024x16 32 [1] iota_S1024x16_d1_w32)
        (broadcastTo S1024x16 x1 broadcasts_S1024x1_S1024x16)) natLt_1_32) : FVec Ideal S1024x16 .f32) (ix2 p g))
      = Cert.Spec.onehot16 (x1 (ix2 p (0 : Fin 1))) :=
  funext fun g => onehot_apply x1 p g

/-! ## The payloads read at an index -/

theorem pay2_eq (x0 : Vec Ideal S1024x19 .f32) : k0_pay2 x0 = x0 := by
  unfold k0_pay2
  exact shapeCast_self _ _

theorem pay4_eq (x7 : Vec Ideal S1024x1024 .bf16) : k0_pay4 x7 = x7 := by
  unfold k0_pay4
  exact shapeCast_self _ _

theorem pay6_eq (x15 : Vec Ideal S1x512 .f32) : k0_pay6 x15 = x15 := by
  unfold k0_pay6
  exact shapeCast_self _ _

/-- The first two hidden layers at row `p`. -/
theorem pay3_apply (x0 : Vec Ideal S1024x19 .f32) (x1 : Vec Ideal S1024x1 .i32) (x2 : Vec Ideal S16x1024 .bf16) (x3 : Vec Ideal S19x1024 .bf16)
    (x4 : Vec Ideal S1x1024 .f32) (x5 : Vec Ideal S1024x1024 .bf16) (x6 : Vec Ideal S1x1024 .f32) (p : Fin 1024) (q : Fin 1024) :
    k0_pay3 x0 x1 x2 x3 x4 x5 x6 (ix2 p q)
      = Cert.Spec.relu (Cert.Spec.lin (Cert.Spec.relu (fun j => (Cert.Spec.rdot (fun k => x0 (ix2 p k)) x3 j
          + Cert.Spec.rdot (Cert.Spec.onehot16 (x1 (ix2 p 0))) x2 j) + x4 (ix2 0 j))) x5 (fun j => x6 (ix2 0 j))) q := by
  unfold k0_pay3 k0_pay2
  simp only [truncf_apply, maximumf_apply, addf_apply, broadcast_apply, shapeCast_self, mm_hid, mm_ex, mm_oh,
    broadcastTo_1b_ab_apply, ofBits0]
  rw [onehot_row]
  rfl

/-- The last two hidden layers, the edge output, and the node perceptron's first products, at row `p`. -/
theorem pay5_apply (v1 : FVec Ideal S1024x19 .f32) (v35 v37 : FVec Ideal S1024x1024 .bf16) (x8 : Vec Ideal S1x1024 .f32)
    (x9 : Vec Ideal S1024x1024 .bf16) (x10 : Vec Ideal S1x1024 .f32) (x11 : Vec Ideal S1024x512 .bf16) (x12 : Vec Ideal S1x512 .f32)
    (x13 : Vec Ideal S9x512 .bf16) (x14 : Vec Ideal S512x512 .bf16) (p : Fin 1024) (q : Fin 512) :
    k0_pay5 v1 v35 v37 x8 x9 x10 x11 x12 x13 x14 (ix2 p q)
      = Cert.Spec.rdot (fun k : Fin 9 => v1 (ix2 p (⟨9 + k.val, by have := k.isLt; omega⟩ : Fin 19))) x13 q
        + Cert.Spec.rdot (Cert.Spec.lin (Cert.Spec.relu (Cert.Spec.lin (Cert.Spec.relu (Cert.Spec.lin (fun k => v35 (ix2 p k)) v37
            (fun j => x8 (ix2 0 j)))) x9 (fun j => x10 (ix2 0 j)))) x11 (fun j => x12 (ix2 0 j))) x14 q := by
  unfold k0_pay5
  simp only [truncf_apply, maximumf_apply, addf_apply, broadcast_apply, shapeCast_self, mm_hid, mm_fin, mm_nx, mm_ne,
    broadcastTo_1b_ab_apply, slice9_apply, ofBits0]
  rfl

/-- The node perceptron's first bias and `max · 0`, and its second layer, at row `p`. -/
theorem pay1_apply (v72 : FVec Ideal S1024x512 .f32) (v74 : FVec Ideal S1x512 .f32) (x16 : Vec Ideal S512x512 .bf16)
    (x17 : Vec Ideal S1x512 .f32) (p : Fin 1024) (q : Fin 512) :
    k0_pay1 v72 v74 x16 x17 (ix2 p q)
      = Cert.Spec.relu (Cert.Spec.lin (Cert.Spec.relu (fun j => v72 (ix2 p j) + v74 (ix2 0 j))) x16 (fun j => x17 (ix2 0 j))) q := by
  unfold k0_pay1
  simp only [truncf_apply, maximumf_apply, addf_apply, broadcast_apply, shapeCast_self, mm_ne,
    broadcastTo_1b_ab_apply, ofBits0]
  rfl

end Pay0

open Pay0

/-! ## The stored value -/

/-- Region 0's stored payload at row `p` and column `q` is the edge function of row `p` of the loaded blocks, at `q`. -/
theorem pay0_apply (x0 : Vec Ideal S1024x19 .f32) (x1 : Vec Ideal S1024x1 .i32) (x2 : Vec Ideal S16x1024 .bf16) (x3 : Vec Ideal S19x1024 .bf16)
    (x4 : Vec Ideal S1x1024 .f32) (x5 : Vec Ideal S1024x1024 .bf16) (x6 : Vec Ideal S1x1024 .f32) (x7 : Vec Ideal S1024x1024 .bf16) (x8 : Vec Ideal S1x1024 .f32)
    (x9 : Vec Ideal S1024x1024 .bf16) (x10 : Vec Ideal S1x1024 .f32) (x11 : Vec Ideal S1024x512 .bf16) (x12 : Vec Ideal S1x512 .f32) (x13 : Vec Ideal S9x512 .bf16)
    (x14 : Vec Ideal S512x512 .bf16) (x15 : Vec Ideal S1x512 .f32) (x16 : Vec Ideal S512x512 .bf16) (x17 : Vec Ideal S1x512 .f32) (p : Fin 1024) (q : Fin 512) :
    k0_pay1 (k0_pay5 (k0_pay2 x0) (k0_pay3 x0 x1 x2 x3 x4 x5 x6) (k0_pay4 x7) x8 x9 x10 x11 x12 x13 x14) (k0_pay6 x15) x16 x17 (ix2 p q)
    = Cert.Spec.edgeK (fun k => x0 (ix2 p k)) (Cert.Spec.onehot16 (x1 (ix2 p 0))) x2 x3 (fun j => x4 (ix2 0 j)) x5 (fun j => x6 (ix2 0 j)) x7 (fun j => x8 (ix2 0 j))
        x9 (fun j => x10 (ix2 0 j)) x11 (fun j => x12 (ix2 0 j)) x13 x14 (fun j => x15 (ix2 0 j)) x16 (fun j => x17 (ix2 0 j)) q := by
  rw [pay1_apply]
  simp only [pay5_apply, pay3_apply, pay2_eq, pay4_eq, pay6_eq]
  rfl

end Cert.KernelIdeal.Hand

end
-- ==== Proof.Val0.lean ====
/-
  The array region 0 leaves, index by index.

  Region 0 runs over 128 points. At point `t` it reads rows `1024 t … 1024 t + 1023` of the gathered edge features
  (19 columns) and of the source nodes' graph ids (1 column), the sixteen weight and bias tables whole, and writes rows
  `1024 t … 1024 t + 1023` of the output (512 columns). Its payload at row `p` of the block is the edge function of row
  `p` of the two row blocks and of the tables; row `p` of block `t` is row `1024 t + p` of the arrays; and the 128 blocks
  of 1024 rows tile the 131072 rows. So the output array, at row `e` and column `q`, is the edge function of row `e` of
  the feature array, of the one-hot row of entry `e` of the graph-id column, and of the tables, at column `q`.
-/
import proofs.«405997_j73959336837504_3_alg».proof.Proof.Region0
import proofs.«405997_j73959336837504_3_alg».proof.Proof.Pay0
import proofs.«405997_j73959336837504_3_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

namespace Val0

variable (V : (c : Dev nD) → (b : Ref sig .tc) → Buf (Elt Ideal) ((c : Thread nD τ).loc b))

theorem hz0 : (![0, 0] : Fin 2 → Nat) = fun _ => 0 := funext fun a => by fin_cases a <;> rfl

/-- Row `e` of the edge activations, column `q`, from the arrays the region finds. -/
def rowK (c : Dev nD) (e : Fin 131072) (q : Fin 512) : EReal :=
  Cert.Spec.edgeK (fun k => V c main_v11 (ix2 e k)) (Cert.Spec.onehot16 (V c main_v13 (ix2 e 0))) (V c main_v20) (V c main_v16) (fun j => V c main_v38 (ix2 0 j))
        (V c main_v29) (fun j => V c main_v39 (ix2 0 j)) (V c main_v30) (fun j => V c main_v40 (ix2 0 j)) (V c main_v31) (fun j => V c main_v41 (ix2 0 j))
        (V c main_v32) (fun j => V c main_v42 (ix2 0 j)) (V c main_v34) (V c main_v36) (fun j => V c main_v43 (ix2 0 j)) (V c main_v37) (fun j => V c main_v44 (ix2 0 j)) q

/-- The whole output array, index by index. -/
def G0 (c : Dev nD) : S131072x512.Idx → EReal := fun i => rowK V c (i 0) (i 1)

/-- The three row-block windows (the features, the graph ids, the output) sit at block `t` of their arrays at point `t`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_18.index t (0 : Fin 2) = t.val ∧ win0_18.index t (1 : Fin 2) = 0 :=
  (by decide +kernel : ∀ t : Fin grid0.N, _)

/-- Window 0's block at point `t` is rows `1024 t … 1024 t + 1023` of the feature array. -/
theorem blk_v11 (c : Dev nD) (t : Fin cfg0.N) (p : Fin 1024) (k : Fin 19) (e : Fin 131072) (he : e.val = t.val * 1024 + p.val) :
    (iblk0 V c 0 t : Vec Ideal S1024x19 .f32) (ix2 p k) = (V c main_v11 : Vec Ideal S131072x19 .f32) (ix2 e k) := by
  obtain ⟨h0, h1, -⟩ := idx_rows t
  unfold iblk0
  rw [View.read_apply]
  show V c main_v11 _ = V c main_v11 _
  congr 1
  funext a
  apply Fin.ext
  match a with
  | ⟨0, _⟩ => show win0_0.index t (0 : Fin 2) * 1024 + 1 * p.val = e.val; rw [h0, he]; omega
  | ⟨1, _⟩ => show win0_0.index t (1 : Fin 2) * 19 + 1 * k.val = k.val; rw [h1]; omega

/-- Window 1's block at point `t` is rows `1024 t … 1024 t + 1023` of the graph-id column. -/
theorem blk_v13 (c : Dev nD) (t : Fin cfg0.N) (p : Fin 1024) (k : Fin 1) (e : Fin 131072) (he : e.val = t.val * 1024 + p.val) :
    (iblk0 V c 1 t : Vec Ideal S1024x1 .i32) (ix2 p k) = (V c main_v13 : Vec Ideal S131072x1 .i32) (ix2 e k) := by
  obtain ⟨-, -, h0, h1, -⟩ := idx_rows t
  unfold iblk0
  rw [View.read_apply]
  show V c main_v13 _ = V c main_v13 _
  congr 1
  funext a
  apply Fin.ext
  match a with
  | ⟨0, _⟩ => show win0_1.index t (0 : Fin 2) * 1024 + 1 * p.val = e.val; rw [h0, he]; omega
  | ⟨1, _⟩ => show win0_1.index t (1 : Fin 2) * 1 + 1 * k.val = k.val; rw [h1]; omega

/-- Window 2 is its whole array at every point. -/
theorem idx_w2 (t : Fin cfg0.N) : win0_2.index t (0 : Fin 2) = 0 ∧ win0_2.index t (1 : Fin 2) = 0 := ⟨rfl, rfl⟩
theorem blk_w2 (c : Dev nD) (t : Fin cfg0.N) :
    (iblk0 V c 2 t : Vec Ideal S16x1024 .bf16) = (V c main_v20 : Vec Ideal S16x1024 .bf16) := by
  obtain ⟨h0, h1⟩ := idx_w2 t
  funext y
  unfold iblk0
  rw [View.read_apply]
  show V c main_v20 _ = V c main_v20 y
  congr 1
  funext a
  apply Fin.ext
  match a with
  | ⟨0, _⟩ => show win0_2.index t (0 : Fin 2) * 16 + 1 * (y 0).val = (y 0).val; rw [h0]; omega
  | ⟨1, _⟩ => show win0_2.index t (1 : Fin 2) * 1024 + 1 * (y 1).val = (y 1).val; rw [h1]; omega

/-- Window 3 is its whole array at every point. -/
theorem idx_w3 (t : Fin cfg0.N) : win0_3.index t (0 : Fin 2) = 0 ∧ win0_3.index t (1 : Fin 2) = 0 := ⟨rfl, rfl⟩
theorem blk_w3 (c : Dev nD) (t : Fin cfg0.N) :
    (iblk0 V c 3 t : Vec Ideal S19x1024 .bf16) = (V c main_v16 : Vec Ideal S19x1024 .bf16) := by
  obtain ⟨h0, h1⟩ := idx_w3 t
  funext y
  unfold iblk0
  rw [View.read_apply]
  show V c main_v16 _ = V c main_v16 y
  congr 1
  funext a
  apply Fin.ext
  match a with
  | ⟨0, _⟩ => show win0_3.index t (0 : Fin 2) * 19 + 1 * (y 0).val = (y 0).val; rw [h0]; omega
  | ⟨1, _⟩ => show win0_3.index t (1 : Fin 2) * 1024 + 1 * (y 1).val = (y 1).val; rw [h1]; omega

/-- Window 4 is its whole array at every point. -/
theorem idx_w4 (t : Fin cfg0.N) : win0_4.index t (0 : Fin 2) = 0 ∧ win0_4.index t (1 : Fin 2) = 0 := ⟨rfl, rfl⟩
theorem blk_w4 (c : Dev nD) (t : Fin cfg0.N) :
    (iblk0 V c 4 t : Vec Ideal S1x1024 .f32) = (V c main_v38 : Vec Ideal S1x1024 .f32) := by
  obtain ⟨h0, h1⟩ := idx_w4 t
  funext y
  unfold iblk0
  rw [View.read_apply]
  show V c main_v38 _ = V c main_v38 y
  congr 1
  funext a
  apply Fin.ext
  match a with
  | ⟨0, _⟩ => show win0_4.index t (0 : Fin 2) * 1 + 1 * (y 0).val = (y 0).val; rw [h0]; omega
  | ⟨1, _⟩ => show win0_4.index t (1 : Fin 2) * 1024 + 1 * (y 1).val = (y 1).val; rw [h1]; omega

/-- Window 5 is its whole array at every point. -/
theorem idx_w5 (t : Fin cfg0.N) : win0_5.index t (0 : Fin 2) = 0 ∧ win0_5.index t (1 : Fin 2) = 0 := ⟨rfl, rfl⟩
theorem blk_w5 (c : Dev nD) (t : Fin cfg0.N) :
    (iblk0 V c 5 t : Vec Ideal S1024x1024 .bf16) = (V c main_v29 : Vec Ideal S1024x1024 .bf16) := by
  obtain ⟨h0, h1⟩ := idx_w5 t
  funext y
  unfold iblk0
  rw [View.read_apply]
  show V c main_v29 _ = V c main_v29 y
  congr 1
  funext a
  apply Fin.ext
  match a with
  | ⟨0, _⟩ => show win0_5.index t (0 : Fin 2) * 1024 + 1 * (y 0).val = (y 0).val; rw [h0]; omega
  | ⟨1, _⟩ => show win0_5.index t (1 : Fin 2) * 1024 + 1 * (y 1).val = (y 1).val; rw [h1]; omega

/-- Window 6 is its whole array at every point. -/
theorem idx_w6 (t : Fin cfg0.N) : win0_6.index t (0 : Fin 2) = 0 ∧ win0_6.index t (1 : Fin 2) = 0 := ⟨rfl, rfl⟩
theorem blk_w6 (c : Dev nD) (t : Fin cfg0.N) :
    (iblk0 V c 6 t : Vec Ideal S1x1024 .f32) = (V c main_v39 : Vec Ideal S1x1024 .f32) := by
  obtain ⟨h0, h1⟩ := idx_w6 t
  funext y
  unfold iblk0
  rw [View.read_apply]
  show V c main_v39 _ = V c main_v39 y
  congr 1
  funext a
  apply Fin.ext
  match a with
  | ⟨0, _⟩ => show win0_6.index t (0 : Fin 2) * 1 + 1 * (y 0).val = (y 0).val; rw [h0]; omega
  | ⟨1, _⟩ => show win0_6.index t (1 : Fin 2) * 1024 + 1 * (y 1).val = (y 1).val; rw [h1]; omega

/-- Window 7 is its whole array at every point. -/
theorem idx_w7 (t : Fin cfg0.N) : win0_7.index t (0 : Fin 2) = 0 ∧ win0_7.index t (1 : Fin 2) = 0 := ⟨rfl, rfl⟩
theorem blk_w7 (c : Dev nD) (t : Fin cfg0.N) :
    (iblk0 V c 7 t : Vec Ideal S1024x1024 .bf16) = (V c main_v30 : Vec Ideal S1024x1024 .bf16) := by
  obtain ⟨h0, h1⟩ := idx_w7 t
  funext y
  unfold iblk0
  rw [View.read_apply]
  show V c main_v30 _ = V c main_v30 y
  congr 1
  funext a
  apply Fin.ext
  match a with
  | ⟨0, _⟩ => show win0_7.index t (0 : Fin 2) * 1024 + 1 * (y 0).val = (y 0).val; rw [h0]; omega
  | ⟨1, _⟩ => show win0_7.index t (1 : Fin 2) * 1024 + 1 * (y 1).val = (y 1).val; rw [h1]; omega

/-- Window 8 is its whole array at every point. -/
theorem idx_w8 (t : Fin cfg0.N) : win0_8.index t (0 : Fin 2) = 0 ∧ win0_8.index t (1 : Fin 2) = 0 := ⟨rfl, rfl⟩
theorem blk_w8 (c : Dev nD) (t : Fin cfg0.N) :
    (iblk0 V c 8 t : Vec Ideal S1x1024 .f32) = (V c main_v40 : Vec Ideal S1x1024 .f32) := by
  obtain ⟨h0, h1⟩ := idx_w8 t
  funext y
  unfold iblk0
  rw [View.read_apply]
  show V c main_v40 _ = V c main_v40 y
  congr 1
  funext a
  apply Fin.ext
  match a with
  | ⟨0, _⟩ => show win0_8.index t (0 : Fin 2) * 1 + 1 * (y 0).val = (y 0).val; rw [h0]; omega
  | ⟨1, _⟩ => show win0_8.index t (1 : Fin 2) * 1024 + 1 * (y 1).val = (y 1).val; rw [h1]; omega

/-- Window 9 is its whole array at every point. -/
theorem idx_w9 (t : Fin cfg0.N) : win0_9.index t (0 : Fin 2) = 0 ∧ win0_9.index t (1 : Fin 2) = 0 := ⟨rfl, rfl⟩
theorem blk_w9 (c : Dev nD) (t : Fin cfg0.N) :
    (iblk0 V c 9 t : Vec Ideal S1024x1024 .bf16) = (V c main_v31 : Vec Ideal S1024x1024 .bf16) := by
  obtain ⟨h0, h1⟩ := idx_w9 t
  funext y
  unfold iblk0
  rw [View.read_apply]
  show V c main_v31 _ = V c main_v31 y
  congr 1
  funext a
  apply Fin.ext
  match a with
  | ⟨0, _⟩ => show win0_9.index t (0 : Fin 2) * 1024 + 1 * (y 0).val = (y 0).val; rw [h0]; omega
  | ⟨1, _⟩ => show win0_9.index t (1 : Fin 2) * 1024 + 1 * (y 1).val = (y 1).val; rw [h1]; omega

/-- Window 10 is its whole array at every point. -/
theorem idx_w10 (t : Fin cfg0.N) : win0_10.index t (0 : Fin 2) = 0 ∧ win0_10.index t (1 : Fin 2) = 0 := ⟨rfl, rfl⟩
theorem blk_w10 (c : Dev nD) (t : Fin cfg0.N) :
    (iblk0 V c 10 t : Vec Ideal S1x1024 .f32) = (V c main_v41 : Vec Ideal S1x1024 .f32) := by
  obtain ⟨h0, h1⟩ := idx_w10 t
  funext y
  unfold iblk0
  rw [View.read_apply]
  show V c main_v41 _ = V c main_v41 y
  congr 1
  funext a
  apply Fin.ext
  match a with
  | ⟨0, _⟩ => show win0_10.index t (0 : Fin 2) * 1 + 1 * (y 0).val = (y 0).val; rw [h0]; omega
  | ⟨1, _⟩ => show win0_10.index t (1 : Fin 2) * 1024 + 1 * (y 1).val = (y 1).val; rw [h1]; omega

/-- Window 11 is its whole array at every point. -/
theorem idx_w11 (t : Fin cfg0.N) : win0_11.index t (0 : Fin 2) = 0 ∧ win0_11.index t (1 : Fin 2) = 0 := ⟨rfl, rfl⟩
theorem blk_w11 (c : Dev nD) (t : Fin cfg0.N) :
    (iblk0 V c 11 t : Vec Ideal S1024x512 .bf16) = (V c main_v32 : Vec Ideal S1024x512 .bf16) := by
  obtain ⟨h0, h1⟩ := idx_w11 t
  funext y
  unfold iblk0
  rw [View.read_apply]
  show V c main_v32 _ = V c main_v32 y
  congr 1
  funext a
  apply Fin.ext
  match a with
  | ⟨0, _⟩ => show win0_11.index t (0 : Fin 2) * 1024 + 1 * (y 0).val = (y 0).val; rw [h0]; omega
  | ⟨1, _⟩ => show win0_11.index t (1 : Fin 2) * 512 + 1 * (y 1).val = (y 1).val; rw [h1]; omega

/-- Window 12 is its whole array at every point. -/
theorem idx_w12 (t : Fin cfg0.N) : win0_12.index t (0 : Fin 2) = 0 ∧ win0_12.index t (1 : Fin 2) = 0 := ⟨rfl, rfl⟩
theorem blk_w12 (c : Dev nD) (t : Fin cfg0.N) :
    (iblk0 V c 12 t : Vec Ideal S1x512 .f32) = (V c main_v42 : Vec Ideal S1x512 .f32) := by
  obtain ⟨h0, h1⟩ := idx_w12 t
  funext y
  unfold iblk0
  rw [View.read_apply]
  show V c main_v42 _ = V c main_v42 y
  congr 1
  funext a
  apply Fin.ext
  match a with
  | ⟨0, _⟩ => show win0_12.index t (0 : Fin 2) * 1 + 1 * (y 0).val = (y 0).val; rw [h0]; omega
  | ⟨1, _⟩ => show win0_12.index t (1 : Fin 2) * 512 + 1 * (y 1).val = (y 1).val; rw [h1]; omega

/-- Window 13 is its whole array at every point. -/
theorem idx_w13 (t : Fin cfg0.N) : win0_13.index t (0 : Fin 2) = 0 ∧ win0_13.index t (1 : Fin 2) = 0 := ⟨rfl, rfl⟩
theorem blk_w13 (c : Dev nD) (t : Fin cfg0.N) :
    (iblk0 V c 13 t : Vec Ideal S9x512 .bf16) = (V c main_v34 : Vec Ideal S9x512 .bf16) := by
  obtain ⟨h0, h1⟩ := idx_w13 t
  funext y
  unfold iblk0
  rw [View.read_apply]
  show V c main_v34 _ = V c main_v34 y
  congr 1
  funext a
  apply Fin.ext
  match a with
  | ⟨0, _⟩ => show win0_13.index t (0 : Fin 2) * 9 + 1 * (y 0).val = (y 0).val; rw [h0]; omega
  | ⟨1, _⟩ => show win0_13.index t (1 : Fin 2) * 512 + 1 * (y 1).val = (y 1).val; rw [h1]; omega

/-- Window 14 is its whole array at every point. -/
theorem idx_w14 (t : Fin cfg0.N) : win0_14.index t (0 : Fin 2) = 0 ∧ win0_14.index t (1 : Fin 2) = 0 := ⟨rfl, rfl⟩
theorem blk_w14 (c : Dev nD) (t : Fin cfg0.N) :
    (iblk0 V c 14 t : Vec Ideal S512x512 .bf16) = (V c main_v36 : Vec Ideal S512x512 .bf16) := by
  obtain ⟨h0, h1⟩ := idx_w14 t
  funext y
  unfold iblk0
  rw [View.read_apply]
  show V c main_v36 _ = V c main_v36 y
  congr 1
  funext a
  apply Fin.ext
  match a with
  | ⟨0, _⟩ => show win0_14.index t (0 : Fin 2) * 512 + 1 * (y 0).val = (y 0).val; rw [h0]; omega
  | ⟨1, _⟩ => show win0_14.index t (1 : Fin 2) * 512 + 1 * (y 1).val = (y 1).val; rw [h1]; omega

/-- Window 15 is its whole array at every point. -/
theorem idx_w15 (t : Fin cfg0.N) : win0_15.index t (0 : Fin 2) = 0 ∧ win0_15.index t (1 : Fin 2) = 0 := ⟨rfl, rfl⟩
theorem blk_w15 (c : Dev nD) (t : Fin cfg0.N) :
    (iblk0 V c 15 t : Vec Ideal S1x512 .f32) = (V c main_v43 : Vec Ideal S1x512 .f32) := by
  obtain ⟨h0, h1⟩ := idx_w15 t
  funext y
  unfold iblk0
  rw [View.read_apply]
  show V c main_v43 _ = V c main_v43 y
  congr 1
  funext a
  apply Fin.ext
  match a with
  | ⟨0, _⟩ => show win0_15.index t (0 : Fin 2) * 1 + 1 * (y 0).val = (y 0).val; rw [h0]; omega
  | ⟨1, _⟩ => show win0_15.index t (1 : Fin 2) * 512 + 1 * (y 1).val = (y 1).val; rw [h1]; omega

/-- Window 16 is its whole array at every point. -/
theorem idx_w16 (t : Fin cfg0.N) : win0_16.index t (0 : Fin 2) = 0 ∧ win0_16.index t (1 : Fin 2) = 0 := ⟨rfl, rfl⟩
theorem blk_w16 (c : Dev nD) (t : Fin cfg0.N) :
    (iblk0 V c 16 t : Vec Ideal S512x512 .bf16) = (V c main_v37 : Vec Ideal S512x512 .bf16) := by
  obtain ⟨h0, h1⟩ := idx_w16 t
  funext y
  unfold iblk0
  rw [View.read_apply]
  show V c main_v37 _ = V c main_v37 y
  congr 1
  funext a
  apply Fin.ext
  match a with
  | ⟨0, _⟩ => show win0_16.index t (0 : Fin 2) * 512 + 1 * (y 0).val = (y 0).val; rw [h0]; omega
  | ⟨1, _⟩ => show win0_16.index t (1 : Fin 2) * 512 + 1 * (y 1).val = (y 1).val; rw [h1]; omega

/-- Window 17 is its whole array at every point. -/
theorem idx_w17 (t : Fin cfg0.N) : win0_17.index t (0 : Fin 2) = 0 ∧ win0_17.index t (1 : Fin 2) = 0 := ⟨rfl, rfl⟩
theorem blk_w17 (c : Dev nD) (t : Fin cfg0.N) :
    (iblk0 V c 17 t : Vec Ideal S1x512 .f32) = (V c main_v44 : Vec Ideal S1x512 .f32) := by
  obtain ⟨h0, h1⟩ := idx_w17 t
  funext y
  unfold iblk0
  rw [View.read_apply]
  show V c main_v44 _ = V c main_v44 y
  congr 1
  funext a
  apply Fin.ext
  match a with
  | ⟨0, _⟩ => show win0_17.index t (0 : Fin 2) * 1 + 1 * (y 0).val = (y 0).val; rw [h0]; omega
  | ⟨1, _⟩ => show win0_17.index t (1 : Fin 2) * 512 + 1 * (y 1).val = (y 1).val; rw [h1]; omega

/-- An element of the output window's block at point `t` sits at row `1024 t + p` of the output array. -/
theorem emb_v45 (t : Fin cfg0.N) (p : Fin 1024) (q : Fin 512) (e : Fin 131072) (he : e.val = t.val * 1024 + p.val) :
    ((cfg0.win 18).blk t).view.emb (ix2 p q) = (ix2 e q : S131072x512.Idx) := by
  obtain ⟨-, -, -, -, h0, h1⟩ := idx_rows t
  funext a
  apply Fin.ext
  match a with
  | ⟨0, _⟩ => show win0_18.index t (0 : Fin 2) * 1024 + 1 * p.val = e.val; rw [h0, he]; omega
  | ⟨1, _⟩ => show win0_18.index t (1 : Fin 2) * 512 + 1 * q.val = q.val; rw [h1]; omega

/-- What point `t` writes back is block `t` of `G0`. -/
theorem flushed0_eq (c : Dev nD) (t : Fin cfg0.N) :
    (dat0 V c).flushed 18 t = ((cfg0.win 18).blk t).view.read (Elt Ideal) (G0 V c) := by
  show (cfg0.win 18).cut (cfg0.grid.coords t) ((dat0 V c).after 18 t) = _
  rw [after0_18]
  unfold out0_18
  rw [View.canon_unit_zero hz0]
  simp only [View.ld_unit_zero (S := S1024x19) hz0, View.ld_unit_zero (S := S1024x1) hz0, View.ld_unit_zero (S := S16x1024) hz0, View.ld_unit_zero (S := S19x1024) hz0, View.ld_unit_zero (S := S1x1024) hz0, View.ld_unit_zero (S := S1024x1024) hz0, View.ld_unit_zero (S := S1024x512) hz0, View.ld_unit_zero (S := S1x512) hz0, View.ld_unit_zero (S := S9x512) hz0, View.ld_unit_zero (S := S512x512) hz0]
  funext y
  obtain ⟨p, q, rfl⟩ : ∃ (p : Fin 1024) (q : Fin 512), y = ix2 p q := ⟨y 0, y 1, eq_ix2 y⟩
  have hN : cfg0.N = 128 := N_0
  have ht : t.val < 128 := hN ▸ t.isLt
  have hlt : t.val * 1024 + p.val < 131072 := by have := p.isLt; omega
  refine (pay0_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) p q).trans ?_
  rw [View.read_apply, emb_v45 t p q ⟨t.val * 1024 + p.val, hlt⟩ rfl]
  show _ = rowK V c ⟨t.val * 1024 + p.val, hlt⟩ q
  unfold rowK
  rw [show (fun k => (iblk0 V c 0 t : Vec Ideal S1024x19 .f32) (ix2 p k)) = fun k => (V c main_v11 : Vec Ideal S131072x19 .f32) (ix2 ⟨t.val * 1024 + p.val, hlt⟩ k) from funext fun k => blk_v11 V c t p k _ rfl,
    blk_v13 V c t p 0 ⟨t.val * 1024 + p.val, hlt⟩ rfl,
    blk_w2 V c t, blk_w3 V c t, blk_w4 V c t, blk_w5 V c t, blk_w6 V c t, blk_w7 V c t, blk_w8 V c t, blk_w9 V c t, blk_w10 V c t, blk_w11 V c t, blk_w12 V c t, blk_w13 V c t, blk_w14 V c t, blk_w15 V c t, blk_w16 V c t, blk_w17 V c t]

/-- An index of the output array is in point `t`'s block iff each coordinate is in the block's range on its axis. -/
theorem mem_blk18 (t : Fin cfg0.N) (i : S131072x512.Idx) :
    i ∈ ((cfg0.win 18).blk t).view.set ↔ ∀ a : Fin 2, win0_18.index t a * S1024x512.size a ≤ (i a).val ∧ (i a).val < win0_18.index t a * S1024x512.size a + S1024x512.size a := by
  show i ∈ ((View.whole main_v45).slice (win0_18.rect t)).set ↔ _
  rw [View.set_slice_whole, Rect.mem_set_unit]
  exact Iff.rfl

/-- Row `r` of the output is in the block of point `r / 1024`: the 128 blocks of 1024 rows tile the 131072 rows. -/
theorem cover18 (i : S131072x512.Idx) : ∃ t : Fin cfg0.N, (cfg0.win 18).flush t = true ∧ i ∈ ((cfg0.win 18).blk t).view.set := by
  have hi0 : (i 0).val < 131072 := (i 0).isLt
  have hi1 : (i 1).val < 512 := (i 1).isLt
  have hN : cfg0.N = 128 := N_0
  have hlt : (i 0).val / 1024 < cfg0.N := by rw [hN]; omega
  refine ⟨⟨(i 0).val / 1024, hlt⟩, flush0_18 _, ?_⟩
  rw [mem_blk18]
  obtain ⟨-, -, -, -, h0, h1⟩ := idx_rows ⟨(i 0).val / 1024, hlt⟩
  intro a
  match a with
  | ⟨0, _⟩ =>
    show win0_18.index ⟨(i 0).val / 1024, hlt⟩ (0 : Fin 2) * 1024 ≤ (i 0).val ∧ (i 0).val < win0_18.index ⟨(i 0).val / 1024, hlt⟩ (0 : Fin 2) * 1024 + 1024
    rw [h0]; show (i 0).val / 1024 * 1024 ≤ (i 0).val ∧ (i 0).val < (i 0).val / 1024 * 1024 + 1024; omega
  | ⟨1, _⟩ =>
    show win0_18.index ⟨(i 0).val / 1024, hlt⟩ (1 : Fin 2) * 512 ≤ (i 1).val ∧ (i 1).val < win0_18.index ⟨(i 0).val / 1024, hlt⟩ (1 : Fin 2) * 512 + 512
    rw [h1]; omega

/-- The output array after the region is `G0` of the arrays at the region's entry. -/
theorem final0 (c : Dev nD) : (dat0 V c).arrAt 18 cfg0.N = G0 V c :=
  (dat0 V c).arrAt_eq_of_cover 18 (G0 V c) (fun t _ => flushed0_eq V c t) cover18

end Val0

section Value0

variable (V : (c : Dev nD) → (b : Ref sig .tc) → Buf (Elt Ideal) ((c : Thread nD τ).loc b))

/-- THE VALUE OF REGION 0: row `e`, column `q` of the array it leaves is the edge function of row `e` of its input arrays. -/
theorem region0_value (c : Dev nD) (e : Fin 131072) (q : Fin 512) :
    ((dat0 (F := Ideal) V c).arrAt 18 cfg0.N) (ix2 e q)
    = Cert.Spec.edgeK (fun k => V c main_v11 (ix2 e k)) (Cert.Spec.onehot16 (V c main_v13 (ix2 e 0))) (V c main_v20) (V c main_v16) (fun j => V c main_v38 (ix2 0 j))
        (V c main_v29) (fun j => V c main_v39 (ix2 0 j)) (V c main_v30) (fun j => V c main_v40 (ix2 0 j)) (V c main_v31) (fun j => V c main_v41 (ix2 0 j))
        (V c main_v32) (fun j => V c main_v42 (ix2 0 j)) (V c main_v34) (V c main_v36) (fun j => V c main_v43 (ix2 0 j)) (V c main_v37) (fun j => V c main_v44 (ix2 0 j)) q := by
  rw [Val0.final0]
  rfl

end Value0

end Cert.KernelIdeal.Hand

end
-- ==== Proof.Pay1.lean ====
/-
  Region 1's stored block, one row at a time. Each of the four products into a zero accumulator, read at (p, q), is a
  row of its left operand times a column of its right operand; the bias rows are broadcast over the 1024 rows; the
  maximum is against the zero splat; a narrowing of format is the identity on the extended reals, and so is a cast of a
  shape to itself; the one-hot block compares the position along axis 1 with the row's graph id. Composed, row p of the
  stored column is the node perceptron of row p of the loaded blocks.
-/
import proofs.«405997_j73959336837504_3_alg».proof.Proof.Gen.KernelIdeal.Skeleton
import proofs.«405997_j73959336837504_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand.Pay1

open Cert.KernelIdeal Cert.KernelIdeal.Gen Idealize.ShloMosaic Idealize.ShloMosaic.ValueIdx

/-! ## The product of a [1024,16] block with a [16,512] table, read at (p, q) -/

theorem lhsA_0 (i : S1024x512.Idx) (q : dot_S1024x16_S16x512_S1024x512_1_0_0_1_n_n.contr.Idx) :
    (dot_S1024x16_S16x512_S1024x512_1_0_0_1_n_n.lhsIdx i q 0).val = (i 0).val := by
  unfold DotDims.lhsIdx
  rw [dif_neg (show ¬(0 : Fin S1024x16.rank) ∈ dot_S1024x16_S16x512_S1024x512_1_0_0_1_n_n.lhsBatch by decide), dif_pos (show (0 : Fin S1024x16.rank) ∈ dot_S1024x16_S16x512_S1024x512_1_0_0_1_n_n.lhsNonContracting by decide)]
  rfl
theorem lhsA_1 (i : S1024x512.Idx) (q : dot_S1024x16_S16x512_S1024x512_1_0_0_1_n_n.contr.Idx) :
    (dot_S1024x16_S16x512_S1024x512_1_0_0_1_n_n.lhsIdx i q 1).val = (q ⟨0, by decide⟩).val :=
  dot_S1024x16_S16x512_S1024x512_1_0_0_1_n_n.lhsIdx_val_of_single rfl i q
theorem rhsA_0 (i : S1024x512.Idx) (q : dot_S1024x16_S16x512_S1024x512_1_0_0_1_n_n.contr.Idx) :
    (dot_S1024x16_S16x512_S1024x512_1_0_0_1_n_n.rhsIdx i q 0).val = (q ⟨0, by decide⟩).val :=
  dot_S1024x16_S16x512_S1024x512_1_0_0_1_n_n.rhsIdx_val_of_single rfl i q
theorem rhsA_1 (i : S1024x512.Idx) (q : dot_S1024x16_S16x512_S1024x512_1_0_0_1_n_n.contr.Idx) :
    (dot_S1024x16_S16x512_S1024x512_1_0_0_1_n_n.rhsIdx i q 1).val = (i 1).val := by
  unfold DotDims.rhsIdx
  rw [dif_neg (show ¬(1 : Fin S16x512.rank) ∈ dot_S1024x16_S16x512_S1024x512_1_0_0_1_n_n.rhsBatch by decide), dif_pos (show (1 : Fin S16x512.rank) ∈ dot_S1024x16_S16x512_S1024x512_1_0_0_1_n_n.rhsNonContracting by decide)]
  rfl
/-- Into the zero accumulator the product at (p, q) is row p of the left block times column q of the table. -/
theorem mmA_apply (a : FVec Ideal S1024x16 .bf16) (b : FVec Ideal S16x512 .bf16) (p : Fin 1024) (q : Fin 512) :
    matmul dot_S1024x16_S16x512_S1024x512_1_0_0_1_n_n none a b (constant (F := Ideal) S1024x512 .f32 0x00000000#32) (ix2 p q)
      = Cert.Spec.rdot (fun k => a (ix2 p k)) b q := by
  simp only [matmul]
  rw [Ideal.matmul_constant_zero_apply, ← Equiv.sum_comp (ValueIdx.contrEquiv1 dot_S1024x16_S16x512_S1024x512_1_0_0_1_n_n 16 rfl rfl).symm]
  unfold Cert.Spec.rdot
  refine Finset.sum_congr rfl fun k _ => ?_
  have hk := ValueIdx.contrEquiv1_symm_val dot_S1024x16_S16x512_S1024x512_1_0_0_1_n_n 16 rfl rfl k
  have el : dot_S1024x16_S16x512_S1024x512_1_0_0_1_n_n.lhsIdx (ix2 p q) ((ValueIdx.contrEquiv1 dot_S1024x16_S16x512_S1024x512_1_0_0_1_n_n 16 rfl rfl).symm k) = ix2 p k := funext fun a => Fin.ext (by
    match a with
    | ⟨0, _⟩ => exact lhsA_0 _ _
    | ⟨1, _⟩ => exact (lhsA_1 _ _).trans hk)
  have er : dot_S1024x16_S16x512_S1024x512_1_0_0_1_n_n.rhsIdx (ix2 p q) ((ValueIdx.contrEquiv1 dot_S1024x16_S16x512_S1024x512_1_0_0_1_n_n 16 rfl rfl).symm k) = ix2 k q := funext fun a => Fin.ext (by
    match a with
    | ⟨0, _⟩ => exact (rhsA_0 _ _).trans hk
    | ⟨1, _⟩ => exact rhsA_1 _ _)
  rw [el, er]

/-! ## The one-hot entry -/

/-- A comparison bit widened to a word and converted is 1 where the words agree and 0 elsewhere. -/
theorem onehot_word (a b : BitVec 32) :
    (FloatOps.sitofp .f32 ((IntOp.cmpi .eq a b).setWidth 32) : Ideal .f32) = if a = b then 1 else 0 := by
  show ((((IntOp.cmpi .eq a b).setWidth 32).toInt : ℝ) : EReal) = _
  by_cases h : a = b
  · rw [if_pos h]
    have e : (IntOp.cmpi .eq a b).setWidth 32 = 1#32 := by simp [IntOp.cmpi, h]
    rw [e]
    norm_num
  · rw [if_neg h]
    have hb : (a == b) = false := beq_eq_false_iff_ne.mpr h
    have e : (IntOp.cmpi .eq a b).setWidth 32 = 0#32 := by simp [IntOp.cmpi, hb]
    rw [e]
    simp

/-! ## The product of a [1024,9] block with a [9,512] table -/

theorem lhsB_0 (i : S1024x512.Idx) (q : dot_S1024x9_S9x512_S1024x512_1_0_0_1_n_n.contr.Idx) :
    (dot_S1024x9_S9x512_S1024x512_1_0_0_1_n_n.lhsIdx i q 0).val = (i 0).val := by
  unfold DotDims.lhsIdx
  rw [dif_neg (show ¬(0 : Fin S1024x9.rank) ∈ dot_S1024x9_S9x512_S1024x512_1_0_0_1_n_n.lhsBatch by decide), dif_pos (show (0 : Fin S1024x9.rank) ∈ dot_S1024x9_S9x512_S1024x512_1_0_0_1_n_n.lhsNonContracting by decide)]
  rfl
theorem lhsB_1 (i : S1024x512.Idx) (q : dot_S1024x9_S9x512_S1024x512_1_0_0_1_n_n.contr.Idx) :
    (dot_S1024x9_S9x512_S1024x512_1_0_0_1_n_n.lhsIdx i q 1).val = (q ⟨0, by decide⟩).val :=
  dot_S1024x9_S9x512_S1024x512_1_0_0_1_n_n.lhsIdx_val_of_single rfl i q
theorem rhsB_0 (i : S1024x512.Idx) (q : dot_S1024x9_S9x512_S1024x512_1_0_0_1_n_n.contr.Idx) :
    (dot_S1024x9_S9x512_S1024x512_1_0_0_1_n_n.rhsIdx i q 0).val = (q ⟨0, by decide⟩).val :=
  dot_S1024x9_S9x512_S1024x512_1_0_0_1_n_n.rhsIdx_val_of_single rfl i q
theorem rhsB_1 (i : S1024x512.Idx) (q : dot_S1024x9_S9x512_S1024x512_1_0_0_1_n_n.contr.Idx) :
    (dot_S1024x9_S9x512_S1024x512_1_0_0_1_n_n.rhsIdx i q 1).val = (i 1).val := by
  unfold DotDims.rhsIdx
  rw [dif_neg (show ¬(1 : Fin S9x512.rank) ∈ dot_S1024x9_S9x512_S1024x512_1_0_0_1_n_n.rhsBatch by decide), dif_pos (show (1 : Fin S9x512.rank) ∈ dot_S1024x9_S9x512_S1024x512_1_0_0_1_n_n.rhsNonContracting by decide)]
  rfl
/-- Into the zero accumulator the product at (p, q) is row p of the left block times column q of the table. -/
theorem mmB_apply (a : FVec Ideal S1024x9 .bf16) (b : FVec Ideal S9x512 .bf16) (p : Fin 1024) (q : Fin 512) :
    matmul dot_S1024x9_S9x512_S1024x512_1_0_0_1_n_n none a b (constant (F := Ideal) S1024x512 .f32 0x00000000#32) (ix2 p q)
      = Cert.Spec.rdot (fun k => a (ix2 p k)) b q := by
  simp only [matmul]
  rw [Ideal.matmul_constant_zero_apply, ← Equiv.sum_comp (ValueIdx.contrEquiv1 dot_S1024x9_S9x512_S1024x512_1_0_0_1_n_n 9 rfl rfl).symm]
  unfold Cert.Spec.rdot
  refine Finset.sum_congr rfl fun k _ => ?_
  have hk := ValueIdx.contrEquiv1_symm_val dot_S1024x9_S9x512_S1024x512_1_0_0_1_n_n 9 rfl rfl k
  have el : dot_S1024x9_S9x512_S1024x512_1_0_0_1_n_n.lhsIdx (ix2 p q) ((ValueIdx.contrEquiv1 dot_S1024x9_S9x512_S1024x512_1_0_0_1_n_n 9 rfl rfl).symm k) = ix2 p k := funext fun a => Fin.ext (by
    match a with
    | ⟨0, _⟩ => exact lhsB_0 _ _
    | ⟨1, _⟩ => exact (lhsB_1 _ _).trans hk)
  have er : dot_S1024x9_S9x512_S1024x512_1_0_0_1_n_n.rhsIdx (ix2 p q) ((ValueIdx.contrEquiv1 dot_S1024x9_S9x512_S1024x512_1_0_0_1_n_n 9 rfl rfl).symm k) = ix2 k q := funext fun a => Fin.ext (by
    match a with
    | ⟨0, _⟩ => exact (rhsB_0 _ _).trans hk
    | ⟨1, _⟩ => exact rhsB_1 _ _)
  rw [el, er]

/-! ## The product of a [1024,512] block with a [512,512] table -/

theorem lhsC_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhsC_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhsC_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhsC_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl
/-- Into the zero accumulator the product at (p, q) is row p of the left block times column q of the table. -/
theorem mmC_apply (a : FVec Ideal S1024x512 .bf16) (b : FVec Ideal S512x512 .bf16) (p : Fin 1024) (q : Fin 512) :
    matmul dot_S1024x512_S512x512_S1024x512_1_0_0_1_n_n none a b (constant (F := Ideal) S1024x512 .f32 0x00000000#32) (ix2 p q)
      = Cert.Spec.rdot (fun k => a (ix2 p k)) b q := by
  simp only [matmul]
  rw [Ideal.matmul_constant_zero_apply, ← Equiv.sum_comp (ValueIdx.contrEquiv1 dot_S1024x512_S512x512_S1024x512_1_0_0_1_n_n 512 rfl rfl).symm]
  unfold Cert.Spec.rdot
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact lhsC_0 _ _
    | ⟨1, _⟩ => exact (lhsC_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (rhsC_0 _ _).trans hk
    | ⟨1, _⟩ => exact rhsC_1 _ _)
  rw [el, er]

/-! ## The product of a [1024,512] block with a [512,1] column -/

theorem lhsD_0 (i : S1024x1.Idx) (q : dot_S1024x512_S512x1_S1024x1_1_0_0_1_n_n.contr.Idx) :
    (dot_S1024x512_S512x1_S1024x1_1_0_0_1_n_n.lhsIdx i q 0).val = (i 0).val := by
  unfold DotDims.lhsIdx
  rw [dif_neg (show ¬(0 : Fin S1024x512.rank) ∈ dot_S1024x512_S512x1_S1024x1_1_0_0_1_n_n.lhsBatch by decide), dif_pos (show (0 : Fin S1024x512.rank) ∈ dot_S1024x512_S512x1_S1024x1_1_0_0_1_n_n.lhsNonContracting by decide)]
  rfl
theorem lhsD_1 (i : S1024x1.Idx) (q : dot_S1024x512_S512x1_S1024x1_1_0_0_1_n_n.contr.Idx) :
    (dot_S1024x512_S512x1_S1024x1_1_0_0_1_n_n.lhsIdx i q 1).val = (q ⟨0, by decide⟩).val :=
  dot_S1024x512_S512x1_S1024x1_1_0_0_1_n_n.lhsIdx_val_of_single rfl i q
theorem rhsD_0 (i : S1024x1.Idx) (q : dot_S1024x512_S512x1_S1024x1_1_0_0_1_n_n.contr.Idx) :
    (dot_S1024x512_S512x1_S1024x1_1_0_0_1_n_n.rhsIdx i q 0).val = (q ⟨0, by decide⟩).val :=
  dot_S1024x512_S512x1_S1024x1_1_0_0_1_n_n.rhsIdx_val_of_single rfl i q
theorem rhsD_1 (i : S1024x1.Idx) (q : dot_S1024x512_S512x1_S1024x1_1_0_0_1_n_n.contr.Idx) :
    (dot_S1024x512_S512x1_S1024x1_1_0_0_1_n_n.rhsIdx i q 1).val = (i 1).val := by
  unfold DotDims.rhsIdx
  rw [dif_neg (show ¬(1 : Fin S512x1.rank) ∈ dot_S1024x512_S512x1_S1024x1_1_0_0_1_n_n.rhsBatch by decide), dif_pos (show (1 : Fin S512x1.rank) ∈ dot_S1024x512_S512x1_S1024x1_1_0_0_1_n_n.rhsNonContracting by decide)]
  rfl
/-- Into the zero accumulator the product at (p, q) is row p of the left block times the column. -/
theorem mmD_apply (a : FVec Ideal S1024x512 .bf16) (b : FVec Ideal S512x1 .bf16) (p : Fin 1024) (q : Fin 1) :
    matmul dot_S1024x512_S512x1_S1024x1_1_0_0_1_n_n none a b (constant (F := Ideal) S1024x1 .f32 0x00000000#32) (ix2 p q)
      = Cert.Spec.rdot (fun k => a (ix2 p k)) b q := by
  simp only [matmul]
  rw [Ideal.matmul_constant_zero_apply, ← Equiv.sum_comp (ValueIdx.contrEquiv1 dot_S1024x512_S512x1_S1024x1_1_0_0_1_n_n 512 rfl rfl).symm]
  unfold Cert.Spec.rdot
  refine Finset.sum_congr rfl fun k _ => ?_
  have hk := ValueIdx.contrEquiv1_symm_val dot_S1024x512_S512x1_S1024x1_1_0_0_1_n_n 512 rfl rfl k
  have el : dot_S1024x512_S512x1_S1024x1_1_0_0_1_n_n.lhsIdx (ix2 p q) ((ValueIdx.contrEquiv1 dot_S1024x512_S512x1_S1024x1_1_0_0_1_n_n 512 rfl rfl).symm k) = ix2 p k := funext fun a => Fin.ext (by
    match a with
    | ⟨0, _⟩ => exact lhsD_0 _ _
    | ⟨1, _⟩ => exact (lhsD_1 _ _).trans hk)
  have er : dot_S1024x512_S512x1_S1024x1_1_0_0_1_n_n.rhsIdx (ix2 p q) ((ValueIdx.contrEquiv1 dot_S1024x512_S512x1_S1024x1_1_0_0_1_n_n 512 rfl rfl).symm k) = ix2 k q := funext fun a => Fin.ext (by
    match a with
    | ⟨0, _⟩ => exact (rhsD_0 _ _).trans hk
    | ⟨1, _⟩ => exact rhsD_1 _ _)
  rw [el, er]

/-! ## A column broadcast over many columns, and the one-hot block -/

/-- An `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot block at (p, g): 1 where position g is the graph id of row p, else 0. -/
theorem onehot_apply (y2 : IVec S1024x1 32) (hb : S1024x1.Broadcasts S1024x16)
    (hi : S1024x16.Iotas .tc 32 [1]) (hw : 1 < 32) (hf : FTy.bits .bf16 < FTy.bits .f32) (p : Fin 1024) (g : Fin 16) :
    (truncf .bf16 (sitofp .f32 (extui 32 (cmpi .eq (iota .tc S1024x16 32 [1] hi) (broadcastTo S1024x16 y2 hb)) hw) : FVec Ideal S1024x16 .f32) hf : FVec Ideal S1024x16 .bf16) (ix2 p g)
      = Cert.Spec.onehot16 (y2 (ix2 p 0)) g := by
  show (FloatOps.sitofp .f32 ((IntOp.cmpi .eq (iota .tc S1024x16 32 [1] hi (ix2 p g)) (broadcastTo S1024x16 y2 hb (ix2 p g))).setWidth 32) : Ideal .f32) = _
  rw [iota_single_apply, broadcastTo_a1_ab_apply, onehot_word]
  rfl

end Cert.KernelIdeal.Hand.Pay1

namespace Cert.KernelIdeal.Hand

open Cert.KernelIdeal Cert.KernelIdeal.Gen Idealize.ShloMosaic Idealize.ShloMosaic.ValueIdx

/-- Region 1's stored block at row p: the node perceptron of row p of the loaded blocks. The last product's left
    operand at (p, k) is the hidden activation k of that row: the three partial products plus the bias row, against 0. -/
theorem pay1_apply (y0 : Vec Ideal S1024x9 .f32) (y1 : Vec Ideal S1024x512 .f32) (y2 : Vec Ideal S1024x1 .i32) (y3 : Vec Ideal S16x512 .bf16) (y4 : Vec Ideal S9x512 .bf16)
    (y5 : Vec Ideal S512x512 .bf16) (y6 : Vec Ideal S1x512 .f32) (y7 : Vec Ideal S512x1 .bf16) (y8 : Vec Ideal S1x1 .f32) (p : Fin 1024) :
    k1_pay1 (k1_pay2 y2 y3 y0 y1 y4 y5 y6 y7) y8 (ix2 p 0)
    = Cert.Spec.nodeK (fun k => y0 (ix2 p k)) (fun j => y1 (ix2 p j)) (Cert.Spec.onehot16 (y2 (ix2 p 0))) y3 y4 y5 (fun j => y6 (ix2 0 j)) y7 (y8 (ix2 0 0)) := by
  unfold k1_pay1 k1_pay2 Cert.Spec.nodeK
  dsimp only
  simp only [shapeCast_self]
  rw [addf_apply, Pay1.mmD_apply, broadcastTo_1b_ab_apply]
  refine congrArg₂ (· + ·) (congrArg (fun r => Cert.Spec.rdot r y7 0) (funext fun k => ?_)) rfl
  rw [truncf_apply, maximumf_apply, addf_apply, addf_apply, addf_apply, broadcast_apply, Pay1.mmB_apply, Pay1.mmC_apply, Pay1.mmA_apply, broadcastTo_1b_ab_apply]
  unfold Cert.Spec.relu
  refine congrArg₂ max (congrArg₂ (· + ·) (congrArg₂ (· + ·) (congrArg₂ (· + ·) rfl rfl)
    (congrArg (fun r => Cert.Spec.rdot r y3 k) (funext fun g => Pay1.onehot_apply y2 _ _ _ _ p g))) rfl) Ideal.ofBits_zero_f32

end Cert.KernelIdeal.Hand

end
-- ==== Proof.Val1.lean ====
/-
  What region 1 (the node kernel: 16 grid points, each a block of 1024 rows) leaves in its output column, read entry by
  entry. The block a point stores is, row by row, the node perceptron of that row of the point's input blocks; a
  row-block window's block at point t holds rows 1024 t … 1024 t + 1023 of its array, and a weight table or bias row is
  fetched whole; so the block point t writes back is block t of ONE column, whose entry (n, 0) is the node perceptron of
  row n of the input arrays. The 16 blocks of 1024 rows fill the 16384 rows (row r lies in block r / 1024), so after the
  last point the output column is that column.
-/
import proofs.«405997_j73959336837504_3_alg».proof.Proof.Region1
import proofs.«405997_j73959336837504_3_alg».proof.Proof.Pay1
import proofs.«405997_j73959336837504_3_alg».proof.Proof.Spec
import Idealize.ShloMosaic.Lib.Pipeline.Value
import Idealize.ShloMosaic.Lib.ValueIdx

noncomputable section

namespace Cert.KernelIdeal.Hand.Val1

open Cert.KernelIdeal Cert.KernelIdeal.Gen
open Idealize.ShloMosaic Idealize.ShloMosaic.TcCoe Idealize.ShloMosaic.ValueIdx Idealize.SL.Sem
open Idealize.ShloMosaic.Pipeline (Dat)

section Val1
variable (V : (c : Dev nD) → (b : Ref sig .tc) → Buf (Elt Ideal) ((c : Thread nD τ).loc b))

/-- The zero offsets, however spelt. -/
theorem zero_offsets : (![0, 0] : Fin 2 → Nat) = fun _ => 0 := funext fun a => by fin_cases a <;> rfl

/-- Node `n`'s output as the region's input arrays give it: the node perceptron of row `n` of the features, of the
    aggregated activations and of the graph ids, against the whole weight tables. -/
def nodeRow (c : Dev nD) (n : Fin 16384) : EReal :=
  Cert.Spec.nodeK (fun k => V c main_arg0 (ix2 n k)) (fun j => V c main_v57 (ix2 n j)) (Cert.Spec.onehot16 (V c main_v14 (ix2 n 0))) (V c main_v28) (V c main_v22) (V c main_v24)
    (fun j => V c main_v59 (ix2 0 j)) (V c main_v58) (V c main_v60 (ix2 0 0))

/-- The whole output column: entry (n, 0) is node `n`'s output. -/
def nodeCol (c : Dev nD) : S16384x1.Idx → EReal := fun i => nodeRow V c ⟨(i 0).val, idx2_lt0 i⟩

/-- The node perceptron at equal arguments. -/
theorem nodeK_congr {x x' : Fin 9 → EReal} {ag ag' : Fin 512 → EReal} {oh oh' : Fin 16 → EReal} {H2 H2' : Cert.Spec.Mat 16 512}
    {Wx Wx' : Cert.Spec.Mat 9 512} {Wa Wa' : Cert.Spec.Mat 512 512} {b0 b0' : Fin 512 → EReal} {w1 w1' : Cert.Spec.Mat 512 1} {b1 b1' : EReal}
    (hx : x = x') (hag : ag = ag') (hoh : oh = oh') (hH : H2 = H2') (hWx : Wx = Wx') (hWa : Wa = Wa') (hb0 : b0 = b0') (hw1 : w1 = w1') (hb1 : b1 = b1') :
    Cert.Spec.nodeK x ag oh H2 Wx Wa b0 w1 b1 = Cert.Spec.nodeK x' ag' oh' H2' Wx' Wa' b0' w1' b1' := by
  subst hx hag hoh hH hWx hWa hb0 hw1 hb1; rfl

/-- The index maps over the 16 points: a row-block window's block index is (t, 0), a whole window's (0, 0). -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-! ## Each input block read where its array says

A block's coordinate in its array is the block index times the block's size plus the coordinate inside the block. -/

/-- Row `p` of the feature block at point `t` is row `1024 t + p` of the feature array. -/
theorem blk1_0 (c : Dev nD) (t : Fin cfg1.N) (p : Fin 1024) (k : Fin 9) (n : Fin 16384) (hn : n.val = t.val * 1024 + p.val) :
    (iblk1 V c 0 t : Vec Ideal S1024x9 .f32) (ix2 p k) = (V c main_arg0 : S16384x9.Idx → EReal) (ix2 n k) := by
  obtain ⟨e0, e1, -, -, -, -, -, -, -, -, -, -, -, -, -, -, -, -, -, -⟩ := index_maps1 t
  show V c main_arg0 (((cfg1.win 0).blk t).view.emb (ix2 p k)) = _
  congr 1
  funext a; apply Fin.ext
  match a with
  | ⟨0, _⟩ => show win1_0.index t (0 : Fin 2) * 1024 + 1 * p.val = n.val; omega
  | ⟨1, _⟩ => show win1_0.index t (1 : Fin 2) * 9 + 1 * k.val = k.val; omega

/-- Row `p` of the aggregated-activation block at point `t` is row `1024 t + p` of that array. -/
theorem blk1_1 (c : Dev nD) (t : Fin cfg1.N) (p : Fin 1024) (j : Fin 512) (n : Fin 16384) (hn : n.val = t.val * 1024 + p.val) :
    (iblk1 V c 1 t : Vec Ideal S1024x512 .f32) (ix2 p j) = (V c main_v57 : S16384x512.Idx → EReal) (ix2 n j) := by
  obtain ⟨-, -, e0, e1, -, -, -, -, -, -, -, -, -, -, -, -, -, -, -, -⟩ := index_maps1 t
  show V c main_v57 (((cfg1.win 1).blk t).view.emb (ix2 p j)) = _
  congr 1
  funext a; apply Fin.ext
  match a with
  | ⟨0, _⟩ => show win1_1.index t (0 : Fin 2) * 1024 + 1 * p.val = n.val; omega
  | ⟨1, _⟩ => show win1_1.index t (1 : Fin 2) * 512 + 1 * j.val = j.val; omega

/-- Row `p` of the graph-id block at point `t` is row `1024 t + p` of the graph-id column. -/
theorem blk1_2 (c : Dev nD) (t : Fin cfg1.N) (p : Fin 1024) (n : Fin 16384) (hn : n.val = t.val * 1024 + p.val) :
    (iblk1 V c 2 t : Vec Ideal S1024x1 .i32) (ix2 p 0) = (V c main_v14 : S16384x1.Idx → BitVec 32) (ix2 n 0) := by
  obtain ⟨-, -, -, -, e0, e1, -, -, -, -, -, -, -, -, -, -, -, -, -, -⟩ := index_maps1 t
  show V c main_v14 (((cfg1.win 2).blk t).view.emb (ix2 p 0)) = _
  congr 1
  funext a; apply Fin.ext
  match a with
  | ⟨0, _⟩ => show win1_2.index t (0 : Fin 2) * 1024 + 1 * p.val = n.val; omega
  | ⟨1, _⟩ => show win1_2.index t (1 : Fin 2) * 1 + 1 * 0 = 0; omega

/-! The weight tables and bias rows are fetched whole: the block is the array. -/
theorem blk1_3 (c : Dev nD) (t : Fin cfg1.N) : (iblk1 V c 3 t : S16x512.Idx → _) = (V c main_v28 : S16x512.Idx → _) := by
  obtain ⟨-, -, -, -, -, -, e0, e1, -, -, -, -, -, -, -, -, -, -, -, -⟩ := index_maps1 t
  funext y
  show V c main_v28 (((cfg1.win 3).blk t).view.emb y) = V c main_v28 y
  congr 1
  funext a; apply Fin.ext
  match a with
  | ⟨0, _⟩ => show win1_3.index t (0 : Fin 2) * 16 + 1 * (y 0).val = (y 0).val; omega
  | ⟨1, _⟩ => show win1_3.index t (1 : Fin 2) * 512 + 1 * (y 1).val = (y 1).val; omega

theorem blk1_4 (c : Dev nD) (t : Fin cfg1.N) : (iblk1 V c 4 t : S9x512.Idx → _) = (V c main_v22 : S9x512.Idx → _) := by
  obtain ⟨-, -, -, -, -, -, -, -, e0, e1, -, -, -, -, -, -, -, -, -, -⟩ := index_maps1 t
  funext y
  show V c main_v22 (((cfg1.win 4).blk t).view.emb y) = V c main_v22 y
  congr 1
  funext a; apply Fin.ext
  match a with
  | ⟨0, _⟩ => show win1_4.index t (0 : Fin 2) * 9 + 1 * (y 0).val = (y 0).val; omega
  | ⟨1, _⟩ => show win1_4.index t (1 : Fin 2) * 512 + 1 * (y 1).val = (y 1).val; omega

theorem blk1_5 (c : Dev nD) (t : Fin cfg1.N) : (iblk1 V c 5 t : S512x512.Idx → _) = (V c main_v24 : S512x512.Idx → _) := by
  obtain ⟨-, -, -, -, -, -, -, -, -, -, e0, e1, -, -, -, -, -, -, -, -⟩ := index_maps1 t
  funext y
  show V c main_v24 (((cfg1.win 5).blk t).view.emb y) = V c main_v24 y
  congr 1
  funext a; apply Fin.ext
  match a with
  | ⟨0, _⟩ => show win1_5.index t (0 : Fin 2) * 512 + 1 * (y 0).val = (y 0).val; omega
  | ⟨1, _⟩ => show win1_5.index t (1 : Fin 2) * 512 + 1 * (y 1).val = (y 1).val; omega

theorem blk1_6 (c : Dev nD) (t : Fin cfg1.N) : (iblk1 V c 6 t : S1x512.Idx → _) = (V c main_v59 : S1x512.Idx → _) := by
  obtain ⟨-, -, -, -, -, -, -, -, -, -, -, -, e0, e1, -, -, -, -, -, -⟩ := index_maps1 t
  funext y
  show V c main_v59 (((cfg1.win 6).blk t).view.emb y) = V c main_v59 y
  congr 1
  funext a; apply Fin.ext
  match a with
  | ⟨0, _⟩ => show win1_6.index t (0 : Fin 2) * 1 + 1 * (y 0).val = (y 0).val; omega
  | ⟨1, _⟩ => show win1_6.index t (1 : Fin 2) * 512 + 1 * (y 1).val = (y 1).val; omega

theorem blk1_7 (c : Dev nD) (t : Fin cfg1.N) : (iblk1 V c 7 t : S512x1.Idx → _) = (V c main_v58 : S512x1.Idx → _) := by
  obtain ⟨-, -, -, -, -, -, -, -, -, -, -, -, -, -, e0, e1, -, -, -, -⟩ := index_maps1 t
  funext y
  show V c main_v58 (((cfg1.win 7).blk t).view.emb y) = V c main_v58 y
  congr 1
  funext a; apply Fin.ext
  match a with
  | ⟨0, _⟩ => show win1_7.index t (0 : Fin 2) * 512 + 1 * (y 0).val = (y 0).val; omega
  | ⟨1, _⟩ => show win1_7.index t (1 : Fin 2) * 1 + 1 * (y 1).val = (y 1).val; omega

theorem blk1_8 (c : Dev nD) (t : Fin cfg1.N) : (iblk1 V c 8 t : S1x1.Idx → _) = (V c main_v60 : S1x1.Idx → _) := by
  obtain ⟨-, -, -, -, -, -, -, -, -, -, -, -, -, -, -, -, e0, e1, -, -⟩ := index_maps1 t
  funext y
  show V c main_v60 (((cfg1.win 8).blk t).view.emb y) = V c main_v60 y
  congr 1
  funext a; apply Fin.ext
  match a with
  | ⟨0, _⟩ => show win1_8.index t (0 : Fin 2) * 1 + 1 * (y 0).val = (y 0).val; omega
  | ⟨1, _⟩ => show win1_8.index t (1 : Fin 2) * 1 + 1 * (y 1).val = (y 1).val; omega

/-! ## What a point writes back -/

/-- Row `p` of the stored block at point `t` is node `1024 t + p`'s output. -/
theorem flushed_row (c : Dev nD) (t : Fin cfg1.N) (p : Fin 1024) (n : Fin 16384) (hn : n.val = t.val * 1024 + p.val) :
    k1_pay1 (k1_pay2 (iblk1 V c 2 t) (iblk1 V c 3 t) (iblk1 V c 0 t) (iblk1 V c 1 t) (iblk1 V c 4 t) (iblk1 V c 5 t) (iblk1 V c 6 t) (iblk1 V c 7 t)) (iblk1 V c 8 t) (ix2 p 0)
      = nodeRow V c n := by
  refine (pay1_apply (iblk1 V c 0 t) (iblk1 V c 1 t) (iblk1 V c 2 t) (iblk1 V c 3 t) (iblk1 V c 4 t) (iblk1 V c 5 t) (iblk1 V c 6 t) (iblk1 V c 7 t) (iblk1 V c 8 t) p).trans ?_
  unfold nodeRow
  exact nodeK_congr (funext fun k => blk1_0 V c t p k n hn) (funext fun j => blk1_1 V c t p j n hn) (congrArg Cert.Spec.onehot16 (blk1_2 V c t p n hn))
    (blk1_3 V c t) (blk1_4 V c t) (blk1_5 V c t) (funext fun j => congrFun (blk1_6 V c t) (ix2 0 j)) (blk1_7 V c t) (congrFun (blk1_8 V c t) (ix2 0 0))

/-- An index of a 1024-row column is (p, 0). -/
theorem col_idx (y : S1024x1.Idx) : ∃ p : Fin 1024, y = ix2 p 0 :=
  ⟨⟨(y 0).val, idx2_lt0 y⟩, funext fun a => match a with
    | ⟨0, _⟩ => rfl
    | ⟨1, _⟩ => Fin.ext (by have := idx2_lt1 y; show (y 1).val = 0; omega)⟩

/-- The stored block at point `t`, at any of its indices. -/
theorem flushed_pt (c : Dev nD) (t : Fin cfg1.N) (y : S1024x1.Idx) (n : Fin 16384) (hn : n.val = t.val * 1024 + (y 0).val) :
    k1_pay1 (k1_pay2 (iblk1 V c 2 t) (iblk1 V c 3 t) (iblk1 V c 0 t) (iblk1 V c 1 t) (iblk1 V c 4 t) (iblk1 V c 5 t) (iblk1 V c 6 t) (iblk1 V c 7 t)) (iblk1 V c 8 t) y
      = nodeRow V c n := by
  obtain ⟨p, rfl⟩ := col_idx y
  exact flushed_row V c t p n hn

/-- WHAT POINT `t` WRITES BACK is block `t` of the output column. -/
theorem flushed1_9_eq (c : Dev nD) (t : Fin cfg1.N) :
    (dat1 (F := Ideal) V c).flushed 9 t = ((cfg1.win 9).blk t).view.read (Elt Ideal) (nodeCol V c) := by
  show (cfg1.win 9).cut (cfg1.grid.coords t) ((dat1 V c).after 9 t) = _
  rw [after1_9]
  unfold out1_9
  rw [View.canon_unit_zero zero_offsets]
  simp only [View.ld_unit_zero (S := S1024x9) zero_offsets, View.ld_unit_zero (S := S1024x512) zero_offsets, View.ld_unit_zero (S := S1024x1) zero_offsets,
    View.ld_unit_zero (S := S16x512) zero_offsets, View.ld_unit_zero (S := S9x512) zero_offsets, View.ld_unit_zero (S := S512x512) zero_offsets,
    View.ld_unit_zero (S := S1x512) zero_offsets, View.ld_unit_zero (S := S512x1) zero_offsets, View.ld_unit_zero (S := S1x1) zero_offsets]
  obtain ⟨-, -, -, -, -, -, -, -, -, -, -, -, -, -, -, -, -, -, e0, e1⟩ := index_maps1 t
  funext y
  show k1_pay1 (k1_pay2 (iblk1 V c 2 t) (iblk1 V c 3 t) (iblk1 V c 0 t) (iblk1 V c 1 t) (iblk1 V c 4 t) (iblk1 V c 5 t) (iblk1 V c 6 t) (iblk1 V c 7 t)) (iblk1 V c 8 t) y
    = nodeRow V c ⟨(((cfg1.win 9).blk t).view.emb y 0).val, _⟩
  refine flushed_pt V c t y _ ?_
  show win1_9.index t (0 : Fin 2) * 1024 + 1 * (y 0).val = t.val * 1024 + (y 0).val
  omega

/-! ## The blocks cover the column -/

/-- An index of the output column is in point `t`'s block iff each coordinate is in the block's range on its axis. -/
theorem mem_blk1_9 (t : Fin cfg1.N) (i : S16384x1.Idx) :
    i ∈ ((cfg1.win 9).blk t).view.set ↔ ∀ a : Fin 2, win1_9.index t a * S1024x1.size a ≤ (i a).val ∧ (i a).val < win1_9.index t a * S1024x1.size a + S1024x1.size a := by
  show i ∈ ((View.whole main_v61).slice (win1_9.rect t)).set ↔ _
  rw [View.set_slice_whole, Rect.mem_set_unit]
  exact Iff.rfl

/-- Row `r` is in the block of point `r / 1024`: 16 points of 1024 rows fill the 16384 rows. -/
theorem rows_cover1_9 (i : S16384x1.Idx) : ∃ t : Fin cfg1.N, (cfg1.win 9).flush t = true ∧ i ∈ ((cfg1.win 9).blk t).view.set := by
  have hi0 : (i 0).val < 16384 := idx2_lt0 i
  have hi1 : (i 1).val < 1 := idx2_lt1 i
  obtain ⟨t, ht⟩ : ∃ t : Fin cfg1.N, t.val = (i 0).val / 1024 :=
    ⟨⟨(i 0).val / 1024, Nat.lt_of_lt_of_eq (by omega : (i 0).val / 1024 < 16) N_1.symm⟩, rfl⟩
  obtain ⟨-, -, -, -, -, -, -, -, -, -, -, -, -, -, -, -, -, -, e0, e1⟩ := index_maps1 t
  refine ⟨t, flush1_9 t, ?_⟩
  rw [mem_blk1_9]
  intro a
  match a with
  | ⟨0, _⟩ => show win1_9.index t (0 : Fin 2) * 1024 ≤ (i 0).val ∧ (i 0).val < win1_9.index t (0 : Fin 2) * 1024 + 1024; omega
  | ⟨1, _⟩ => show win1_9.index t (1 : Fin 2) * 1 ≤ (i 1).val ∧ (i 1).val < win1_9.index t (1 : Fin 2) * 1 + 1; omega

/-! ## The array after the region -/

/-- The output column after the 16 points is the node perceptron row by row. -/
theorem final1_9 (c : Dev nD) : (dat1 (F := Ideal) V c).arrAt 9 cfg1.N = nodeCol V c :=
  (dat1 V c).arrAt_eq_of_cover 9 (nodeCol V c) (fun t _ => flushed1_9_eq V c t) rows_cover1_9

end Val1
end Cert.KernelIdeal.Hand.Val1

namespace Cert.KernelIdeal.Hand

open Cert.KernelIdeal Cert.KernelIdeal.Gen
open Idealize.ShloMosaic Idealize.ShloMosaic.TcCoe Idealize.ShloMosaic.ValueIdx Idealize.SL.Sem

/-- THE VALUE region 1 leaves: entry (n, 0) of its output window's array is the node perceptron of row `n` of the region's
    input arrays. -/
theorem region1_value (V : (c : Dev nD) → (b : Ref sig .tc) → Buf (Elt Ideal) ((c : Thread nD τ).loc b)) (c : Dev nD) (n : Fin 16384) :
    ((dat1 (F := Ideal) V c).arrAt 9 cfg1.N) (ix2 n 0)
    = Cert.Spec.nodeK (fun k => V c main_arg0 (ix2 n k)) (fun j => V c main_v57 (ix2 n j)) (Cert.Spec.onehot16 (V c main_v14 (ix2 n 0))) (V c main_v28) (V c main_v22) (V c main_v24)
        (fun j => V c main_v59 (ix2 0 j)) (V c main_v58) (V c main_v60 (ix2 0 0)) :=
  congrFun (Val1.final1_9 V c) (ix2 n 0)

end Cert.KernelIdeal.Hand

end
-- ==== Proof.Glue.lean ====
/-
  The two programs as functions of the argument arrays, one edge and one node at a time.

  An index word is read as the node (or graph) it names when it is in range; under the statement's precondition every
  index word is. The per-graph table is the reduced global feature `u · w_dr + b_dr`. The hidden activation of edge `e`
  is the edge perceptron followed by the first node perceptron on that edge's own row; the output at node `n` is the
  second node perceptron on that node's own row, whose middle piece is the node's row of the aggregated activations.
-/
import proofs.«405997_j73959336837504_3_alg».proof.Proof.Spec

noncomputable section

namespace Cert.Glue

open Idealize.ShloMosaic Idealize.ShloMosaic.ValueIdx Cert.Spec

/-- A vector of extended reals, indexed as the library indexes a rank-1 array. -/
abbrev A1 (n : ℕ) : Type := (⟨1, ![n]⟩ : Shape).Idx → EReal
/-- Integer arrays of rank 2 and 1. -/
abbrev I2 (n k : ℕ) : Type := (⟨2, ![n, k]⟩ : Shape).Idx → BitVec 32
abbrev I1 (n : ℕ) : Type := (⟨1, ![n]⟩ : Shape).Idx → BitVec 32

/-- The node an index word names (when it is below 16384). -/
def nodeOf (w : BitVec 32) : Fin 16384 := if h : w.toNat < 16384 then ⟨w.toNat, h⟩ else ⟨0, by decide⟩
/-- The graph an index word names (when it is below 16). -/
def graphOf (w : BitVec 32) : Fin 16 := if h : w.toNat < 16 then ⟨w.toNat, h⟩ else ⟨0, by decide⟩

/-- The per-graph table: the reduced global features `u · w_dr + b_dr`. -/
def urT (u : Mat 16 4096) (wdr : Mat 4096 256) (bdr : A1 256) : Mat 16 256 :=
  fun i => (∑ k : Fin 4096, u (ix2 (i 0) k) * wdr (ix2 k (i 1))) + bdr (ix1 (i 1))

/-- The per-graph table multiplied by rows `o … o + 255` of a first-layer matrix. -/
def urFold {n p : ℕ} (T : Mat 16 256) (o : ℕ) (h : o + 256 ≤ n) (W : Mat n p) : Mat 16 p :=
  fun a => ∑ k : Fin 256, T (ix2 (a 0) k) * W (ix2 ⟨o + k.val, by have := k.isLt; omega⟩ (a 1))

/-- A bias vector as a row. -/
def rowV {p : ℕ} (b : A1 p) : Fin p → EReal := fun j => b (ix1 j)

/-- Edge `e`'s 19 gathered features: its source node's 9, its destination node's 9, its own attribute. -/
def exRow (x : Mat 16384 9) (ea : Mat 131072 1) (ei : I2 2 131072) (e : Fin 131072) : Fin 19 → EReal := fun k =>
  if h : k.val < 9 then x (ix2 (nodeOf (ei (ix2 0 e))) ⟨k.val, h⟩)
  else if h2 : k.val < 18 then x (ix2 (nodeOf (ei (ix2 1 e))) ⟨k.val - 9, by omega⟩)
  else ea (ix2 e 0)

/-- The hidden activations of every edge, as the kernel computes them. -/
def hK (x : Mat 16384 9) (ea : Mat 131072 1) (u : Mat 16 4096) (ei : I2 2 131072) (bt : I1 16384) (wdr : Mat 4096 256) (bdr : A1 256)
    (ew0 : Mat 275 1024) (eb0 : A1 1024) (ew1 : Mat 1024 1024) (eb1 : A1 1024) (ew2 : Mat 1024 1024) (eb2 : A1 1024)
    (ew3 : Mat 1024 1024) (eb3 : A1 1024) (ewf : Mat 1024 512) (ebf : A1 512)
    (n1w0 : Mat 521 512) (n1b0 : A1 512) (n1w1 : Mat 512 512) (n1b1 : A1 512) : Mat 131072 512 := fun i =>
  edgeK (exRow x ea ei (i 0)) (onehot16 (bt (ix1 (nodeOf (ei (ix2 0 (i 0)))))))
    (urFold (urT u wdr bdr) 19 (by decide) ew0) (rowsFrom 0 (by decide) ew0) (rowV eb0)
    ew1 (rowV eb1) ew2 (rowV eb2) ew3 (rowV eb3) ewf (rowV ebf)
    (rowsFrom 0 (by decide) n1w0) (rowsFrom 9 (by decide) n1w0) (rowV n1b0) n1w1 (rowV n1b1) (i 1)

/-- The hidden activations of every edge, as the reference computes them. -/
def hR (x : Mat 16384 9) (ea : Mat 131072 1) (u : Mat 16 4096) (ei : I2 2 131072) (bt : I1 16384) (wdr : Mat 4096 256) (bdr : A1 256)
    (ew0 : Mat 275 1024) (eb0 : A1 1024) (ew1 : Mat 1024 1024) (eb1 : A1 1024) (ew2 : Mat 1024 1024) (eb2 : A1 1024)
    (ew3 : Mat 1024 1024) (eb3 : A1 1024) (ewf : Mat 1024 512) (ebf : A1 512)
    (n1w0 : Mat 521 512) (n1b0 : A1 512) (n1w1 : Mat 512 512) (n1b1 : A1 512) : Mat 131072 512 := fun i =>
  edgeR (cat2 (exRow x ea ei (i 0)) (fun k : Fin 256 => urT u wdr bdr (ix2 (graphOf (bt (ix1 (nodeOf (ei (ix2 0 (i 0))))))) k)))
    ew0 (rowV eb0) ew1 (rowV eb1) ew2 (rowV eb2) ew3 (rowV eb3) ewf (rowV ebf)
    (fun k : Fin 9 => x (ix2 (nodeOf (ei (ix2 1 (i 0)))) k)) n1w0 (rowV n1b0) n1w1 (rowV n1b1) (i 1)

/-- The output at node `n` from the aggregated activations `agg`, as the kernel computes it. -/
def outK (x : Mat 16384 9) (u : Mat 16 4096) (bt : I1 16384) (wdr : Mat 4096 256) (bdr : A1 256)
    (n2w0 : Mat 777 512) (n2b0 : A1 512) (n2w1 : Mat 512 1) (n2b1 : A1 1) (agg : Mat 16384 512) (n : Fin 16384) : EReal :=
  nodeK (fun k => x (ix2 n k)) (fun j => agg (ix2 n j)) (onehot16 (bt (ix1 n)))
    (urFold (urT u wdr bdr) 521 (by decide) n2w0) (rowsFrom 0 (by decide) n2w0) (rowsFrom 9 (by decide) n2w0)
    (rowV n2b0) n2w1 (n2b1 (ix1 0))

/-- The output at node `n` from the aggregated activations `agg`, as the reference computes it. -/
def outR (x : Mat 16384 9) (u : Mat 16 4096) (bt : I1 16384) (wdr : Mat 4096 256) (bdr : A1 256)
    (n2w0 : Mat 777 512) (n2b0 : A1 512) (n2w1 : Mat 512 1) (n2b1 : A1 1) (agg : Mat 16384 512) (n : Fin 16384) : EReal :=
  nodeR (cat2 (cat2 (fun k : Fin 9 => x (ix2 n k)) (fun j : Fin 512 => agg (ix2 n j)))
      (fun k : Fin 256 => urT u wdr bdr (ix2 (graphOf (bt (ix1 n))) k)))
    n2w0 (rowV n2b0) n2w1 (n2b1 (ix1 0))

end Cert.Glue

end
-- ==== Proof.LibKeepdims.lean ====
/-
  General layout reads for a reduction that keeps its axis (`keepdims=True`), stated over any extents:
  a vector `[a]` cast to a column `[a, 1]`, a column `[a, 1]` broadcast across `[a, b]`, and a lane sum of an
  `[a, b]` vector along its second axis read at a row as the sum over that row's columns.
  With the library's row broadcast `[1, b] → [a, b]` these are the index reads of a row-wise normalisation in a kernel
  body. The second part has the same reads in the host's spelling: `broadcast_in_dim` of a scalar, of a vector onto
  a column or a row, of a column or a row across a matrix, and the host's row sum with its initial value.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` vector along its second axis, read at row `p` on the extended reals, is the sum of
    that row's entries. The accumulator word and the reduction's two side conditions are variables, so the lemma meets a
    printed reduction however its evidence is spelt. -/
theorem rowSum_apply {a b : ℕ} (src : FVec Ideal ⟨2, ![a, b]⟩ .f32)
    (acc : BitVec FTy.f32.bits) (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-! ## The host's forms: `broadcast_in_dim` along named axes, and the host's sum -/

/-- A rank-0 array (a scalar constant) broadcast to any shape reads the scalar everywhere. -/
theorem broadcastInDim_scalar_apply {t : Shape} (c : (⟨0, ![]⟩ : Shape).Idx → α)
    (h : (⟨0, ![]⟩ : Shape).BroadcastsInDim t (![] : Fin 0 → Fin t.rank)) (j : t.Idx) :
    broadcastInDim t ![] h c j = c ix0 :=
  broadcastInDim_apply _ h c j ix0 (fun ax => ax.elim0)

/-- An `[a]` array placed on axis 0 of the column `[a, 1]` reads, at `(r, u)`, the operand at `r`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column `[a, 1]` broadcast in place to `[a, b]` reads, at `(r, j)`, the column's entry of row `r`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ => rfl

/-- A `[b]` array placed on axis 1 of the row `[1, b]` reads, at `(u, j)`, the operand at `j`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (j : Fin b) : broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row `[1, b]` broadcast in place to `[a, b]` reads, at `(r, j)`, the row's entry of column `j`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ => rfl
  | ⟨1, _⟩ =>
    show j.val = if b = 1 then 0 else j.val
    split
    · have := j.isLt; omega
    · rfl

/-- The host's float sum of an `[a, b]` array along its second axis, read at row `r` on the extended reals: the
    initial scalar plus the sum of the row's entries. -/
theorem hostRowSum_apply {a b : ℕ} (X : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd X init h' hu (ix1 r) = init ix0 + ∑ k : Fin b, X (ix2 r k) := by
  unfold Host.reduceAdd
  refine (Ideal.hostReduceAdd_single h' h X _ (ix1 r)).trans ?_
  refine congrArg₂ (· + ·) (congrArg init (funext fun ax => ax.elim0)) (Finset.sum_congr rfl fun k _ => ?_)
  exact congrArg X (funext fun ax => Fin.ext (by
    match ax with
    | ⟨0, _⟩ => rfl
    | ⟨1, _⟩ => rfl))

end Cert.LibKeepdims

end
-- ==== Proof.LibRowGather.lean ====
/-
  A gather of whole rows, read at an index.

  What `x[idx]` of a matrix `x : [N, C]` at a vector of row numbers lowers to: a gather with offset axis 1, the
  collapsed slice axis 0, start index map `[0]`, slice sizes `[1, C]`, over the indices as a column `[R, 1]`.
  Result element `(r, q)` is `x` at row `idx[r, 0]` (read signed, clamped into `[0, N − 1]`) and column `q`: the
  gather selects whole rows, so any function applied row by row commutes with it.
-/
import Idealize.ShloMosaic.Lib.ValueIdx

noncomputable section

namespace Idealize.ShloMosaic.ValueIdx

section RowGather
variable {α : Type}

/-- Those dimension numbers for an operand `[N, C]`, start indices `[R, 1]` and result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row `r` reads: its start index, read signed and clamped into `[0, N − 1]`. -/
def gatherRow {N R w : Nat} (hN : 0 < N) (idx : IVec ⟨2, ![R, 1]⟩ w) (r : Fin R) : Fin N :=
  ⟨min (idx (ix2 r (0 : Fin 1))).toInt.toNat (N - 1), by omega⟩

/-- THE ROW GATHER READ AT `(r, q)`: the operand at the row `r` reads and the same column. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowGatherDims N R C wf) x idx (ix2 r q) = x (ix2 (gatherRow hN idx r) q) := by
  unfold Host.gather
  congr 1
  funext a
  refine Fin.ext ?_
  match a with
  | ⟨0, _⟩ =>
    show (rowGatherDims N R C wf).start (ix2 r q) idx 0 + (rowGatherDims N R C wf).batchCoord (ix2 r q) 0
      + (rowGatherDims N R C wf).offCoord (ix2 r q) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r q) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r q) idx 1 + (rowGatherDims N R C wf).batchCoord (ix2 r q) 1
      + (rowGatherDims N R C wf).offCoord (ix2 r q) 1 = q.val
    have hmem : (1 : Fin 2) ∈ (rowGatherDims N R C wf).sKept :=
      (GatherDims.mem_sKept _ _).mpr ⟨show (1 : Fin 2) ∉ [(0 : Fin 2)] by decide, List.not_mem_nil⟩
    have hnot : (1 : Fin 2) ∉ (rowGatherDims N R C wf).startIndexMap := show (1 : Fin 2) ∉ [(0 : Fin 2)] by decide
    rw [GatherDims.batchCoord_eq_zero _ _ _ List.not_mem_nil]
    unfold GatherDims.start GatherDims.offCoord
    rw [dif_neg hnot, dif_pos hmem]
    simp only [Nat.zero_add]
    rfl

end RowGather

end Idealize.ShloMosaic.ValueIdx

end
-- ==== Proof.Host0a.lean ====
/-
  What region 0 finds in two of its input arrays, edge by edge, when every word of the edge index array is below 16384.

  The feature array is the concatenation, along the columns, of the node features gathered at the edges' source nodes,
  the node features gathered at their destination nodes, and the edge attributes. Each gather wraps a negative index
  word around by the table's length, clamps the start index into the table, and overwrites with a fill value every
  position whose wrapped word lies outside `[0, 16383]`. A word below 16384 is not negative, lies in range and is its
  own clamp, so position `e` holds the table's row that the word names: row `e` of the feature array is the 19 features
  `Cert.Glue.exRow` lists. The graph column is gathered the same way from the per-node graph words at the source nodes,
  so its entry `e` is the graph word of edge `e`'s source node.
-/
import proofs.«405997_j73959336837504_3_alg».proof.Proof.Gen.KernelIdeal.Regions
import proofs.«405997_j73959336837504_3_alg».proof.Proof.Glue
import proofs.«405997_j73959336837504_3_alg».proof.Proof.LibRowGather
import proofs.«405997_j73959336837504_3_alg».proof.Proof.LibKeepdims
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-! ## Words and one-bit conditions read at an index -/

theorem cmpi_at {s : Shape} {w : ℕ} (p : CmpIPredicate) (x y : IVec s w) (i : s.Idx) :
    cmpi p x y i = IntOp.cmpi p (x i) (y i) := rfl
theorem andi_at {s : Shape} {w : ℕ} (x y : IVec s w) (i : s.Idx) : andi x y i = IntOp.andi (x i) (y i) := rfl
theorem addi_at {s : Shape} {w : ℕ} (x y : IVec s w) (i : s.Idx) : addi x y i = IntOp.addi (x i) (y i) := rfl

/-- A conjunction over an axis of one-bit words that are all set, from a set initial bit, is set. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hinit : ∀ i, init i = 1#1) :
    Host.reduce IntOp.andi x init h hu j = 1#1 := by
  unfold Host.reduce
  have key : ∀ (l : List (Fin s.numel)) (r : BitVec 1), r = 1#1 →
      l.foldl (fun r n => IntOp.andi r (x (s.rowMajor.symm n))) r = 1#1 := by
    intro l
    induction l with
    | nil => intro r hr; exact hr
    | cons a l ih =>
      intro r hr
      rw [List.foldl_cons]
      exact ih _ (by rw [hr, hx]; rfl)
  exact key _ _ (hinit _)

/-- A vector laid along axis 0 of a rectangle reads, at `(r, q)`, the vector at `r`. -/
theorem bcast_rows9 {α : Type} (v : S131072.Idx → α) (e : Fin 131072) (q : Fin 9) :
    broadcastInDim S131072x9 ![0] bcast_S131072_S131072x9_0 v (ix2 e q) = v (ix1 e) := by
  refine broadcastInDim_apply _ _ v (ix2 e q) (ix1 e) fun ax => ?_
  match ax with
  | ⟨0, _⟩ =>
    show e.val = if (131072 : ℕ) = 1 then 0 else e.val
    rw [if_neg (by decide)]

/-! ## A gather along axis 0 of a table of 16384 rows, at 131072 index words

The gather adds the table's length to a negative index word, reads the table with the start index clamped into it, and
puts a fill value at every position whose wrapped word is outside `[0, 16383]`. When every index word is below 16384
none of the three changes anything: position `e` reads the table at the row its word names. -/

/-- The index words with a negative one wrapped around by the table's length. -/
def wrapIdx (idx : IVec S131072 32) : IVec S131072 32 :=
  select (cmpi .slt idx (broadcastInDim S131072 ![] bcast_S_S131072 (constantI S_ 32 0#32)))
    (addi idx (broadcastInDim S131072 ![] bcast_S_S131072 (constantI S_ 32 16384#32))) idx

/-- The wrapped index words as the gather's column of start indices. -/
def colIdx (idx : IVec S131072 32) : IVec S131072x1 32 :=
  broadcastInDim S131072x1 ![0] bcast_S131072_S131072x1_0 (wrapIdx idx)

/-- The mask of the positions whose wrapped index is inside `[0, 16383]`. -/
def inRange (idx : IVec S131072 32) : IVec S131072 1 :=
  Host.reduce IntOp.andi
    (andi (cmpi .sge (colIdx idx) (broadcastInDim S131072x1 ![] bcast_S_S131072x1 (constantI S_ 32 0#32)))
      (cmpi .sle (colIdx idx) (broadcastInDim S131072x1 ![0, 1] bcast_S1x1_S131072x1_0_1
        (broadcastInDim S1x1 ![1] bcast_S1_S1x1_1 (constantI S1 32 16383#32)))))
    (constantI S_ 1 1#1) reducesTo_S131072x1_S131072_d1 h_S_

/-- The take of whole rows of a `[16384, 9]` table. -/
def takeRows (x : S16384x9.Idx → EReal) (idx : IVec S131072 32) : S131072x9.Idx → EReal :=
  select (broadcastInDim S131072x9 ![0] bcast_S131072_S131072x9_0 (inRange idx))
    (Host.gather gather_S16384x9_S131072x1_S131072x9_1_0_n_n_0_1_19 x (colIdx idx))
    (broadcastInDim S131072x9 ![] bcast_S_S131072x9 (constant (F := Ideal) S_ .f32 0x7FC00000#32))

/-- The take of entries of a `[16384]` table of words. -/
def takeWord (x : IVec S16384 32) (idx : IVec S131072 32) : IVec S131072 32 :=
  select (inRange idx) (Host.gather gather_S16384_S131072x1_S131072_n_0_n_n_0_1_1 x (colIdx idx))
    (broadcastInDim S131072 ![] bcast_S_S131072 (constantI S_ 32 2147483648#32))

theorem wrapIdx_apply (idx : IVec S131072 32) (e : Fin 131072) (h : (idx (ix1 e)).toNat < 16384) :
    wrapIdx idx (ix1 e) = idx (ix1 e) := by
  unfold wrapIdx
  rw [select_apply, cmpi_at, Cert.LibKeepdims.broadcastInDim_scalar_apply, constantI_apply]
  have hc : IntOp.cmpi .slt (idx (ix1 e)) 0#32 = 0#1 :=
    eq_zero_of_ne_one fun h1 => by
      have h2 := (StableHlo.Predicate.slt_iff_toNat (a := idx (ix1 e)) (b := 0#32) (by omega) (by decide)).mp h1
      have h0 : (0#32 : BitVec 32).toNat = 0 := rfl
      omega
  rw [hc, select_zero]

theorem colIdx_apply (idx : IVec S131072 32) (e : Fin 131072) (u : Fin 1) (h : (idx (ix1 e)).toNat < 16384) :
    colIdx idx (ix2 e u) = idx (ix1 e) := by
  unfold colIdx
  rw [Cert.LibKeepdims.broadcastInDim_a_a1_apply, wrapIdx_apply idx e h]

/-- Every index of a `[131072, 1]` column is `(e, 0)` for a row `e`. -/
theorem col_idx_eq (i : S131072x1.Idx) :
    i = ix2 (⟨(i 0).val, idx2_lt0 i⟩ : Fin 131072) (⟨(i 1).val, idx2_lt1 i⟩ : Fin 1) := by
  funext a
  match a with
  | ⟨0, _⟩ => rfl
  | ⟨1, _⟩ => rfl

theorem mask_at (idx : IVec S131072 32) (e : Fin 131072) (u : Fin 1) (h : (idx (ix1 e)).toNat < 16384) :
    andi (cmpi .sge (colIdx idx) (broadcastInDim S131072x1 ![] bcast_S_S131072x1 (constantI S_ 32 0#32)))
      (cmpi .sle (colIdx idx) (broadcastInDim S131072x1 ![0, 1] bcast_S1x1_S131072x1_0_1
        (broadcastInDim S1x1 ![1] bcast_S1_S1x1_1 (constantI S1 32 16383#32)))) (ix2 e u) = 1#1 := by
  rw [andi_at, cmpi_at, cmpi_at, colIdx_apply idx e u h]
  have hlo : IntOp.cmpi .sge (idx (ix1 e)) 0#32 = 1#1 :=
    (StableHlo.Predicate.sge_iff_toNat (by omega) (by decide)).mpr (Nat.zero_le _)
  have hhi : IntOp.cmpi .sle (idx (ix1 e)) 16383#32 = 1#1 :=
    (StableHlo.Predicate.sle_iff_toNat (by omega) (by decide)).mpr (by
      have h0 : (16383#32 : BitVec 32).toNat = 16383 := rfl
      omega)
  exact (congrArg₂ IntOp.andi hlo hhi).trans rfl

theorem inRange_apply (idx : IVec S131072 32) (h : ∀ e : Fin 131072, (idx (ix1 e)).toNat < 16384) (e : Fin 131072) :
    inRange idx (ix1 e) = 1#1 := by
  unfold inRange
  refine reduce_andi_ones _ _ _ _ _ (fun i => ?_) (fun _ => rfl)
  rw [col_idx_eq i]
  exact mask_at idx _ _ (h _)

/-- The row an index word names, as the gather's clamped start index. -/
theorem gatherRow_colIdx (idx : IVec S131072 32) (e : Fin 131072) (h : (idx (ix1 e)).toNat < 16384) :
    gatherRow (N := 16384) (by decide) (colIdx idx) e = Cert.Glue.nodeOf (idx (ix1 e)) := by
  unfold gatherRow Cert.Glue.nodeOf
  rw [dif_pos h]
  refine Fin.ext ?_
  show min (colIdx idx (ix2 e (0 : Fin 1))).toInt.toNat (16384 - 1) = (idx (ix1 e)).toNat
  rw [colIdx_apply idx e 0 h, StableHlo.Predicate.toInt_eq_toNat_of_lt (by omega)]
  simp only [Int.toNat_natCast]
  omega

theorem takeRows_apply (x : S16384x9.Idx → EReal) (idx : IVec S131072 32)
    (h : ∀ e : Fin 131072, (idx (ix1 e)).toNat < 16384) (e : Fin 131072) (q : Fin 9) :
    takeRows x idx (ix2 e q) = x (ix2 (Cert.Glue.nodeOf (idx (ix1 e))) q) := by
  unfold takeRows
  rw [select_apply, bcast_rows9, inRange_apply idx h e, select_one]
  exact (rowGather_apply (N := 16384) (R := 131072) (C := 9) (by decide)
    gather_S16384x9_S131072x1_S131072x9_1_0_n_n_0_1_19.wf x (colIdx idx) e q).trans
    (by rw [gatherRow_colIdx idx e (h e)])

theorem takeWord_apply (x : IVec S16384 32) (idx : IVec S131072 32)
    (h : ∀ e : Fin 131072, (idx (ix1 e)).toNat < 16384) (e : Fin 131072) :
    takeWord x idx (ix1 e) = x (ix1 (Cert.Glue.nodeOf (idx (ix1 e)))) := by
  unfold takeWord
  rw [select_apply, inRange_apply idx h e, select_one]
  have he : (ix1 e : S131072.Idx) = Shape.Idx.ofFin e := by
    funext d
    match d with
    | ⟨0, _⟩ => rfl
  have hp : (StableHlo.Predicate.ixP e : S131072x1.Idx) = ix2 e (0 : Fin 1) := by
    funext d
    match d with
    | ⟨0, _⟩ => rfl
    | ⟨1, _⟩ => rfl
  have hg := StableHlo.Predicate.gather_take gather_S16384_S131072x1_S131072_n_0_n_n_0_1_1 rfl rfl rfl rfl x (colIdx idx) e
    (by decide)
  rw [← he] at hg
  rw [hg]
  refine congrArg x ?_
  funext d
  match d with
  | ⟨0, _⟩ =>
    refine Fin.ext ?_
    show min (colIdx idx (StableHlo.Predicate.ixP e)).toInt.toNat (16384 - 1) = (Cert.Glue.nodeOf (idx (ix1 e))).val
    unfold Cert.Glue.nodeOf
    rw [hp, colIdx_apply idx e 0 (h e), dif_pos (h e), StableHlo.Predicate.toInt_eq_toNat_of_lt (by have := h e; omega)]
    simp only [Int.toNat_natCast]
    have := h e
    omega

/-! ## The buffers, stretch by stretch -/

theorem v1_v6 : (V1 m c main_v6 : S131072.Idx → BitVec 32)
    = shapeCast S131072 (extractStridedSlice S1x131072 ![0, 0]
        (m ((c.tc : Thread nD τ).loc main_arg3) : S2x131072.Idx → BitVec 32) slices_S2x131072_S1x131072_0_0)
        shapeCasts_S1x131072_S131072 := by
  dsimp only [V1]; after_results; rfl

theorem v1_v8 : (V1 m c main_v8 : S131072.Idx → BitVec 32)
    = shapeCast S131072 (extractStridedSlice S1x131072 ![1, 0]
        (m ((c.tc : Thread nD τ).loc main_arg3) : S2x131072.Idx → BitVec 32) slices_S2x131072_S1x131072_1_0)
        shapeCasts_S1x131072_S131072 := by
  dsimp only [V1]; after_results; rfl

/-- Row `r` of a `[2, 131072]` array of words, cut out and flattened, reads at `e` the array at `(r, e)`. -/
theorem flatRow_apply (x : S2x131072.Idx → BitVec 32) (r : Fin 2) (h : S2x131072.Slices ![r.val, 0] S1x131072)
    (e : Fin 131072) :
    shapeCast S131072 (extractStridedSlice S1x131072 ![r.val, 0] x h) shapeCasts_S1x131072_S131072 (ix1 e) = x (ix2 r e) := by
  rw [shapeCast_apply _ _ (ix1 e) (ix2 (0 : Fin 1) e) (by
    rw [Shape.rowMajor_val_two, Shape.rowMajor_val_one]
    show 0 * 131072 + e.val = e.val
    omega)]
  refine extractStridedSlice_apply _ x h (ix2 (0 : Fin 1) e) (ix2 r e) fun a => ?_
  match a with
  | ⟨0, _⟩ => show r.val = r.val + 0; omega
  | ⟨1, _⟩ => show e.val = 0 + e.val; omega

theorem v1_v6_at (e : Fin 131072) :
    (V1 m c main_v6 : S131072.Idx → BitVec 32) (ix1 e) = (m ((c.tc : Thread nD τ).loc main_arg3)) (ix2 0 e) := by
  rw [v1_v6]; exact flatRow_apply _ 0 _ e

theorem v1_v8_at (e : Fin 131072) :
    (V1 m c main_v8 : S131072.Idx → BitVec 32) (ix1 e) = (m ((c.tc : Thread nD τ).loc main_arg3)) (ix2 1 e) := by
  rw [v1_v8]; exact flatRow_apply _ 1 _ e

theorem v2_v9 : (V2 m c main_v9 : S131072x9.Idx → EReal)
    = takeRows (V1 m c main_arg0) (V1 m c main_v6) := by
  dsimp only [V2]
  generalize V1 m c = W
  after_results_simp
  simp only [StableHlo.TRef.ofBuf, StableHlo.TRef.toBuf, cast_eq]
  rfl

theorem v3_v10 : (V3 m c main_v10 : S131072x9.Idx → EReal)
    = takeRows (V2 m c main_arg0) (V2 m c main_v8) := by
  dsimp only [V3]
  generalize V2 m c = W
  after_results_simp
  simp only [StableHlo.TRef.ofBuf, StableHlo.TRef.toBuf, cast_eq]
  rfl

theorem v4_v11 : (V4 m c main_v11 : S131072x19.Idx → EReal)
    = concatenate S131072x19 1 [⟨S131072x9, (V3 m c main_v9 : S131072x9.Idx → EReal)⟩,
        ⟨S131072x9, (V3 m c main_v10 : S131072x9.Idx → EReal)⟩, ⟨S131072x1, (V3 m c main_arg1 : S131072x1.Idx → EReal)⟩]
        concatenates_S131072x9_S131072x9_S131072x1_S131072x19_d1 := by
  dsimp only [V4]
  generalize V3 m c = W
  after_results
  rfl

theorem v5_v12 : (V5 m c main_v12 : S131072.Idx → BitVec 32)
    = takeWord (V4 m c main_arg4) (V4 m c main_v6) := by
  dsimp only [V5]
  generalize V4 m c = W
  after_results_simp
  simp only [StableHlo.TRef.ofBuf, StableHlo.TRef.toBuf, cast_eq]
  rfl

theorem v6_v13 : (V6 m c main_v13 : S131072x1.Idx → BitVec 32)
    = shapeCast S131072x1 (V5 m c main_v12 : S131072.Idx → BitVec 32) shapeCasts_S131072_S131072x1 := by
  dsimp only [V6]
  generalize V5 m c = W
  after_results
  rfl

/-! ## The three-piece concatenation read at an index -/

/-- Columns `0 … 8` of the row are the first piece's, `9 … 17` the second's, column `18` the third's one column. -/
theorem cat3_apply (x₁ x₂ : S131072x9.Idx → EReal) (x₃ : S131072x1.Idx → EReal) (e : Fin 131072) (k : Fin 19) :
    concatenate S131072x19 1 [⟨S131072x9, x₁⟩, ⟨S131072x9, x₂⟩, ⟨S131072x1, x₃⟩]
        concatenates_S131072x9_S131072x9_S131072x1_S131072x19_d1 (ix2 e k)
      = if h : k.val < 9 then x₁ (ix2 e ⟨k.val, h⟩)
        else if h2 : k.val < 18 then x₂ (ix2 e ⟨k.val - 9, by omega⟩) else x₃ (ix2 e 0) := by
  by_cases h : k.val < 9
  · rw [dif_pos h]
    refine concatenate_apply_piece (1 : Fin S131072x19.rank) _ _ (ix2 e k) 0 (by show (0 : ℕ) < 3; omega) S131072x9 x₁ rfl rfl 0 rfl
      (ix2 e ⟨k.val, h⟩) (fun b hb => ?_) ?_
    · match b, hb with
      | ⟨0, _⟩, _ => rfl
      | ⟨1, _⟩, hb => exact absurd rfl hb
    · show 0 + k.val = k.val
      omega
  · rw [dif_neg h]
    by_cases h2 : k.val < 18
    · rw [dif_pos h2]
      refine concatenate_apply_piece (1 : Fin S131072x19.rank) _ _ (ix2 e k) 1 (by show (1 : ℕ) < 3; omega) S131072x9 x₂ rfl rfl 9 rfl
        (ix2 e ⟨k.val - 9, by omega⟩) (fun b hb => ?_) ?_
      · match b, hb with
        | ⟨0, _⟩, _ => rfl
        | ⟨1, _⟩, hb => exact absurd rfl hb
      · show 9 + (k.val - 9) = k.val
        omega
    · rw [dif_neg h2]
      refine concatenate_apply_piece (1 : Fin S131072x19.rank) _ _ (ix2 e k) 2 (by show (2 : ℕ) < 3; omega) S131072x1 x₃ rfl rfl 18 rfl
        (ix2 e (0 : Fin 1)) (fun b hb => ?_) ?_
      · match b, hb with
        | ⟨0, _⟩, _ => rfl
        | ⟨1, _⟩, hb => exact absurd rfl hb
      · show 18 + 0 = k.val
        have := k.isLt
        omega

/-! ## Region 0's entry contents -/

/-- The launch contents of an argument array are still there at every later point before region 0. -/
theorem v1_arg0 : V1 m c main_arg0 = m ((c.tc : Thread nD τ).loc main_arg0) := V1_of m c main_arg0 (by decide)
theorem v2_arg0 : V2 m c main_arg0 = m ((c.tc : Thread nD τ).loc main_arg0) :=
  (V2_of m c main_arg0 (by decide)).trans (v1_arg0 m c)
theorem v3_arg1 : V3 m c main_arg1 = m ((c.tc : Thread nD τ).loc main_arg1) :=
  (V3_of m c main_arg1 (by decide)).trans ((V2_of m c main_arg1 (by decide)).trans (V1_of m c main_arg1 (by decide)))
theorem v4_arg4 : V4 m c main_arg4 = m ((c.tc : Thread nD τ).loc main_arg4) :=
  (V4_of m c main_arg4 (by decide)).trans ((V3_of m c main_arg4 (by decide)).trans
    ((V2_of m c main_arg4 (by decide)).trans (V1_of m c main_arg4 (by decide))))
theorem v4_v6 : V4 m c main_v6 = V1 m c main_v6 :=
  (V4_of m c main_v6 (by decide)).trans ((V3_of m c main_v6 (by decide)).trans (V2_of m c main_v6 (by decide)))
theorem v6_v6 : V6 m c main_v6 = V1 m c main_v6 :=
  (V6_of m c main_v6 (by decide)).trans ((V5_of m c main_v6 (by decide)).trans (v4_v6 m c))
theorem v2_v8 : V2 m c main_v8 = V1 m c main_v8 := V2_of m c main_v8 (by decide)
theorem v3_v9 : V3 m c main_v9 = V2 m c main_v9 := V3_of m c main_v9 (by decide)
theorem v6_v11 : V6 m c main_v11 = V4 m c main_v11 :=
  (V6_of m c main_v11 (by decide)).trans (V5_of m c main_v11 (by decide))
theorem v6_v12 : V6 m c main_v12 = V5 m c main_v12 := V6_of m c main_v12 (by decide)

/-- The flattened first row of the edge index array is still in its buffer at region 0's entry. -/
theorem v6_row (e : Fin 131072) :
    (V6 m c main_v6 : S131072.Idx → BitVec 32) (ix1 e) = (m ((c.tc : Thread nD τ).loc main_arg3)) (ix2 0 e) := by
  rw [v6_v6]; exact v1_v6_at m c e

/-- Edge `e`'s row of the concatenated features: its source node's row, its destination node's row, its attribute. -/
theorem ex_row (hei : ∀ i, ((m ((c.tc : Thread nD τ).loc main_arg3)) i).toNat < 16384) (e : Fin 131072) :
    (fun k : Fin 19 => (V6 m c main_v11 : S131072x19.Idx → EReal) (ix2 e k))
      = Cert.Glue.exRow (m ((c.tc : Thread nD τ).loc main_arg0)) (m ((c.tc : Thread nD τ).loc main_arg1))
          (m ((c.tc : Thread nD τ).loc main_arg3)) e := by
  have h6 : ∀ e' : Fin 131072, ((V1 m c main_v6 : S131072.Idx → BitVec 32) (ix1 e')).toNat < 16384 := fun e' => by
    rw [v1_v6_at]; exact hei _
  have h8 : ∀ e' : Fin 131072, ((V2 m c main_v8 : S131072.Idx → BitVec 32) (ix1 e')).toNat < 16384 := fun e' => by
    rw [v2_v8, v1_v8_at]; exact hei _
  funext k
  rw [v6_v11, v4_v11, cat3_apply]
  unfold Cert.Glue.exRow
  by_cases h : k.val < 9
  · rw [dif_pos h, dif_pos h, v3_v9, v2_v9, takeRows_apply _ _ h6, v1_arg0, v1_v6_at]
  · rw [dif_neg h, dif_neg h]
    by_cases h2 : k.val < 18
    · rw [dif_pos h2, dif_pos h2, v3_v10, takeRows_apply _ _ h8, v2_arg0, v2_v8, v1_v8_at]
    · rw [dif_neg h2, dif_neg h2, v3_arg1]

/-- The graph word of edge `e`'s source node, as region 0 finds it in its column. -/
theorem brow (hei : ∀ i, ((m ((c.tc : Thread nD τ).loc main_arg3)) i).toNat < 16384) (e : Fin 131072) :
    (V6 m c main_v13 : S131072x1.Idx → BitVec 32) (ix2 e 0)
      = (m ((c.tc : Thread nD τ).loc main_arg4)) (ix1 (Cert.Glue.nodeOf ((m ((c.tc : Thread nD τ).loc main_arg3)) (ix2 0 e)))) := by
  have h6 : ∀ e' : Fin 131072, ((V4 m c main_v6 : S131072.Idx → BitVec 32) (ix1 e')).toNat < 16384 := fun e' => by
    rw [v4_v6, v1_v6_at]; exact hei _
  rw [v6_v13, Cert.LibKeepdims.shapeCast_a_a1_apply, v5_v12, takeWord_apply _ _ h6, v4_arg4, v4_v6, v1_v6_at]

end Cert.KernelIdeal.Hand

end
-- ==== Proof.Host0b.lean ====
/-
  The weight tables and bias rows the edge kernel is given, read back to the argument arrays.

  Before the edge kernel runs, the program prepares its operands from the arguments: the per-graph table
  `u · w_dr + b_dr` multiplied by rows 19 … 274 of the edge perceptron's first-layer matrix, that matrix's rows
  0 … 18, the other weight matrices unchanged, the node perceptron's first-layer matrix cut into its rows 0 … 8 and
  9 … 520, and every bias vector laid out as a row. On the extended reals a change of float format is the identity,
  so each operand is exactly the table, the row block or the row named here. With the gathered edge features and the
  gathered graph ids these give the kernel's edge function of the argument arrays.
-/
import proofs.«405997_j73959336837504_3_alg».proof.Proof.Gen.KernelIdeal.Regions
import proofs.«405997_j73959336837504_3_alg».proof.Proof.Glue
import proofs.«405997_j73959336837504_3_alg».proof.Proof.LibKeepdims
import proofs.«405997_j73959336837504_3_alg».proof.Proof.Host0a
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import Idealize.ShloMosaic.Lib.StableHlo.Run

noncomputable section

namespace Cert.KernelIdeal.Hand

open Cert.KernelIdeal Cert.KernelIdeal.Gen Idealize.ShloMosaic Idealize.ShloMosaic.ValueIdx Idealize.ShloMosaic.TcCoe
open Idealize.ShloMosaic.StableHlo

/-! The reads of this module, in a namespace of their own. -/
namespace Host0b

/-! ## General reads -/

section General

/-- On the extended reals a change to a narrower float format leaves an array as it is. -/
theorem truncf_id {s : Shape} {φ ψ : FTy} (a : FVec Ideal s φ) (h : ψ.bits < φ.bits) :
    @Eq (s.Idx → EReal) (truncf ψ a h : FVec Ideal s ψ) a := funext fun i => truncf_apply a h i

/-- The `k` rows of a table from row `o`, cut out as a slice, are `rowsFrom o`. -/
theorem slice_rows {n k p : ℕ} (o : ℕ) (h : o + k ≤ n) (W : (⟨2, ![n, p]⟩ : Shape).Idx → EReal)
    (hs : (⟨2, ![n, p]⟩ : Shape).Slices ![o, 0] (⟨2, ![k, p]⟩ : Shape)) :
    extractStridedSlice (⟨2, ![k, p]⟩ : Shape) ![o, 0] W hs = Cert.Spec.rowsFrom o h W := by
  funext j
  obtain ⟨a, b, rfl⟩ : ∃ (a : Fin k) (b : Fin p), j = ix2 a b := ⟨j 0, j 1, eq_ix2 j⟩
  exact slice2_axis0_apply o W hs a b ⟨o + a.val, by have := a.isLt; omega⟩ rfl

/-- A vector laid out as a one-row table: its row is the vector. -/
theorem row_of_vec {p : ℕ} (x : (⟨1, ![p]⟩ : Shape).Idx → EReal) (h : (⟨1, ![p]⟩ : Shape).ShapeCasts ⟨2, ![1, p]⟩) :
    (fun j : Fin p => shapeCast ⟨2, ![1, p]⟩ x h (ix2 (0 : Fin 1) j)) = Cert.Glue.rowV x :=
  funext fun j => shapeCast_a_1a_apply x h 0 j

/-- A plain matrix product on the extended reals, read at an entry: the sum over the contracted coordinate. -/
theorem dot_plain {M K N : ℕ} {φ₁ φ₂ : FTy} (D : DotDims ⟨2, ![M, K]⟩ ⟨2, ![K, N]⟩ ⟨2, ![M, N]⟩) (hD : D = DotDims.plain M K N)
    (A : FVec Ideal ⟨2, ![M, K]⟩ φ₁) (B : FVec Ideal ⟨2, ![K, N]⟩ φ₂) (a : Fin M) (b : Fin N) :
    Host.dotGeneral D none A B (ix2 a b) = ∑ k : Fin K, A (ix2 a k) * B (ix2 k b) := by
  subst hD
  exact StackMember.dotGeneral_plain_apply none A B a b

end General

/-! ## The launch contents under the first five host stretches -/

variable (m : (ℓ : Loc nD τ sig) → Buf (Elt Ideal) ℓ) (c : Dev nD)

/-- A buffer none of the first five host stretches writes still holds its launch contents before the sixth. -/
theorem V5_keep (r : Ref sig .tc) (h5 : r ∉ hostOps0_4_W) (h4 : r ∉ hostOps0_3_W) (h3 : r ∉ hostOps0_2_W)
    (h2 : r ∉ hostOps0_1_W) (h1 : r ∉ hostOps0_W) : V5 m c r = m ((c.tc : Thread nD τ).loc r) :=
  (V5_of m c r h5).trans <| (V4_of m c r h4).trans <| (V3_of m c r h3).trans <| (V2_of m c r h2).trans (V1_of m c r h1)

/-- The two matrix products of this section are plain ones: rows by the contracted axis, times the contracted axis by columns. -/
theorem dotA_eq : dot_S16x4096_S4096x256_S16x256_1_0_0_1_n_n = DotDims.plain 16 4096 256 := rfl
theorem dotB_eq : dot_S16x256_S256x1024_S16x1024_1_0_0_1_n_n = DotDims.plain 16 256 1024 := rfl

/-! ## The per-graph table and its product with rows 19 … 274 of the first-layer matrix -/

/-- The per-graph table `u · w_dr + b_dr`: the first stretch computes it and no later stretch before the kernel rewrites it. -/
theorem v4_eq : @Eq (S16x256.Idx → EReal) (V5 m c main_v4)
    (Cert.Glue.urT (m ((c.tc : Thread nD τ).loc main_arg2)) (m ((c.tc : Thread nD τ).loc main_arg5)) (m ((c.tc : Thread nD τ).loc main_arg6))) := by
  have k : V5 m c main_v4 = V1 m c main_v4 :=
    (V5_of m c main_v4 (by decide)).trans <| (V4_of m c main_v4 (by decide)).trans <| (V3_of m c main_v4 (by decide)).trans (V2_of m c main_v4 (by decide))
  have e : @Eq (FVec Ideal S16x256 .bf16) (V1 m c main_v4)
      (truncf .bf16 (addf (Host.dotGeneral (φ₁ := .f32) (φ₂ := .f32) dot_S16x4096_S4096x256_S16x256_1_0_0_1_n_n none
          (m ((c.tc : Thread nD τ).loc main_arg2) : FVec Ideal S16x4096 .f32) (m ((c.tc : Thread nD τ).loc main_arg5) : FVec Ideal S4096x256 .f32))
        (broadcastInDim S16x256 ![0, 1] bcast_S1x256_S16x256_0_1 (broadcastInDim S1x256 ![1] bcast_S256_S1x256_1
          (m ((c.tc : Thread nD τ).loc main_arg6) : FVec Ideal S256 .f32)))) bitsLt_bf16_f32) := by
    dsimp only [V1]; after_results
  rw [k, e]
  funext i
  obtain ⟨a, b, rfl⟩ : ∃ (a : Fin 16) (b : Fin 256), i = ix2 a b := ⟨i 0, i 1, eq_ix2 i⟩
  rw [truncf_apply, addf_apply, dot_plain _ dotA_eq, Cert.LibKeepdims.broadcastInDim_1b_ab_apply, Cert.LibKeepdims.broadcastInDim_b_1b_apply]
  rfl

/-- Window 2: the per-graph table times rows 19 … 274 of the edge perceptron's first-layer matrix. -/
theorem v20_eq : @Eq (S16x1024.Idx → EReal) (V6 m c main_v20)
    (Cert.Glue.urFold (Cert.Glue.urT (m ((c.tc : Thread nD τ).loc main_arg2)) (m ((c.tc : Thread nD τ).loc main_arg5)) (m ((c.tc : Thread nD τ).loc main_arg6)))
      19 (by decide) (m ((c.tc : Thread nD τ).loc main_arg7))) := by
  have e : @Eq (FVec Ideal S16x1024 .bf16) (V6 m c main_v20)
      (truncf .bf16 (Host.dotGeneral (φ₁ := .bf16) (φ₂ := .bf16) dot_S16x256_S256x1024_S16x1024_1_0_0_1_n_n none (V5 m c main_v4 : FVec Ideal S16x256 .bf16)
        (truncf .bf16 (extractStridedSlice S256x1024 ![19, 0] (V5 m c main_arg7 : FVec Ideal S275x1024 .f32) slices_S275x1024_S256x1024_19_0) bitsLt_bf16_f32
          : FVec Ideal S256x1024 .bf16) : FVec Ideal S16x1024 .f32) bitsLt_bf16_f32) := by
    dsimp only [V6]; after_results_simp
  rw [e, v4_eq, V5_keep m c main_arg7 (by decide) (by decide) (by decide) (by decide) (by decide), truncf_id, truncf_id,
    slice_rows 19 (by decide)]
  funext i
  obtain ⟨a, b, rfl⟩ : ∃ (a : Fin 16) (b : Fin 1024), i = ix2 a b := ⟨i 0, i 1, eq_ix2 i⟩
  rw [dot_plain _ dotB_eq]
  rfl

/-! ## Row blocks of the two first-layer matrices -/

/-- Window 3: rows 0 … 18 of the edge perceptron's first-layer matrix. -/
theorem v16_eq : @Eq (S19x1024.Idx → EReal) (V6 m c main_v16) (Cert.Spec.rowsFrom 0 (by decide) (m ((c.tc : Thread nD τ).loc main_arg7))) := by
  have e : @Eq (FVec Ideal S19x1024 .bf16) (V6 m c main_v16)
      (truncf .bf16 (extractStridedSlice S19x1024 ![0, 0] (V5 m c main_arg7 : FVec Ideal S275x1024 .f32) slices_S275x1024_S19x1024_0_0) bitsLt_bf16_f32) := by
    dsimp only [V6]; after_results_simp
  rw [e, V5_keep m c main_arg7 (by decide) (by decide) (by decide) (by decide) (by decide), truncf_id]
  exact slice_rows 0 (by decide) _ _

/-- Window 13: rows 0 … 8 of the node perceptron's first-layer matrix. -/
theorem v34_eq : @Eq (S9x512.Idx → EReal) (V6 m c main_v34) (Cert.Spec.rowsFrom 0 (by decide) (m ((c.tc : Thread nD τ).loc main_arg17))) := by
  have e : @Eq (FVec Ideal S9x512 .bf16) (V6 m c main_v34)
      (truncf .bf16 (extractStridedSlice S9x512 ![0, 0] (V5 m c main_arg17 : FVec Ideal S521x512 .f32) slices_S521x512_S9x512_0_0) bitsLt_bf16_f32) := by
    dsimp only [V6]; after_results_simp
  rw [e, V5_keep m c main_arg17 (by decide) (by decide) (by decide) (by decide) (by decide), truncf_id]
  exact slice_rows 0 (by decide) _ _

/-- Window 14: rows 9 … 520 of the node perceptron's first-layer matrix. -/
theorem v36_eq : @Eq (S512x512.Idx → EReal) (V6 m c main_v36) (Cert.Spec.rowsFrom 9 (by decide) (m ((c.tc : Thread nD τ).loc main_arg17))) := by
  have e : @Eq (FVec Ideal S512x512 .bf16) (V6 m c main_v36)
      (truncf .bf16 (extractStridedSlice S512x512 ![9, 0] (V5 m c main_arg17 : FVec Ideal S521x512 .f32) slices_S521x512_S512x512_9_0) bitsLt_bf16_f32) := by
    dsimp only [V6]; after_results_simp
  rw [e, V5_keep m c main_arg17 (by decide) (by decide) (by decide) (by decide) (by decide), truncf_id]
  exact slice_rows 9 (by decide) _ _

/-! ## The weight matrices passed whole -/

/-- Window 5: the second layer's matrix. -/
theorem v29_eq : @Eq (S1024x1024.Idx → EReal) (V6 m c main_v29) (m ((c.tc : Thread nD τ).loc main_arg9)) := by
  have e : @Eq (FVec Ideal S1024x1024 .bf16) (V6 m c main_v29) (truncf .bf16 (V5 m c main_arg9 : FVec Ideal S1024x1024 .f32) bitsLt_bf16_f32) := by
    dsimp only [V6]; after_results_simp
  rw [e, V5_keep m c main_arg9 (by decide) (by decide) (by decide) (by decide) (by decide), truncf_id]

/-- Window 7: the third layer's matrix. -/
theorem v30_eq : @Eq (S1024x1024.Idx → EReal) (V6 m c main_v30) (m ((c.tc : Thread nD τ).loc main_arg11)) := by
  have e : @Eq (FVec Ideal S1024x1024 .bf16) (V6 m c main_v30) (truncf .bf16 (V5 m c main_arg11 : FVec Ideal S1024x1024 .f32) bitsLt_bf16_f32) := by
    dsimp only [V6]; after_results_simp
  rw [e, V5_keep m c main_arg11 (by decide) (by decide) (by decide) (by decide) (by decide), truncf_id]

/-- Window 9: the fourth layer's matrix. -/
theorem v31_eq : @Eq (S1024x1024.Idx → EReal) (V6 m c main_v31) (m ((c.tc : Thread nD τ).loc main_arg13)) := by
  have e : @Eq (FVec Ideal S1024x1024 .bf16) (V6 m c main_v31) (truncf .bf16 (V5 m c main_arg13 : FVec Ideal S1024x1024 .f32) bitsLt_bf16_f32) := by
    dsimp only [V6]; after_results_simp
  rw [e, V5_keep m c main_arg13 (by decide) (by decide) (by decide) (by decide) (by decide), truncf_id]

/-- Window 11: the edge output layer's matrix. -/
theorem v32_eq : @Eq (S1024x512.Idx → EReal) (V6 m c main_v32) (m ((c.tc : Thread nD τ).loc main_arg15)) := by
  have e : @Eq (FVec Ideal S1024x512 .bf16) (V6 m c main_v32) (truncf .bf16 (V5 m c main_arg15 : FVec Ideal S1024x512 .f32) bitsLt_bf16_f32) := by
    dsimp only [V6]; after_results_simp
  rw [e, V5_keep m c main_arg15 (by decide) (by decide) (by decide) (by decide) (by decide), truncf_id]

/-- Window 16: the node perceptron's second-layer matrix. -/
theorem v37_eq : @Eq (S512x512.Idx → EReal) (V6 m c main_v37) (m ((c.tc : Thread nD τ).loc main_arg19)) := by
  have e : @Eq (FVec Ideal S512x512 .bf16) (V6 m c main_v37) (truncf .bf16 (V5 m c main_arg19 : FVec Ideal S512x512 .f32) bitsLt_bf16_f32) := by
    dsimp only [V6]; after_results_simp
  rw [e, V5_keep m c main_arg19 (by decide) (by decide) (by decide) (by decide) (by decide), truncf_id]

/-! ## The bias vectors as rows -/

/-- Window 4: the first layer's bias. -/
theorem v38_row : (fun j : Fin 1024 => (V6 m c main_v38 : S1x1024.Idx → EReal) (ix2 0 j)) = Cert.Glue.rowV (m ((c.tc : Thread nD τ).loc main_arg8)) := by
  have e : @Eq (S1x1024.Idx → EReal) (V6 m c main_v38) (shapeCast S1x1024 (V5 m c main_arg8 : S1024.Idx → EReal) shapeCasts_S1024_S1x1024) := by
    dsimp only [V6]; after_results_simp <;> rfl
  rw [e, V5_keep m c main_arg8 (by decide) (by decide) (by decide) (by decide) (by decide)]
  exact row_of_vec _ _

/-- Window 6: the second layer's bias. -/
theorem v39_row : (fun j : Fin 1024 => (V6 m c main_v39 : S1x1024.Idx → EReal) (ix2 0 j)) = Cert.Glue.rowV (m ((c.tc : Thread nD τ).loc main_arg10)) := by
  have e : @Eq (S1x1024.Idx → EReal) (V6 m c main_v39) (shapeCast S1x1024 (V5 m c main_arg10 : S1024.Idx → EReal) shapeCasts_S1024_S1x1024) := by
    dsimp only [V6]; after_results_simp <;> rfl
  rw [e, V5_keep m c main_arg10 (by decide) (by decide) (by decide) (by decide) (by decide)]
  exact row_of_vec _ _

/-- Window 8: the third layer's bias. -/
theorem v40_row : (fun j : Fin 1024 => (V6 m c main_v40 : S1x1024.Idx → EReal) (ix2 0 j)) = Cert.Glue.rowV (m ((c.tc : Thread nD τ).loc main_arg12)) := by
  have e : @Eq (S1x1024.Idx → EReal) (V6 m c main_v40) (shapeCast S1x1024 (V5 m c main_arg12 : S1024.Idx → EReal) shapeCasts_S1024_S1x1024) := by
    dsimp only [V6]; after_results_simp <;> rfl
  rw [e, V5_keep m c main_arg12 (by decide) (by decide) (by decide) (by decide) (by decide)]
  exact row_of_vec _ _

/-- Window 10: the fourth layer's bias. -/
theorem v41_row : (fun j : Fin 1024 => (V6 m c main_v41 : S1x1024.Idx → EReal) (ix2 0 j)) = Cert.Glue.rowV (m ((c.tc : Thread nD τ).loc main_arg14)) := by
  have e : @Eq (S1x1024.Idx → EReal) (V6 m c main_v41) (shapeCast S1x1024 (V5 m c main_arg14 : S1024.Idx → EReal) shapeCasts_S1024_S1x1024) := by
    dsimp only [V6]; after_results_simp <;> rfl
  rw [e, V5_keep m c main_arg14 (by decide) (by decide) (by decide) (by decide) (by decide)]
  exact row_of_vec _ _

/-- Window 12: the edge output layer's bias. -/
theorem v42_row : (fun j : Fin 512 => (V6 m c main_v42 : S1x512.Idx → EReal) (ix2 0 j)) = Cert.Glue.rowV (m ((c.tc : Thread nD τ).loc main_arg16)) := by
  have e : @Eq (S1x512.Idx → EReal) (V6 m c main_v42) (shapeCast S1x512 (V5 m c main_arg16 : S512.Idx → EReal) shapeCasts_S512_S1x512) := by
    dsimp only [V6]; after_results_simp <;> rfl
  rw [e, V5_keep m c main_arg16 (by decide) (by decide) (by decide) (by decide) (by decide)]
  exact row_of_vec _ _

/-- Window 15: the node perceptron's first-layer bias. -/
theorem v43_row : (fun j : Fin 512 => (V6 m c main_v43 : S1x512.Idx → EReal) (ix2 0 j)) = Cert.Glue.rowV (m ((c.tc : Thread nD τ).loc main_arg18)) := by
  have e : @Eq (S1x512.Idx → EReal) (V6 m c main_v43) (shapeCast S1x512 (V5 m c main_arg18 : S512.Idx → EReal) shapeCasts_S512_S1x512) := by
    dsimp only [V6]; after_results_simp <;> rfl
  rw [e, V5_keep m c main_arg18 (by decide) (by decide) (by decide) (by decide) (by decide)]
  exact row_of_vec _ _

/-- Window 17: the node perceptron's second-layer bias. -/
theorem v44_row : (fun j : Fin 512 => (V6 m c main_v44 : S1x512.Idx → EReal) (ix2 0 j)) = Cert.Glue.rowV (m ((c.tc : Thread nD τ).loc main_arg20)) := by
  have e : @Eq (S1x512.Idx → EReal) (V6 m c main_v44) (shapeCast S1x512 (V5 m c main_arg20 : S512.Idx → EReal) shapeCasts_S512_S1x512) := by
    dsimp only [V6]; after_results_simp <;> rfl
  rw [e, V5_keep m c main_arg20 (by decide) (by decide) (by decide) (by decide) (by decide)]
  exact row_of_vec _ _

end Host0b

open Host0b

variable (m : (ℓ : Loc nD τ sig) → Buf (Elt Ideal) ℓ) (c : Dev nD)

/-! ## The kernel's edge function of the argument arrays -/

/-- At the edge kernel's entry its eighteen operands, fed to the edge function, give the kernel's hidden activations of edge
    `e` as a function of the argument arrays. -/
theorem entry0 (hei : ∀ i, ((m ((c.tc : Thread nD τ).loc main_arg3)) i).toNat < 16384)
    (hbt : ∀ i, ((m ((c.tc : Thread nD τ).loc main_arg4)) i).toNat < 16) (e : Fin 131072) (q : Fin 512) :
    Cert.Spec.edgeK (fun k : Fin 19 => (V6 m c main_v11 : S131072x19.Idx → EReal) (ix2 e k))
        (Cert.Spec.onehot16 ((V6 m c main_v13 : S131072x1.Idx → BitVec 32) (ix2 e 0)))
        (V6 m c main_v20) (V6 m c main_v16) (fun j : Fin 1024 => (V6 m c main_v38 : S1x1024.Idx → EReal) (ix2 0 j))
        (V6 m c main_v29) (fun j : Fin 1024 => (V6 m c main_v39 : S1x1024.Idx → EReal) (ix2 0 j))
        (V6 m c main_v30) (fun j : Fin 1024 => (V6 m c main_v40 : S1x1024.Idx → EReal) (ix2 0 j))
        (V6 m c main_v31) (fun j : Fin 1024 => (V6 m c main_v41 : S1x1024.Idx → EReal) (ix2 0 j))
        (V6 m c main_v32) (fun j : Fin 512 => (V6 m c main_v42 : S1x512.Idx → EReal) (ix2 0 j))
        (V6 m c main_v34) (V6 m c main_v36) (fun j : Fin 512 => (V6 m c main_v43 : S1x512.Idx → EReal) (ix2 0 j))
        (V6 m c main_v37) (fun j : Fin 512 => (V6 m c main_v44 : S1x512.Idx → EReal) (ix2 0 j)) q
    = Cert.Glue.hK (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
        (m ((c.tc : Thread nD τ).loc main_arg15)) (m ((c.tc : Thread nD τ).loc main_arg16)) (m ((c.tc : Thread nD τ).loc main_arg17))
        (m ((c.tc : Thread nD τ).loc main_arg18)) (m ((c.tc : Thread nD τ).loc main_arg19)) (m ((c.tc : Thread nD τ).loc main_arg20)) (ix2 e q) := by
  rw [ex_row m c hei e, brow m c hei e, v20_eq, v16_eq, v38_row, v29_eq, v39_row, v30_eq, v40_row, v31_eq, v41_row, v32_eq, v42_row,
    v34_eq, v36_eq, v43_row, v37_eq, v44_row]
  rfl

end Cert.KernelIdeal.Hand

end
-- ==== Proof.Host1.lean ====
/-
  The host side of the second kernel region: what the node kernel's nine input arrays hold when it is entered, read back
  to the program's arguments, and the result read off the node kernel's output.

  The aggregated activations are the host's scatter-mean of the edge kernel's output over the edges' source nodes; that
  chain of operations is kept as ONE function of (index vector, edge activations): the reference applies the same chain.
  The per-graph table multiplied by the last 256 rows of the second node perceptron's first-layer matrix is a matrix
  product read entry by entry; the other arrays are slices and reshapes of the arguments.
-/
import proofs.«405997_j73959336837504_3_alg».proof.Proof.Gen.KernelIdeal.Regions
import proofs.«405997_j73959336837504_3_alg».proof.Proof.Glue
import Idealize.ShloMosaic.Lib.Pipeline.Value
import Idealize.ShloMosaic.Lib.ValueIdx
import Idealize.ShloMosaic.PureOps.Ideal.Laws

set_option maxRecDepth 3716

noncomputable section

namespace Cert.KernelIdeal.Hand

open Cert.KernelIdeal Cert.KernelIdeal.Gen Idealize.ShloMosaic Idealize.ShloMosaic.ValueIdx Idealize.ShloMosaic.TcCoe
open Idealize.ShloMosaic.StableHlo

variable (m : (ℓ : Loc nD τ sig) → Buf (Elt Ideal) ℓ) (outs : Outs (F := Ideal))

/-! ## What the two regions wrote -/

theorem v7_v45 (c : Dev nD) : V7 m outs c main_v45 = outs 7 main_v45 c := by
  dsimp only [V7]; exact Function.update_self ..

theorem v9_v61 (c : Dev nD) : V9 m outs c main_v61 = outs 9 main_v61 c := by
  dsimp only [V9]; exact Function.update_self ..

/-! ## The result: the node kernel's output column as a vector -/

theorem result_eq (c : Dev nD) (n : Fin 16384) :
    (V10 m outs c main_v62 : S16384.Idx → EReal) (ix1 n) = (V9 m outs c main_v61 : S16384x1.Idx → EReal) (ix2 n 0) := by
  have e : @Eq (FVec Ideal S16384 .f32) (V10 m outs c main_v62)
      (shapeCast S16384 (V9 m outs c main_v61 : FVec Ideal S16384x1 .f32) shapeCasts_S16384x1_S16384) := by
    dsimp only [V10, hostOps2]; after_results <;> (try rfl)
  rw [e]
  refine shapeCast_apply (s := S16384x1) (t := S16384) _ _ _ _ ?_
  rw [Shape.rowMajor_val_two, Shape.rowMajor_val_one]
  show n.val * 1 + 0 = n.val
  omega

/-! ## Arrays the second region reads that no operation after the launch changed, or that one reshape or slice made -/

theorem v8_arg0 (c : Dev nD) : V8 m outs c main_arg0 = m ((c.tc : Thread nD τ).loc main_arg0) :=
  (V8_of m outs c main_arg0 (by decide)).trans <| (V7_of m outs c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl

theorem v7_arg22 (c : Dev nD) : V7 m outs c main_arg22 = m ((c.tc : Thread nD τ).loc main_arg22) :=
  (V7_of m outs c main_arg22 (by decide)).trans <| (V6_of m c main_arg22 (by decide)).trans <| (V5_of m c main_arg22 (by decide)).trans <| (V4_of m c main_arg22 (by decide)).trans <| (V3_of m c main_arg22 (by decide)).trans <| (V2_of m c main_arg22 (by decide)).trans <| (V1_of m c main_arg22 (by decide)).trans rfl
theorem v7_arg23 (c : Dev nD) : V7 m outs c main_arg23 = m ((c.tc : Thread nD τ).loc main_arg23) :=
  (V7_of m outs c main_arg23 (by decide)).trans <| (V6_of m c main_arg23 (by decide)).trans <| (V5_of m c main_arg23 (by decide)).trans <| (V4_of m c main_arg23 (by decide)).trans <| (V3_of m c main_arg23 (by decide)).trans <| (V2_of m c main_arg23 (by decide)).trans <| (V1_of m c main_arg23 (by decide)).trans rfl
theorem v7_arg24 (c : Dev nD) : V7 m outs c main_arg24 = m ((c.tc : Thread nD τ).loc main_arg24) :=
  (V7_of m outs c main_arg24 (by decide)).trans <| (V6_of m c main_arg24 (by decide)).trans <| (V5_of m c main_arg24 (by decide)).trans <| (V4_of m c main_arg24 (by decide)).trans <| (V3_of m c main_arg24 (by decide)).trans <| (V2_of m c main_arg24 (by decide)).trans <| (V1_of m c main_arg24 (by decide)).trans rfl

theorem v8_v58 (c : Dev nD) : @Eq (S512x1.Idx → EReal) (V8 m outs c main_v58) (m ((c.tc : Thread nD τ).loc main_arg23)) := by
  have e : @Eq (FVec Ideal S512x1 .bf16) (V8 m outs c main_v58)
      (truncf .bf16 (V7 m outs c main_arg23 : FVec Ideal S512x1 .f32) bitsLt_bf16_f32) := by
    dsimp only [V8, hostOps1]; after_results <;> (try rfl)
  refine e.trans ?_
  rw [v7_arg23]; rfl

theorem v8_v59 (c : Dev nD) (j : Fin 512) :
    (V8 m outs c main_v59 : S1x512.Idx → EReal) (ix2 0 j) = (m ((c.tc : Thread nD τ).loc main_arg22) : S512.Idx → EReal) (ix1 j) := by
  have e : @Eq (FVec Ideal S1x512 .f32) (V8 m outs c main_v59)
      (shapeCast S1x512 (V7 m outs c main_arg22 : FVec Ideal S512 .f32) shapeCasts_S512_S1x512) := by
    dsimp only [V8, hostOps1]; after_results <;> (try rfl)
  rw [e, v7_arg22]
  refine shapeCast_apply (s := S512) (t := S1x512) _ _ _ _ ?_
  rw [Shape.rowMajor_val_two, Shape.rowMajor_val_one]
  show j.val = 0 * 512 + j.val
  omega

theorem v8_v60 (c : Dev nD) :
    (V8 m outs c main_v60 : S1x1.Idx → EReal) (ix2 0 0) = (m ((c.tc : Thread nD τ).loc main_arg24) : S1.Idx → EReal) (ix1 0) := by
  have e : @Eq (FVec Ideal S1x1 .f32) (V8 m outs c main_v60)
      (shapeCast S1x1 (V7 m outs c main_arg24 : FVec Ideal S1 .f32) shapeCasts_S1_S1x1) := by
    dsimp only [V8, hostOps1]; after_results <;> (try rfl)
  rw [e, v7_arg24]
  refine shapeCast_apply (s := S1) (t := S1x1) _ _ _ _ ?_
  rw [Shape.rowMajor_val_two, Shape.rowMajor_val_one]
  rfl

/-! ## The aggregated activations: the host's scatter-mean, one function of the index vector and the edge activations -/

/-- The scatter-mean chain: the edge activations added into their source nodes' rows of a zero table, divided by the
    number of edges of each node (at least one). Never opened: both programs apply it. -/
def aggK (idx : S131072.Idx → BitVec 32) (h : S131072x512.Idx → EReal) : S16384x512.Idx → EReal :=
  Host.divf (F := Ideal)
    (Host.scatterAdd (F := Ideal) scatter_S16384x512_S131072x1_S131072x512_1_0_0_1
      (broadcastInDim S16384x512 ![] bcast_S_S16384x512 (constant (F := Ideal) S_ .f32 0x00000000#32))
      (broadcastInDim S131072x1 ![0] bcast_S131072_S131072x1_0 idx)
      h)
    (broadcastInDim S16384x512 ![0, 1] bcast_S16384x1_S16384x512_0_1
      (broadcastInDim S16384x1 ![0] bcast_S16384_S16384x1_0
        (maximumf (F := Ideal)
          (Host.scatterAdd (F := Ideal) scatter_S16384_S131072x1_S131072_n_0_0_1
            (broadcastInDim S16384 ![] bcast_S_S16384 (constant (F := Ideal) S_ .f32 0x00000000#32))
            (broadcastInDim S131072x1 ![0] bcast_S131072_S131072x1_0 idx)
            (broadcastInDim S131072 ![] bcast_S_S131072 (constant (F := Ideal) S_ .f32 0x3F800000#32)))
          (broadcastInDim S16384 ![] bcast_S_S16384 (constant (F := Ideal) S_ .f32 0x3F800000#32)))))

theorem v7_v6 (c : Dev nD) : V7 m outs c main_v6 = V6 m c main_v6 := V7_of m outs c main_v6 (by decide)

theorem v57_eq (c : Dev nD) :
    @Eq (S16384x512.Idx → EReal) (V8 m outs c main_v57) (aggK (V6 m c main_v6) (V7 m outs c main_v45)) := by
  have e : @Eq (S16384x512.Idx → EReal) (V8 m outs c main_v57) (aggK (V7 m outs c main_v6) (V7 m outs c main_v45)) := by
    dsimp only [V8, hostOps1]; after_results <;> (try rfl)
  rw [e, v7_v6]

/-! ## The two matrix products of the per-graph table, entry by entry -/

theorem dotU_lhs0 (i : S16x256.Idx) (q : dot_S16x4096_S4096x256_S16x256_1_0_0_1_n_n.contr.Idx) : (dot_S16x4096_S4096x256_S16x256_1_0_0_1_n_n.lhsIdx i q 0).val = (i 0).val := by
  unfold DotDims.lhsIdx
  rw [dif_neg (show ¬(0 : Fin S16x4096.rank) ∈ dot_S16x4096_S4096x256_S16x256_1_0_0_1_n_n.lhsBatch by decide), dif_pos (show (0 : Fin S16x4096.rank) ∈ dot_S16x4096_S4096x256_S16x256_1_0_0_1_n_n.lhsNonContracting by decide)]
  rfl
theorem dotU_lhs1 (i : S16x256.Idx) (q : dot_S16x4096_S4096x256_S16x256_1_0_0_1_n_n.contr.Idx) : (dot_S16x4096_S4096x256_S16x256_1_0_0_1_n_n.lhsIdx i q 1).val = (q ⟨0, by decide⟩).val :=
  dot_S16x4096_S4096x256_S16x256_1_0_0_1_n_n.lhsIdx_val_of_single rfl i q
theorem dotU_rhs0 (i : S16x256.Idx) (q : dot_S16x4096_S4096x256_S16x256_1_0_0_1_n_n.contr.Idx) : (dot_S16x4096_S4096x256_S16x256_1_0_0_1_n_n.rhsIdx i q 0).val = (q ⟨0, by decide⟩).val :=
  dot_S16x4096_S4096x256_S16x256_1_0_0_1_n_n.rhsIdx_val_of_single rfl i q
theorem dotU_rhs1 (i : S16x256.Idx) (q : dot_S16x4096_S4096x256_S16x256_1_0_0_1_n_n.contr.Idx) : (dot_S16x4096_S4096x256_S16x256_1_0_0_1_n_n.rhsIdx i q 1).val = (i 1).val := by
  unfold DotDims.rhsIdx
  rw [dif_neg (show ¬(1 : Fin S4096x256.rank) ∈ dot_S16x4096_S4096x256_S16x256_1_0_0_1_n_n.rhsBatch by decide), dif_pos (show (1 : Fin S4096x256.rank) ∈ dot_S16x4096_S4096x256_S16x256_1_0_0_1_n_n.rhsNonContracting by decide)]
  rfl
/-- The global features times the reduction matrix: entry (g, j) is the sum over the 4096 features. -/
theorem dotU_apply (x : FVec Ideal S16x4096 .f32) (y : FVec Ideal S4096x256 .f32) (i : S16x256.Idx) :
    Host.dotGeneral (F := Ideal) dot_S16x4096_S4096x256_S16x256_1_0_0_1_n_n none x y i = ∑ k : Fin 4096, x (ix2 (i 0) k) * y (ix2 k (i 1)) := by
  simp only [Host.dotGeneral]
  rw [Ideal.dotGeneral_apply, ← Equiv.sum_comp (ValueIdx.contrEquiv1 dot_S16x4096_S4096x256_S16x256_1_0_0_1_n_n 4096 rfl rfl).symm]
  refine Finset.sum_congr rfl fun k _ => ?_
  have hk := ValueIdx.contrEquiv1_symm_val dot_S16x4096_S4096x256_S16x256_1_0_0_1_n_n 4096 rfl rfl k
  have el : dot_S16x4096_S4096x256_S16x256_1_0_0_1_n_n.lhsIdx i ((ValueIdx.contrEquiv1 dot_S16x4096_S4096x256_S16x256_1_0_0_1_n_n 4096 rfl rfl).symm k) = ix2 (i 0) k := funext fun a => Fin.ext (by
    match a with
    | ⟨0, _⟩ => exact dotU_lhs0 _ _
    | ⟨1, _⟩ => exact (dotU_lhs1 _ _).trans hk)
  have er : dot_S16x4096_S4096x256_S16x256_1_0_0_1_n_n.rhsIdx i ((ValueIdx.contrEquiv1 dot_S16x4096_S4096x256_S16x256_1_0_0_1_n_n 4096 rfl rfl).symm k) = ix2 k (i 1) := funext fun a => Fin.ext (by
    match a with
    | ⟨0, _⟩ => exact (dotU_rhs0 _ _).trans hk
    | ⟨1, _⟩ => exact dotU_rhs1 _ _)
  rw [el, er]
  rfl

theorem dotT_lhs0 (i : S16x512.Idx) (q : dot_S16x256_S256x512_S16x512_1_0_0_1_n_n.contr.Idx) : (dot_S16x256_S256x512_S16x512_1_0_0_1_n_n.lhsIdx i q 0).val = (i 0).val := by
  unfold DotDims.lhsIdx
  rw [dif_neg (show ¬(0 : Fin S16x256.rank) ∈ dot_S16x256_S256x512_S16x512_1_0_0_1_n_n.lhsBatch by decide), dif_pos (show (0 : Fin S16x256.rank) ∈ dot_S16x256_S256x512_S16x512_1_0_0_1_n_n.lhsNonContracting by decide)]
  rfl
theorem dotT_lhs1 (i : S16x512.Idx) (q : dot_S16x256_S256x512_S16x512_1_0_0_1_n_n.contr.Idx) : (dot_S16x256_S256x512_S16x512_1_0_0_1_n_n.lhsIdx i q 1).val = (q ⟨0, by decide⟩).val :=
  dot_S16x256_S256x512_S16x512_1_0_0_1_n_n.lhsIdx_val_of_single rfl i q
theorem dotT_rhs0 (i : S16x512.Idx) (q : dot_S16x256_S256x512_S16x512_1_0_0_1_n_n.contr.Idx) : (dot_S16x256_S256x512_S16x512_1_0_0_1_n_n.rhsIdx i q 0).val = (q ⟨0, by decide⟩).val :=
  dot_S16x256_S256x512_S16x512_1_0_0_1_n_n.rhsIdx_val_of_single rfl i q
theorem dotT_rhs1 (i : S16x512.Idx) (q : dot_S16x256_S256x512_S16x512_1_0_0_1_n_n.contr.Idx) : (dot_S16x256_S256x512_S16x512_1_0_0_1_n_n.rhsIdx i q 1).val = (i 1).val := by
  unfold DotDims.rhsIdx
  rw [dif_neg (show ¬(1 : Fin S256x512.rank) ∈ dot_S16x256_S256x512_S16x512_1_0_0_1_n_n.rhsBatch by decide), dif_pos (show (1 : Fin S256x512.rank) ∈ dot_S16x256_S256x512_S16x512_1_0_0_1_n_n.rhsNonContracting by decide)]
  rfl
/-- The per-graph table times a 256-row slice of a first-layer matrix: entry (g, j) is the sum over the table's 256 columns. -/
theorem dotT_apply (x : FVec Ideal S16x256 .bf16) (y : FVec Ideal S256x512 .bf16) (i : S16x512.Idx) :
    Host.dotGeneral (F := Ideal) dot_S16x256_S256x512_S16x512_1_0_0_1_n_n none x y i = ∑ k : Fin 256, x (ix2 (i 0) k) * y (ix2 k (i 1)) := by
  simp only [Host.dotGeneral]
  rw [Ideal.dotGeneral_apply, ← Equiv.sum_comp (ValueIdx.contrEquiv1 dot_S16x256_S256x512_S16x512_1_0_0_1_n_n 256 rfl rfl).symm]
  refine Finset.sum_congr rfl fun k _ => ?_
  have hk := ValueIdx.contrEquiv1_symm_val dot_S16x256_S256x512_S16x512_1_0_0_1_n_n 256 rfl rfl k
  have el : dot_S16x256_S256x512_S16x512_1_0_0_1_n_n.lhsIdx i ((ValueIdx.contrEquiv1 dot_S16x256_S256x512_S16x512_1_0_0_1_n_n 256 rfl rfl).symm k) = ix2 (i 0) k := funext fun a => Fin.ext (by
    match a with
    | ⟨0, _⟩ => exact dotT_lhs0 _ _
    | ⟨1, _⟩ => exact (dotT_lhs1 _ _).trans hk)
  have er : dot_S16x256_S256x512_S16x512_1_0_0_1_n_n.rhsIdx i ((ValueIdx.contrEquiv1 dot_S16x256_S256x512_S16x512_1_0_0_1_n_n 256 rfl rfl).symm k) = ix2 k (i 1) := funext fun a => Fin.ext (by
    match a with
    | ⟨0, _⟩ => exact (dotT_rhs0 _ _).trans hk
    | ⟨1, _⟩ => exact dotT_rhs1 _ _)
  rw [el, er]
  rfl

/-! ## Arrays made before the first region -/

theorem v5_arg4 (c : Dev nD) : V5 m c main_arg4 = m ((c.tc : Thread nD τ).loc main_arg4) :=
  (V5_of m c main_arg4 (by decide)).trans <| (V4_of m c main_arg4 (by decide)).trans <| (V3_of m c main_arg4 (by decide)).trans <| (V2_of m c main_arg4 (by decide)).trans <| (V1_of m c main_arg4 (by decide)).trans rfl
theorem v5_arg21 (c : Dev nD) : V5 m c main_arg21 = m ((c.tc : Thread nD τ).loc main_arg21) :=
  (V5_of m c main_arg21 (by decide)).trans <| (V4_of m c main_arg21 (by decide)).trans <| (V3_of m c main_arg21 (by decide)).trans <| (V2_of m c main_arg21 (by decide)).trans <| (V1_of m c main_arg21 (by decide)).trans rfl
theorem v0_arg (c : Dev nD) (r : Ref sig .tc) : V0 m c r = m ((c.tc : Thread nD τ).loc r) := rfl

theorem v8_v14 (c : Dev nD) (n : Fin 16384) :
    (V8 m outs c main_v14 : S16384x1.Idx → BitVec 32) (ix2 n 0) = (m ((c.tc : Thread nD τ).loc main_arg4) : S16384.Idx → BitVec 32) (ix1 n) := by
  have e : @Eq (IVec S16384x1 32) (V6 m c main_v14)
      (shapeCast S16384x1 (V5 m c main_arg4 : IVec S16384 32) shapeCasts_S16384_S16384x1) := by
    dsimp only [V6, hostOps0_5]; after_results_simp <;> (try rfl)
  rw [show V8 m outs c main_v14 = V6 m c main_v14 from (V8_of m outs c main_v14 (by decide)).trans <| (V7_of m outs c main_v14 (by decide)), e, v5_arg4]
  refine shapeCast_apply (s := S16384) (t := S16384x1) _ _ _ _ ?_
  rw [Shape.rowMajor_val_two, Shape.rowMajor_val_one]
  show n.val = n.val * 1 + 0
  omega

theorem v8_v22 (c : Dev nD) :
    @Eq (S9x512.Idx → EReal) (V8 m outs c main_v22)
      (Cert.Spec.rowsFrom (n := 777) (k := 9) (p := 512) 0 (by decide) (m ((c.tc : Thread nD τ).loc main_arg21))) := by
  have e : @Eq (FVec Ideal S9x512 .bf16) (V6 m c main_v22)
      (truncf .bf16 (extractStridedSlice S9x512 ![0, 0] (V5 m c main_arg21 : FVec Ideal S777x512 .f32) slices_S777x512_S9x512_0_0) bitsLt_bf16_f32) := by
    dsimp only [V6, hostOps0_5]; after_results_simp <;> (try rfl)
  rw [show V8 m outs c main_v22 = V6 m c main_v22 from (V8_of m outs c main_v22 (by decide)).trans <| (V7_of m outs c main_v22 (by decide))]
  refine e.trans ?_
  rw [v5_arg21]
  funext i
  rw [truncf_apply]
  unfold Cert.Spec.rowsFrom
  refine extractStridedSlice_apply (s := S777x512) (t := S9x512) _ _ _ i _ fun a => ?_
  match a with
  | ⟨0, _⟩ => rfl
  | ⟨1, _⟩ => show (i 1).val = 0 + (i 1).val; omega

theorem v8_v24 (c : Dev nD) :
    @Eq (S512x512.Idx → EReal) (V8 m outs c main_v24)
      (Cert.Spec.rowsFrom (n := 777) (k := 512) (p := 512) 9 (by decide) (m ((c.tc : Thread nD τ).loc main_arg21))) := by
  have e : @Eq (FVec Ideal S512x512 .bf16) (V6 m c main_v24)
      (truncf .bf16 (extractStridedSlice S512x512 ![9, 0] (V5 m c main_arg21 : FVec Ideal S777x512 .f32) slices_S777x512_S512x512_9_0) bitsLt_bf16_f32) := by
    dsimp only [V6, hostOps0_5]; after_results_simp <;> (try rfl)
  rw [show V8 m outs c main_v24 = V6 m c main_v24 from (V8_of m outs c main_v24 (by decide)).trans <| (V7_of m outs c main_v24 (by decide))]
  refine e.trans ?_
  rw [v5_arg21]
  funext i
  rw [truncf_apply]
  unfold Cert.Spec.rowsFrom
  refine extractStridedSlice_apply (s := S777x512) (t := S512x512) _ _ _ i _ fun a => ?_
  match a with
  | ⟨0, _⟩ => rfl
  | ⟨1, _⟩ => show (i 1).val = 0 + (i 1).val; omega

/-! ## The per-graph table and its product with the last 256 rows of the second perceptron's first layer -/

theorem v5_v4 (c : Dev nD) :
    @Eq (S16x256.Idx → EReal) (V5 m c main_v4)
      (Cert.Glue.urT (m ((c.tc : Thread nD τ).loc main_arg2)) (m ((c.tc : Thread nD τ).loc main_arg5)) (m ((c.tc : Thread nD τ).loc main_arg6))) := by
  have e : @Eq (FVec Ideal S16x256 .bf16) (V1 m c main_v4)
      (truncf .bf16
        (addf (Host.dotGeneral (F := Ideal) (φ₁ := .f32) (φ₂ := .f32) dot_S16x4096_S4096x256_S16x256_1_0_0_1_n_n none
            (V0 m c main_arg2 : FVec Ideal S16x4096 .f32) (V0 m c main_arg5 : FVec Ideal S4096x256 .f32))
          (broadcastInDim S16x256 ![0, 1] bcast_S1x256_S16x256_0_1
            (broadcastInDim S1x256 ![1] bcast_S256_S1x256_1 (V0 m c main_arg6 : FVec Ideal S256 .f32))))
        bitsLt_bf16_f32) := by
    dsimp only [V1, hostOps0]; after_results <;> (try rfl)
  rw [show V5 m c main_v4 = V1 m c main_v4 from (V5_of m c main_v4 (by decide)).trans <| (V4_of m c main_v4 (by decide)).trans <| (V3_of m c main_v4 (by decide)).trans <| (V2_of m c main_v4 (by decide))]
  refine e.trans ?_
  funext i
  rw [truncf_apply, addf_apply, dotU_apply]
  unfold Cert.Glue.urT
  refine congrArg₂ (· + ·) rfl ?_
  refine (broadcastInDim_apply (s := S1x256) (t := S16x256) _ bcast_S1x256_S16x256_0_1 _ i (ix2 (0 : Fin 1) (i 1)) (fun a => ?_)).trans ?_
  · match a with
    | ⟨0, _⟩ => rfl
    | ⟨1, _⟩ => show (i 1).val = if (256 : ℕ) = 1 then 0 else (i 1).val; rw [if_neg (by decide)]
  · refine broadcastInDim_apply (s := S256) (t := S1x256) _ bcast_S256_S1x256_1 _ _ (ix1 (i 1)) (fun a => ?_)
    match a with
    | ⟨0, _⟩ => show (i 1).val = if (256 : ℕ) = 1 then 0 else (i 1).val; rw [if_neg (by decide)]

theorem v8_v28 (c : Dev nD) :
    @Eq (S16x512.Idx → EReal) (V8 m outs c main_v28)
      (Cert.Glue.urFold (n := 777) (p := 512)
        (Cert.Glue.urT (m ((c.tc : Thread nD τ).loc main_arg2)) (m ((c.tc : Thread nD τ).loc main_arg5)) (m ((c.tc : Thread nD τ).loc main_arg6)))
        521 (by decide) (m ((c.tc : Thread nD τ).loc main_arg21))) := by
  have e : @Eq (FVec Ideal S16x512 .bf16) (V6 m c main_v28)
      (truncf .bf16
        (Host.dotGeneral (F := Ideal) (φ₁ := .bf16) (φ₂ := .bf16) dot_S16x256_S256x512_S16x512_1_0_0_1_n_n none
          (V5 m c main_v4 : FVec Ideal S16x256 .bf16)
          (truncf .bf16 (extractStridedSlice S256x512 ![521, 0] (V5 m c main_arg21 : FVec Ideal S777x512 .f32) slices_S777x512_S256x512_521_0) bitsLt_bf16_f32 : FVec Ideal S256x512 .bf16))
        bitsLt_bf16_f32) := by
    dsimp only [V6, hostOps0_5]; after_results_simp <;> (try rfl)
  rw [show V8 m outs c main_v28 = V6 m c main_v28 from (V8_of m outs c main_v28 (by decide)).trans <| (V7_of m outs c main_v28 (by decide))]
  refine e.trans ?_
  rw [v5_v4, v5_arg21]
  funext a
  rw [truncf_apply, dotT_apply]
  unfold Cert.Glue.urFold
  refine Finset.sum_congr rfl fun k _ => ?_
  refine congrArg₂ (· * ·) rfl ?_
  rw [truncf_apply]
  refine extractStridedSlice_apply (s := S777x512) (t := S256x512) _ _ _ _ _ fun ax => ?_
  match ax with
  | ⟨0, _⟩ => rfl
  | ⟨1, _⟩ => show (a 1).val = 0 + (a 1).val; omega

/-! ## The edges' source nodes as a vector -/

theorem v6_eq (c : Dev nD) (e : Fin 131072) :
    (V6 m c main_v6 : S131072.Idx → BitVec 32) (ix1 e) = (m ((c.tc : Thread nD τ).loc main_arg3) : S2x131072.Idx → BitVec 32) (ix2 0 e) := by
  have e1 : @Eq (IVec S131072 32) (V1 m c main_v6)
      (shapeCast S131072 (extractStridedSlice S1x131072 ![0, 0] (V0 m c main_arg3 : IVec S2x131072 32) slices_S2x131072_S1x131072_0_0) shapeCasts_S1x131072_S131072) := by
    dsimp only [V1, hostOps0]; after_results <;> (try rfl)
  rw [show V6 m c main_v6 = V1 m c main_v6 from (V6_of m c main_v6 (by decide)).trans <| (V5_of m c main_v6 (by decide)).trans <| (V4_of m c main_v6 (by decide)).trans <| (V3_of m c main_v6 (by decide)).trans <| (V2_of m c main_v6 (by decide)), e1]
  rw [shapeCast_apply (s := S1x131072) (t := S131072) _ _ (ix1 e) (ix2 0 e) (by
    rw [Shape.rowMajor_val_two, Shape.rowMajor_val_one]
    show 0 * 131072 + e.val = e.val
    omega)]
  refine extractStridedSlice_apply (s := S2x131072) (t := S1x131072) _ _ _ _ _ fun ax => ?_
  match ax with
  | ⟨0, _⟩ => rfl
  | ⟨1, _⟩ => show e.val = 0 + e.val; omega

/-! ## The second region's nine arrays on entry, together -/

theorem entry1 (c : Dev nD) (hbt : ∀ i, ((m ((c.tc : Thread nD τ).loc main_arg4) : S16384.Idx → BitVec 32) i).toNat < 16) (n : Fin 16384) :
    Cert.Spec.nodeK (fun k => (V8 m outs c main_arg0 : S16384x9.Idx → EReal) (ix2 n k)) (fun j => (V8 m outs c main_v57 : S16384x512.Idx → EReal) (ix2 n j))
        (Cert.Spec.onehot16 ((V8 m outs c main_v14 : S16384x1.Idx → BitVec 32) (ix2 n 0))) (V8 m outs c main_v28)
        (V8 m outs c main_v22) (V8 m outs c main_v24) (fun j => (V8 m outs c main_v59 : S1x512.Idx → EReal) (ix2 0 j)) (V8 m outs c main_v58)
        ((V8 m outs c main_v60 : S1x1.Idx → EReal) (ix2 0 0))
    = Cert.Glue.outK (m ((c.tc : Thread nD τ).loc main_arg0)) (m ((c.tc : Thread nD τ).loc main_arg2)) (m ((c.tc : Thread nD τ).loc main_arg4))
        (m ((c.tc : Thread nD τ).loc main_arg5)) (m ((c.tc : Thread nD τ).loc main_arg6)) (m ((c.tc : Thread nD τ).loc main_arg21))
        (m ((c.tc : Thread nD τ).loc main_arg22)) (m ((c.tc : Thread nD τ).loc main_arg23)) (m ((c.tc : Thread nD τ).loc main_arg24))
        (V8 m outs c main_v57) n := by
  unfold Cert.Glue.outK
  have e59 : (fun j : Fin 512 => (V8 m outs c main_v59 : S1x512.Idx → EReal) (ix2 0 j))
      = Cert.Glue.rowV (m ((c.tc : Thread nD τ).loc main_arg22)) := funext fun j => v8_v59 m outs c j
  rw [e59, v8_arg0, v8_v28, v8_v22, v8_v24, v8_v58, v8_v14, v8_v60]

end Cert.KernelIdeal.Hand

end
-- ==== Proof.Join.lean ====
/-
  The kernel program's result, read back to the argument arrays.

  The result vector is the second region's output column. That column is, row by row, the second node perceptron on the
  node's own row of the region's input arrays; those arrays are the arguments' slices and reshapes, except the
  aggregated activations, which are the host's aggregation of the first region's output over the edge-index vector. The
  first region's output is, row by row, the hidden activation of that edge from the arguments. Chained, the result at
  node `n` is the kernel-side output function of the arguments over the aggregation of the kernel-side hidden
  activations.
-/
import proofs.«405997_j73959336837504_3_alg».proof.Proof.KRun
import proofs.«405997_j73959336837504_3_alg».proof.Proof.Val0
import proofs.«405997_j73959336837504_3_alg».proof.Proof.Val1
import proofs.«405997_j73959336837504_3_alg».proof.Proof.Host0b
import proofs.«405997_j73959336837504_3_alg».proof.Proof.Host1
import proofs.«405997_j73959336837504_3_alg».proof.Proof.Glue

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

section Join

variable (m : (ℓ : Loc nD τ sig) → Buf (Elt Ideal) ℓ) (c : Dev nD)

/-- The edge-index vector the host hands the aggregation is row 0 of the edge-index argument. -/
theorem v6_fun : (V6 m c main_v6 : S131072.Idx → BitVec 32) = fun i => (m ((c.tc : Thread nD τ).loc main_arg3)) (ix2 0 (i 0)) := by
  funext i
  rw [ValueIdx.eq_ix1 i]
  exact v6_row m c (i 0)

/-- What the first region leaves in its output array, read back to the arguments: every edge's hidden activations. -/
theorem v45_eq (hei : ∀ i, ((m ((c.tc : Thread nD τ).loc main_arg3)) i).toNat < 16384) (hbt : ∀ i, ((m ((c.tc : Thread nD τ).loc main_arg4)) i).toNat < 16) :
    (V7 m (outsA m) c main_v45 : S131072x512.Idx → EReal)
      = Cert.Glue.hK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  refine (v7_v45 m (outsA m) c).trans ?_
  have h7 : outsA m 7 main_v45 c = (dat0 (VE0 m) c).arrAt 18 cfg0.N := by
    show U7 m c (Proc.devRef .tc main_v45) = _
    unfold U7; exact Pipeline.withArrays_arr spec0 launch0.win.arr_inj c _ _ 18
  refine h7.trans ?_
  funext i
  rw [ValueIdx.eq_ix2 i]
  exact (region0_value (VE0 m) c (i 0) (i 1)).trans (entry0 m c hei hbt (i 0) (i 1))

/-- The kernel program's result at node `n`, read back to the arguments: the second node perceptron on the node's own
    row, over the host's aggregation of every edge's hidden activations. -/
theorem kernel_out (hei : ∀ i, ((m ((c.tc : Thread nD τ).loc main_arg3)) i).toNat < 16384) (hbt : ∀ i, ((m ((c.tc : Thread nD τ).loc main_arg4)) i).toNat < 16) (n : Fin 16384) :
    (V10 m (outs m) c main_v62 : S16384.Idx → EReal) (ix1 n)
    = Cert.Glue.outK (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg21)) (m ((c.tc : Thread nD τ).loc main_arg22)) (m ((c.tc : Thread nD τ).loc main_arg23)) (m ((c.tc : Thread nD τ).loc main_arg24))
        (aggK (V6 m c main_v6) (Cert.Glue.hK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)))) n := by
  refine (result_eq m (outs m) c n).trans ?_
  refine (congrFun (v9_v61 m (outs m) c) (ix2 n 0)).trans ?_
  refine (congrFun (outs_9 m c) (ix2 n 0)).trans ?_
  refine (region1_value (VE1 m) c n).trans ?_
  refine (entry1 m (outsA m) c hbt n).trans ?_
  refine congrArg (fun a => Cert.Glue.outK (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg21)) (m ((c.tc : Thread nD τ).loc main_arg22)) (m ((c.tc : Thread nD τ).loc main_arg23)) (m ((c.tc : Thread nD τ).loc main_arg24)) a n) ?_
  refine (v57_eq m (outsA m) c).trans ?_
  exact congrArg (fun h => aggK (V6 m c main_v6) h) (v45_eq m c hei hbt)

end Join

end Cert.KernelIdeal.Hand

end
-- ==== Proof.RefA.lean ====
/-
  The input rows of the reference's two perceptrons, one edge at a time.

  Under the range facts (every edge-index word below 16384, every batch word below 16) a word is not negative, so the
  wrap of a negative index keeps it, and the clamped start index of a row gather is the word's own value: the row
  gathered for edge e is the row of the node (or graph) the word names. The concatenated row of width 275 is then the
  source node's 9 features, the destination node's 9 features, the edge's attribute, and the source node's graph's row
  of the per-graph table (the reduced global features); the second perceptron's gathered piece is the destination
  node's 9 features again.
-/
import proofs.«405997_j73959336837504_3_alg».proof.Proof.ReadP
import proofs.«405997_j73959336837504_3_alg».proof.Proof.Glue
import proofs.«405997_j73959336837504_3_alg».proof.Proof.LibRowGather
import Idealize.ShloMosaic.Lib.Pipeline.Value
import Idealize.ShloMosaic.Lib.StableHlo.Predicate
import Idealize.ShloMosaic.PureOps.Ideal

noncomputable section

namespace Cert.ReferenceIdeal.Hand

open Cert.ReferenceIdeal Cert.ReferenceIdeal.Gen Idealize.ShloMosaic Idealize.ShloMosaic.ValueIdx Idealize.ShloMosaic.StableHlo
open Idealize.ShloMosaic.TcCoe Idealize.SL.Sem

/-! ## Index words in range -/

/-- A word whose value is below 2³¹ is not negative, so the wrap of a negative index (w + n when w < 0, else w) keeps it. -/
theorem wrap_small (w z n : BitVec 32) (hz : z = 0#32) (hw : w.toNat < 2 ^ 31) :
    Scalar.select (IntOp.cmpi .slt w z) (IntOp.addi w n) w = w := by
  subst hz
  have h : ¬ IntOp.cmpi .slt w 0#32 = 1#1 := by
    rw [Predicate.slt_iff_toNat hw (by decide)]
    simp
  unfold Scalar.select
  exact if_neg h

/-- The node a word below 16384 names is its value. -/
theorem nodeOf_small (w : BitVec 32) (h : w.toNat < 16384) : Cert.Glue.nodeOf w = ⟨w.toNat, h⟩ := by
  unfold Cert.Glue.nodeOf; rw [dif_pos h]

/-- The graph a word below 16 names is its value. -/
theorem graphOf_small (w : BitVec 32) (h : w.toNat < 16) : Cert.Glue.graphOf w = ⟨w.toNat, h⟩ := by
  unfold Cert.Glue.graphOf; rw [dif_pos h]

/-- The row a whole-row gather reads when its start index is a word w below the number of rows: row w. -/
theorem gatherRow_of_small {N R : Nat} (hN : 0 < N) (hN31 : N ≤ 2 ^ 31) (idx : IVec ⟨2, ![R, 1]⟩ 32) (r : Fin R) (w : BitVec 32)
    (hw : idx (ix2 r (0 : Fin 1)) = w) (hlt : w.toNat < N) : gatherRow hN idx r = ⟨w.toNat, hlt⟩ := by
  unfold gatherRow
  apply Fin.ext
  show min (idx (ix2 r (0 : Fin 1))).toInt.toNat (N - 1) = w.toNat
  rw [hw, Predicate.toInt_eq_toNat_of_lt (by omega), Int.toNat_natCast]
  omega

/-! ## The two rows of the edge index -/

/-- Row 0 of the edge index, flattened: entry e is the source node of edge e. -/
theorem ref_row5 (a3 : Cert.Glue.I2 2 131072) (e : Fin 131072) : Read.val_main_v5 (F := Ideal) a3 (ix1 e) = a3 (ix2 0 e) := by
  rw [Read.val_main_v5_apply, Read.val_main_v4_apply]
  congr 1
  funext a
  apply Fin.ext
  match a with
  | ⟨0, _⟩ => rfl
  | ⟨1, _⟩ => exact Nat.mod_eq_of_lt e.isLt

/-- Row 1 of the edge index, flattened: entry e is the destination node of edge e. -/
theorem ref_row7 (a3 : Cert.Glue.I2 2 131072) (e : Fin 131072) : Read.val_main_v7 (F := Ideal) a3 (ix1 e) = a3 (ix2 1 e) := by
  rw [Read.val_main_v7_apply, Read.val_main_v6_apply]
  congr 1
  funext a
  apply Fin.ext
  match a with
  | ⟨0, _⟩ => rfl
  | ⟨1, _⟩ => exact Nat.mod_eq_of_lt e.isLt

/-! ## The wrapped index columns, read at an edge -/

/-- The wrapped source-node column at edge e is the source-node word itself. -/
theorem v13_at (a3 : Cert.Glue.I2 2 131072) (hei : ∀ i, (a3 i).toNat < 16384) (e : Fin 131072) :
    Read.val_main_v13 (F := Ideal) a3 (ix2 e (0 : Fin 1)) = a3 (ix2 0 e) := by
  rw [Read.val_main_v13_apply]
  have hi : Read.idx_main_v13 (ix2 e (0 : Fin 1)) = ix1 e := funext fun a => Fin.ext (by match a with | ⟨0, _⟩ => rfl)
  rw [hi, Read.val_main_v12_apply, Read.val_main_v9_apply, Read.val_main_v11_apply, ref_row5]
  exact wrap_small _ _ _ rfl (by have := hei (ix2 0 e); omega)

/-- The wrapped destination-node column at edge e is the destination-node word itself. -/
theorem v20_at (a3 : Cert.Glue.I2 2 131072) (hei : ∀ i, (a3 i).toNat < 16384) (e : Fin 131072) :
    Read.val_main_v20 (F := Ideal) a3 (ix2 e (0 : Fin 1)) = a3 (ix2 1 e) := by
  rw [Read.val_main_v20_apply]
  have hi : Read.idx_main_v20 (ix2 e (0 : Fin 1)) = ix1 e := funext fun a => Fin.ext (by match a with | ⟨0, _⟩ => rfl)
  rw [hi, Read.val_main_v19_apply, Read.val_main_v16_apply, Read.val_main_v18_apply, ref_row7]
  exact wrap_small _ _ _ rfl (by have := hei (ix2 1 e); omega)

/-- The source-node column wrapped a second time (for the graph lookup) at edge e. -/
theorem v27_at (a3 : Cert.Glue.I2 2 131072) (hei : ∀ i, (a3 i).toNat < 16384) (e : Fin 131072) :
    Read.val_main_v27 (F := Ideal) a3 (ix2 e (0 : Fin 1)) = a3 (ix2 0 e) := by
  rw [Read.val_main_v27_apply]
  have hi : Read.idx_main_v27 (ix2 e (0 : Fin 1)) = ix1 e := funext fun a => Fin.ext (by match a with | ⟨0, _⟩ => rfl)
  rw [hi, Read.val_main_v26_apply, Read.val_main_v23_apply, Read.val_main_v25_apply, ref_row5]
  exact wrap_small _ _ _ rfl (by have := hei (ix2 0 e); omega)

/-- The destination-node column wrapped again (for the second perceptron) at edge e. -/
theorem v66_at (a3 : Cert.Glue.I2 2 131072) (hei : ∀ i, (a3 i).toNat < 16384) (e : Fin 131072) :
    Read.val_main_v66 (F := Ideal) a3 (ix2 e (0 : Fin 1)) = a3 (ix2 1 e) := by
  rw [Read.val_main_v66_apply]
  have hi : Read.idx_main_v66 (ix2 e (0 : Fin 1)) = ix1 e := funext fun a => Fin.ext (by match a with | ⟨0, _⟩ => rfl)
  rw [hi, Read.val_main_v65_apply, Read.val_main_v62_apply, Read.val_main_v64_apply, ref_row7]
  exact wrap_small _ _ _ rfl (by have := hei (ix2 1 e); omega)

/-! ## The gathers -/

/-- A gather of rows of the node features by a column of node words in range: row e is the named node's row. -/
theorem xgather_at (a0 : Cert.Spec.Mat 16384 9) (idx : IVec ⟨2, ![131072, 1]⟩ 32) (e : Fin 131072) (k : Fin 9) (w : BitVec 32)
    (hw : idx (ix2 e (0 : Fin 1)) = w) (hlt : w.toNat < 16384) :
    Host.gather gather_S16384x9_S131072x1_S131072x9_1_0_n_n_0_1_19 a0 idx (ix2 e k) = a0 (ix2 (Cert.Glue.nodeOf w) k) := by
  have hd : gather_S16384x9_S131072x1_S131072x9_1_0_n_n_0_1_19
      = rowGatherDims 16384 131072 9 Cert.ReferenceIdeal.Facts₀.gather_S16384x9_S131072x1_S131072x9_1_0_n_n_0_1_19_wf := rfl
  rw [hd, rowGather_apply (by decide), gatherRow_of_small (by decide) (by decide) idx e w hw hlt, nodeOf_small w hlt]

theorem v14_at (a0 : Cert.Spec.Mat 16384 9) (a3 : Cert.Glue.I2 2 131072) (hei : ∀ i, (a3 i).toNat < 16384) (e : Fin 131072) (k : Fin 9) :
    Read.val_main_v14 (F := Ideal) a0 a3 (ix2 e k) = a0 (ix2 (Cert.Glue.nodeOf (a3 (ix2 0 e))) k) := by
  unfold Read.val_main_v14
  exact xgather_at a0 _ e k _ (v13_at a3 hei e) (hei _)

theorem v21_at (a0 : Cert.Spec.Mat 16384 9) (a3 : Cert.Glue.I2 2 131072) (hei : ∀ i, (a3 i).toNat < 16384) (e : Fin 131072) (k : Fin 9) :
    Read.val_main_v21 (F := Ideal) a0 a3 (ix2 e k) = a0 (ix2 (Cert.Glue.nodeOf (a3 (ix2 1 e))) k) := by
  unfold Read.val_main_v21
  exact xgather_at a0 _ e k _ (v20_at a3 hei e) (hei _)

theorem v67_at (a0 : Cert.Spec.Mat 16384 9) (a3 : Cert.Glue.I2 2 131072) (hei : ∀ i, (a3 i).toNat < 16384) (e : Fin 131072) (k : Fin 9) :
    Read.val_main_v67 (F := Ideal) a0 a3 (ix2 e k) = a0 (ix2 (Cert.Glue.nodeOf (a3 (ix2 1 e))) k) := by
  unfold Read.val_main_v67
  exact xgather_at a0 _ e k _ (v66_at a3 hei e) (hei _)

/-- The destination node's features of edge e. -/
theorem ref_xcol (a0 : Cert.Spec.Mat 16384 9) (a3 : Cert.Glue.I2 2 131072) (hei : ∀ i, (a3 i).toNat < 16384) (e : Fin 131072) :
    (fun k : Fin 9 => Read.val_main_v67 (F := Ideal) a0 a3 (ix2 e k)) = fun k => a0 (ix2 (Cert.Glue.nodeOf (a3 (ix2 1 e))) k) :=
  funext fun k => v67_at a0 a3 hei e k

/-- The graph word of edge e's source node: the take from the batch vector at the source-node word. -/
theorem v28_at (a3 : Cert.Glue.I2 2 131072) (a4 : Cert.Glue.I1 16384) (hei : ∀ i, (a3 i).toNat < 16384) (e : Fin 131072) :
    Read.val_main_v28 (F := Ideal) a3 a4 (ix1 e) = a4 (ix1 (Cert.Glue.nodeOf (a3 (ix2 0 e)))) := by
  unfold Read.val_main_v28
  have h1 : (ix1 e : (⟨1, ![131072]⟩ : Shape).Idx) = Shape.Idx.ofFin e := funext fun a => Fin.ext (by match a with | ⟨0, _⟩ => rfl)
  rw [h1, Predicate.gather_take gather_S16384_S131072x1_S131072_n_0_n_n_0_1_1 rfl rfl rfl rfl a4 _ e (by decide)]
  congr 1
  have h2 : (Predicate.ixP e : (⟨2, ![131072, 1]⟩ : Shape).Idx) = ix2 e (0 : Fin 1) :=
    funext fun a => by match a with | ⟨0, _⟩ => rfl | ⟨1, _⟩ => rfl
  funext a
  apply Fin.ext
  match a with
  | ⟨0, _⟩ =>
    show min (Read.val_main_v27 (F := Ideal) a3 (Predicate.ixP e)).toInt.toNat (16384 - 1) = (Cert.Glue.nodeOf (a3 (ix2 0 e))).val
    have := hei (ix2 0 e)
    rw [h2, v27_at a3 hei e, nodeOf_small _ (hei _), Predicate.toInt_eq_toNat_of_lt (by omega), Int.toNat_natCast]
    show min (a3 (ix2 0 e)).toNat (16384 - 1) = (a3 (ix2 0 e)).toNat
    omega

/-- The wrapped graph column at edge e is the graph word of the source node. -/
theorem v34_at (a3 : Cert.Glue.I2 2 131072) (a4 : Cert.Glue.I1 16384) (hei : ∀ i, (a3 i).toNat < 16384) (hbt : ∀ i, (a4 i).toNat < 16)
    (e : Fin 131072) :
    Read.val_main_v34 (F := Ideal) a3 a4 (ix2 e (0 : Fin 1)) = a4 (ix1 (Cert.Glue.nodeOf (a3 (ix2 0 e)))) := by
  rw [Read.val_main_v34_apply]
  have hi : Read.idx_main_v34 (ix2 e (0 : Fin 1)) = ix1 e := funext fun a => Fin.ext (by match a with | ⟨0, _⟩ => rfl)
  rw [hi, Read.val_main_v33_apply, Read.val_main_v30_apply, Read.val_main_v32_apply, v28_at a3 a4 hei e]
  exact wrap_small _ _ _ rfl (by have := hbt (ix1 (Cert.Glue.nodeOf (a3 (ix2 0 e)))); omega)

/-- The reduced global features are the per-graph table. -/
theorem v3_at (a2 : Cert.Spec.Mat 16 4096) (a5 : Cert.Spec.Mat 4096 256) (a6 : Cert.Glue.A1 256) (g : Fin 16) (k : Fin 256) :
    Read.val_main_v3 (F := Ideal) a2 a5 a6 (ix2 g k) = Cert.Glue.urT a2 a5 a6 (ix2 g k) := by
  rw [Read.val_main_v3_apply, Read.val_main_v0_apply, Read.val_main_v2_apply, Read.val_main_v1_apply, Ideal.addf_def]
  unfold Cert.Glue.urT
  congr 1
  · refine Finset.sum_congr rfl fun k' _ => ?_
    congr 2
    · funext a; match a with | ⟨0, _⟩ => rfl | ⟨1, _⟩ => rfl
    · funext a; match a with | ⟨0, _⟩ => rfl | ⟨1, _⟩ => rfl
  · congr 1
    funext a; match a with | ⟨0, _⟩ => rfl

/-- The gathered table row of edge e: the per-graph table at the graph of the source node. -/
theorem v35_at (a2 : Cert.Spec.Mat 16 4096) (a3 : Cert.Glue.I2 2 131072) (a4 : Cert.Glue.I1 16384) (a5 : Cert.Spec.Mat 4096 256)
    (a6 : Cert.Glue.A1 256) (hei : ∀ i, (a3 i).toNat < 16384) (hbt : ∀ i, (a4 i).toNat < 16) (e : Fin 131072) (k : Fin 256) :
    Read.val_main_v35 (F := Ideal) a2 a3 a4 a5 a6 (ix2 e k)
      = Cert.Glue.urT a2 a5 a6 (ix2 (Cert.Glue.graphOf (a4 (ix1 (Cert.Glue.nodeOf (a3 (ix2 0 e)))))) k) := by
  unfold Read.val_main_v35
  have hd : gather_S16x256_S131072x1_S131072x256_1_0_n_n_0_1_1256
      = rowGatherDims 16 131072 256 Cert.ReferenceIdeal.Facts₀.gather_S16x256_S131072x1_S131072x256_1_0_n_n_0_1_1256_wf := rfl
  have hlt := hbt (ix1 (Cert.Glue.nodeOf (a3 (ix2 0 e))))
  rw [hd, rowGather_apply (by decide), gatherRow_of_small (by decide) (by decide) _ e _ (v34_at a3 a4 hei hbt e) hlt,
    ← graphOf_small _ hlt, v3_at]

/-! ## The concatenated row -/

section Cat
variable (a0 : Cert.Spec.Mat 16384 9) (a1 : Cert.Spec.Mat 131072 1) (a2 : Cert.Spec.Mat 16 4096) (a3 : Cert.Glue.I2 2 131072)
  (a4 : Cert.Glue.I1 16384) (a5 : Cert.Spec.Mat 4096 256) (a6 : Cert.Glue.A1 256) (e : Fin 131072) (k : Fin 275)

/-- Columns 0 to 8 are the first piece. -/
theorem v36_piece0 (hk : k.val < 9) :
    Read.val_main_v36 (F := Ideal) a0 a1 a2 a3 a4 a5 a6 (ix2 e k) = Read.val_main_v14 (F := Ideal) a0 a3 (ix2 e ⟨k.val, hk⟩) := by
  unfold Read.val_main_v36
  refine concatenate_apply_piece (1 : Fin 2) _ _ (ix2 e k) 0 ?_ S131072x9 (Read.val_main_v14 (F := Ideal) a0 a3) ?_ ?_ 0 ?_
    (ix2 e ⟨k.val, hk⟩) ?_ ?_
  · show (0 : Nat) < 4
    omega
  · rfl
  · rfl
  · rfl
  · intro b hb
    match b with
    | ⟨0, _⟩ => rfl
    | ⟨1, _⟩ => exact absurd rfl hb
  · exact Nat.zero_add _

/-- Columns 9 to 17 are the second piece. -/
theorem v36_piece1 (h9 : 9 ≤ k.val) (hk : k.val < 18) :
    Read.val_main_v36 (F := Ideal) a0 a1 a2 a3 a4 a5 a6 (ix2 e k)
      = Read.val_main_v21 (F := Ideal) a0 a3 (ix2 e ⟨k.val - 9, by omega⟩) := by
  unfold Read.val_main_v36
  refine concatenate_apply_piece (1 : Fin 2) _ _ (ix2 e k) 1 ?_ S131072x9 (Read.val_main_v21 (F := Ideal) a0 a3) ?_ ?_ 9 ?_
    (ix2 e ⟨k.val - 9, by omega⟩) ?_ ?_
  · show (1 : Nat) < 4
    omega
  · rfl
  · rfl
  · rfl
  · intro b hb
    match b with
    | ⟨0, _⟩ => rfl
    | ⟨1, _⟩ => exact absurd rfl hb
  · show 9 + (k.val - 9) = k.val
    omega

/-- Column 18 is the edge attribute. -/
theorem v36_piece2 (hk : k.val = 18) :
    Read.val_main_v36 (F := Ideal) a0 a1 a2 a3 a4 a5 a6 (ix2 e k) = a1 (ix2 e (0 : Fin 1)) := by
  unfold Read.val_main_v36
  refine concatenate_apply_piece (1 : Fin 2) _ _ (ix2 e k) 2 ?_ S131072x1 a1 ?_ ?_ 18 ?_
    (ix2 e (0 : Fin 1)) ?_ ?_
  · show (2 : Nat) < 4
    omega
  · rfl
  · rfl
  · rfl
  · intro b hb
    match b with
    | ⟨0, _⟩ => rfl
    | ⟨1, _⟩ => exact absurd rfl hb
  · show 18 + 0 = k.val
    omega

/-- Columns 19 to 274 are the gathered table row. -/
theorem v36_piece3 (hk : 19 ≤ k.val) :
    Read.val_main_v36 (F := Ideal) a0 a1 a2 a3 a4 a5 a6 (ix2 e k)
      = Read.val_main_v35 (F := Ideal) a2 a3 a4 a5 a6 (ix2 e ⟨k.val - 19, by have := k.isLt; omega⟩) := by
  unfold Read.val_main_v36
  refine concatenate_apply_piece (1 : Fin 2) _ _ (ix2 e k) 3 ?_ S131072x256 (Read.val_main_v35 (F := Ideal) a2 a3 a4 a5 a6) ?_ ?_ 19 ?_
    (ix2 e ⟨k.val - 19, by have := k.isLt; omega⟩) ?_ ?_
  · show (3 : Nat) < 4
    omega
  · rfl
  · rfl
  · rfl
  · intro b hb
    match b with
    | ⟨0, _⟩ => rfl
    | ⟨1, _⟩ => exact absurd rfl hb
  · show 19 + (k.val - 19) = k.val
    omega

end Cat

/-- THE EDGE PERCEPTRON'S INPUT ROW of edge e: its 19 gathered features, then its source node's graph's row of the
    per-graph table. -/
theorem ref_ein (a0 : Cert.Spec.Mat 16384 9) (a1 : Cert.Spec.Mat 131072 1) (a2 : Cert.Spec.Mat 16 4096) (a3 : Cert.Glue.I2 2 131072)
    (a4 : Cert.Glue.I1 16384) (a5 : Cert.Spec.Mat 4096 256) (a6 : Cert.Glue.A1 256)
    (hei : ∀ i, (a3 i).toNat < 16384) (hbt : ∀ i, (a4 i).toNat < 16) (e : Fin 131072) :
    (fun k : Fin 275 => Read.val_main_v36 (F := Ideal) a0 a1 a2 a3 a4 a5 a6 (ix2 e k))
      = Cert.Spec.cat2 (Cert.Glue.exRow a0 a1 a3 e)
          (fun k : Fin 256 => Cert.Glue.urT a2 a5 a6 (ix2 (Cert.Glue.graphOf (a4 (ix1 (Cert.Glue.nodeOf (a3 (ix2 0 e)))))) k)) := by
  funext k
  unfold Cert.Spec.cat2
  by_cases h19 : k.val < 19
  · rw [dif_pos h19]
    unfold Cert.Glue.exRow
    dsimp only
    by_cases h9 : k.val < 9
    · rw [dif_pos h9, v36_piece0 a0 a1 a2 a3 a4 a5 a6 e k h9, v14_at a0 a3 hei]
    · rw [dif_neg h9]
      by_cases h18 : k.val < 18
      · rw [dif_pos h18, v36_piece1 a0 a1 a2 a3 a4 a5 a6 e k (by omega) h18, v21_at a0 a3 hei]
      · rw [dif_neg h18, v36_piece2 a0 a1 a2 a3 a4 a5 a6 e k (by omega)]
  · rw [dif_neg h19, v36_piece3 a0 a1 a2 a3 a4 a5 a6 e k (by omega), v35_at a2 a3 a4 a5 a6 hei hbt]

end Cert.ReferenceIdeal.Hand

end
-- ==== Proof.RefB.lean ====
/-
  The reference's hidden activations of every edge, read one edge at a time.

  Each dense layer of the reference is a matrix product over all 131072 edges, a broadcast bias and, but for the edge
  perceptron's output layer, `max · 0` against a broadcast zero. At an index `(e, j)` it is row `e` of the previous
  layer times column `j` of the weight matrix, plus entry `j` of the bias: one layer of `Cert.Spec` on that row alone.
  The node perceptron's input joins, along the columns, the destination node's 9 features and the 512 entries of the edge
  output: two rows side by side. Composed, the seven layers are `Cert.Spec.edgeR` of the edge's own input rows, and
  with those rows identified as the gathered rows of the argument arrays this is `Cert.Glue.hR`.
-/
import proofs.«405997_j73959336837504_3_alg».proof.Proof.ReadP
import proofs.«405997_j73959336837504_3_alg».proof.Proof.Glue
import proofs.«405997_j73959336837504_3_alg».proof.Proof.RefA

noncomputable section

namespace Cert.ReferenceIdeal.Hand

open Cert.ReferenceIdeal Cert.ReferenceIdeal.Gen Cert.ReferenceIdeal.Read Idealize.ShloMosaic Idealize.ShloMosaic.ValueIdx

/-! ## One dense layer at an index -/

/-- A row times a matrix plus a bias entry, where the row, the column and the bias entry are addressed by any index
    functions equal to the plain ones. -/
theorem dense_at {n k p : ℕ} (X : Cert.Spec.Mat n k) (W : Cert.Spec.Mat k p) (b : Cert.Glue.A1 p) (e : Fin n) (j : Fin p)
    (L : Fin k → (⟨2, ![n, k]⟩ : Shape).Idx) (R : Fin k → (⟨2, ![k, p]⟩ : Shape).Idx) (B : (⟨1, ![p]⟩ : Shape).Idx)
    (hL : ∀ q, L q = ix2 e q) (hR : ∀ q, R q = ix2 q j) (hB : B = ix1 j) :
    (∑ q : Fin k, X (L q) * W (R q)) + b B
      = Cert.Spec.lin (fun q : Fin k => X (ix2 e q)) W (Cert.Glue.rowV b) j := by
  subst hB
  simp only [hL, hR]
  rfl

/-- The same followed by `max · 0`. -/
theorem dense_relu_at {n k p : ℕ} (X : Cert.Spec.Mat n k) (W : Cert.Spec.Mat k p) (b : Cert.Glue.A1 p) (e : Fin n) (j : Fin p)
    (L : Fin k → (⟨2, ![n, k]⟩ : Shape).Idx) (R : Fin k → (⟨2, ![k, p]⟩ : Shape).Idx) (B : (⟨1, ![p]⟩ : Shape).Idx)
    (hL : ∀ q, L q = ix2 e q) (hR : ∀ q, R q = ix2 q j) (hB : B = ix1 j) :
    max ((∑ q : Fin k, X (L q) * W (R q)) + b B) 0
      = Cert.Spec.relu (Cert.Spec.lin (fun q : Fin k => X (ix2 e q)) W (Cert.Glue.rowV b)) j := by
  rw [dense_at X W b e j L R B hL hR hB]
  rfl

/-! ## The layers of the reference -/

variable (a0 : (⟨S16384x9, .f32⟩ : BufTy).Contents (Elt Ideal))
  (a1 : (⟨S131072x1, .f32⟩ : BufTy).Contents (Elt Ideal))
  (a2 : (⟨S16x4096, .f32⟩ : BufTy).Contents (Elt Ideal))
  (a3 : (⟨S2x131072, .i32⟩ : BufTy).Contents (Elt Ideal))
  (a4 : (⟨S16384, .i32⟩ : BufTy).Contents (Elt Ideal))
  (a5 : (⟨S4096x256, .f32⟩ : BufTy).Contents (Elt Ideal))
  (a6 : (⟨S256, .f32⟩ : BufTy).Contents (Elt Ideal))
  (a7 : (⟨S275x1024, .f32⟩ : BufTy).Contents (Elt Ideal))
  (a8 : (⟨S1024, .f32⟩ : BufTy).Contents (Elt Ideal))
  (a9 : (⟨S1024x1024, .f32⟩ : BufTy).Contents (Elt Ideal))
  (a10 : (⟨S1024, .f32⟩ : BufTy).Contents (Elt Ideal))
  (a11 : (⟨S1024x1024, .f32⟩ : BufTy).Contents (Elt Ideal))
  (a12 : (⟨S1024, .f32⟩ : BufTy).Contents (Elt Ideal))
  (a13 : (⟨S1024x1024, .f32⟩ : BufTy).Contents (Elt Ideal))
  (a14 : (⟨S1024, .f32⟩ : BufTy).Contents (Elt Ideal))
  (a15 : (⟨S1024x512, .f32⟩ : BufTy).Contents (Elt Ideal))
  (a16 : (⟨S512, .f32⟩ : BufTy).Contents (Elt Ideal))
  (a17 : (⟨S521x512, .f32⟩ : BufTy).Contents (Elt Ideal))
  (a18 : (⟨S512, .f32⟩ : BufTy).Contents (Elt Ideal))
  (a19 : (⟨S512x512, .f32⟩ : BufTy).Contents (Elt Ideal))
  (a20 : (⟨S512, .f32⟩ : BufTy).Contents (Elt Ideal))

/-- The first hidden layer of the edge perceptron, at edge `e` and column `j`: the concatenated input row times the first-layer matrix, plus the bias, then `max · 0`. -/
theorem v41_at (e : Fin 131072) (j : Fin 1024) :
    val_main_v41 (F := Ideal) a0 a1 a2 a3 a4 a5 a6 a7 a8 (ix2 e j)
      = Cert.Spec.relu (Cert.Spec.lin (fun k : Fin 275 => val_main_v36 (F := Ideal) a0 a1 a2 a3 a4 a5 a6 (ix2 e k)) a7 (Cert.Glue.rowV a8)) j := by
  rw [val_main_v41_apply, val_main_v40_apply, val_main_v37_apply, val_main_v39_apply, val_main_v38_apply,
    val_main_call0_v0_apply, val_main_call0_cst_apply, Ideal.maximumf_def, Ideal.addf_def, Ideal.ofBits_def, Ideal.ofBits_zero_f32]
  exact dense_relu_at (val_main_v36 (F := Ideal) a0 a1 a2 a3 a4 a5 a6) a7 a8 e j _ _ _
    (fun _ => funext fun a => Fin.ext (by match a with | ⟨0, _⟩ => rfl | ⟨1, _⟩ => rfl))
    (fun _ => funext fun a => Fin.ext (by match a with | ⟨0, _⟩ => rfl | ⟨1, _⟩ => rfl))
    (funext fun a => Fin.ext (by match a with | ⟨0, _⟩ => rfl))

/-- The same layer as a whole row of edge `e`. -/
theorem v41_row (e : Fin 131072) :
    (fun j : Fin 1024 => val_main_v41 (F := Ideal) a0 a1 a2 a3 a4 a5 a6 a7 a8 (ix2 e j))
      = Cert.Spec.relu (Cert.Spec.lin (fun k : Fin 275 => val_main_v36 (F := Ideal) a0 a1 a2 a3 a4 a5 a6 (ix2 e k)) a7 (Cert.Glue.rowV a8)) :=
  funext fun j => v41_at a0 a1 a2 a3 a4 a5 a6 a7 a8 e j

/-- The second hidden layer of the edge perceptron at `(e, j)`. -/
theorem v46_at (e : Fin 131072) (j : Fin 1024) :
    val_main_v46 (F := Ideal) a0 a1 a2 a3 a4 a5 a6 a7 a8 a9 a10 (ix2 e j)
      = Cert.Spec.relu (Cert.Spec.lin (fun k : Fin 1024 => val_main_v41 (F := Ideal) a0 a1 a2 a3 a4 a5 a6 a7 a8 (ix2 e k)) a9 (Cert.Glue.rowV a10)) j := by
  rw [val_main_v46_apply, val_main_v45_apply, val_main_v42_apply, val_main_v44_apply, val_main_v43_apply,
    val_main_call1_v0_apply, val_main_call1_cst_apply, Ideal.maximumf_def, Ideal.addf_def, Ideal.ofBits_def, Ideal.ofBits_zero_f32]
  exact dense_relu_at (val_main_v41 (F := Ideal) a0 a1 a2 a3 a4 a5 a6 a7 a8) a9 a10 e j _ _ _
    (fun _ => funext fun a => Fin.ext (by match a with | ⟨0, _⟩ => rfl | ⟨1, _⟩ => rfl))
    (fun _ => funext fun a => Fin.ext (by match a with | ⟨0, _⟩ => rfl | ⟨1, _⟩ => rfl))
    (funext fun a => Fin.ext (by match a with | ⟨0, _⟩ => rfl))

/-- The same layer as a whole row of edge `e`. -/
theorem v46_row (e : Fin 131072) :
    (fun j : Fin 1024 => val_main_v46 (F := Ideal) a0 a1 a2 a3 a4 a5 a6 a7 a8 a9 a10 (ix2 e j))
      = Cert.Spec.relu (Cert.Spec.lin (fun k : Fin 1024 => val_main_v41 (F := Ideal) a0 a1 a2 a3 a4 a5 a6 a7 a8 (ix2 e k)) a9 (Cert.Glue.rowV a10)) :=
  funext fun j => v46_at a0 a1 a2 a3 a4 a5 a6 a7 a8 a9 a10 e j

/-- The third hidden layer of the edge perceptron at `(e, j)`. -/
theorem v51_at (e : Fin 131072) (j : Fin 1024) :
    val_main_v51 (F := Ideal) a0 a1 a2 a3 a4 a5 a6 a7 a8 a9 a10 a11 a12 (ix2 e j)
      = Cert.Spec.relu (Cert.Spec.lin (fun k : Fin 1024 => val_main_v46 (F := Ideal) a0 a1 a2 a3 a4 a5 a6 a7 a8 a9 a10 (ix2 e k)) a11 (Cert.Glue.rowV a12)) j := by
  rw [val_main_v51_apply, val_main_v50_apply, val_main_v47_apply, val_main_v49_apply, val_main_v48_apply,
    val_main_call2_v0_apply, val_main_call2_cst_apply, Ideal.maximumf_def, Ideal.addf_def, Ideal.ofBits_def, Ideal.ofBits_zero_f32]
  exact dense_relu_at (val_main_v46 (F := Ideal) a0 a1 a2 a3 a4 a5 a6 a7 a8 a9 a10) a11 a12 e j _ _ _
    (fun _ => funext fun a => Fin.ext (by match a with | ⟨0, _⟩ => rfl | ⟨1, _⟩ => rfl))
    (fun _ => funext fun a => Fin.ext (by match a with | ⟨0, _⟩ => rfl | ⟨1, _⟩ => rfl))
    (funext fun a => Fin.ext (by match a with | ⟨0, _⟩ => rfl))

/-- The same layer as a whole row of edge `e`. -/
theorem v51_row (e : Fin 131072) :
    (fun j : Fin 1024 => val_main_v51 (F := Ideal) a0 a1 a2 a3 a4 a5 a6 a7 a8 a9 a10 a11 a12 (ix2 e j))
      = Cert.Spec.relu (Cert.Spec.lin (fun k : Fin 1024 => val_main_v46 (F := Ideal) a0 a1 a2 a3 a4 a5 a6 a7 a8 a9 a10 (ix2 e k)) a11 (Cert.Glue.rowV a12)) :=
  funext fun j => v51_at a0 a1 a2 a3 a4 a5 a6 a7 a8 a9 a10 a11 a12 e j

/-- The fourth hidden layer of the edge perceptron at `(e, j)`. -/
theorem v56_at (e : Fin 131072) (j : Fin 1024) :
    val_main_v56 (F := Ideal) a0 a1 a2 a3 a4 a5 a6 a7 a8 a9 a10 a11 a12 a13 a14 (ix2 e j)
      = Cert.Spec.relu (Cert.Spec.lin (fun k : Fin 1024 => val_main_v51 (F := Ideal) a0 a1 a2 a3 a4 a5 a6 a7 a8 a9 a10 a11 a12 (ix2 e k)) a13 (Cert.Glue.rowV a14)) j := by
  rw [val_main_v56_apply, val_main_v55_apply, val_main_v52_apply, val_main_v54_apply, val_main_v53_apply,
    val_main_call3_v0_apply, val_main_call3_cst_apply, Ideal.maximumf_def, Ideal.addf_def, Ideal.ofBits_def, Ideal.ofBits_zero_f32]
  exact dense_relu_at (val_main_v51 (F := Ideal) a0 a1 a2 a3 a4 a5 a6 a7 a8 a9 a10 a11 a12) a13 a14 e j _ _ _
    (fun _ => funext fun a => Fin.ext (by match a with | ⟨0, _⟩ => rfl | ⟨1, _⟩ => rfl))
    (fun _ => funext fun a => Fin.ext (by match a with | ⟨0, _⟩ => rfl | ⟨1, _⟩ => rfl))
    (funext fun a => Fin.ext (by match a with | ⟨0, _⟩ => rfl))

/-- The same layer as a whole row of edge `e`. -/
theorem v56_row (e : Fin 131072) :
    (fun j : Fin 1024 => val_main_v56 (F := Ideal) a0 a1 a2 a3 a4 a5 a6 a7 a8 a9 a10 a11 a12 a13 a14 (ix2 e j))
      = Cert.Spec.relu (Cert.Spec.lin (fun k : Fin 1024 => val_main_v51 (F := Ideal) a0 a1 a2 a3 a4 a5 a6 a7 a8 a9 a10 a11 a12 (ix2 e k)) a13 (Cert.Glue.rowV a14)) :=
  funext fun j => v56_at a0 a1 a2 a3 a4 a5 a6 a7 a8 a9 a10 a11 a12 a13 a14 e j

/-- The edge perceptron's output layer at `(e, j)`: no activation. -/
theorem v60_at (e : Fin 131072) (j : Fin 512) :
    val_main_v60 (F := Ideal) a0 a1 a2 a3 a4 a5 a6 a7 a8 a9 a10 a11 a12 a13 a14 a15 a16 (ix2 e j)
      = Cert.Spec.lin (fun k : Fin 1024 => val_main_v56 (F := Ideal) a0 a1 a2 a3 a4 a5 a6 a7 a8 a9 a10 a11 a12 a13 a14 (ix2 e k)) a15 (Cert.Glue.rowV a16) j := by
  rw [val_main_v60_apply, val_main_v57_apply, val_main_v59_apply, val_main_v58_apply, Ideal.addf_def]
  exact dense_at (val_main_v56 (F := Ideal) a0 a1 a2 a3 a4 a5 a6 a7 a8 a9 a10 a11 a12 a13 a14) a15 a16 e j _ _ _
    (fun _ => funext fun a => Fin.ext (by match a with | ⟨0, _⟩ => rfl | ⟨1, _⟩ => rfl))
    (fun _ => funext fun a => Fin.ext (by match a with | ⟨0, _⟩ => rfl | ⟨1, _⟩ => rfl))
    (funext fun a => Fin.ext (by match a with | ⟨0, _⟩ => rfl))

/-- The same layer as a whole row of edge `e`. -/
theorem v60_row (e : Fin 131072) :
    (fun j : Fin 512 => val_main_v60 (F := Ideal) a0 a1 a2 a3 a4 a5 a6 a7 a8 a9 a10 a11 a12 a13 a14 a15 a16 (ix2 e j))
      = Cert.Spec.lin (fun k : Fin 1024 => val_main_v56 (F := Ideal) a0 a1 a2 a3 a4 a5 a6 a7 a8 a9 a10 a11 a12 a13 a14 (ix2 e k)) a15 (Cert.Glue.rowV a16) :=
  funext fun j => v60_at a0 a1 a2 a3 a4 a5 a6 a7 a8 a9 a10 a11 a12 a13 a14 a15 a16 e j

/-- The node perceptron's input row of edge `e`: the destination node's 9 gathered features, then the 512 entries of the
    edge output. An entry left of column 9 is read from the first piece at the same column, any other from the second
    piece 9 columns to the left. -/
theorem v68_row (e : Fin 131072) :
    (fun k : Fin 521 => val_main_v68 (F := Ideal) a0 a1 a2 a3 a4 a5 a6 a7 a8 a9 a10 a11 a12 a13 a14 a15 a16 (ix2 e k))
      = (Cert.Spec.cat2 (fun k : Fin 9 => val_main_v67 (F := Ideal) a0 a3 (ix2 e k))
          (fun k : Fin 512 => val_main_v60 (F := Ideal) a0 a1 a2 a3 a4 a5 a6 a7 a8 a9 a10 a11 a12 a13 a14 a15 a16 (ix2 e k)) : Fin (9 + 512) → EReal) := by
  funext k
  unfold val_main_v68 Cert.Spec.cat2
  by_cases h : k.val < 9
  · rw [dif_pos h]
    exact concatenate_pair_apply_left (1 : Fin S131072x521.rank) _ _ concatenates_S131072x9_S131072x512_S131072x521_d1
      (ix2 e k) rfl (ix2 e ⟨k.val, h⟩) (fun b => by match b with | ⟨0, _⟩ => rfl | ⟨1, _⟩ => rfl)
  · rw [dif_neg h]
    have := k.isLt
    refine concatenate_pair_apply_right (1 : Fin S131072x521.rank) _ _ concatenates_S131072x9_S131072x512_S131072x521_d1
      (ix2 e k) rfl rfl (ix2 e ⟨k.val - 9, by omega⟩) (fun b hb => ?_) ?_
    · match b with
      | ⟨0, _⟩ => rfl
      | ⟨1, _⟩ => exact absurd rfl hb
    · show k.val - 9 + 9 = k.val
      omega

/-- The node perceptron's first layer at `(e, j)`, on the row that joins the destination node's features and the edge output. -/
theorem v73_at (e : Fin 131072) (j : Fin 512) :
    val_main_v73 (F := Ideal) a0 a1 a2 a3 a4 a5 a6 a7 a8 a9 a10 a11 a12 a13 a14 a15 a16 a17 a18 (ix2 e j)
      = Cert.Spec.relu (Cert.Spec.lin (fun k : Fin 521 => val_main_v68 (F := Ideal) a0 a1 a2 a3 a4 a5 a6 a7 a8 a9 a10 a11 a12 a13 a14 a15 a16 (ix2 e k)) a17 (Cert.Glue.rowV a18)) j := by
  rw [val_main_v73_apply, val_main_v72_apply, val_main_v69_apply, val_main_v71_apply, val_main_v70_apply,
    val_main_call4_v0_apply, val_main_call4_cst_apply, Ideal.maximumf_def, Ideal.addf_def, Ideal.ofBits_def, Ideal.ofBits_zero_f32]
  exact dense_relu_at (val_main_v68 (F := Ideal) a0 a1 a2 a3 a4 a5 a6 a7 a8 a9 a10 a11 a12 a13 a14 a15 a16) a17 a18 e j _ _ _
    (fun _ => funext fun a => Fin.ext (by match a with | ⟨0, _⟩ => rfl | ⟨1, _⟩ => rfl))
    (fun _ => funext fun a => Fin.ext (by match a with | ⟨0, _⟩ => rfl | ⟨1, _⟩ => rfl))
    (funext fun a => Fin.ext (by match a with | ⟨0, _⟩ => rfl))

/-- The same layer as a whole row of edge `e`. -/
theorem v73_row (e : Fin 131072) :
    (fun j : Fin 512 => val_main_v73 (F := Ideal) a0 a1 a2 a3 a4 a5 a6 a7 a8 a9 a10 a11 a12 a13 a14 a15 a16 a17 a18 (ix2 e j))
      = Cert.Spec.relu (Cert.Spec.lin (fun k : Fin 521 => val_main_v68 (F := Ideal) a0 a1 a2 a3 a4 a5 a6 a7 a8 a9 a10 a11 a12 a13 a14 a15 a16 (ix2 e k)) a17 (Cert.Glue.rowV a18)) :=
  funext fun j => v73_at a0 a1 a2 a3 a4 a5 a6 a7 a8 a9 a10 a11 a12 a13 a14 a15 a16 a17 a18 e j

/-- The node perceptron's second layer at `(e, j)`: the hidden activation of edge `e`. -/
theorem v78_at (e : Fin 131072) (j : Fin 512) :
    val_main_v78 (F := Ideal) a0 a1 a2 a3 a4 a5 a6 a7 a8 a9 a10 a11 a12 a13 a14 a15 a16 a17 a18 a19 a20 (ix2 e j)
      = Cert.Spec.relu (Cert.Spec.lin (fun k : Fin 512 => val_main_v73 (F := Ideal) a0 a1 a2 a3 a4 a5 a6 a7 a8 a9 a10 a11 a12 a13 a14 a15 a16 a17 a18 (ix2 e k)) a19 (Cert.Glue.rowV a20)) j := by
  rw [val_main_v78_apply, val_main_v77_apply, val_main_v74_apply, val_main_v76_apply, val_main_v75_apply,
    val_main_call5_v0_apply, val_main_call5_cst_apply, Ideal.maximumf_def, Ideal.addf_def, Ideal.ofBits_def, Ideal.ofBits_zero_f32]
  exact dense_relu_at (val_main_v73 (F := Ideal) a0 a1 a2 a3 a4 a5 a6 a7 a8 a9 a10 a11 a12 a13 a14 a15 a16 a17 a18) a19 a20 e j _ _ _
    (fun _ => funext fun a => Fin.ext (by match a with | ⟨0, _⟩ => rfl | ⟨1, _⟩ => rfl))
    (fun _ => funext fun a => Fin.ext (by match a with | ⟨0, _⟩ => rfl | ⟨1, _⟩ => rfl))
    (funext fun a => Fin.ext (by match a with | ⟨0, _⟩ => rfl))

/-- The same layer as a whole row of edge `e`. -/
theorem v78_row (e : Fin 131072) :
    (fun j : Fin 512 => val_main_v78 (F := Ideal) a0 a1 a2 a3 a4 a5 a6 a7 a8 a9 a10 a11 a12 a13 a14 a15 a16 a17 a18 a19 a20 (ix2 e j))
      = Cert.Spec.relu (Cert.Spec.lin (fun k : Fin 512 => val_main_v73 (F := Ideal) a0 a1 a2 a3 a4 a5 a6 a7 a8 a9 a10 a11 a12 a13 a14 a15 a16 a17 a18 (ix2 e k)) a19 (Cert.Glue.rowV a20)) :=
  funext fun j => v78_at a0 a1 a2 a3 a4 a5 a6 a7 a8 a9 a10 a11 a12 a13 a14 a15 a16 a17 a18 a19 a20 e j

/-! ## The seven layers composed -/

/-- The hidden activation of edge `e` is `Cert.Spec.edgeR` of that edge's own two input rows. -/
theorem v78_edgeR (e : Fin 131072) (j : Fin 512) :
    val_main_v78 (F := Ideal) a0 a1 a2 a3 a4 a5 a6 a7 a8 a9 a10 a11 a12 a13 a14 a15 a16 a17 a18 a19 a20 (ix2 e j)
      = Cert.Spec.edgeR (fun k : Fin 275 => val_main_v36 (F := Ideal) a0 a1 a2 a3 a4 a5 a6 (ix2 e k))
          a7 (Cert.Glue.rowV a8) a9 (Cert.Glue.rowV a10) a11 (Cert.Glue.rowV a12) a13 (Cert.Glue.rowV a14) a15 (Cert.Glue.rowV a16)
          (fun k : Fin 9 => val_main_v67 (F := Ideal) a0 a3 (ix2 e k)) a17 (Cert.Glue.rowV a18) a19 (Cert.Glue.rowV a20) j := by
  rw [v78_at, v73_row, v68_row, v60_row, v56_row, v51_row, v46_row, v41_row]
  rfl

/-- The hidden activations over all edges are `Cert.Glue.hR` of the argument arrays as soon as every edge's two input
    rows are the gathered rows: the 19 gathered features joined with the source node's graph's row of the per-graph
    table, and the destination node's 9 features. -/
theorem ref_h_of_rows
    (hein : ∀ e : Fin 131072, (fun k : Fin 275 => val_main_v36 (F := Ideal) a0 a1 a2 a3 a4 a5 a6 (ix2 e k))
      = Cert.Spec.cat2 (Cert.Glue.exRow a0 a1 a3 e)
          (fun k : Fin 256 => Cert.Glue.urT a2 a5 a6 (ix2 (Cert.Glue.graphOf (a4 (ix1 (Cert.Glue.nodeOf (a3 (ix2 0 e)))))) k)))
    (hxcol : ∀ e : Fin 131072, (fun k : Fin 9 => val_main_v67 (F := Ideal) a0 a3 (ix2 e k))
      = fun k => a0 (ix2 (Cert.Glue.nodeOf (a3 (ix2 1 e))) k)) :
    val_main_v78 (F := Ideal) a0 a1 a2 a3 a4 a5 a6 a7 a8 a9 a10 a11 a12 a13 a14 a15 a16 a17 a18 a19 a20
      = Cert.Glue.hR a0 a1 a2 a3 a4 a5 a6 a7 a8 a9 a10 a11 a12 a13 a14 a15 a16 a17 a18 a19 a20 := by
  funext i
  obtain ⟨e, j, rfl⟩ : ∃ e j, i = ix2 e j := ⟨i 0, i 1, eq_ix2 i⟩
  rw [v78_edgeR, hein e, hxcol e]
  rfl

/-- THE REFERENCE'S HIDDEN ACTIVATIONS, over all edges, are `Cert.Glue.hR` of the argument arrays, when every edge-index
    word names a node and every node's graph word names a graph. -/
theorem ref_h (hei : ∀ i, (a3 i).toNat < 16384) (hbt : ∀ i, (a4 i).toNat < 16) :
    val_main_v78 (F := Ideal) a0 a1 a2 a3 a4 a5 a6 a7 a8 a9 a10 a11 a12 a13 a14 a15 a16 a17 a18 a19 a20
      = Cert.Glue.hR a0 a1 a2 a3 a4 a5 a6 a7 a8 a9 a10 a11 a12 a13 a14 a15 a16 a17 a18 a19 a20 :=
  ref_h_of_rows a0 a1 a2 a3 a4 a5 a6 a7 a8 a9 a10 a11 a12 a13 a14 a15 a16 a17 a18 a19 a20
    (fun e => ref_ein a0 a1 a2 a3 a4 a5 a6 hei hbt e) (fun e => ref_xcol a0 a3 hei e)

end Cert.ReferenceIdeal.Hand

end
-- ==== Proof.RefN.lean ====
/-
  The reference after its hidden activations: the mean of the activations over the edges that name each node, and the
  second node perceptron on every node's own row.

  The aggregation is kept as one function of the index row and the activations. The output at node `n` is read layer by
  layer: the concatenated row of width 777 (the node's 9 features, its 512 aggregated activations, its graph's row of
  the reduced global features), a dense layer of width 512 with `max · 0`, and one output.
-/
import proofs.«405997_j73959336837504_3_alg».proof.Proof.ReadP
import proofs.«405997_j73959336837504_3_alg».proof.Proof.Glue
import proofs.«405997_j73959336837504_3_alg».proof.Proof.LibRowGather
import Idealize.ShloMosaic.Lib.StableHlo.Predicate

noncomputable section

namespace Cert.ReferenceIdeal.Hand

open Cert.ReferenceIdeal Cert.ReferenceIdeal.Gen Idealize.ShloMosaic Idealize.ShloMosaic.ValueIdx Idealize.ShloMosaic.StableHlo

/-- The mean aggregation: the activations of the edges are summed into the row of the node each edge's index word names,
    the count of those edges is summed the same way from ones, and each row is divided by its count, at least one. -/
def aggR (idx : S131072.Idx → BitVec 32) (h : S131072x512.Idx → EReal) : S16384x512.Idx → EReal :=
  Host.divf (φ := .f32)
    (Host.scatterAdd (F := Ideal) (φ := .f32) scatter_S16384x512_S131072x1_S131072x512_1_0_0_1
      (broadcastInDim S16384x512 ![] bcast_S_S16384x512 (constant (F := Ideal) S_ .f32 0x00000000#32))
      (broadcastInDim S131072x1 ![0] bcast_S131072_S131072x1_0 idx) h)
    (broadcastInDim S16384x512 ![0, 1] bcast_S16384x1_S16384x512_0_1
      (broadcastInDim S16384x1 ![0] bcast_S16384_S16384x1_0
        (maximumf (F := Ideal) (φ := .f32)
          (Host.scatterAdd (F := Ideal) (φ := .f32) scatter_S16384_S131072x1_S131072_n_0_0_1
            (broadcastInDim S16384 ![] bcast_S_S16384 (constant (F := Ideal) S_ .f32 0x00000000#32))
            (broadcastInDim S131072x1 ![0] bcast_S131072_S131072x1_0 idx)
            (broadcastInDim S131072 ![] bcast_S_S131072 (constant (F := Ideal) S_ .f32 0x3F800000#32)))
          (broadcastInDim S16384 ![] bcast_S_S16384 (constant (F := Ideal) S_ .f32 0x3F800000#32)))))

/-- The reference's aggregated activations are that function of its first index row and its hidden activations. -/
theorem ref_agg (a0 : (⟨S16384x9, .f32⟩ : BufTy).Contents (Elt Ideal)) (a1 : (⟨S131072x1, .f32⟩ : BufTy).Contents (Elt Ideal)) (a2 : (⟨S16x4096, .f32⟩ : BufTy).Contents (Elt Ideal)) (a3 : (⟨S2x131072, .i32⟩ : BufTy).Contents (Elt Ideal)) (a4 : (⟨S16384, .i32⟩ : BufTy).Contents (Elt Ideal)) (a5 : (⟨S4096x256, .f32⟩ : BufTy).Contents (Elt Ideal)) (a6 : (⟨S256, .f32⟩ : BufTy).Contents (Elt Ideal)) (a7 : (⟨S275x1024, .f32⟩ : BufTy).Contents (Elt Ideal)) (a8 : (⟨S1024, .f32⟩ : BufTy).Contents (Elt Ideal)) (a9 : (⟨S1024x1024, .f32⟩ : BufTy).Contents (Elt Ideal)) (a10 : (⟨S1024, .f32⟩ : BufTy).Contents (Elt Ideal)) (a11 : (⟨S1024x1024, .f32⟩ : BufTy).Contents (Elt Ideal)) (a12 : (⟨S1024, .f32⟩ : BufTy).Contents (Elt Ideal)) (a13 : (⟨S1024x1024, .f32⟩ : BufTy).Contents (Elt Ideal)) (a14 : (⟨S1024, .f32⟩ : BufTy).Contents (Elt Ideal)) (a15 : (⟨S1024x512, .f32⟩ : BufTy).Contents (Elt Ideal)) (a16 : (⟨S512, .f32⟩ : BufTy).Contents (Elt Ideal)) (a17 : (⟨S521x512, .f32⟩ : BufTy).Contents (Elt Ideal)) (a18 : (⟨S512, .f32⟩ : BufTy).Contents (Elt Ideal)) (a19 : (⟨S512x512, .f32⟩ : BufTy).Contents (Elt Ideal)) (a20 : (⟨S512, .f32⟩ : BufTy).Contents (Elt Ideal)) :
    Read.val_main_v90 (F := Ideal) a0 a1 a2 a3 a4 a5 a6 a7 a8 a9 a10 a11 a12 a13 a14 a15 a16 a17 a18 a19 a20
      = aggR (Read.val_main_v5 (F := Ideal) a3) (Read.val_main_v78 (F := Ideal) a0 a1 a2 a3 a4 a5 a6 a7 a8 a9 a10 a11 a12 a13 a14 a15 a16 a17 a18 a19 a20) := by
  unfold Read.val_main_v90 Read.val_main_v81 Read.val_main_v89 Read.val_main_v88 Read.val_main_v87 Read.val_main_v85
    Read.val_main_v86 Read.val_main_v84 Read.val_main_v83 Read.val_main_v82 Read.val_main_v80 Read.val_main_v79
    Read.val_main_cst Read.val_main_cst_9 Read.val_main_cst_10 Read.val_main_cst_11
  generalize Read.val_main_v78 (F := Ideal) a0 a1 a2 a3 a4 a5 a6 a7 a8 a9 a10 a11 a12 a13 a14 a15 a16 a17 a18 a19 a20 = hh
  generalize Read.val_main_v5 (F := Ideal) a3 = ii
  rfl

/-- The reference's first index row is row 0 of the index argument. -/
theorem ref_v5 (a3 : (⟨S2x131072, .i32⟩ : BufTy).Contents (Elt Ideal)) (e : Fin 131072) :
    Read.val_main_v5 (F := Ideal) a3 (ix1 e) = a3 (ix2 0 e) := by
  rw [Read.val_main_v5_apply, Read.val_main_v4_apply]
  congr 1
  funext a
  refine Fin.ext ?_
  match a with
  | ⟨0, _⟩ => rfl
  | ⟨1, _⟩ => exact Nat.mod_eq_of_lt e.isLt

/-- The reduced global features, as the reference computes them, are the per-graph table. -/
theorem ref_ur (a2 : (⟨S16x4096, .f32⟩ : BufTy).Contents (Elt Ideal)) (a5 : (⟨S4096x256, .f32⟩ : BufTy).Contents (Elt Ideal)) (a6 : (⟨S256, .f32⟩ : BufTy).Contents (Elt Ideal)) (i : S16x256.Idx) :
    Read.val_main_v3 (F := Ideal) a2 a5 a6 i = Cert.Glue.urT a2 a5 a6 i := by
  rw [Read.val_main_v3_apply, Read.val_main_v0_apply, Read.val_main_v2_apply, Read.val_main_v1_apply]
  have e1 : ∀ k, Read.lidx_main_v0 i k = ix2 (i 0) k := fun k => funext fun a => Fin.ext (by
    match a with
    | ⟨0, _⟩ => rfl
    | ⟨1, _⟩ => rfl)
  have e2 : ∀ k, Read.ridx_main_v0 i k = ix2 k (i 1) := fun k => funext fun a => Fin.ext (by
    match a with
    | ⟨0, _⟩ => rfl
    | ⟨1, _⟩ => rfl)
  have e3 : Read.idx_main_v1 (Read.idx_main_v2 i) = ix1 (i 1) := funext fun a => Fin.ext (by
    match a with
    | ⟨0, _⟩ => rfl)
  simp only [e1, e2, e3]
  rfl

/-- Under the range hypothesis the wrapped index column is the graph word itself: a word below 16 is not negative. -/
theorem ref_v96 (a4 : (⟨S16384, .i32⟩ : BufTy).Contents (Elt Ideal)) (hbt : ∀ i, (a4 i).toNat < 16) (n : Fin 16384) :
    Read.val_main_v96 (F := Ideal) a4 (ix2 n (0 : Fin 1)) = a4 (ix1 n) := by
  have e : Read.idx_main_v96 (ix2 n (0 : Fin 1)) = ix1 n := funext fun a => Fin.ext (by
    match a with
    | ⟨0, _⟩ => rfl)
  rw [Read.val_main_v96_apply, e, Read.val_main_v95_apply, Read.val_main_v92_apply, Read.val_main_v91_apply,
    Read.val_main_c_12_apply]
  have hw := hbt (ix1 n)
  have h0 : IntOp.cmpi .slt (a4 (ix1 n)) 0#32 = 0#1 := by
    apply eq_zero_of_ne_one
    intro h
    have h2 := (Predicate.slt_iff_toNat (a := a4 (ix1 n)) (b := 0#32) (by omega) (by decide)).mp h
    simp at h2
  rw [h0, select_zero]

/-- The row of the per-graph table the reference gathers for node `n` is the row of the graph the node's word names. -/
theorem ref_v97 (a2 : (⟨S16x4096, .f32⟩ : BufTy).Contents (Elt Ideal)) (a4 : (⟨S16384, .i32⟩ : BufTy).Contents (Elt Ideal)) (a5 : (⟨S4096x256, .f32⟩ : BufTy).Contents (Elt Ideal)) (a6 : (⟨S256, .f32⟩ : BufTy).Contents (Elt Ideal)) (hbt : ∀ i, (a4 i).toNat < 16) (n : Fin 16384) (q : Fin 256) :
    Read.val_main_v97 (F := Ideal) a2 a4 a5 a6 (ix2 n q)
      = Cert.Glue.urT a2 a5 a6 (ix2 (Cert.Glue.graphOf (a4 (ix1 n))) q) := by
  unfold Read.val_main_v97
  have hd : gather_S16x256_S16384x1_S16384x256_1_0_n_n_0_1_1256
      = rowGatherDims 16 16384 256 gather_S16x256_S16384x1_S16384x256_1_0_n_n_0_1_1256_wf := rfl
  rw [hd, rowGather_apply (by decide : 0 < 16), ref_ur]
  have hrow : gatherRow (N := 16) (by decide) (Read.val_main_v96 (F := Ideal) a4) n = Cert.Glue.graphOf (a4 (ix1 n)) := by
    have hw := hbt (ix1 n)
    unfold Cert.Glue.graphOf
    rw [dif_pos hw]
    apply Fin.ext
    show min ((Read.val_main_v96 (F := Ideal) a4) (ix2 n (0 : Fin 1))).toInt.toNat (16 - 1) = (a4 (ix1 n)).toNat
    rw [ref_v96 a4 hbt n, Predicate.toInt_eq_toNat_of_lt (by omega)]
    simp only [Int.toNat_natCast]
    omega
  rw [hrow]

/-- The concatenated row of width 777 at node `n`: the node's 9 features, its 512 aggregated activations, its graph's
    256 reduced global features. -/
def catRow (x : Cert.Spec.Mat 16384 9) (agg : Cert.Spec.Mat 16384 512) (g : Cert.Spec.Mat 16384 256) (n : Fin 16384) :
    Fin 777 → EReal :=
  (Cert.Spec.cat2 (Cert.Spec.cat2 (fun k : Fin 9 => x (ix2 n k)) (fun j : Fin 512 => agg (ix2 n j)))
    (fun q : Fin 256 => g (ix2 n q)) : Fin (9 + 512 + 256) → EReal)

/-- The three-piece concatenation along the columns, read at row `n` and column `k`: the piece whose span holds `k`. -/
theorem cat_row (x : S16384x9.Idx → EReal) (agg : S16384x512.Idx → EReal) (g : S16384x256.Idx → EReal)
    (n : Fin 16384) (k : Fin 777) :
    concatenate S16384x777 1 [⟨S16384x9, x⟩, ⟨S16384x512, agg⟩, ⟨S16384x256, g⟩]
        concatenates_S16384x9_S16384x512_S16384x256_S16384x777_d1 (ix2 n k)
      = catRow x agg g n k := by
  unfold catRow Cert.Spec.cat2
  by_cases h1 : k.val < 9
  · have h2 : k.val < 9 + 512 := by omega
    rw [dif_pos h2, dif_pos (show (⟨k.val, h2⟩ : Fin (9 + 512)).val < 9 from h1)]
    refine concatenate_apply_piece (1 : Fin 2) [⟨S16384x9, x⟩, ⟨S16384x512, agg⟩, ⟨S16384x256, g⟩] _ (ix2 n k) 0 (show (0 : Nat) < 3 by omega) S16384x9 x rfl rfl 0 rfl
      (ix2 n ⟨k.val, h1⟩) ?_ ?_
    · intro b hb
      match b with
      | ⟨0, _⟩ => rfl
      | ⟨1, _⟩ => exact absurd (Fin.ext rfl) hb
    · show 0 + k.val = k.val
      omega
  · by_cases h2 : k.val < 9 + 512
    · rw [dif_pos h2, dif_neg (show ¬ (⟨k.val, h2⟩ : Fin (9 + 512)).val < 9 from h1)]
      refine concatenate_apply_piece (1 : Fin 2) [⟨S16384x9, x⟩, ⟨S16384x512, agg⟩, ⟨S16384x256, g⟩] _ (ix2 n k) 1 (show (1 : Nat) < 3 by omega) S16384x512 agg rfl rfl 9 rfl
        (ix2 n ⟨k.val - 9, by omega⟩) ?_ ?_
      · intro b hb
        match b with
        | ⟨0, _⟩ => rfl
        | ⟨1, _⟩ => exact absurd (Fin.ext rfl) hb
      · show 9 + (k.val - 9) = k.val
        omega
    · rw [dif_neg h2]
      refine concatenate_apply_piece (1 : Fin 2) [⟨S16384x9, x⟩, ⟨S16384x512, agg⟩, ⟨S16384x256, g⟩] _ (ix2 n k) 2 (show (2 : Nat) < 3 by omega) S16384x256 g rfl rfl 521 rfl
        (ix2 n ⟨k.val - (9 + 512), by have := k.isLt; omega⟩) ?_ ?_
      · intro b hb
        match b with
        | ⟨0, _⟩ => rfl
        | ⟨1, _⟩ => exact absurd (Fin.ext rfl) hb
      · show 521 + (k.val - (9 + 512)) = k.val
        omega

/-- The concatenated row depends on the third table only through that table's row `n`. -/
theorem catRow_congr (x : Cert.Spec.Mat 16384 9) (agg : Cert.Spec.Mat 16384 512) (g g' : Cert.Spec.Mat 16384 256) (n : Fin 16384)
    (h : ∀ q : Fin 256, g (ix2 n q) = g' (ix2 n q)) : catRow x agg g n = catRow x agg g' n := by
  have e : (fun q : Fin 256 => g (ix2 n q)) = (fun q : Fin 256 => g' (ix2 n q)) := funext h
  unfold catRow
  rw [e]

/-- The gathered table: every node's row of the per-graph table. -/
def urRows (u : Cert.Spec.Mat 16 4096) (wdr : Cert.Spec.Mat 4096 256) (bdr : Cert.Glue.A1 256) (bt : Cert.Glue.I1 16384) :
    Cert.Spec.Mat 16384 256 :=
  fun i => Cert.Glue.urT u wdr bdr (ix2 (Cert.Glue.graphOf (bt (ix1 (i 0)))) (i 1))

/-- The second node perceptron's hidden layer at node `n`: the concatenated row times the first matrix plus the bias
    row, then `max · 0`. -/
theorem ref_v103 (a0 : (⟨S16384x9, .f32⟩ : BufTy).Contents (Elt Ideal)) (a1 : (⟨S131072x1, .f32⟩ : BufTy).Contents (Elt Ideal)) (a2 : (⟨S16x4096, .f32⟩ : BufTy).Contents (Elt Ideal)) (a3 : (⟨S2x131072, .i32⟩ : BufTy).Contents (Elt Ideal)) (a4 : (⟨S16384, .i32⟩ : BufTy).Contents (Elt Ideal)) (a5 : (⟨S4096x256, .f32⟩ : BufTy).Contents (Elt Ideal)) (a6 : (⟨S256, .f32⟩ : BufTy).Contents (Elt Ideal)) (a7 : (⟨S275x1024, .f32⟩ : BufTy).Contents (Elt Ideal)) (a8 : (⟨S1024, .f32⟩ : BufTy).Contents (Elt Ideal)) (a9 : (⟨S1024x1024, .f32⟩ : BufTy).Contents (Elt Ideal)) (a10 : (⟨S1024, .f32⟩ : BufTy).Contents (Elt Ideal)) (a11 : (⟨S1024x1024, .f32⟩ : BufTy).Contents (Elt Ideal)) (a12 : (⟨S1024, .f32⟩ : BufTy).Contents (Elt Ideal)) (a13 : (⟨S1024x1024, .f32⟩ : BufTy).Contents (Elt Ideal)) (a14 : (⟨S1024, .f32⟩ : BufTy).Contents (Elt Ideal)) (a15 : (⟨S1024x512, .f32⟩ : BufTy).Contents (Elt Ideal)) (a16 : (⟨S512, .f32⟩ : BufTy).Contents (Elt Ideal)) (a17 : (⟨S521x512, .f32⟩ : BufTy).Contents (Elt Ideal)) (a18 : (⟨S512, .f32⟩ : BufTy).Contents (Elt Ideal)) (a19 : (⟨S512x512, .f32⟩ : BufTy).Contents (Elt Ideal)) (a20 : (⟨S512, .f32⟩ : BufTy).Contents (Elt Ideal)) (a21 : (⟨S777x512, .f32⟩ : BufTy).Contents (Elt Ideal)) (a22 : (⟨S512, .f32⟩ : BufTy).Contents (Elt Ideal)) (hbt : ∀ i, (a4 i).toNat < 16) (n : Fin 16384) (j : Fin 512) :
    Read.val_main_v103 (F := Ideal) a0 a1 a2 a3 a4 a5 a6 a7 a8 a9 a10 a11 a12 a13 a14 a15 a16 a17 a18 a19 a20 a21 a22 (ix2 n j)
      = Cert.Spec.relu (Cert.Spec.lin (catRow a0 (Read.val_main_v90 (F := Ideal) a0 a1 a2 a3 a4 a5 a6 a7 a8 a9 a10 a11 a12 a13 a14 a15 a16 a17 a18 a19 a20) (urRows a2 a5 a6 a4) n)
          a21 (Cert.Glue.rowV a22)) j := by
  rw [Read.val_main_v103_apply, Read.val_main_v102_apply, Read.val_main_v99_apply, Read.val_main_v101_apply,
    Read.val_main_v100_apply, Read.val_main_call6_v0_apply, Read.val_main_call6_cst_apply]
  unfold Read.val_main_v98
  generalize Read.val_main_v90 (F := Ideal) a0 a1 a2 a3 a4 a5 a6 a7 a8 a9 a10 a11 a12 a13 a14 a15 a16 a17 a18 a19 a20 = agg
  have el : ∀ k, Read.lidx_main_v99 (ix2 n j) k = ix2 n k := fun k => funext fun a => Fin.ext (by
    match a with
    | ⟨0, _⟩ => rfl
    | ⟨1, _⟩ => rfl)
  have er : ∀ k, Read.ridx_main_v99 (ix2 n j) k = ix2 k j := fun k => funext fun a => Fin.ext (by
    match a with
    | ⟨0, _⟩ => rfl
    | ⟨1, _⟩ => rfl)
  have eb : Read.idx_main_v100 (Read.idx_main_v101 (ix2 n j)) = ix1 j := funext fun a => Fin.ext (by
    match a with
    | ⟨0, _⟩ => rfl)
  simp only [el, er, eb, cat_row]
  rw [catRow_congr a0 agg (Read.val_main_v97 (F := Ideal) a2 a4 a5 a6) (urRows a2 a5 a6 a4) n
    (fun q => ref_v97 a2 a4 a5 a6 hbt n q)]
  show max (_ + _) (Ideal.ofBits .f32 0x00000000#32) = _
  rw [Ideal.ofBits_zero_f32]
  rfl

/-- THE REFERENCE'S OUTPUT at node `n` is the second node perceptron on the node's own concatenated row. -/
theorem ref_out (a0 : (⟨S16384x9, .f32⟩ : BufTy).Contents (Elt Ideal)) (a1 : (⟨S131072x1, .f32⟩ : BufTy).Contents (Elt Ideal)) (a2 : (⟨S16x4096, .f32⟩ : BufTy).Contents (Elt Ideal)) (a3 : (⟨S2x131072, .i32⟩ : BufTy).Contents (Elt Ideal)) (a4 : (⟨S16384, .i32⟩ : BufTy).Contents (Elt Ideal)) (a5 : (⟨S4096x256, .f32⟩ : BufTy).Contents (Elt Ideal)) (a6 : (⟨S256, .f32⟩ : BufTy).Contents (Elt Ideal)) (a7 : (⟨S275x1024, .f32⟩ : BufTy).Contents (Elt Ideal)) (a8 : (⟨S1024, .f32⟩ : BufTy).Contents (Elt Ideal)) (a9 : (⟨S1024x1024, .f32⟩ : BufTy).Contents (Elt Ideal)) (a10 : (⟨S1024, .f32⟩ : BufTy).Contents (Elt Ideal)) (a11 : (⟨S1024x1024, .f32⟩ : BufTy).Contents (Elt Ideal)) (a12 : (⟨S1024, .f32⟩ : BufTy).Contents (Elt Ideal)) (a13 : (⟨S1024x1024, .f32⟩ : BufTy).Contents (Elt Ideal)) (a14 : (⟨S1024, .f32⟩ : BufTy).Contents (Elt Ideal)) (a15 : (⟨S1024x512, .f32⟩ : BufTy).Contents (Elt Ideal)) (a16 : (⟨S512, .f32⟩ : BufTy).Contents (Elt Ideal)) (a17 : (⟨S521x512, .f32⟩ : BufTy).Contents (Elt Ideal)) (a18 : (⟨S512, .f32⟩ : BufTy).Contents (Elt Ideal)) (a19 : (⟨S512x512, .f32⟩ : BufTy).Contents (Elt Ideal)) (a20 : (⟨S512, .f32⟩ : BufTy).Contents (Elt Ideal)) (a21 : (⟨S777x512, .f32⟩ : BufTy).Contents (Elt Ideal)) (a22 : (⟨S512, .f32⟩ : BufTy).Contents (Elt Ideal)) (a23 : (⟨S512x1, .f32⟩ : BufTy).Contents (Elt Ideal)) (a24 : (⟨S1, .f32⟩ : BufTy).Contents (Elt Ideal)) (hbt : ∀ i, (a4 i).toNat < 16) (n : Fin 16384) :
    Read.val_main_v108 (F := Ideal) a0 a1 a2 a3 a4 a5 a6 a7 a8 a9 a10 a11 a12 a13 a14 a15 a16 a17 a18 a19 a20 a21 a22 a23 a24 (ix1 n)
      = Cert.Glue.outR a0 a2 a4 a5 a6 a21 a22 a23 a24 (Read.val_main_v90 (F := Ideal) a0 a1 a2 a3 a4 a5 a6 a7 a8 a9 a10 a11 a12 a13 a14 a15 a16 a17 a18 a19 a20) n := by
  rw [Read.val_main_v108_apply, Read.val_main_v107_apply, Read.val_main_v104_apply, Read.val_main_v106_apply,
    Read.val_main_v105_apply]
  have el : ∀ k, Read.lidx_main_v104 (Read.idx_main_v108 (ix1 n)) k = ix2 n k := fun k => funext fun a => Fin.ext (by
    match a with
    | ⟨0, _⟩ => exact Nat.div_one _
    | ⟨1, _⟩ => rfl)
  have er : ∀ k, Read.ridx_main_v104 (Read.idx_main_v108 (ix1 n)) k = ix2 k (0 : Fin 1) := fun k => funext fun a => Fin.ext (by
    match a with
    | ⟨0, _⟩ => rfl
    | ⟨1, _⟩ => rfl)
  have eb : Read.idx_main_v105 (Read.idx_main_v106 (Read.idx_main_v108 (ix1 n))) = ix1 (0 : Fin 1) := funext fun a => Fin.ext (by
    match a with
    | ⟨0, _⟩ => rfl)
  simp only [el, er, eb, ref_v103 a0 a1 a2 a3 a4 a5 a6 a7 a8 a9 a10 a11 a12 a13 a14 a15 a16 a17 a18 a19 a20 a21 a22 hbt n]
  generalize Read.val_main_v90 (F := Ideal) a0 a1 a2 a3 a4 a5 a6 a7 a8 a9 a10 a11 a12 a13 a14 a15 a16 a17 a18 a19 a20 = agg
  rfl

end Cert.ReferenceIdeal.Hand

end
-- ==== Proof.Algebra.lean ====
/-
  The kernel's rows equal the reference's rows, on the extended reals.

  Three facts carry everything. (1) A one-hot row times a table selects one row of the table: every other term of the
  sum is 0 times something, and 0 * x = 0, 1 * x = x hold for every extended real, the infinities included.
  (2) A concatenated row times a matrix is the sum of the pieces times the matching row-slices of the matrix: the sum
  over Fin (a + b) splits at a. (3) The per-graph table multiplied by a row-slice, read at row g, is row g of the
  table times that slice, by definition. With these the first layer of each perceptron is the same number in both
  programs; every later layer is literally the same term.
-/
import proofs.«405997_j73959336837504_3_alg».proof.Proof.Glue
import Mathlib.Algebra.BigOperators.Fin

noncomputable section

namespace Cert.Glue

open Idealize.ShloMosaic Idealize.ShloMosaic.ValueIdx Cert.Spec

/-! ## The graph an in-range word names, and the one-hot row -/

/-- An in-range word names the graph with its own value. -/
theorem graphOf_val (w : BitVec 32) (hw : w.toNat < 16) : (graphOf w).val = w.toNat := by
  unfold graphOf; rw [dif_pos hw]

/-- For an in-range word, position g carries the word exactly when g is the graph the word names
    (g < 16 ≤ 2^32, so the 32-bit word of g has value g). -/
theorem ofNat_eq_iff (w : BitVec 32) (hw : w.toNat < 16) (g : Fin 16) :
    BitVec.ofNat 32 g.val = w ↔ g = graphOf w := by
  have hg : g.val % 2 ^ 32 = g.val := Nat.mod_eq_of_lt (by have := g.isLt; omega)
  constructor
  · intro h
    apply Fin.ext
    rw [graphOf_val w hw, ← h, BitVec.toNat_ofNat, hg]
  · intro h
    apply BitVec.eq_of_toNat_eq
    rw [BitVec.toNat_ofNat, hg, h, graphOf_val w hw]

/-- The one-hot row of an in-range word is 1 at the graph it names and 0 elsewhere. -/
theorem onehot16_apply (w : BitVec 32) (hw : w.toNat < 16) (g : Fin 16) :
    onehot16 w g = if g = graphOf w then 1 else 0 := by
  unfold onehot16
  by_cases h : g = graphOf w
  · rw [if_pos h, if_pos ((ofNat_eq_iff w hw g).mpr h)]
  · rw [if_neg h, if_neg (fun h' => h ((ofNat_eq_iff w hw g).mp h'))]

/-- (1) The one-hot row times a table is the named graph's row of the table. -/
theorem rdot_onehot16 {p : ℕ} (w : BitVec 32) (hw : w.toNat < 16) (H : Mat 16 p) (j : Fin p) :
    rdot (onehot16 w) H j = H (ix2 (graphOf w) j) := by
  unfold rdot
  rw [Finset.sum_eq_single (graphOf w)]
  · rw [onehot16_apply w hw, if_pos rfl, one_mul]
  · intro g _ hg
    rw [onehot16_apply w hw, if_neg hg, zero_mul]
  · intro h; exact absurd (Finset.mem_univ _) h

/-! ## Row-slices and concatenated rows -/

/-- Equal row numbers read the same entry. -/
theorem mat_congr_row {n p : ℕ} (W : Mat n p) {r s : Fin n} (c : Fin p) (h : r.val = s.val) :
    W (ix2 r c) = W (ix2 s c) := by rw [Fin.ext h]

/-- Equal column numbers read the same entry. -/
theorem mat_congr_col {n p : ℕ} (W : Mat n p) (r : Fin n) {c d : Fin p} (h : c.val = d.val) :
    W (ix2 r c) = W (ix2 r d) := by rw [Fin.ext h]

/-- A row-slice read at coordinates. -/
theorem rowsFrom_apply {n k p : ℕ} (o : ℕ) (h : o + k ≤ n) (W : Mat n p) (i : Fin k) (j : Fin p) (hh : o + i.val < n) :
    rowsFrom o h W (ix2 i j) = W (ix2 ⟨o + i.val, hh⟩ j) := rfl

/-- A slice of the leading rows' slice is the slice of the table itself. -/
theorem rowsFrom_rowsFrom {n m k p : ℕ} (o : ℕ) (h : o + k ≤ m) (h' : 0 + m ≤ n) (h'' : o + k ≤ n) (W : Mat n p) :
    rowsFrom o h (rowsFrom 0 h' W) = rowsFrom o h'' W := by
  funext i
  exact mat_congr_row W (r := ⟨0 + (o + (i 0).val), by have := idx2_lt0 i; omega⟩)
    (s := ⟨o + (i 0).val, by have := idx2_lt0 i; omega⟩) (i 1) (Nat.zero_add _)

/-- The left piece of a concatenated row. -/
theorem cat2_castAdd {a b : ℕ} (x : Fin a → EReal) (y : Fin b → EReal) (i : Fin a) :
    cat2 x y (Fin.castAdd b i) = x i := by
  unfold cat2
  rw [dif_pos (show (Fin.castAdd b i).val < a from i.isLt)]
  rfl

/-- The right piece of a concatenated row. -/
theorem cat2_natAdd {a b : ℕ} (x : Fin a → EReal) (y : Fin b → EReal) (i : Fin b) :
    cat2 x y (Fin.natAdd a i) = y i := by
  unfold cat2
  rw [dif_neg (show ¬ (Fin.natAdd a i).val < a from by simp)]
  congr 1
  apply Fin.ext
  show a + i.val - a = i.val
  omega

/-- (2) A concatenated row times a matrix: the sum over Fin (a + b) splits at a into the left piece times the first
    a rows and the right piece times the rows from a on. -/
theorem rdot_cat2 {a b p : ℕ} (x : Fin a → EReal) (y : Fin b → EReal) (W : Mat (a + b) p) (j : Fin p)
    (h1 : 0 + a ≤ a + b) (h2 : a + b ≤ a + b) :
    rdot (cat2 x y) W j = rdot x (rowsFrom 0 h1 W) j + rdot y (rowsFrom a h2 W) j := by
  unfold rdot
  rw [Fin.sum_univ_add]
  congr 1
  · refine Finset.sum_congr rfl fun i _ => ?_
    rw [cat2_castAdd, rowsFrom_apply 0 h1 W i j (by have := i.isLt; omega)]
    exact congrArg (x i * ·) (mat_congr_row W j (Nat.zero_add _).symm)
  · refine Finset.sum_congr rfl fun i _ => ?_
    rw [cat2_natAdd, rowsFrom_apply a h2 W i j (by have := i.isLt; omega)]
    rfl

/-- (3) The per-graph table multiplied by a row-slice, read at row g: row g of the table times the slice. -/
theorem urFold_apply {n p : ℕ} (T : Mat 16 256) (o : ℕ) (h : o + 256 ≤ n) (W : Mat n p) (g : Fin 16) (j : Fin p) :
    urFold T o h W (ix2 g j) = rdot (fun k => T (ix2 g k)) (rowsFrom o h W) j := rfl

/-! ## The first layers -/

/-- The edge perceptron's first layer: the 19 features times the first 19 rows, plus the one-hot row times the folded
    table, is the concatenated row of width 275 times the whole matrix. -/
theorem edge_first (ex : Fin 19 → EReal) (w : BitVec 32) (hw : w.toNat < 16) (T : Mat 16 256) (W0 : Mat 275 1024)
    (j : Fin 1024) (h0 : 0 + 19 ≤ 275) (h1 : 19 + 256 ≤ 275) :
    rdot ex (rowsFrom 0 h0 W0) j + rdot (onehot16 w) (urFold T 19 h1 W0) j
      = rdot (cat2 ex (fun k : Fin 256 => T (ix2 (graphOf w) k)) : Fin 275 → EReal) W0 j := by
  rw [rdot_onehot16 w hw, urFold_apply]
  exact (rdot_cat2 (a := 19) (b := 256) ex _ W0 j h0 h1).symm

/-- The node perceptron's first layer on an edge: the destination features times the first 9 rows plus the edge
    output times the next 512 rows is the concatenated row of width 521 times the whole matrix. -/
theorem edge_node_first (xc : Fin 9 → EReal) (e : Fin 512 → EReal) (N0 : Mat 521 512) (j : Fin 512)
    (h0 : 0 + 9 ≤ 521) (h1 : 9 + 512 ≤ 521) :
    rdot xc (rowsFrom 0 h0 N0) j + rdot e (rowsFrom 9 h1 N0) j
      = rdot (cat2 xc e : Fin (9 + 512) → EReal) N0 j :=
  (rdot_cat2 (a := 9) (b := 512) xc e N0 j h0 h1).symm

/-- The second node perceptron's first layer: three pieces (9 + 512 + 256 = 777). The concatenated row splits at 521
    and its left part again at 9; the slices of the leading 521 rows are slices of the whole matrix. -/
theorem node_first (x : Fin 9 → EReal) (ag : Fin 512 → EReal) (w : BitVec 32) (hw : w.toNat < 16) (T : Mat 16 256)
    (W : Mat 777 512) (j : Fin 512) (h0 : 0 + 9 ≤ 777) (h1 : 9 + 512 ≤ 777) (h2 : 521 + 256 ≤ 777) :
    (rdot x (rowsFrom 0 h0 W) j + rdot ag (rowsFrom 9 h1 W) j) + rdot (onehot16 w) (urFold T 521 h2 W) j
      = rdot (cat2 (cat2 x ag) (fun k : Fin 256 => T (ix2 (graphOf w) k)) : Fin 777 → EReal) W j := by
  rw [rdot_onehot16 w hw, urFold_apply]
  have hA : 0 + (9 + 512) ≤ (9 + 512) + 256 := by omega
  have hB : (9 + 512) + 256 ≤ (9 + 512) + 256 := le_refl _
  have s1 := rdot_cat2 (a := 9 + 512) (b := 256) (cat2 x ag) (fun k : Fin 256 => T (ix2 (graphOf w) k)) W j hA hB
  have s2 := rdot_cat2 (a := 9) (b := 512) x ag (rowsFrom 0 hA W) j (by omega) (le_refl _)
  rw [rowsFrom_rowsFrom 0 _ hA h0 W, rowsFrom_rowsFrom 9 _ hA h1 W] at s2
  rw [s2] at s1
  exact s1.symm

/-! ## Entries 9..17 of an edge's gathered row -/

/-- Entries 9..17 of an edge's 19 gathered features are its destination node's 9 features. -/
theorem exRow_dst (x : Mat 16384 9) (ea : Mat 131072 1) (ei : I2 2 131072) (e : Fin 131072) (k : Fin 9)
    (hk : 9 + k.val < 19) :
    exRow x ea ei e ⟨9 + k.val, hk⟩ = x (ix2 (nodeOf (ei (ix2 1 e))) k) := by
  unfold exRow
  have hk9 : ¬ (9 + k.val < 9) := by omega
  have hk18 : 9 + k.val < 18 := by have := k.isLt; omega
  rw [dif_neg hk9, dif_pos hk18]
  refine mat_congr_col x _ ?_
  show 9 + k.val - 9 = k.val
  omega

/-! ## An edge and a node -/

/-- An edge as the kernel computes it is the edge as the reference computes it. The first layers agree by the
    splitting lemmas; every later layer is the same term. -/
theorem edgeK_eq_edgeR (ex : Fin 19 → EReal) (w : BitVec 32) (hw : w.toNat < 16) (T : Mat 16 256)
    (W0 : Mat 275 1024) (b0 : Fin 1024 → EReal) (W1 : Mat 1024 1024) (b1 : Fin 1024 → EReal)
    (W2 : Mat 1024 1024) (b2 : Fin 1024 → EReal) (W3 : Mat 1024 1024) (b3 : Fin 1024 → EReal)
    (Wf : Mat 1024 512) (bf : Fin 512 → EReal) (N0 : Mat 521 512) (nb0 : Fin 512 → EReal)
    (N1 : Mat 512 512) (nb1 : Fin 512 → EReal) (xc : Fin 9 → EReal)
    (hxc : ∀ (k : Fin 9) (hk : 9 + k.val < 19), ex ⟨9 + k.val, hk⟩ = xc k)
    (h0 : 19 + 256 ≤ 275) (h1 : 0 + 19 ≤ 275) (h2 : 0 + 9 ≤ 521) (h3 : 9 + 512 ≤ 521) :
    edgeK ex (onehot16 w) (urFold T 19 h0 W0) (rowsFrom 0 h1 W0) b0 W1 b1 W2 b2 W3 b3 Wf bf
        (rowsFrom 0 h2 N0) (rowsFrom 9 h3 N0) nb0 N1 nb1
      = edgeR (cat2 ex (fun k : Fin 256 => T (ix2 (graphOf w) k))) W0 b0 W1 b1 W2 b2 W3 b3 Wf bf xc N0 nb0 N1 nb1 := by
  have e0 : (fun j => (rdot ex (rowsFrom 0 h1 W0) j + rdot (onehot16 w) (urFold T 19 h0 W0) j) + b0 j)
      = lin (cat2 ex (fun k : Fin 256 => T (ix2 (graphOf w) k)) : Fin 275 → EReal) W0 b0 := by
    funext j
    unfold lin
    rw [edge_first ex w hw T W0 j h1 h0]
  have hx : (fun k : Fin 9 => ex ⟨9 + k.val, by have := k.isLt; omega⟩) = xc := funext fun k => hxc k _
  have e1 : ∀ e : Fin 512 → EReal,
      (fun j => (rdot (fun k : Fin 9 => ex ⟨9 + k.val, by have := k.isLt; omega⟩) (rowsFrom 0 h2 N0) j
          + rdot e (rowsFrom 9 h3 N0) j) + nb0 j)
      = lin (cat2 xc e : Fin (9 + 512) → EReal) N0 nb0 := by
    intro e
    funext j
    unfold lin
    rw [hx, edge_node_first xc e N0 j h2 h3]
  unfold edgeK edgeR
  simp only [e0, e1]

/-- A node as the kernel computes it is the node as the reference computes it. -/
theorem nodeK_eq_nodeR (x : Fin 9 → EReal) (ag : Fin 512 → EReal) (w : BitVec 32) (hw : w.toNat < 16) (T : Mat 16 256)
    (W : Mat 777 512) (b0 : Fin 512 → EReal) (w1 : Mat 512 1) (b1 : EReal)
    (h0 : 521 + 256 ≤ 777) (h1 : 0 + 9 ≤ 777) (h2 : 9 + 512 ≤ 777) :
    nodeK x ag (onehot16 w) (urFold T 521 h0 W) (rowsFrom 0 h1 W) (rowsFrom 9 h2 W) b0 w1 b1
      = nodeR (cat2 (cat2 x ag) (fun k : Fin 256 => T (ix2 (graphOf w) k))) W b0 w1 b1 := by
  have e0 : (fun j => ((rdot x (rowsFrom 0 h1 W) j + rdot ag (rowsFrom 9 h2 W) j)
        + rdot (onehot16 w) (urFold T 521 h0 W) j) + b0 j)
      = lin (cat2 (cat2 x ag) (fun k : Fin 256 => T (ix2 (graphOf w) k)) : Fin 777 → EReal) W b0 := by
    funext j
    unfold lin
    rw [node_first x ag w hw T W j h1 h2 h0]
  unfold nodeK nodeR
  simp only [e0]

/-! ## The two programs -/

/-- The hidden activations of every edge: the kernel's are the reference's. -/
theorem hK_eq_hR (x : Mat 16384 9) (ea : Mat 131072 1) (u : Mat 16 4096) (ei : I2 2 131072) (bt : I1 16384)
    (wdr : Mat 4096 256) (bdr : A1 256)
    (ew0 : Mat 275 1024) (eb0 : A1 1024) (ew1 : Mat 1024 1024) (eb1 : A1 1024) (ew2 : Mat 1024 1024) (eb2 : A1 1024)
    (ew3 : Mat 1024 1024) (eb3 : A1 1024) (ewf : Mat 1024 512) (ebf : A1 512)
    (n1w0 : Mat 521 512) (n1b0 : A1 512) (n1w1 : Mat 512 512) (n1b1 : A1 512)
    (hbt : ∀ i, (bt i).toNat < 16) :
    hK x ea u ei bt wdr bdr ew0 eb0 ew1 eb1 ew2 eb2 ew3 eb3 ewf ebf n1w0 n1b0 n1w1 n1b1
      = hR x ea u ei bt wdr bdr ew0 eb0 ew1 eb1 ew2 eb2 ew3 eb3 ewf ebf n1w0 n1b0 n1w1 n1b1 := by
  funext i
  unfold hK hR
  rw [edgeK_eq_edgeR (exRow x ea ei (i 0)) (bt (ix1 (nodeOf (ei (ix2 0 (i 0)))))) (hbt _) (urT u wdr bdr)
    ew0 (rowV eb0) ew1 (rowV eb1) ew2 (rowV eb2) ew3 (rowV eb3) ewf (rowV ebf) n1w0 (rowV n1b0) n1w1 (rowV n1b1)
    (fun k : Fin 9 => x (ix2 (nodeOf (ei (ix2 1 (i 0)))) k)) (fun k hk => exRow_dst x ea ei (i 0) k hk)]

/-- The output at every node from the same aggregated activations: the kernel's is the reference's. -/
theorem outK_eq_outR (x : Mat 16384 9) (u : Mat 16 4096) (bt : I1 16384) (wdr : Mat 4096 256) (bdr : A1 256)
    (n2w0 : Mat 777 512) (n2b0 : A1 512) (n2w1 : Mat 512 1) (n2b1 : A1 1)
    (hbt : ∀ i, (bt i).toNat < 16) (agg : Mat 16384 512) (n : Fin 16384) :
    outK x u bt wdr bdr n2w0 n2b0 n2w1 n2b1 agg n = outR x u bt wdr bdr n2w0 n2b0 n2w1 n2b1 agg n := by
  unfold outK outR
  exact nodeK_eq_nodeR (fun k => x (ix2 n k)) (fun j => agg (ix2 n j)) (bt (ix1 n)) (hbt _) (urT u wdr bdr)
    n2w0 (rowV n2b0) n2w1 (n2b1 (ix1 0)) _ _ _

end Cert.Glue

end
-- ==== Proof.AggEq.lean ====
/-
  The mean aggregation is the same function in both programs.

  Each program states its own copy of the records that fix a scatter's and a broadcast's dimensions; the copies have the
  same entries, and what remains in them are proofs of the same propositions. So the two scatters' records are equal,
  and the two aggregation chains (zeros, the broadcast index row, the scatter of the activations, the scatter of ones,
  the maximum with one, two broadcasts, the division) are the same term up to those records: equal by unfolding.
-/
import proofs.«405997_j73959336837504_3_alg».proof.Proof.Host1
import proofs.«405997_j73959336837504_3_alg».proof.Proof.RefN

noncomputable section

namespace Cert.Join

open Idealize.ShloMosaic

/-- The two programs' dimension records of the activations' scatter are the same record. -/
theorem scatter2_eq : Cert.KernelIdeal.scatter_S16384x512_S131072x1_S131072x512_1_0_0_1
    = Cert.ReferenceIdeal.scatter_S16384x512_S131072x1_S131072x512_1_0_0_1 := rfl

/-- The two programs' dimension records of the counts' scatter are the same record. -/
theorem scatter1_eq : Cert.KernelIdeal.scatter_S16384_S131072x1_S131072_n_0_0_1
    = Cert.ReferenceIdeal.scatter_S16384_S131072x1_S131072_n_0_0_1 := rfl

/-- The kernel program's aggregation is the reference's: the same chain of operations over equal records. -/
theorem aggK_eq_aggR : Cert.KernelIdeal.Hand.aggK = Cert.ReferenceIdeal.Hand.aggR := rfl

end Cert.Join

end
-- ==== Proof.PreDecode.lean ====
/-
  The precondition's two index-range tests, read back. The printed predicate is a conjunction (a chain of
  bitwise "and" over one-bit words) whose last two conjuncts are
    all (0 ≤ e ∧ e < 16384) over the [2, 131072] array of 32-bit words (argument 3), and
    all (0 ≤ b ∧ b < 16)    over the [16384] array of 32-bit words (argument 4),
  both comparisons SIGNED. If the conjunction is one, each conjunct is one; an "all" (a reduction by "and" from
  one) that is one had a one at every element; and a word w with 0 ≤ w.toInt and w.toInt < n (n below 2³¹) has
  its top bit clear, reads the same signed and unsigned, so w.toNat < n.
-/
import proofs.«405997_j73959336837504_3_alg».proof.Pre_finite_inputs
import proofs.«405997_j73959336837504_3_alg».proof.Defs
import Idealize.ShloMosaic.Lib.StableHlo.Predicate
import Idealize.ShloMosaic.Lib.ReduceAll
import Idealize.ShloMosaic.Lib.ValueIdx

noncomputable section

namespace Cert.Pre_finite_inputs.Hand

open Idealize.ShloMosaic Idealize.SL.Sem Cert.Pre_finite_inputs

/-- The scalar shape has one index. -/
instance subsingleton_S_ : Subsingleton S_.Idx := ⟨fun a b => funext fun d => d.elim0⟩

/-- A 32-bit word in [0, n) SIGNED (n below 2³¹) is below n UNSIGNED: nonnegative signed means the top bit is
    clear, and then the signed and the unsigned readings agree. -/
theorem toNat_lt_of_signed_range {w : BitVec 32} {n : Nat} (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have htop : 2 * w.toNat < 2 ^ 32 := BitVec.toInt_pos_iff.1 h0
  rw [BitVec.toInt_eq_toNat_of_lt htop] at h1
  exact_mod_cast h1

variable [Facts]

/-- The chain's last part: if its result is one, the "and"-mask it is handed over the [2, 131072] array is one
    everywhere, and every word of the [16384] array is in [0, 16). -/
theorem part7_ranges {F : FTy → Type} [FloatOps F] (a4 : IVec S16384 32) (v113 : IVec S_ 1) (v118 : IVec S2x131072 1)
    (c46 : IVec S_ 1) (j : S_.Idx) (e : fn_part7 (F := F) a4 v113 v118 c46 j = 1#1) :
    (∀ i, v118 i = 1#1) ∧ (∀ i, (a4 i).toNat < 16) := by
  unfold fn_part7 at e
  dsimp only [andi] at e
  obtain ⟨h120, h126⟩ := IntOp.andi_eq_one.1 e
  obtain ⟨-, h119⟩ := IntOp.andi_eq_one.1 h120
  refine ⟨fun i => Host.reduce_andi_all _ _ _ _ _ h119 i, fun i => ?_⟩
  have hi := Host.reduce_andi_all _ _ _ _ _ h126 i
  dsimp only [andi, cmpi, broadcastInDim, constantI] at hi
  obtain ⟨h0, h1⟩ := IntOp.andi_eq_one.1 hi
  exact toNat_lt_of_signed_range (by decide) h0 h1

/-- The part before it builds that mask from the [2, 131072] array: every word of it is in [0, 16384). -/
theorem part6_ranges {F : FTy → Type} [FloatOps F] (a3 : IVec S2x131072 32) (a4 : IVec S16384 32) (a23 : FVec F S512x1 .f32)
    (a24 : FVec F S1 .f32) (v98 : IVec S_ 1) (v101 : IVec S512 1) (c39 : IVec S_ 1) (j : S_.Idx)
    (e : fn_part6 (F := F) a3 a4 a23 a24 v98 v101 c39 j = 1#1) :
    (∀ i, (a3 i).toNat < 16384) ∧ (∀ i, (a4 i).toNat < 16) := by
  unfold fn_part6 at e
  obtain ⟨h118, h4⟩ := part7_ranges (F := F) a4 _ _ _ j e
  refine ⟨fun i => ?_, h4⟩
  have hi := h118 i
  dsimp only [andi, cmpi, broadcastInDim, constantI] at hi
  obtain ⟨h0, h1⟩ := IntOp.andi_eq_one.1 hi
  exact toNat_lt_of_signed_range (by decide) h0 h1

/-- THE PRECONDITION'S RANGES. The printed predicate all ones says (among the finiteness of the float arrays,
    not read here) that every word of argument 3 is in [0, 16384) and every word of argument 4 is in [0, 16). -/
theorem ranges_of_pre {F : FTy → Type} [FloatOps F]
    (a0 : FVec F S16384x9 .f32) (a1 : FVec F S131072x1 .f32) (a2 : FVec F S16x4096 .f32) (a3 : IVec S2x131072 32)
    (a4 : IVec S16384 32) (a5 : FVec F S4096x256 .f32) (a6 : FVec F S256 .f32) (a7 : FVec F S275x1024 .f32)
    (a8 : FVec F S1024 .f32) (a9 : FVec F S1024x1024 .f32) (a10 : FVec F S1024 .f32) (a11 : FVec F S1024x1024 .f32)
    (a12 : FVec F S1024 .f32) (a13 : FVec F S1024x1024 .f32) (a14 : FVec F S1024 .f32) (a15 : FVec F S1024x512 .f32)
    (a16 : FVec F S512 .f32) (a17 : FVec F S521x512 .f32) (a18 : FVec F S512 .f32) (a19 : FVec F S512x512 .f32)
    (a20 : FVec F S512 .f32) (a21 : FVec F S777x512 .f32) (a22 : FVec F S512 .f32) (a23 : FVec F S512x1 .f32)
    (a24 : FVec F S1 .f32)
    (h : fn (F := F) a0 a1 a2 a3 a4 a5 a6 a7 a8 a9 a10 a11 a12 a13 a14 a15 a16 a17 a18 a19 a20 a21 a22 a23 a24 = (fun _ => 1#1)) :
    (∀ i, (a3 i).toNat < 16384) ∧ (∀ i, (a4 i).toNat < 16) := by
  have e := congrFun h ValueIdx.ix0
  unfold fn fn_part1 fn_part2 fn_part3 fn_part4 fn_part5 at e
  exact part6_ranges (F := F) a3 a4 a23 a24 _ _ _ ValueIdx.ix0 e

/-- The same, of the idealized kernel's launch memory on each device. -/
theorem ranges_of_Pre_KernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ((m ((c.tc : Thread Cert.KernelIdeal.nD Cert.KernelIdeal.τ).loc Cert.KernelIdeal.main_arg3)) i).toNat < 16384)
    ∧ (∀ i, ((m ((c.tc : Thread Cert.KernelIdeal.nD Cert.KernelIdeal.τ).loc Cert.KernelIdeal.main_arg4)) i).toNat < 16) :=
  ranges_of_pre (F := Ideal) _ _ _ _ _ _ _ _ _ _ _ _ _ _ _ _ _ _ _ _ _ _ _ _ _ (h c)

end Cert.Pre_finite_inputs.Hand

end
-- ==== Proof.lean ====
/-
  The certificate's claims. The word-level program and its idealization run to the end, faulting nowhere and leaving
  their argument arrays as launched: each is two kernel regions among host operations, every region a pipeline whose
  body loads whole blocks, computes and stores one block. The reference's run is its operations composed. Nothing was
  rewritten by the idealization. At the ideal values, under finite float inputs and index words in range, the kernel's
  result at node n is the second node perceptron on that node's row, whose aggregated piece is the scatter-mean of the
  per-edge activations; the kernel's per-edge activations and the reference's are the same function of the arguments
  (a row times a concatenated matrix is the sum of the pieces' products; a one-hot row times a table selects a row),
  the scatter-mean is the same host chain on both sides, and the node perceptrons agree by the same two laws.
-/
import proofs.«405997_j73959336837504_3_alg».proof.Defs
import proofs.«405997_j73959336837504_3_alg».proof.Proof.Gen.Kernel
import proofs.«405997_j73959336837504_3_alg».proof.Proof.Gen.KernelIdeal
import proofs.«405997_j73959336837504_3_alg».proof.Proof.Gen.ReferenceIdeal
import proofs.«405997_j73959336837504_3_alg».proof.Proof.RunP
import proofs.«405997_j73959336837504_3_alg».proof.Proof.ReadP
import proofs.«405997_j73959336837504_3_alg».proof.Proof.Gen.Pre_finite_inputs
import proofs.«405997_j73959336837504_3_alg».proof.Proof.KRun
import proofs.«405997_j73959336837504_3_alg».proof.Proof.BKRun
import proofs.«405997_j73959336837504_3_alg».proof.Proof.Join
import proofs.«405997_j73959336837504_3_alg».proof.Proof.RefB
import proofs.«405997_j73959336837504_3_alg».proof.Proof.RefN
import proofs.«405997_j73959336837504_3_alg».proof.Proof.Algebra
import proofs.«405997_j73959336837504_3_alg».proof.Proof.AggEq
import proofs.«405997_j73959336837504_3_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

section
variable [Cert.Kernel.Facts] [Cert.KernelIdeal.Facts] [Cert.ReferenceIdeal.Facts] [Cert.Pre_finite_inputs.Facts]

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- The two results are one array: node by node, the same function of the arguments. -/
theorem results_eq (m : (ℓ : Loc Cert.KernelIdeal.nD Cert.KernelIdeal.τ Cert.KernelIdeal.sig) → Buf (Elt Ideal) ℓ) (hpre : Cert.Pre_KernelIdeal m) (c : Dev Cert.KernelIdeal.nD) :
    Cert.ReferenceIdeal.Read.val_main_v108 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))
    = Cert.KernelIdeal.Gen.V10 m (Cert.KernelIdeal.Hand.outs m) c Cert.KernelIdeal.main_v62 := by
  obtain ⟨hei, hbt⟩ := Cert.Pre_finite_inputs.Hand.ranges_of_Pre_KernelIdeal m hpre c
  -- the row-index vector both scatter by: row 0 of the edge index array
  have h5 : Cert.ReferenceIdeal.Read.val_main_v5 (F := Ideal) (m ((c.tc : Thread Cert.KernelIdeal.nD Cert.KernelIdeal.τ).loc Cert.KernelIdeal.main_arg3)) = fun i => (m ((c.tc : Thread Cert.KernelIdeal.nD Cert.KernelIdeal.τ).loc Cert.KernelIdeal.main_arg3)) (ix2 0 (i 0)) :=
    funext fun j => (congrArg (Cert.ReferenceIdeal.Read.val_main_v5 (F := Ideal) (m ((c.tc : Thread Cert.KernelIdeal.nD Cert.KernelIdeal.τ).loc Cert.KernelIdeal.main_arg3))) (eq_ix1 j)).trans
      (Cert.ReferenceIdeal.Hand.ref_row5 (m ((c.tc : Thread Cert.KernelIdeal.nD Cert.KernelIdeal.τ).loc Cert.KernelIdeal.main_arg3)) (j 0))
  have key : ∀ n : Fin 16384,
      Cert.ReferenceIdeal.Read.val_main_v108 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (ix1 n)
      = Cert.KernelIdeal.Gen.V10 m (Cert.KernelIdeal.Hand.outs m) c Cert.KernelIdeal.main_v62 (ix1 n) := by
    intro n
    rw [Cert.KernelIdeal.Hand.kernel_out m c hei hbt n,
      Cert.ReferenceIdeal.Hand.ref_out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) hbt n,
      Cert.ReferenceIdeal.Hand.ref_agg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
      Cert.ReferenceIdeal.Hand.ref_h (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) hei hbt,
      ← Cert.Glue.hK_eq_hR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) hbt,
      ← Cert.Glue.outK_eq_outR (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) hbt,
      Cert.Join.aggK_eq_aggR, Cert.KernelIdeal.Hand.v6_fun m c, h5]
    rfl
  funext i
  rw [eq_ix1 i]
  exact key (i 0)

theorem algebraic : Cert.algebraic_KernelIdeal_ReferenceIdeal := by
  intro m ρ m' ρ' hpre hagree
  refine ⟨fun c => Cert.KernelIdeal.Gen.V10 m (Cert.KernelIdeal.Hand.outs m) c Cert.KernelIdeal.main_v62, ?_, ?_⟩
  · exact (θ_run Cert.KernelIdeal.defs _ _).mono (fun r h c => ⟨h c _ (Cert.KernelIdeal.Hand.mem_uc Cert.KernelIdeal.main_v62 (by decide)),
      (h c _ (Cert.KernelIdeal.Hand.mem_uc Cert.KernelIdeal.main_arg0 (by decide))).trans (Cert.KernelIdeal.Gen.V10_main_arg0 m (Cert.KernelIdeal.Hand.outs m) c),
      (h c _ (Cert.KernelIdeal.Hand.mem_uc Cert.KernelIdeal.main_arg1 (by decide))).trans (Cert.KernelIdeal.Gen.V10_main_arg1 m (Cert.KernelIdeal.Hand.outs m) c),
      (h c _ (Cert.KernelIdeal.Hand.mem_uc Cert.KernelIdeal.main_arg2 (by decide))).trans (Cert.KernelIdeal.Gen.V10_main_arg2 m (Cert.KernelIdeal.Hand.outs m) c),
      (h c _ (Cert.KernelIdeal.Hand.mem_uc Cert.KernelIdeal.main_arg3 (by decide))).trans (Cert.KernelIdeal.Gen.V10_main_arg3 m (Cert.KernelIdeal.Hand.outs m) c),
      (h c _ (Cert.KernelIdeal.Hand.mem_uc Cert.KernelIdeal.main_arg4 (by decide))).trans (Cert.KernelIdeal.Gen.V10_main_arg4 m (Cert.KernelIdeal.Hand.outs m) c),
      (h c _ (Cert.KernelIdeal.Hand.mem_uc Cert.KernelIdeal.main_arg5 (by decide))).trans (Cert.KernelIdeal.Gen.V10_main_arg5 m (Cert.KernelIdeal.Hand.outs m) c),
      (h c _ (Cert.KernelIdeal.Hand.mem_uc Cert.KernelIdeal.main_arg6 (by decide))).trans (Cert.KernelIdeal.Gen.V10_main_arg6 m (Cert.KernelIdeal.Hand.outs m) c),
      (h c _ (Cert.KernelIdeal.Hand.mem_uc Cert.KernelIdeal.main_arg7 (by decide))).trans (Cert.KernelIdeal.Gen.V10_main_arg7 m (Cert.KernelIdeal.Hand.outs m) c),
      (h c _ (Cert.KernelIdeal.Hand.mem_uc Cert.KernelIdeal.main_arg8 (by decide))).trans (Cert.KernelIdeal.Gen.V10_main_arg8 m (Cert.KernelIdeal.Hand.outs m) c),
      (h c _ (Cert.KernelIdeal.Hand.mem_uc Cert.KernelIdeal.main_arg9 (by decide))).trans (Cert.KernelIdeal.Gen.V10_main_arg9 m (Cert.KernelIdeal.Hand.outs m) c),
      (h c _ (Cert.KernelIdeal.Hand.mem_uc Cert.KernelIdeal.main_arg10 (by decide))).trans (Cert.KernelIdeal.Gen.V10_main_arg10 m (Cert.KernelIdeal.Hand.outs m) c),
      (h c _ (Cert.KernelIdeal.Hand.mem_uc Cert.KernelIdeal.main_arg11 (by decide))).trans (Cert.KernelIdeal.Gen.V10_main_arg11 m (Cert.KernelIdeal.Hand.outs m) c),
      (h c _ (Cert.KernelIdeal.Hand.mem_uc Cert.KernelIdeal.main_arg12 (by decide))).trans (Cert.KernelIdeal.Gen.V10_main_arg12 m (Cert.KernelIdeal.Hand.outs m) c),
      (h c _ (Cert.KernelIdeal.Hand.mem_uc Cert.KernelIdeal.main_arg13 (by decide))).trans (Cert.KernelIdeal.Gen.V10_main_arg13 m (Cert.KernelIdeal.Hand.outs m) c),
      (h c _ (Cert.KernelIdeal.Hand.mem_uc Cert.KernelIdeal.main_arg14 (by decide))).trans (Cert.KernelIdeal.Gen.V10_main_arg14 m (Cert.KernelIdeal.Hand.outs m) c),
      (h c _ (Cert.KernelIdeal.Hand.mem_uc Cert.KernelIdeal.main_arg15 (by decide))).trans (Cert.KernelIdeal.Gen.V10_main_arg15 m (Cert.KernelIdeal.Hand.outs m) c),
      (h c _ (Cert.KernelIdeal.Hand.mem_uc Cert.KernelIdeal.main_arg16 (by decide))).trans (Cert.KernelIdeal.Gen.V10_main_arg16 m (Cert.KernelIdeal.Hand.outs m) c),
      (h c _ (Cert.KernelIdeal.Hand.mem_uc Cert.KernelIdeal.main_arg17 (by decide))).trans (Cert.KernelIdeal.Gen.V10_main_arg17 m (Cert.KernelIdeal.Hand.outs m) c),
      (h c _ (Cert.KernelIdeal.Hand.mem_uc Cert.KernelIdeal.main_arg18 (by decide))).trans (Cert.KernelIdeal.Gen.V10_main_arg18 m (Cert.KernelIdeal.Hand.outs m) c),
      (h c _ (Cert.KernelIdeal.Hand.mem_uc Cert.KernelIdeal.main_arg19 (by decide))).trans (Cert.KernelIdeal.Gen.V10_main_arg19 m (Cert.KernelIdeal.Hand.outs m) c),
      (h c _ (Cert.KernelIdeal.Hand.mem_uc Cert.KernelIdeal.main_arg20 (by decide))).trans (Cert.KernelIdeal.Gen.V10_main_arg20 m (Cert.KernelIdeal.Hand.outs m) c),
      (h c _ (Cert.KernelIdeal.Hand.mem_uc Cert.KernelIdeal.main_arg21 (by decide))).trans (Cert.KernelIdeal.Gen.V10_main_arg21 m (Cert.KernelIdeal.Hand.outs m) c),
      (h c _ (Cert.KernelIdeal.Hand.mem_uc Cert.KernelIdeal.main_arg22 (by decide))).trans (Cert.KernelIdeal.Gen.V10_main_arg22 m (Cert.KernelIdeal.Hand.outs m) c),
      (h c _ (Cert.KernelIdeal.Hand.mem_uc Cert.KernelIdeal.main_arg23 (by decide))).trans (Cert.KernelIdeal.Gen.V10_main_arg23 m (Cert.KernelIdeal.Hand.outs m) c),
      (h c _ (Cert.KernelIdeal.Hand.mem_uc Cert.KernelIdeal.main_arg24 (by decide))).trans (Cert.KernelIdeal.Gen.V10_main_arg24 m (Cert.KernelIdeal.Hand.outs m) c)⟩) (Cert.KernelIdeal.Hand.run_all m ρ)
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10, h11, h12, h13, h14, h15, h16, h17, h18, h19, h20, h21, h22, h23, h24⟩ := hagree c
    rw [Cert.ReferenceIdeal.Read.val_main_v108_eq m' c,
      h0, h1, h2, h3, h4, h5, h6, h7, h8, h9, h10, h11, h12, h13, h14, h15, h16, h17, h18, h19, h20, h21, h22, h23, h24]
    exact results_eq m hpre c

end

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
